-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v90_1)) (v1 : (c : Dev Cert.KernelIdeal.nD) → Buf (Elt Ideal) ((c.tc : Thread Cert.KernelIdeal.nD Cert.KernelIdeal.τ).loc Cert.KernelIdeal.main_v90_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_1) = v0 c
          ∧ r.2.mem ((c.tc : Thread Cert.KernelIdeal.nD Cert.KernelIdeal.τ).loc Cert.KernelIdeal.main_v90_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S50000x160 : Shape := ⟨2, ![50000, 160]⟩
abbrev S2x800000 : Shape := ⟨2, ![2, 800000]⟩
abbrev S800000 : Shape := ⟨1, ![800000]⟩
abbrev S50000x6 : Shape := ⟨2, ![50000, 6]⟩
abbrev S50000x11 : Shape := ⟨2, ![50000, 11]⟩
abbrev S6x32 : Shape := ⟨2, ![6, 32]⟩
abbrev S32 : Shape := ⟨1, ![32]⟩
abbrev S11x32 : Shape := ⟨2, ![11, 32]⟩
abbrev S768x32 : Shape := ⟨2, ![768, 32]⟩
abbrev S160x160 : Shape := ⟨2, ![160, 160]⟩
abbrev S160 : Shape := ⟨1, ![160]⟩
abbrev S2x160x160 : Shape := ⟨3, ![2, 160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S_ : Shape := ⟨0, ![]⟩
abbrev S1x800000 : Shape := ⟨2, ![1, 800000]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x160 : S_.BroadcastsInDim S50000x160 (![] : Fin 0 → Fin S50000x160.rank)
  reducesTo_S50000x160_S_d0_1 : S50000x160.ReducesTo [0, 1] S_
  bcast_S_S50000x6 : S_.BroadcastsInDim S50000x6 (![] : Fin 0 → Fin S50000x6.rank)
  reducesTo_S50000x6_S_d0_1 : S50000x6.ReducesTo [0, 1] S_
  bcast_S_S50000x11 : S_.BroadcastsInDim S50000x11 (![] : Fin 0 → Fin S50000x11.rank)
  reducesTo_S50000x11_S_d0_1 : S50000x11.ReducesTo [0, 1] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S11x32 : S_.BroadcastsInDim S11x32 (![] : Fin 0 → Fin S11x32.rank)
  reducesTo_S11x32_S_d0_1 : S11x32.ReducesTo [0, 1] S_
  bcast_S_S768x32 : S_.BroadcastsInDim S768x32 (![] : Fin 0 → Fin S768x32.rank)
  reducesTo_S768x32_S_d0_1 : S768x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S2x160x160 : S_.BroadcastsInDim S2x160x160 (![] : Fin 0 → Fin S2x160x160.rank)
  reducesTo_S2x160x160_S_d0_1_2 : S2x160x160.ReducesTo [0, 1, 2] S_
  bcast_S_S160x80 : S_.BroadcastsInDim S160x80 (![] : Fin 0 → Fin S160x80.rank)
  reducesTo_S160x80_S_d0_1 : S160x80.ReducesTo [0, 1] S_
  bcast_S_S80 : S_.BroadcastsInDim S80 (![] : Fin 0 → Fin S80.rank)
  reducesTo_S80_S_d0 : S80.ReducesTo [0] S_
  bcast_S_S80x2 : S_.BroadcastsInDim S80x2 (![] : Fin 0 → Fin S80x2.rank)
  reducesTo_S80x2_S_d0_1 : S80x2.ReducesTo [0, 1] S_
  bcast_S_S2 : S_.BroadcastsInDim S2 (![] : Fin 0 → Fin S2.rank)
  reducesTo_S2_S_d0 : S2.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part9 {F : FTy → Type} [FloatOps F] (main_v149 : IVec S_ 1) (main_v154 : IVec S800000 1) : IVec S_ 1 :=
  let main_c_59 : IVec S_ 1 := constantI S_ 1 1#1
  let main_v155 : IVec S_ 1 := (fun x v => Host.reduce IntOp.andi x v reducesTo_S800000_S_d0 h_S_) main_v154 main_c_59
  let main_v156 : IVec S_ 1 := andi main_v149 main_v155
  main_v156

def fn_part8 {F : FTy → Type} [FloatOps F] (main_arg2 : IVec S2x800000 32) (main_arg3 : IVec S800000 32) (main_v133 : IVec S_ 1) (main_v136 : IVec S2 1) : IVec S_ 1 :=
  let main_c_53 : IVec S_ 1 := constantI S_ 1 1#1
  let main_v137 : IVec S_ 1 := (fun x v => Host.reduce IntOp.andi x v reducesTo_S2_S_d0 h_S_) main_v136 main_c_53
  let main_v138 : IVec S_ 1 := andi main_v133 main_v137
  let main_v139 : IVec S1x800000 32 := (extractStridedSlice S1x800000 ![1, 0] · slices_S2x800000_S1x800000_1_0) main_arg2
  let main_v140 : IVec S800000 32 := shapeCast S800000 main_v139 shapeCasts_S1x800000_S800000
  let main_c_54 : IVec S_ 32 := constantI S_ 32 0#32
  let main_v141 : IVec S800000 32 := broadcastInDim S800000 ![] bcast_S_S800000 main_c_54
  let main_v142 : IVec S800000 1 := cmpi .sge main_v140 main_v141
  let main_v143 : IVec S1x800000 32 := (extractStridedSlice S1x800000 ![1, 0] · slices_S2x800000_S1x800000_1_0) main_arg2
  let main_v144 : IVec S800000 32 := shapeCast S800000 main_v143 shapeCasts_S1x800000_S800000
  let main_c_55 : IVec S_ 32 := constantI S_ 32 50000#32
  let main_v145 : IVec S800000 32 := broadcastInDim S800000 ![] bcast_S_S800000 main_c_55
  let main_v146 : IVec S800000 1 := cmpi .slt main_v144 main_v145
  let main_v147 : IVec S800000 1 := andi main_v142 main_v146
  let main_c_56 : IVec S_ 1 := constantI S_ 1 1#1
  let main_v148 : IVec S_ 1 := (fun x v => Host.reduce IntOp.andi x v reducesTo_S800000_S_d0 h_S_) main_v147 main_c_56
  let main_v149 : IVec S_ 1 := andi main_v138 main_v148
  let main_c_57 : IVec S_ 32 := constantI S_ 32 0#32
  let main_v150 : IVec S800000 32 := broadcastInDim S800000 ![] bcast_S_S800000 main_c_57
  let main_v151 : IVec S800000 1 := cmpi .sge main_arg3 main_v150
  let main_c_58 : IVec S_ 32 := constantI S_ 32 2#32
  let main_v152 : IVec S800000 32 := broadcastInDim S800000 ![] bcast_S_S800000 main_c_58
  let main_v153 : IVec S800000 1 := cmpi .slt main_arg3 main_v152
  let main_v154 : IVec S800000 1 := andi main_v151 main_v153
  fn_part9 (F := F) main_v149 main_v154

def fn_part7 {F : FTy → Type} [FloatOps F] (main_arg2 : IVec S2x800000 32) (main_arg3 : IVec S800000 32) (main_arg27 : FVec F S80 .f32) (main_arg28 : FVec F S80x2 .f32) (main_arg29 : FVec F S2 .f32) (main_v118 : IVec S_ 1) (main_v119 : FVec F S160x80 .f32) : IVec S_ 1 :=
  let main_cst_46 : FVec F S_ .f32 := constant S_ .f32 0x7F800000#32
  let main_v120 : FVec F S160x80 .f32 := broadcastInDim S160x80 ![] bcast_S_S160x80 main_cst_46
  let main_v121 : IVec S160x80 1 := cmpf .olt main_v119 main_v120
  let main_c_47 : IVec S_ 1 := constantI S_ 1 1#1
  let main_v122 : IVec S_ 1 := (fun x v => Host.reduce IntOp.andi x v reducesTo_S160x80_S_d0_1 h_S_) main_v121 main_c_47
  let main_v123 : IVec S_ 1 := andi main_v118 main_v122
  let main_v124 : FVec F S80 .f32 := Host.absf main_arg27
  let main_cst_48 : FVec F S_ .f32 := constant S_ .f32 0x7F800000#32
  let main_v125 : FVec F S80 .f32 := broadcastInDim S80 ![] bcast_S_S80 main_cst_48
  let main_v126 : IVec S80 1 := cmpf .olt main_v124 main_v125
  let main_c_49 : IVec S_ 1 := constantI S_ 1 1#1
  let main_v127 : IVec S_ 1 := (fun x v => Host.reduce IntOp.andi x v reducesTo_S80_S_d0 h_S_) main_v126 main_c_49
  let main_v128 : IVec S_ 1 := andi main_v123 main_v127
  let main_v129 : FVec F S80x2 .f32 := Host.absf main_arg28
  let main_cst_50 : FVec F S_ .f32 := constant S_ .f32 0x7F800000#32
  let main_v130 : FVec F S80x2 .f32 := broadcastInDim S80x2 ![] bcast_S_S80x2 main_cst_50
  let main_v131 : IVec S80x2 1 := cmpf .olt main_v129 main_v130
  let main_c_51 : IVec S_ 1 := constantI S_ 1 1#1
  let main_v132 : IVec S_ 1 := (fun x v => Host.reduce IntOp.andi x v reducesTo_S80x2_S_d0_1 h_S_) main_v131 main_c_51
  let main_v133 : IVec S_ 1 := andi main_v128 main_v132
  let main_v134 : FVec F S2 .f32 := Host.absf main_arg29
  let main_cst_52 : FVec F S_ .f32 := constant S_ .f32 0x7F800000#32
  let main_v135 : FVec F S2 .f32 := broadcastInDim S2 ![] bcast_S_S2 main_cst_52
  let main_v136 : IVec S2 1 := cmpf .olt main_v134 main_v135
  fn_part8 (F := F) main_arg2 main_arg3 main_v133 main_v136

def fn_part6 {F : FTy → Type} [FloatOps F] (main_arg2 : IVec S2x800000 32) (main_arg3 : IVec S800000 32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v98 : IVec S_ 1) (main_v101 : IVec S160 1) (main_c_39 : IVec S_ 1) : IVec S_ 1 :=
  let main_v102 : IVec S_ 1 := (fun x v => Host.reduce IntOp.andi x v reducesTo_S160_S_d0 h_S_) main_v101 main_c_39
  let main_v103 : IVec S_ 1 := andi main_v98 main_v102
  let main_v104 : FVec F S2x160x160 .f32 := Host.absf main_arg23
  let main_cst_40 : FVec F S_ .f32 := constant S_ .f32 0x7F800000#32
  let main_v105 : FVec F S2x160x160 .f32 := broadcastInDim S2x160x160 ![] bcast_S_S2x160x160 main_cst_40
  let main_v106 : IVec S2x160x160 1 := cmpf .olt main_v104 main_v105
  let main_c_41 : IVec S_ 1 := constantI S_ 1 1#1
  let main_v107 : IVec S_ 1 := (fun x v => Host.reduce IntOp.andi x v reducesTo_S2x160x160_S_d0_1_2 h_S_) main_v106 main_c_41
  let main_v108 : IVec S_ 1 := andi main_v103 main_v107
  let main_v109 : FVec F S160x160 .f32 := Host.absf main_arg24
  let main_cst_42 : FVec F S_ .f32 := constant S_ .f32 0x7F800000#32
  let main_v110 : FVec F S160x160 .f32 := broadcastInDim S160x160 ![] bcast_S_S160x160 main_cst_42
  let main_v111 : IVec S160x160 1 := cmpf .olt main_v109 main_v110
  let main_c_43 : IVec S_ 1 := constantI S_ 1 1#1
  let main_v112 : IVec S_ 1 := (fun x v => Host.reduce IntOp.andi x v reducesTo_S160x160_S_d0_1 h_S_) main_v111 main_c_43
  let main_v113 : IVec S_ 1 := andi main_v108 main_v112
  let main_v114 : FVec F S160 .f32 := Host.absf main_arg25
  let main_cst_44 : FVec F S_ .f32 := constant S_ .f32 0x7F800000#32
  let main_v115 : FVec F S160 .f32 := broadcastInDim S160 ![] bcast_S_S160 main_cst_44
  let main_v116 : IVec S160 1 := cmpf .olt main_v114 main_v115
  let main_c_45 : IVec S_ 1 := constantI S_ 1 1#1
  let main_v117 : IVec S_ 1 := (fun x v => Host.reduce IntOp.andi x v reducesTo_S160_S_d0 h_S_) main_v116 main_c_45
  let main_v118 : IVec S_ 1 := andi main_v113 main_v117
  let main_v119 : FVec F S160x80 .f32 := Host.absf main_arg26
  fn_part7 (F := F) main_arg2 main_arg3 main_arg27 main_arg28 main_arg29 main_v118 main_v119

def fn_part5 {F : FTy → Type} [FloatOps F] (main_arg2 : IVec S2x800000 32) (main_arg3 : IVec S800000 32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v83 : IVec S_ 1) (main_v84 : FVec F S160 .f32) (main_cst_32 : FVec F S_ .f32) : IVec S_ 1 :=
  let main_v85 : FVec F S160 .f32 := broadcastInDim S160 ![] bcast_S_S160 main_cst_32
  let main_v86 : IVec S160 1 := cmpf .olt main_v84 main_v85
  let main_c_33 : IVec S_ 1 := constantI S_ 1 1#1
  let main_v87 : IVec S_ 1 := (fun x v => Host.reduce IntOp.andi x v reducesTo_S160_S_d0 h_S_) main_v86 main_c_33
  let main_v88 : IVec S_ 1 := andi main_v83 main_v87
  let main_v89 : FVec F S2x160x160 .f32 := Host.absf main_arg20
  let main_cst_34 : FVec F S_ .f32 := constant S_ .f32 0x7F800000#32
  let main_v90 : FVec F S2x160x160 .f32 := broadcastInDim S2x160x160 ![] bcast_S_S2x160x160 main_cst_34
  let main_v91 : IVec S2x160x160 1 := cmpf .olt main_v89 main_v90
  let main_c_35 : IVec S_ 1 := constantI S_ 1 1#1
  let main_v92 : IVec S_ 1 := (fun x v => Host.reduce IntOp.andi x v reducesTo_S2x160x160_S_d0_1_2 h_S_) main_v91 main_c_35
  let main_v93 : IVec S_ 1 := andi main_v88 main_v92
  let main_v94 : FVec F S160x160 .f32 := Host.absf main_arg21
  let main_cst_36 : FVec F S_ .f32 := constant S_ .f32 0x7F800000#32
  let main_v95 : FVec F S160x160 .f32 := broadcastInDim S160x160 ![] bcast_S_S160x160 main_cst_36
  let main_v96 : IVec S160x160 1 := cmpf .olt main_v94 main_v95
  let main_c_37 : IVec S_ 1 := constantI S_ 1 1#1
  let main_v97 : IVec S_ 1 := (fun x v => Host.reduce IntOp.andi x v reducesTo_S160x160_S_d0_1 h_S_) main_v96 main_c_37
  let main_v98 : IVec S_ 1 := andi main_v93 main_v97
  let main_v99 : FVec F S160 .f32 := Host.absf main_arg22
  let main_cst_38 : FVec F S_ .f32 := constant S_ .f32 0x7F800000#32
  let main_v100 : FVec F S160 .f32 := broadcastInDim S160 ![] bcast_S_S160 main_cst_38
  let main_v101 : IVec S160 1 := cmpf .olt main_v99 main_v100
  let main_c_39 : IVec S_ 1 := constantI S_ 1 1#1
  fn_part6 (F := F) main_arg2 main_arg3 main_arg23 main_arg24 main_arg25 main_arg26 main_arg27 main_arg28 main_arg29 main_v98 main_v101 main_c_39

def fn_part4 {F : FTy → Type} [FloatOps F] (main_arg2 : IVec S2x800000 32) (main_arg3 : IVec S800000 32) (main_arg16 : FVec F S768x32 .f32) (main_arg17 : FVec F S32 .f32) (main_arg18 : FVec F S160x160 .f32) (main_arg19 : FVec F S160 .f32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v63 : IVec S_ 1) (main_v67 : IVec S_ 1) : IVec S_ 1 :=
  let main_v68 : IVec S_ 1 := andi main_v63 main_v67
  let main_v69 : FVec F S768x32 .f32 := Host.absf main_arg16
  let main_cst_26 : FVec F S_ .f32 := constant S_ .f32 0x7F800000#32
  let main_v70 : FVec F S768x32 .f32 := broadcastInDim S768x32 ![] bcast_S_S768x32 main_cst_26
  let main_v71 : IVec S768x32 1 := cmpf .olt main_v69 main_v70
  let main_c_27 : IVec S_ 1 := constantI S_ 1 1#1
  let main_v72 : IVec S_ 1 := (fun x v => Host.reduce IntOp.andi x v reducesTo_S768x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S160x160 .f32 := Host.absf main_arg18
  let main_cst_30 : FVec F S_ .f32 := constant S_ .f32 0x7F800000#32
  let main_v80 : FVec F S160x160 .f32 := broadcastInDim S160x160 ![] bcast_S_S160x160 main_cst_30
  let main_v81 : IVec S160x160 1 := cmpf .olt main_v79 main_v80
  let main_c_31 : IVec S_ 1 := constantI S_ 1 1#1
  let main_v82 : IVec S_ 1 := (fun x v => Host.reduce IntOp.andi x v reducesTo_S160x160_S_d0_1 h_S_) main_v81 main_c_31
  let main_v83 : IVec S_ 1 := andi main_v78 main_v82
  let main_v84 : FVec F S160 .f32 := Host.absf main_arg19
  let main_cst_32 : FVec F S_ .f32 := constant S_ .f32 0x7F800000#32
  fn_part5 (F := F) main_arg2 main_arg3 main_arg20 main_arg21 main_arg22 main_arg23 main_arg24 main_arg25 main_arg26 main_arg27 main_arg28 main_arg29 main_v83 main_v84 main_cst_32

def fn_part3 {F : FTy → Type} [FloatOps F] (main_arg2 : IVec S2x800000 32) (main_arg3 : IVec S800000 32) (main_arg13 : FVec F S32 .f32) (main_arg14 : FVec F S768x32 .f32) (main_arg15 : FVec F S32 .f32) (main_arg16 : FVec F S768x32 .f32) (main_arg17 : FVec F S32 .f32) (main_arg18 : FVec F S160x160 .f32) (main_arg19 : FVec F S160 .f32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v48 : IVec S_ 1) (main_v49 : FVec F S768x32 .f32) (main_v50 : FVec F S768x32 .f32) : IVec S_ 1 :=
  let main_v51 : IVec S768x32 1 := cmpf .olt main_v49 main_v50
  let main_c_19 : IVec S_ 1 := constantI S_ 1 1#1
  let main_v52 : IVec S_ 1 := (fun x v => Host.reduce IntOp.andi x v reducesTo_S768x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S768x32 .f32 := Host.absf main_arg14
  let main_cst_22 : FVec F S_ .f32 := constant S_ .f32 0x7F800000#32
  let main_v60 : FVec F S768x32 .f32 := broadcastInDim S768x32 ![] bcast_S_S768x32 main_cst_22
  let main_v61 : IVec S768x32 1 := cmpf .olt main_v59 main_v60
  let main_c_23 : IVec S_ 1 := constantI S_ 1 1#1
  let main_v62 : IVec S_ 1 := (fun x v => Host.reduce IntOp.andi x v reducesTo_S768x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg3 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg2 : IVec S2x800000 32) (main_arg3 : IVec S800000 32) (main_arg9 : FVec F S32 .f32) (main_arg10 : FVec F S11x32 .f32) (main_arg11 : FVec F S32 .f32) (main_arg12 : FVec F S768x32 .f32) (main_arg13 : FVec F S32 .f32) (main_arg14 : FVec F S768x32 .f32) (main_arg15 : FVec F S32 .f32) (main_arg16 : FVec F S768x32 .f32) (main_arg17 : FVec F S32 .f32) (main_arg18 : FVec F S160x160 .f32) (main_arg19 : FVec F S160 .f32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S11x32 .f32 := Host.absf main_arg10
  let main_cst_14 : FVec F S_ .f32 := constant S_ .f32 0x7F800000#32
  let main_v40 : FVec F S11x32 .f32 := broadcastInDim S11x32 ![] bcast_S_S11x32 main_cst_14
  let main_v41 : IVec S11x32 1 := cmpf .olt main_v39 main_v40
  let main_c_15 : IVec S_ 1 := constantI S_ 1 1#1
  let main_v42 : IVec S_ 1 := (fun x v => Host.reduce IntOp.andi x v reducesTo_S11x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S768x32 .f32 := Host.absf main_arg12
  let main_cst_18 : FVec F S_ .f32 := constant S_ .f32 0x7F800000#32
  let main_v50 : FVec F S768x32 .f32 := broadcastInDim S768x32 ![] bcast_S_S768x32 main_cst_18
  fn_part3 (F := F) main_arg2 main_arg3 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S2x800000 32) (main_arg3 : IVec S800000 32) (main_arg6 : FVec F S50000x768 .f32) (main_arg7 : FVec F S50000x768 .f32) (main_arg8 : FVec F S6x32 .f32) (main_arg9 : FVec F S32 .f32) (main_arg10 : FVec F S11x32 .f32) (main_arg11 : FVec F S32 .f32) (main_arg12 : FVec F S768x32 .f32) (main_arg13 : FVec F S32 .f32) (main_arg14 : FVec F S768x32 .f32) (main_arg15 : FVec F S32 .f32) (main_arg16 : FVec F S768x32 .f32) (main_arg17 : FVec F S32 .f32) (main_arg18 : FVec F S160x160 .f32) (main_arg19 : FVec F S160 .f32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) (main_v13 : IVec S_ 1) (main_v16 : IVec S50000x11 1) : IVec S_ 1 :=
  let main_c_5 : IVec S_ 1 := constantI S_ 1 1#1
  let main_v17 : IVec S_ 1 := (fun x v => Host.reduce IntOp.andi x v reducesTo_S50000x11_S_d0_1 h_S_) main_v16 main_c_5
  let main_v18 : IVec S_ 1 := andi main_v13 main_v17
  let main_v19 : FVec F S50000x768 .f32 := Host.absf main_arg6
  let main_cst_6 : FVec F S_ .f32 := constant S_ .f32 0x7F800000#32
  let main_v20 : FVec F S50000x768 .f32 := broadcastInDim S50000x768 ![] bcast_S_S50000x768 main_cst_6
  let main_v21 : IVec S50000x768 1 := cmpf .olt main_v19 main_v20
  let main_c_7 : IVec S_ 1 := constantI S_ 1 1#1
  let main_v22 : IVec S_ 1 := (fun x v => Host.reduce IntOp.andi x v reducesTo_S50000x768_S_d0_1 h_S_) main_v21 main_c_7
  let main_v23 : IVec S_ 1 := andi main_v18 main_v22
  let main_v24 : FVec F S50000x768 .f32 := Host.absf main_arg7
  let main_cst_8 : FVec F S_ .f32 := constant S_ .f32 0x7F800000#32
  let main_v25 : FVec F S50000x768 .f32 := broadcastInDim S50000x768 ![] bcast_S_S50000x768 main_cst_8
  let main_v26 : IVec S50000x768 1 := cmpf .olt main_v24 main_v25
  let main_c_9 : IVec S_ 1 := constantI S_ 1 1#1
  let main_v27 : IVec S_ 1 := (fun x v => Host.reduce IntOp.andi x v reducesTo_S50000x768_S_d0_1 h_S_) main_v26 main_c_9
  let main_v28 : IVec S_ 1 := andi main_v23 main_v27
  let main_v29 : FVec F S6x32 .f32 := Host.absf main_arg8
  let main_cst_10 : FVec F S_ .f32 := constant S_ .f32 0x7F800000#32
  let main_v30 : FVec F S6x32 .f32 := broadcastInDim S6x32 ![] bcast_S_S6x32 main_cst_10
  let main_v31 : IVec S6x32 1 := cmpf .olt main_v29 main_v30
  let main_c_11 : IVec S_ 1 := constantI S_ 1 1#1
  let main_v32 : IVec S_ 1 := (fun x v => Host.reduce IntOp.andi x v reducesTo_S6x32_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x768 .f32) (main_arg1 : FVec F S50000x160 .f32) (main_arg2 : IVec S2x800000 32) (main_arg3 : IVec S800000 32) (main_arg4 : FVec F S50000x6 .f32) (main_arg5 : FVec F S50000x11 .f32) (main_arg6 : FVec F S50000x768 .f32) (main_arg7 : FVec F S50000x768 .f32) (main_arg8 : FVec F S6x32 .f32) (main_arg9 : FVec F S32 .f32) (main_arg10 : FVec F S11x32 .f32) (main_arg11 : FVec F S32 .f32) (main_arg12 : FVec F S768x32 .f32) (main_arg13 : FVec F S32 .f32) (main_arg14 : FVec F S768x32 .f32) (main_arg15 : FVec F S32 .f32) (main_arg16 : FVec F S768x32 .f32) (main_arg17 : FVec F S32 .f32) (main_arg18 : FVec F S160x160 .f32) (main_arg19 : FVec F S160 .f32) (main_arg20 : FVec F S2x160x160 .f32) (main_arg21 : FVec F S160x160 .f32) (main_arg22 : FVec F S160 .f32) (main_arg23 : FVec F S2x160x160 .f32) (main_arg24 : FVec F S160x160 .f32) (main_arg25 : FVec F S160 .f32) (main_arg26 : FVec F S160x80 .f32) (main_arg27 : FVec F S80 .f32) (main_arg28 : FVec F S80x2 .f32) (main_arg29 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x160 .f32 := Host.absf main_arg1
  let main_cst_0 : FVec F S_ .f32 := constant S_ .f32 0x7F800000#32
  let main_v5 : FVec F S50000x160 .f32 := broadcastInDim S50000x160 ![] bcast_S_S50000x160 main_cst_0
  let main_v6 : IVec S50000x160 1 := cmpf .olt main_v4 main_v5
  let main_c_1 : IVec S_ 1 := constantI S_ 1 1#1
  let main_v7 : IVec S_ 1 := (fun x v => Host.reduce IntOp.andi x v reducesTo_S50000x160_S_d0_1 h_S_) main_v6 main_c_1
  let main_v8 : IVec S_ 1 := andi main_v3 main_v7
  let main_v9 : FVec F S50000x6 .f32 := Host.absf main_arg4
  let main_cst_2 : FVec F S_ .f32 := constant S_ .f32 0x7F800000#32
  let main_v10 : FVec F S50000x6 .f32 := broadcastInDim S50000x6 ![] bcast_S_S50000x6 main_cst_2
  let main_v11 : IVec S50000x6 1 := cmpf .olt main_v9 main_v10
  let main_c_3 : IVec S_ 1 := constantI S_ 1 1#1
  let main_v12 : IVec S_ 1 := (fun x v => Host.reduce IntOp.andi x v reducesTo_S50000x6_S_d0_1 h_S_) main_v11 main_c_3
  let main_v13 : IVec S_ 1 := andi main_v8 main_v12
  let main_v14 : FVec F S50000x11 .f32 := Host.absf main_arg5
  let main_cst_4 : FVec F S_ .f32 := constant S_ .f32 0x7F800000#32
  let main_v15 : FVec F S50000x11 .f32 := broadcastInDim S50000x11 ![] bcast_S_S50000x11 main_cst_4
  let main_v16 : IVec S50000x11 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x768 : Shape := ⟨2, ![50000, 768]⟩
abbrev S50000x160 : Shape := ⟨2, ![50000, 160]⟩
abbrev S2x800000 : Shape := ⟨2, ![2, 800000]⟩
abbrev S800000 : Shape := ⟨1, ![800000]⟩
abbrev S50000x6 : Shape := ⟨2, ![50000, 6]⟩
abbrev S50000x11 : Shape := ⟨2, ![50000, 11]⟩
abbrev S6x32 : Shape := ⟨2, ![6, 32]⟩
abbrev S32 : Shape := ⟨1, ![32]⟩
abbrev S11x32 : Shape := ⟨2, ![11, 32]⟩
abbrev S768x32 : Shape := ⟨2, ![768, 32]⟩
abbrev S160x160 : Shape := ⟨2, ![160, 160]⟩
abbrev S160 : Shape := ⟨1, ![160]⟩
abbrev S2x160x160 : Shape := ⟨3, ![2, 160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S1x32 : Shape := ⟨2, ![1, 32]⟩
abbrev S1x160 : Shape := ⟨2, ![1, 160]⟩
abbrev S1000x6 : Shape := ⟨2, ![1000, 6]⟩
abbrev S1000x11 : Shape := ⟨2, ![1000, 11]⟩
abbrev S1000x768 : Shape := ⟨2, ![1000, 768]⟩
abbrev S1000x160 : Shape := ⟨2, ![1000, 160]⟩
abbrev S1000x32 : Shape := ⟨2, ![1000, 32]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x160 : Shape := ⟨2, ![800000, 160]⟩
abbrev S100000x160 : Shape := ⟨2, ![100000, 160]⟩
abbrev S2x50000x160 : Shape := ⟨3, ![2, 50000, 160]⟩
abbrev S1x50000x160 : Shape := ⟨3, ![1, 50000, 160]⟩
abbrev S50000x1 : Shape := ⟨2, ![50000, 1]⟩
abbrev S1x160x160 : Shape := ⟨3, ![1, 160, 160]⟩
abbrev S5000x160 : Shape := ⟨2, ![5000, 160]⟩
abbrev S1x80 : Shape := ⟨2, ![1, 80]⟩
abbrev S1x2 : Shape := ⟨2, ![1, 2]⟩
abbrev S50000x80 : Shape := ⟨2, ![50000, 80]⟩
abbrev S50000x2 : Shape := ⟨2, ![50000, 2]⟩
abbrev S5000x80 : Shape := ⟨2, ![5000, 80]⟩
abbrev S5000x2 : Shape := ⟨2, ![5000, 2]⟩

abbrev nBuf : Space → Nat
  | .hbm => 137
  | .vmem => 58
  | .smem => 0
  | _ => 0

abbrev hbmTy0_0 (i : Nat) : BufTy := match i % 128 with
  | 0 => ⟨S50000x768, .f32⟩
  | 1 => ⟨S50000x160, .f32⟩
  | 2 => ⟨S2x800000, .i32⟩
  | 3 => ⟨S800000, .i32⟩
  | 4 => ⟨S50000x6, .f32⟩
  | 5 => ⟨S50000x11, .f32⟩
  | 6 => ⟨S50000x768, .f32⟩
  | 7 => ⟨S50000x768, .f32⟩
  | 8 => ⟨S6x32, .f32⟩
  | 9 => ⟨S32, .f32⟩
  | 10 => ⟨S11x32, .f32⟩
  | 11 => ⟨S32, .f32⟩
  | 12 => ⟨S768x32, .f32⟩
  | 13 => ⟨S32, .f32⟩
  | 14 => ⟨S768x32, .f32⟩
  | 15 => ⟨S32, .f32⟩
  | 16 => ⟨S768x32, .f32⟩
  | 17 => ⟨S32, .f32⟩
  | 18 => ⟨S160x160, .f32⟩
  | 19 => ⟨S160, .f32⟩
  | 20 => ⟨S2x160x160, .f32⟩
  | 21 => ⟨S160x160, .f32⟩
  | 22 => ⟨S160, .f32⟩
  | 23 => ⟨S2x160x160, .f32⟩
  | 24 => ⟨S160x160, .f32⟩
  | 25 => ⟨S160, .f32⟩
  | 26 => ⟨S160x80, .f32⟩
  | 27 => ⟨S80, .f32⟩
  | 28 => ⟨S80x2, .f32⟩
  | 29 => ⟨S2, .f32⟩
  | 30 => ⟨S1x32, .f32⟩
  | 31 => ⟨S1x32, .f32⟩
  | 32 => ⟨S1x32, .f32⟩
  | 33 => ⟨S1x32, .f32⟩
  | 34 => ⟨S1x32, .f32⟩
  | 35 => ⟨S1x160, .f32⟩
  | 36 => ⟨S50000x160, .f32⟩
  | 37 => ⟨S1x800000, .i32⟩
  | 38 => ⟨S800000, .i32⟩
  | 39 => ⟨S1x800000, .i32⟩
  | 40 => ⟨S800000, .i32⟩
  | 41 => ⟨S_, .i32⟩
  | 42 => ⟨S800000, .i32⟩
  | 43 => ⟨S800000, .i1⟩
  | 44 => ⟨S800000, .f32⟩
  | 45 => ⟨S_, .i32⟩
  | 46 => ⟨S800000, .i32⟩
  | 47 => ⟨S800000, .i1⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .f32⟩
  | 63 => ⟨S_, .f32⟩
  | 64 => ⟨S50000, .f32⟩
  | 65 => ⟨S50000, .f32⟩
  | 66 => ⟨S_, .f32⟩
  | 67 => ⟨S50000, .f32⟩
  | 68 => ⟨S50000, .f32⟩
  | 69 => ⟨S_, .i32⟩
  | 70 => ⟨S800000, .i32⟩
  | 71 => ⟨S800000, .i32⟩
  | 72 => ⟨S800000, .i32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x160, .f32⟩
  | 82 => ⟨S_, .f32⟩
  | 83 => ⟨S100000x160, .f32⟩
  | 84 => ⟨S800000x1, .i32⟩
  | 85 => ⟨S100000x160, .f32⟩
  | 86 => ⟨S2x50000x160, .f32⟩
  | 87 => ⟨S1x50000x160, .f32⟩
  | 88 => ⟨S50000x160, .f32⟩
  | 89 => ⟨S50000x1, .f32⟩
  | 90 => ⟨S50000x160, .f32⟩
  | 91 => ⟨S50000x160, .f32⟩
  | 92 => ⟨S1x50000x160, .f32⟩
  | 93 => ⟨S50000x160, .f32⟩
  | 94 => ⟨S50000x1, .f32⟩
  | 95 => ⟨S50000x160, .f32⟩
  | 96 => ⟨S50000x160, .f32⟩
  | 97 => ⟨S1x160, .f32⟩
  | 98 => ⟨S1x160x160, .f32⟩
  | 99 => ⟨S160x160, .f32⟩
  | 100 => ⟨S1x160x160, .f32⟩
  | 101 => ⟨S160x160, .f32⟩
  | 102 => ⟨S50000x160, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x160, .f32⟩
  | 112 => ⟨S_, .f32⟩
  | 113 => ⟨S100000x160, .f32⟩
  | 114 => ⟨S800000x1, .i32⟩
  | 115 => ⟨S100000x160, .f32⟩
  | 116 => ⟨S2x50000x160, .f32⟩
  | 117 => ⟨S1x50000x160, .f32⟩
  | 118 => ⟨S50000x160, .f32⟩
  | 119 => ⟨S50000x1, .f32⟩
  | 120 => ⟨S50000x160, .f32⟩
  | 121 => ⟨S50000x160, .f32⟩
  | 122 => ⟨S1x50000x160, .f32⟩
  | 123 => ⟨S50000x160, .f32⟩
  | 124 => ⟨S50000x1, .f32⟩
  | 125 => ⟨S50000x160, .f32⟩
  | 126 => ⟨S50000x160, .f32⟩
  | 127 => ⟨S1x160, .f32⟩
  | _ => ⟨S50000x768, .f32⟩

abbrev hbmTy0_1 (i : Nat) : BufTy := match i % 128 with
  | 0 => ⟨S1x160x160, .f32⟩
  | 1 => ⟨S160x160, .f32⟩
  | 2 => ⟨S1x160x160, .f32⟩
  | 3 => ⟨S160x160, .f32⟩
  | 4 => ⟨S50000x160, .f32⟩
  | 5 => ⟨S1x80, .f32⟩
  | 6 => ⟨S1x2, .f32⟩
  | 7 => ⟨S50000x80, .f32⟩
  | 8 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S1000x6, .f32⟩
  | .local _ .vmem, ⟨1, _⟩ => ⟨S1000x6, .f32⟩
  | .local _ .vmem, ⟨2, _⟩ => ⟨S1000x11, .f32⟩
  | .local _ .vmem, ⟨3, _⟩ => ⟨S1000x11, .f32⟩
  | .local _ .vmem, ⟨4, _⟩ => ⟨S1000x768, .f32⟩
  | .local _ .vmem, ⟨5, _⟩ => ⟨S1000x768, .f32⟩
  | .local _ .vmem, ⟨6, _⟩ => ⟨S1000x768, .f32⟩
  | .local _ .vmem, ⟨7, _⟩ => ⟨S1000x768, .f32⟩
  | .local _ .vmem, ⟨8, _⟩ => ⟨S1000x768, .f32⟩
  | .local _ .vmem, ⟨9, _⟩ => ⟨S1000x768, .f32⟩
  | .local _ .vmem, ⟨10, _⟩ => ⟨S6x32, .f32⟩
  | .local _ .vmem, ⟨11, _⟩ => ⟨S1x32, .f32⟩
  | .local _ .vmem, ⟨12, _⟩ => ⟨S11x32, .f32⟩
  | .local _ .vmem, ⟨13, _⟩ => ⟨S1x32, .f32⟩
  | .local _ .vmem, ⟨14, _⟩ => ⟨S768x32, .f32⟩
  | .local _ .vmem, ⟨15, _⟩ => ⟨S1x32, .f32⟩
  | .local _ .vmem, ⟨16, _⟩ => ⟨S768x32, .f32⟩
  | .local _ .vmem, ⟨17, _⟩ => ⟨S1x32, .f32⟩
  | .local _ .vmem, ⟨18, _⟩ => ⟨S768x32, .f32⟩
  | .local _ .vmem, ⟨19, _⟩ => ⟨S1x32, .f32⟩
  | .local _ .vmem, ⟨20, _⟩ => ⟨S160x160, .f32⟩
  | .local _ .vmem, ⟨21, _⟩ => ⟨S1x160, .f32⟩
  | .local _ .vmem, ⟨22, _⟩ => ⟨S1000x160, .f32⟩
  | .local _ .vmem, ⟨23, _⟩ => ⟨S1000x160, .f32⟩
  | .local _ .vmem, ⟨24, _⟩ => ⟨S5000x160, .f32⟩
  | .local _ .vmem, ⟨25, _⟩ => ⟨S5000x160, .f32⟩
  | .local _ .vmem, ⟨26, _⟩ => ⟨S5000x160, .f32⟩
  | .local _ .vmem, ⟨27, _⟩ => ⟨S5000x160, .f32⟩
  | .local _ .vmem, ⟨28, _⟩ => ⟨S5000x160, .f32⟩
  | .local _ .vmem, ⟨29, _⟩ => ⟨S5000x160, .f32⟩
  | .local _ .vmem, ⟨30, _⟩ => ⟨S160x160, .f32⟩
  | .local _ .vmem, ⟨31, _⟩ => ⟨S1x160, .f32⟩
  | .local _ .vmem, ⟨32, _⟩ => ⟨S160x160, .f32⟩
  | .local _ .vmem, ⟨33, _⟩ => ⟨S160x160, .f32⟩
  | .local _ .vmem, ⟨34, _⟩ => ⟨S5000x160, .f32⟩
  | .local _ .vmem, ⟨35, _⟩ => ⟨S5000x160, .f32⟩
  | .local _ .vmem, ⟨36, _⟩ => ⟨S5000x160, .f32⟩
  | .local _ .vmem, ⟨37, _⟩ => ⟨S5000x160, .f32⟩
  | .local _ .vmem, ⟨38, _⟩ => ⟨S5000x160, .f32⟩
  | .local _ .vmem, ⟨39, _⟩ => ⟨S5000x160, .f32⟩
  | .local _ .vmem, ⟨40, _⟩ => ⟨S5000x160, .f32⟩
  | .local _ .vmem, ⟨41, _⟩ => ⟨S5000x160, .f32⟩
  | .local _ .vmem, ⟨42, _⟩ => ⟨S160x160, .f32⟩
  | .local _ .vmem, ⟨43, _⟩ => ⟨S1x160, .f32⟩
  | .local _ .vmem, ⟨44, _⟩ => ⟨S160x160, .f32⟩
  | .local _ .vmem, ⟨45, _⟩ => ⟨S160x160, .f32⟩
  | .local _ .vmem, ⟨46, _⟩ => ⟨S5000x160, .f32⟩
  | .local _ .vmem, ⟨47, _⟩ => ⟨S5000x160, .f32⟩
  | .local _ .vmem, ⟨48, _⟩ => ⟨S5000x160, .f32⟩
  | .local _ .vmem, ⟨49, _⟩ => ⟨S5000x160, .f32⟩
  | .local _ .vmem, ⟨50, _⟩ => ⟨S160x80, .f32⟩
  | .local _ .vmem, ⟨51, _⟩ => ⟨S1x80, .f32⟩
  | .local _ .vmem, ⟨52, _⟩ => ⟨S80x2, .f32⟩
  | .local _ .vmem, ⟨53, _⟩ => ⟨S1x2, .f32⟩
  | .local _ .vmem, ⟨54, _⟩ => ⟨S5000x80, .f32⟩
  | .local _ .vmem, ⟨55, _⟩ => ⟨S5000x80, .f32⟩
  | .local _ .vmem, ⟨56, _⟩ => ⟨S5000x2, .f32⟩
  | .local _ .vmem, ⟨57, _⟩ => ⟨S5000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_v23 : Ref sig .tc := ⟨.hbm, 58, rfl⟩
abbrev main_v24 : Ref sig .tc := ⟨.hbm, 59, rfl⟩
abbrev main_cst_3 : Ref sig .tc := ⟨.hbm, 60, rfl⟩
abbrev main_v25 : Ref sig .tc := ⟨.hbm, 61, rfl⟩
abbrev main_v26 : Ref sig .tc := ⟨.hbm, 62, rfl⟩
abbrev main_cst_4 : Ref sig .tc := ⟨.hbm, 63, rfl⟩
abbrev main_v27 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_7 : Ref sig .tc := ⟨.hbm, 73, rfl⟩
abbrev main_v34 : Ref sig .tc := ⟨.hbm, 74, rfl⟩
abbrev main_v35 : Ref sig .tc := ⟨.hbm, 75, rfl⟩
abbrev main_c_8 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_9 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_10 : Ref sig .tc := ⟨.hbm, 103, rfl⟩
abbrev main_v61 : Ref sig .tc := ⟨.hbm, 104, rfl⟩
abbrev main_v62 : Ref sig .tc := ⟨.hbm, 105, rfl⟩
abbrev main_c_11 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_12 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90_0 : Ref sig .tc := ⟨.hbm, 135, rfl⟩
abbrev main_v90_1 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg7_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg5_1 : Ref sig .tc := ⟨.vmem, 55, rfl⟩
abbrev cc3_stg6_0 : Ref sig .tc := ⟨.vmem, 56, rfl⟩
abbrev cc3_stg6_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem7_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem5_1 : DmaSem sig := 55
abbrev cc3_sem6_0 : DmaSem sig := 56
abbrev cc3_sem6_1 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S160x160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x160 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x160 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x160 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S160x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160x160 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S160x160 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x160 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x160 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x160 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S160x160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x160 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S160x160 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S160x160 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x160 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S160x80 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x80 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S80x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x80 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S32_S1x32 : S32.ShapeCasts S1x32
  shapeCasts_S160_S1x160 : S160.ShapeCasts S1x160
  inb_S1000x6_S1000x6_0_0 : ∀ a, (![0, 0] : Fin 2 → Nat) a + S1000x6.size a ≤ S1000x6.size a
  h_S1000x6 : 0 < S1000x6.numel
  inb_S6x32_S6x32_0_0 : ∀ a, (![0, 0] : Fin 2 → Nat) a + S6x32.size a ≤ S6x32.size a
  h_S6x32 : 0 < S6x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x11_S1000x11_0_0 : ∀ a, (![0, 0] : Fin 2 → Nat) a + S1000x11.size a ≤ S1000x11.size a
  h_S1000x11 : 0 < S1000x11.numel
  inb_S11x32_S11x32_0_0 : ∀ a, (![0, 0] : Fin 2 → Nat) a + S11x32.size a ≤ S11x32.size a
  h_S11x32 : 0 < S11x32.numel
  inb_S1000x768_S1000x768_0_0 : ∀ a, (![0, 0] : Fin 2 → Nat) a + S1000x768.size a ≤ S1000x768.size a
  h_S1000x768 : 0 < S1000x768.numel
  inb_S768x32_S768x32_0_0 : ∀ a, (![0, 0] : Fin 2 → Nat) a + S768x32.size a ≤ S768x32.size a
  h_S768x32 : 0 < S768x32.numel
  concatenates_S1000x32_S1000x32_S1000x32_S1000x32_S1000x32_S1000x160_d1 : Shape.Concatenates [S1000x32, S1000x32, S1000x32, S1000x32, S1000x32] S1000x160 1
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S1000x160 : S1x160.Broadcasts S1000x160
  inb_S1000x160_S1000x160_0_0 : ∀ a, (![0, 0] : Fin 2 → Nat) a + S1000x160.size a ≤ S1000x160.size a
  h_S1000x160 : 0 < S1000x160.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S100000x160 : S_.BroadcastsInDim S100000x160 (![] : Fin 0 → Fin S100000x160.rank)
  shapeCasts_S100000x160_S2x50000x160 : S100000x160.ShapeCasts S2x50000x160
  slices_S2x50000x160_S1x50000x160_0_0_0 : S2x50000x160.Slices ![0, 0, 0] S1x50000x160
  shapeCasts_S1x50000x160_S50000x160 : S1x50000x160.ShapeCasts S50000x160
  bcast_S50000_S50000x1_0 : S50000.BroadcastsInDim S50000x1 (![0] : Fin 1 → Fin S50000x1.rank)
  bcast_S50000x1_S50000x160_0_1 : S50000x1.BroadcastsInDim S50000x160 (![0, 1] : Fin 2 → Fin S50000x160.rank)
  slices_S2x50000x160_S1x50000x160_1_0_0 : S2x50000x160.Slices ![1, 0, 0] S1x50000x160
  slices_S2x160x160_S1x160x160_0_0_0 : S2x160x160.Slices ![0, 0, 0] S1x160x160
  shapeCasts_S1x160x160_S160x160 : S1x160x160.ShapeCasts S160x160
  slices_S2x160x160_S1x160x160_1_0_0 : S2x160x160.Slices ![1, 0, 0] S1x160x160
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  broadcasts_S1x160_S5000x160 : S1x160.Broadcasts S5000x160
  shapeCasts_S160x160_S160x160 : S160x160.ShapeCasts S160x160
  shapeCasts_S80_S1x80 : S80.ShapeCasts S1x80
  shapeCasts_S2_S1x2 : S2.ShapeCasts S1x2
  inb_S160x80_S160x80_0_0 : ∀ a, (![0, 0] : Fin 2 → Nat) a + S160x80.size a ≤ S160x80.size a
  h_S160x80 : 0 < S160x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S5000x80 : S1x80.Broadcasts S5000x80
  inb_S5000x80_S5000x80_0_0 : ∀ a, (![0, 0] : Fin 2 → Nat) a + S5000x80.size a ≤ S5000x80.size a
  h_S5000x80 : 0 < S5000x80.numel
  inb_S80x2_S80x2_0_0 : ∀ a, (![0, 0] : Fin 2 → Nat) a + S80x2.size a ≤ S80x2.size a
  h_S80x2 : 0 < S80x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S1000x6_S6x32_S1000x32_1_0_0_1_n_n_wf : DotDims.WF S1000x6 S6x32 S1000x32 [1] [0] [0] [1] [] []
  dot_S1000x11_S11x32_S1000x32_1_0_0_1_n_n_wf : DotDims.WF S1000x11 S11x32 S1000x32 [1] [0] [0] [1] [] []
  dot_S1000x768_S768x32_S1000x32_1_0_0_1_n_n_wf : DotDims.WF S1000x768 S768x32 S1000x32 [1] [0] [0] [1] [] []
  dot_S1000x160_S160x160_S1000x160_1_0_0_1_n_n_wf : DotDims.WF S1000x160 S160x160 S1000x160 [1] [0] [0] [1] [] []
  scatter_S50000_S800000x1_S800000_n_0_0_1_wf : ScatterDims.WF S50000 S800000x1 S800000 [] [0] [0] 1
  gather_S50000x160_S800000x1_S800000x160_1_0_n_n_0_1_1160_wf : GatherDims.WF S50000x160 S800000x1 S800000x160 [1] [0] [] [0] [] 1 ![1, 160]
  scatter_S100000x160_S800000x1_S800000x160_1_0_0_1_wf : ScatterDims.WF S100000x160 S800000x1 S800000x160 [1] [0] [0] 1
  dot_S5000x160_S160x160_S5000x160_1_0_0_1_n_n_wf : DotDims.WF S5000x160 S160x160 S5000x160 [1] [0] [0] [1] [] []
  dot_S5000x160_S160x80_S5000x80_1_0_0_1_n_n_wf : DotDims.WF S5000x160 S160x80 S5000x80 [1] [0] [0] [1] [] []
  dot_S5000x80_S80x2_S5000x2_1_0_0_1_n_n_wf : DotDims.WF S5000x80 S80x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x6.size a ≤ S50000x6.size a
  hwx0_0 : ∀ i : grid0.Coords, EltTy.bits .f32 = 32 ∨ (Rect.block (s := S50000x6) S1000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x11.size a ≤ S50000x11.size a
  hwx0_1 : ∀ i : grid0.Coords, EltTy.bits .f32 = 32 ∨ (Rect.block (s := S50000x11) S1000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S50000x768.size a
  hwx0_2 : ∀ i : grid0.Coords, EltTy.bits .f32 = 32 ∨ (Rect.block (s := S50000x768) S1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x768.size a ≤ S50000x768.size a
  hwx0_3 : ∀ i : grid0.Coords, EltTy.bits .f32 = 32 ∨ (Rect.block (s := S50000x768) S1000x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x768.size a ≤ S50000x768.size a
  hwx0_4 : ∀ i : grid0.Coords, EltTy.bits .f32 = 32 ∨ (Rect.block (s := S50000x768) S1000x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x32.size a ≤ S6x32.size a
  hwx0_5 : ∀ i : grid0.Coords, EltTy.bits .f32 = 32 ∨ (Rect.block (s := S6x32) S6x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S11x32.size a ≤ S11x32.size a
  hwx0_7 : ∀ i : grid0.Coords, EltTy.bits .f32 = 32 ∨ (Rect.block (s := S11x32) S11x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x32.size a ≤ S768x32.size a
  hwx0_9 : ∀ i : grid0.Coords, EltTy.bits .f32 = 32 ∨ (Rect.block (s := S768x32) S768x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x32.size a ≤ S768x32.size a
  hwx0_11 : ∀ i : grid0.Coords, EltTy.bits .f32 = 32 ∨ (Rect.block (s := S768x32) S768x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x32.size a ≤ S768x32.size a
  hwx0_13 : ∀ i : grid0.Coords, EltTy.bits .f32 = 32 ∨ (Rect.block (s := S768x32) S768x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S160x160.size a ≤ S160x160.size a
  hwx0_15 : ∀ i : grid0.Coords, EltTy.bits .f32 = 32 ∨ (Rect.block (s := S160x160) S160x160.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x160.size a ≤ S1x160.size a
  hwx0_16 : ∀ i : grid0.Coords, EltTy.bits .f32 = 32 ∨ (Rect.block (s := S1x160) S1x160.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x160.size a ≤ S50000x160.size a
  hwx0_17 : ∀ i : grid0.Coords, EltTy.bits .f32 = 32 ∨ (Rect.block (s := S50000x160) S1000x160.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x160.size a ≤ S50000x160.size a
  hwx1_0 : ∀ i : grid1.Coords, EltTy.bits .f32 = 32 ∨ (Rect.block (s := S50000x160) S5000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x160.size a ≤ S50000x160.size a
  hwx1_1 : ∀ i : grid1.Coords, EltTy.bits .f32 = 32 ∨ (Rect.block (s := S50000x160) S5000x160.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x160.size a ≤ S50000x160.size a
  hwx1_2 : ∀ i : grid1.Coords, EltTy.bits .f32 = 32 ∨ (Rect.block (s := S50000x160) S5000x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160x160.size a ≤ S160x160.size a
  hwx1_3 : ∀ i : grid1.Coords, EltTy.bits .f32 = 32 ∨ (Rect.block (s := S160x160) S160x160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x160.size a ≤ S1x160.size a
  hwx1_4 : ∀ i : grid1.Coords, EltTy.bits .f32 = 32 ∨ (Rect.block (s := S1x160) S1x160.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S160x160.size a ≤ S160x160.size a
  hwx1_5 : ∀ i : grid1.Coords, EltTy.bits .f32 = 32 ∨ (Rect.block (s := S160x160) S160x160.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S160x160.size a ≤ S160x160.size a
  hwx1_6 : ∀ i : grid1.Coords, EltTy.bits .f32 = 32 ∨ (Rect.block (s := S160x160) S160x160.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x160.size a ≤ S50000x160.size a
  hwx1_7 : ∀ i : grid1.Coords, EltTy.bits .f32 = 32 ∨ (Rect.block (s := S50000x160) S5000x160.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x160.size a ≤ S50000x160.size a
  hwx2_0 : ∀ i : grid2.Coords, EltTy.bits .f32 = 32 ∨ (Rect.block (s := S50000x160) S5000x160.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x160.size a ≤ S50000x160.size a
  hwx2_1 : ∀ i : grid2.Coords, EltTy.bits .f32 = 32 ∨ (Rect.block (s := S50000x160) S5000x160.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x160.size a ≤ S50000x160.size a
  hwx2_2 : ∀ i : grid2.Coords, EltTy.bits .f32 = 32 ∨ (Rect.block (s := S50000x160) S5000x160.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S160x160.size a ≤ S160x160.size a
  hwx2_3 : ∀ i : grid2.Coords, EltTy.bits .f32 = 32 ∨ (Rect.block (s := S160x160) S160x160.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x160.size a ≤ S1x160.size a
  hwx2_4 : ∀ i : grid2.Coords, EltTy.bits .f32 = 32 ∨ (Rect.block (s := S1x160) S1x160.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S160x160.size a ≤ S160x160.size a
  hwx2_5 : ∀ i : grid2.Coords, EltTy.bits .f32 = 32 ∨ (Rect.block (s := S160x160) S160x160.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S160x160.size a ≤ S160x160.size a
  hwx2_6 : ∀ i : grid2.Coords, EltTy.bits .f32 = 32 ∨ (Rect.block (s := S160x160) S160x160.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x160.size a ≤ S50000x160.size a
  hwx2_7 : ∀ i : grid2.Coords, EltTy.bits .f32 = 32 ∨ (Rect.block (s := S50000x160) S5000x160.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x160.size a ≤ S50000x160.size a
  hwx3_0 : ∀ i : grid3.Coords, EltTy.bits .f32 = 32 ∨ (Rect.block (s := S50000x160) S5000x160.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S160x80.size a ≤ S160x80.size a
  hwx3_1 : ∀ i : grid3.Coords, EltTy.bits .f32 = 32 ∨ (Rect.block (s := S160x80) S160x80.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x80.size a ≤ S1x80.size a
  hwx3_2 : ∀ i : grid3.Coords, EltTy.bits .f32 = 32 ∨ (Rect.block (s := S1x80) S1x80.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S80x2.size a ≤ S80x2.size a
  hwx3_3 : ∀ i : grid3.Coords, EltTy.bits .f32 = 32 ∨ (Rect.block (s := S80x2) S80x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x80.size a ≤ S50000x80.size a
  hwx3_5 : ∀ i : grid3.Coords, EltTy.bits .f32 = 32 ∨ (Rect.block (s := S50000x80) S5000x80.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S50000x2.size a
  hwx3_6 : ∀ i : grid3.Coords, EltTy.bits .f32 = 32 ∨ (Rect.block (s := S50000x2) S5000x2.size (cc3_transform_6 i) (hinb3_6 i)).WholeWords (EltTy.packing .f32)

variable [Facts₀]

def dot_S1000x6_S6x32_S1000x32_1_0_0_1_n_n : DotDims S1000x6 S6x32 S1000x32 where
  lhsContracting := [1]
  rhsContracting := [0]
  lhsNonContracting := [0]
  rhsNonContracting := [1]
  lhsBatch := []
  rhsBatch := []
  wf := dot_S1000x6_S6x32_S1000x32_1_0_0_1_n_n_wf
def dot_S1000x11_S11x32_S1000x32_1_0_0_1_n_n : DotDims S1000x11 S11x32 S1000x32 where
  lhsContracting := [1]
  rhsContracting := [0]
  lhsNonContracting := [0]
  rhsNonContracting := [1]
  lhsBatch := []
  rhsBatch := []
  wf := dot_S1000x11_S11x32_S1000x32_1_0_0_1_n_n_wf
def dot_S1000x768_S768x32_S1000x32_1_0_0_1_n_n : DotDims S1000x768 S768x32 S1000x32 where
  lhsContracting := [1]
  rhsContracting := [0]
  lhsNonContracting := [0]
  rhsNonContracting := [1]
  lhsBatch := []
  rhsBatch := []
  wf := dot_S1000x768_S768x32_S1000x32_1_0_0_1_n_n_wf
def dot_S1000x160_S160x160_S1000x160_1_0_0_1_n_n : DotDims S1000x160 S160x160 S1000x160 where
  lhsContracting := [1]
  rhsContracting := [0]
  lhsNonContracting := [0]
  rhsNonContracting := [1]
  lhsBatch := []
  rhsBatch := []
  wf := dot_S1000x160_S160x160_S1000x160_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S100000x160_S800000x1_S800000x160_1_0_0_1 : ScatterDims S100000x160 S800000x1 S800000x160 where
  updateWindowDims := [1]
  insertedWindowDims := [0]
  scatterDimsToOperandDims := [0]
  indexVectorDim := 1
  wf := scatter_S100000x160_S800000x1_S800000x160_1_0_0_1_wf
def dot_S5000x160_S160x160_S5000x160_1_0_0_1_n_n : DotDims S5000x160 S160x160 S5000x160 where
  lhsContracting := [1]
  rhsContracting := [0]
  lhsNonContracting := [0]
  rhsNonContracting := [1]
  lhsBatch := []
  rhsBatch := []
  wf := dot_S5000x160_S160x160_S5000x160_1_0_0_1_n_n_wf
def dot_S5000x160_S160x80_S5000x80_1_0_0_1_n_n : DotDims S5000x160 S160x80 S5000x80 where
  lhsContracting := [1]
  rhsContracting := [0]
  lhsNonContracting := [0]
  rhsNonContracting := [1]
  lhsBatch := []
  rhsBatch := []
  wf := dot_S5000x160_S160x80_S5000x80_1_0_0_1_n_n_wf
def dot_S5000x80_S80x2_S5000x2_1_0_0_1_n_n : DotDims S5000x80 S80x2 S5000x2 where
  lhsContracting := [1]
  rhsContracting := [0]
  lhsNonContracting := [0]
  rhsNonContracting := [1]
  lhsBatch := []
  rhsBatch := []
  wf := dot_S5000x80_S80x2_S5000x2_1_0_0_1_n_n_wf

abbrev win0_0 : Pipeline.Window sig grid0 :=
  Pipeline.Window.ofSpec (Memref.whole main_arg4) S1000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1000x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1000x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1000x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S6x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S11x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S768x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S768x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S768x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S160x160.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x160.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1000x160.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v6) S5000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x160.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg21) S160x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S160x160.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S160x160.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S5000x160.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S5000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x160.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S5000x160.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg24) S160x160.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x160.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S160x160.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S160x160.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S5000x160.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v87) S5000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg26) S160x80.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x80.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg28) S80x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90_0) S5000x80.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v90_1) S5000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x768 : Shape := ⟨2, ![50000, 768]⟩
abbrev S50000x160 : Shape := ⟨2, ![50000, 160]⟩
abbrev S2x800000 : Shape := ⟨2, ![2, 800000]⟩
abbrev S800000 : Shape := ⟨1, ![800000]⟩
abbrev S50000x6 : Shape := ⟨2, ![50000, 6]⟩
abbrev S50000x11 : Shape := ⟨2, ![50000, 11]⟩
abbrev S6x32 : Shape := ⟨2, ![6, 32]⟩
abbrev S32 : Shape := ⟨1, ![32]⟩
abbrev S11x32 : Shape := ⟨2, ![11, 32]⟩
abbrev S768x32 : Shape := ⟨2, ![768, 32]⟩
abbrev S160x160 : Shape := ⟨2, ![160, 160]⟩
abbrev S160 : Shape := ⟨1, ![160]⟩
abbrev S2x160x160 : Shape := ⟨3, ![2, 160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S50000x32 : Shape := ⟨2, ![50000, 32]⟩
abbrev S1x32 : Shape := ⟨2, ![1, 32]⟩
abbrev S_ : Shape := ⟨0, ![]⟩
abbrev S1x160 : Shape := ⟨2, ![1, 160]⟩
abbrev S1x800000 : Shape := ⟨2, ![1, 800000]⟩
abbrev S1x160x160 : Shape := ⟨3, ![1, 160, 160]⟩
abbrev S800000x1 : Shape := ⟨2, ![800000, 1]⟩
abbrev S800000x160 : Shape := ⟨2, ![800000, 160]⟩
abbrev S50000 : Shape := ⟨1, ![50000]⟩
abbrev S50000x1 : Shape := ⟨2, ![50000, 1]⟩
abbrev S50000x80 : Shape := ⟨2, ![50000, 80]⟩
abbrev S1x80 : Shape := ⟨2, ![1, 80]⟩
abbrev S50000x2 : Shape := ⟨2, ![50000, 2]⟩
abbrev S1x2 : Shape := ⟨2, ![1, 2]⟩

abbrev nBuf : Space → Nat
  | .hbm => 260
  | .vmem => 0
  | .smem => 0
  | _ => 0

abbrev hbmTy0_0 (i : Nat) : BufTy := match i % 128 with
  | 0 => ⟨S50000x768, .f32⟩
  | 1 => ⟨S50000x160, .f32⟩
  | 2 => ⟨S2x800000, .i32⟩
  | 3 => ⟨S800000, .i32⟩
  | 4 => ⟨S50000x6, .f32⟩
  | 5 => ⟨S50000x11, .f32⟩
  | 6 => ⟨S50000x768, .f32⟩
  | 7 => ⟨S50000x768, .f32⟩
  | 8 => ⟨S6x32, .f32⟩
  | 9 => ⟨S32, .f32⟩
  | 10 => ⟨S11x32, .f32⟩
  | 11 => ⟨S32, .f32⟩
  | 12 => ⟨S768x32, .f32⟩
  | 13 => ⟨S32, .f32⟩
  | 14 => ⟨S768x32, .f32⟩
  | 15 => ⟨S32, .f32⟩
  | 16 => ⟨S768x32, .f32⟩
  | 17 => ⟨S32, .f32⟩
  | 18 => ⟨S160x160, .f32⟩
  | 19 => ⟨S160, .f32⟩
  | 20 => ⟨S2x160x160, .f32⟩
  | 21 => ⟨S160x160, .f32⟩
  | 22 => ⟨S160, .f32⟩
  | 23 => ⟨S2x160x160, .f32⟩
  | 24 => ⟨S160x160, .f32⟩
  | 25 => ⟨S160, .f32⟩
  | 26 => ⟨S160x80, .f32⟩
  | 27 => ⟨S80, .f32⟩
  | 28 => ⟨S80x2, .f32⟩
  | 29 => ⟨S2, .f32⟩
  | 30 => ⟨S50000x32, .f32⟩
  | 31 => ⟨S1x32, .f32⟩
  | 32 => ⟨S50000x32, .f32⟩
  | 33 => ⟨S50000x32, .f32⟩
  | 34 => ⟨S_, .f32⟩
  | 35 => ⟨S50000x32, .f32⟩
  | 36 => ⟨S50000x32, .i1⟩
  | 37 => ⟨S_, .f32⟩
  | 38 => ⟨S50000x32, .f32⟩
  | 39 => ⟨S50000x32, .f32⟩
  | 40 => ⟨S50000x32, .f32⟩
  | 41 => ⟨S50000x32, .f32⟩
  | 42 => ⟨S1x32, .f32⟩
  | 43 => ⟨S50000x32, .f32⟩
  | 44 => ⟨S50000x32, .f32⟩
  | 45 => ⟨S_, .f32⟩
  | 46 => ⟨S50000x32, .f32⟩
  | 47 => ⟨S50000x32, .i1⟩
  | 48 => ⟨S_, .f32⟩
  | 49 => ⟨S50000x32, .f32⟩
  | 50 => ⟨S50000x32, .f32⟩
  | 51 => ⟨S50000x32, .f32⟩
  | 52 => ⟨S50000x32, .f32⟩
  | 53 => ⟨S1x32, .f32⟩
  | 54 => ⟨S50000x32, .f32⟩
  | 55 => ⟨S50000x32, .f32⟩
  | 56 => ⟨S_, .f32⟩
  | 57 => ⟨S50000x32, .f32⟩
  | 58 => ⟨S50000x32, .i1⟩
  | 59 => ⟨S_, .f32⟩
  | 60 => ⟨S50000x32, .f32⟩
  | 61 => ⟨S50000x32, .f32⟩
  | 62 => ⟨S50000x32, .f32⟩
  | 63 => ⟨S50000x32, .f32⟩
  | 64 => ⟨S1x32, .f32⟩
  | 65 => ⟨S50000x32, .f32⟩
  | 66 => ⟨S50000x32, .f32⟩
  | 67 => ⟨S_, .f32⟩
  | 68 => ⟨S50000x32, .f32⟩
  | 69 => ⟨S50000x32, .i1⟩
  | 70 => ⟨S_, .f32⟩
  | 71 => ⟨S50000x32, .f32⟩
  | 72 => ⟨S50000x32, .f32⟩
  | 73 => ⟨S50000x32, .f32⟩
  | 74 => ⟨S50000x32, .f32⟩
  | 75 => ⟨S1x32, .f32⟩
  | 76 => ⟨S50000x32, .f32⟩
  | 77 => ⟨S50000x32, .f32⟩
  | 78 => ⟨S_, .f32⟩
  | 79 => ⟨S50000x32, .f32⟩
  | 80 => ⟨S50000x32, .i1⟩
  | 81 => ⟨S_, .f32⟩
  | 82 => ⟨S50000x32, .f32⟩
  | 83 => ⟨S50000x32, .f32⟩
  | 84 => ⟨S50000x32, .f32⟩
  | 85 => ⟨S50000x160, .f32⟩
  | 86 => ⟨S50000x160, .f32⟩
  | 87 => ⟨S1x160, .f32⟩
  | 88 => ⟨S50000x160, .f32⟩
  | 89 => ⟨S50000x160, .f32⟩
  | 90 => ⟨S_, .f32⟩
  | 91 => ⟨S50000x160, .f32⟩
  | 92 => ⟨S50000x160, .i1⟩
  | 93 => ⟨S_, .f32⟩
  | 94 => ⟨S50000x160, .f32⟩
  | 95 => ⟨S50000x160, .f32⟩
  | 96 => ⟨S50000x160, .f32⟩
  | 97 => ⟨S1x800000, .i32⟩
  | 98 => ⟨S800000, .i32⟩
  | 99 => ⟨S1x800000, .i32⟩
  | 100 => ⟨S800000, .i32⟩
  | 101 => ⟨S50000x160, .f32⟩
  | 102 => ⟨S1x160, .f32⟩
  | 103 => ⟨S50000x160, .f32⟩
  | 104 => ⟨S50000x160, .f32⟩
  | 105 => ⟨S_, .i32⟩
  | 106 => ⟨S800000, .i32⟩
  | 107 => ⟨S800000, .i1⟩
  | 108 => ⟨S800000, .f32⟩
  | 109 => ⟨S1x160x160, .f32⟩
  | 110 => ⟨S160x160, .f32⟩
  | 111 => ⟨S50000x160, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x160, .f32⟩
  | 121 => ⟨S800000x1, .f32⟩
  | 122 => ⟨S800000x160, .f32⟩
  | 123 => ⟨S800000x160, .f32⟩
  | 124 => ⟨S_, .f32⟩
  | 125 => ⟨S50000x160, .f32⟩
  | 126 => ⟨S800000x1, .i32⟩
  | 127 => ⟨S50000x160, .f32⟩
  | _ => ⟨S50000x768, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x160, .f32⟩
  | 9 => ⟨S50000x160, .f32⟩
  | 10 => ⟨S50000x160, .f32⟩
  | 11 => ⟨S_, .i32⟩
  | 12 => ⟨S800000, .i32⟩
  | 13 => ⟨S800000, .i1⟩
  | 14 => ⟨S800000, .f32⟩
  | 15 => ⟨S1x160x160, .f32⟩
  | 16 => ⟨S160x160, .f32⟩
  | 17 => ⟨S50000x160, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x160, .f32⟩
  | 27 => ⟨S800000x1, .f32⟩
  | 28 => ⟨S800000x160, .f32⟩
  | 29 => ⟨S800000x160, .f32⟩
  | 30 => ⟨S_, .f32⟩
  | 31 => ⟨S50000x160, .f32⟩
  | 32 => ⟨S800000x1, .i32⟩
  | 33 => ⟨S50000x160, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x160, .f32⟩
  | 43 => ⟨S50000x160, .f32⟩
  | 44 => ⟨S50000x160, .f32⟩
  | 45 => ⟨S50000x160, .f32⟩
  | 46 => ⟨S1x160, .f32⟩
  | 47 => ⟨S50000x160, .f32⟩
  | 48 => ⟨S50000x160, .f32⟩
  | 49 => ⟨S_, .i32⟩
  | 50 => ⟨S800000, .i32⟩
  | 51 => ⟨S800000, .i1⟩
  | 52 => ⟨S800000, .f32⟩
  | 53 => ⟨S1x160x160, .f32⟩
  | 54 => ⟨S160x160, .f32⟩
  | 55 => ⟨S50000x160, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x160, .f32⟩
  | 65 => ⟨S800000x1, .f32⟩
  | 66 => ⟨S800000x160, .f32⟩
  | 67 => ⟨S800000x160, .f32⟩
  | 68 => ⟨S_, .f32⟩
  | 69 => ⟨S50000x160, .f32⟩
  | 70 => ⟨S800000x1, .i32⟩
  | 71 => ⟨S50000x160, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x160, .f32⟩
  | 81 => ⟨S50000x160, .f32⟩
  | 82 => ⟨S50000x160, .f32⟩
  | 83 => ⟨S_, .i32⟩
  | 84 => ⟨S800000, .i32⟩
  | 85 => ⟨S800000, .i1⟩
  | 86 => ⟨S800000, .f32⟩
  | 87 => ⟨S1x160x160, .f32⟩
  | 88 => ⟨S160x160, .f32⟩
  | 89 => ⟨S50000x160, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x160, .f32⟩
  | 99 => ⟨S800000x1, .f32⟩
  | 100 => ⟨S800000x160, .f32⟩
  | 101 => ⟨S800000x160, .f32⟩
  | 102 => ⟨S_, .f32⟩
  | 103 => ⟨S50000x160, .f32⟩
  | 104 => ⟨S800000x1, .i32⟩
  | 105 => ⟨S50000x160, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x160, .f32⟩
  | 115 => ⟨S50000x160, .f32⟩
  | 116 => ⟨S50000x160, .f32⟩
  | 117 => ⟨S50000x80, .f32⟩
  | 118 => ⟨S1x80, .f32⟩
  | 119 => ⟨S50000x80, .f32⟩
  | 120 => ⟨S50000x80, .f32⟩
  | 121 => ⟨S_, .f32⟩
  | 122 => ⟨S50000x80, .f32⟩
  | 123 => ⟨S50000x80, .i1⟩
  | 124 => ⟨S_, .f32⟩
  | 125 => ⟨S50000x80, .f32⟩
  | 126 => ⟨S50000x80, .f32⟩
  | 127 => ⟨S50000x80, .f32⟩
  | _ => ⟨S50000x768, .f32⟩

abbrev hbmTy0_2 (i : Nat) : BufTy := match i % 128 with
  | 0 => ⟨S50000x2, .f32⟩
  | 1 => ⟨S1x2, .f32⟩
  | 2 => ⟨S50000x2, .f32⟩
  | 3 => ⟨S50000x2, .f32⟩
  | _ => ⟨S50000x768, .f32⟩

abbrev hbmTy (i : Nat) : BufTy := match i / 128 with
  | 0 => hbmTy0_0 i
  | 1 => hbmTy0_1 i
  | 2 => hbmTy0_2 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_cst_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_v23 : Ref sig .tc := ⟨.hbm, 58, rfl⟩
abbrev main_cst_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_v51 : Ref sig .tc := ⟨.hbm, 92, rfl⟩
abbrev main_cst_10 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_11 : Ref sig .tc := ⟨.hbm, 112, rfl⟩
abbrev main_v69 : Ref sig .tc := ⟨.hbm, 113, rfl⟩
abbrev main_v70 : Ref sig .tc := ⟨.hbm, 114, rfl⟩
abbrev main_c_12 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_13 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_15 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_16 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_17 : Ref sig .tc := ⟨.hbm, 146, rfl⟩
abbrev main_v97 : Ref sig .tc := ⟨.hbm, 147, rfl⟩
abbrev main_v98 : Ref sig .tc := ⟨.hbm, 148, rfl⟩
abbrev main_c_18 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_19 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_20 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_21 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_22 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_c_23 : Ref sig .tc := ⟨.hbm, 184, rfl⟩
abbrev main_v129 : Ref sig .tc := ⟨.hbm, 185, rfl⟩
abbrev main_v130 : Ref sig .tc := ⟨.hbm, 186, rfl⟩
abbrev main_c_24 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_25 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_26 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_27 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_c_28 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_29 : Ref sig .tc := ⟨.hbm, 218, rfl⟩
abbrev main_v157 : Ref sig .tc := ⟨.hbm, 219, rfl⟩
abbrev main_v158 : Ref sig .tc := ⟨.hbm, 220, rfl⟩
abbrev main_c_30 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_31 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_32 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_33 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_34 : Ref sig .tc := ⟨.hbm, 249, rfl⟩
abbrev main_v183 : Ref sig .tc := ⟨.hbm, 250, rfl⟩
abbrev main_v184 : Ref sig .tc := ⟨.hbm, 251, rfl⟩
abbrev main_cst_35 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  concatenates_S50000x32_S50000x32_S50000x32_S50000x32_S50000x32_S50000x160_d1 : Shape.Concatenates [S50000x32, S50000x32, S50000x32, S50000x32, S50000x32] S50000x160 1
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  slices_S2x160x160_S1x160x160_0_0_0 : S2x160x160.Slices ![0, 0, 0] S1x160x160
  shapeCasts_S1x160x160_S160x160 : S1x160x160.ShapeCasts S160x160
  bcast_S800000_S800000x1_0 : S800000.BroadcastsInDim S800000x1 (![0] : Fin 1 → Fin S800000x1.rank)
  bcast_S800000x1_S800000x160_0_1 : S800000x1.BroadcastsInDim S800000x160 (![0, 1] : Fin 2 → Fin S800000x160.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x160_0_1 : S50000x1.BroadcastsInDim S50000x160 (![0, 1] : Fin 2 → Fin S50000x160.rank)
  slices_S2x160x160_S1x160x160_1_0_0 : S2x160x160.Slices ![1, 0, 0] S1x160x160
  bcast_S80_S1x80_1 : S80.BroadcastsInDim S1x80 (![1] : Fin 1 → Fin S1x80.rank)
  bcast_S1x80_S50000x80_0_1 : S1x80.BroadcastsInDim S50000x80 (![0, 1] : Fin 2 → Fin S50000x80.rank)
  bcast_S_S50000x80 : S_.BroadcastsInDim S50000x80 (![] : Fin 0 → Fin S50000x80.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x6_S6x32_S50000x32_1_0_0_1_n_n_wf : DotDims.WF S50000x6 S6x32 S50000x32 [1] [0] [0] [1] [] []
  dot_S50000x11_S11x32_S50000x32_1_0_0_1_n_n_wf : DotDims.WF S50000x11 S11x32 S50000x32 [1] [0] [0] [1] [] []
  dot_S50000x768_S768x32_S50000x32_1_0_0_1_n_n_wf : DotDims.WF S50000x768 S768x32 S50000x32 [1] [0] [0] [1] [] []
  dot_S50000x160_S160x160_S50000x160_1_0_0_1_n_n_wf : DotDims.WF S50000x160 S160x160 S50000x160 [1] [0] [0] [1] [] []
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  scatter_S50000_S800000x1_S800000_n_0_0_1_wf : ScatterDims.WF S50000 S800000x1 S800000 [] [0] [0] 1
  dot_S50000x160_S160x80_S50000x80_1_0_0_1_n_n_wf : DotDims.WF S50000x160 S160x80 S50000x80 [1] [0] [0] [1] [] []
  dot_S50000x80_S80x2_S50000x2_1_0_0_1_n_n_wf : DotDims.WF S50000x80 S80x2 S50000x2 [1] [0] [0] [1] [] []

variable [Facts₀]

def dot_S50000x6_S6x32_S50000x32_1_0_0_1_n_n : DotDims S50000x6 S6x32 S50000x32 where
  lhsContracting := [1]
  rhsContracting := [0]
  lhsNonContracting := [0]
  rhsNonContracting := [1]
  lhsBatch := []
  rhsBatch := []
  wf := dot_S50000x6_S6x32_S50000x32_1_0_0_1_n_n_wf
def dot_S50000x11_S11x32_S50000x32_1_0_0_1_n_n : DotDims S50000x11 S11x32 S50000x32 where
  lhsContracting := [1]
  rhsContracting := [0]
  lhsNonContracting := [0]
  rhsNonContracting := [1]
  lhsBatch := []
  rhsBatch := []
  wf := dot_S50000x11_S11x32_S50000x32_1_0_0_1_n_n_wf
def dot_S50000x768_S768x32_S50000x32_1_0_0_1_n_n : DotDims S50000x768 S768x32 S50000x32 where
  lhsContracting := [1]
  rhsContracting := [0]
  lhsNonContracting := [0]
  rhsNonContracting := [1]
  lhsBatch := []
  rhsBatch := []
  wf := dot_S50000x768_S768x32_S50000x32_1_0_0_1_n_n_wf
def dot_S50000x160_S160x160_S50000x160_1_0_0_1_n_n : DotDims S50000x160 S160x160 S50000x160 where
  lhsContracting := [1]
  rhsContracting := [0]
  lhsNonContracting := [0]
  rhsNonContracting := [1]
  lhsBatch := []
  rhsBatch := []
  wf := dot_S50000x160_S160x160_S50000x160_1_0_0_1_n_n_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x160_S160x80_S50000x80_1_0_0_1_n_n : DotDims S50000x160 S160x80 S50000x80 where
  lhsContracting := [1]
  rhsContracting := [0]
  lhsNonContracting := [0]
  rhsNonContracting := [1]
  lhsBatch := []
  rhsBatch := []
  wf := dot_S50000x160_S160x80_S50000x80_1_0_0_1_n_n_wf
def dot_S50000x80_S80x2_S50000x2_1_0_0_1_n_n : DotDims S50000x80 S80x2 S50000x2 where
  lhsContracting := [1]
  rhsContracting := [0]
  lhsNonContracting := [0]
  rhsNonContracting := [1]
  lhsBatch := []
  rhsBatch := []
  wf := dot_S50000x80_S80x2_S50000x2_1_0_0_1_n_n_wf

class Facts : Prop extends Facts₀ where

variable [Facts]
-- ==== Proof.Spec.lean ====
/-
  The mathematics both programs compute, stated once over plain index functions (rows as `Fin n → EReal`,
  arrays as `Fin a → Fin b → EReal`), with no reference to either printed program.

  Node features go through five small dense layers with a leaky rectifier, are concatenated to a row of 160,
  and pass one more dense layer: `enc`.  A relational graph layer then adds to the root transform
  `h W_root + b` one mean-aggregated message term per relation.  The two programs arrange that term
  differently:
    * `layerK` sums the raw neighbour rows first, grouped by the combined key `relation · 50000 + destination`,
      scales the sum by the reciprocal of the clipped neighbour count, and only then applies the relation's matrix;
    * `layerR` applies the relation's matrix to every neighbour row first, masks by relation, sums by destination
      and divides by the clipped count.
  `Bridge.lean` proves the two equal on real-valued features.  Two such layers and a two-stage dense head follow.
-/
import Idealize.ShloMosaic.PureOps.Ideal
import Idealize.ShloMosaic.Lib.ValueIdx

noncomputable section

namespace Cert.Spec

open Idealize.ShloMosaic

/-- The rectifier's slope on the negative side, the f32 word both programs carry. -/
def slope : EReal := Ideal.ofBits .f32 0x3C23D70A#32
/-- The f32 zero word. -/
def zeroE : EReal := Ideal.ofBits .f32 0x00000000#32
/-- The f32 one word. -/
def oneE : EReal := Ideal.ofBits .f32 0x3F800000#32

/-- The leaky rectifier as both programs spell it: `v` where `v ≥ 0`, else `slope · v`. -/
def lrelu (v : EReal) : EReal :=
  Scalar.select (FloatOps.cmpf (F := Ideal) (φ := .f32) .oge v zeroE) v (slope * v)

/-- One output entry of a matrix product: `∑ₖ x k · W k q`. -/
def dot {K M : ℕ} (x : Fin K → EReal) (W : Fin K → Fin M → EReal) (q : Fin M) : EReal :=
  ∑ k : Fin K, x k * W k q

/-- A dense layer's entry: the product plus the bias. -/
def lin {K M : ℕ} (x : Fin K → EReal) (W : Fin K → Fin M → EReal) (b : Fin M → EReal) (q : Fin M) : EReal :=
  dot x W q + b q

/-- Five rows of 32 laid side by side: entry `k` is entry `k % 32` of piece `k / 32`. -/
def hcat (p : Fin 5 → Fin 32 → EReal) (k : Fin 160) : EReal :=
  p ⟨k.val / 32, by omega⟩ ⟨k.val % 32, by omega⟩

/-- The five encoders of one node, each a dense layer and a rectifier. -/
def encParts (np : Fin 6 → EReal) (nc : Fin 11 → EReal) (des tw pre : Fin 768 → EReal)
    (Wnp : Fin 6 → Fin 32 → EReal) (bnp : Fin 32 → EReal) (Wnc : Fin 11 → Fin 32 → EReal) (bnc : Fin 32 → EReal)
    (Wdes : Fin 768 → Fin 32 → EReal) (bdes : Fin 32 → EReal) (Wtext : Fin 768 → Fin 32 → EReal) (btext : Fin 32 → EReal)
    (Wtweet : Fin 768 → Fin 32 → EReal) (btweet : Fin 32 → EReal) : Fin 5 → Fin 32 → EReal
  | ⟨0, _⟩ => fun q => lrelu (lin np Wnp bnp q)
  | ⟨1, _⟩ => fun q => lrelu (lin nc Wnc bnc q)
  | ⟨2, _⟩ => fun q => lrelu (lin des Wdes bdes q)
  | ⟨3, _⟩ => fun q => lrelu (lin tw Wtext btext q)
  | ⟨_ + 4, _⟩ => fun q => lrelu (lin pre Wtweet btweet q)

/-- One node's encoded row: the five encoders side by side, a dense layer of 160, a rectifier. -/
def enc (np : Fin 6 → EReal) (nc : Fin 11 → EReal) (des tw pre : Fin 768 → EReal)
    (Wnp : Fin 6 → Fin 32 → EReal) (bnp : Fin 32 → EReal) (Wnc : Fin 11 → Fin 32 → EReal) (bnc : Fin 32 → EReal)
    (Wdes : Fin 768 → Fin 32 → EReal) (bdes : Fin 32 → EReal) (Wtext : Fin 768 → Fin 32 → EReal) (btext : Fin 32 → EReal)
    (Wtweet : Fin 768 → Fin 32 → EReal) (btweet : Fin 32 → EReal)
    (Win : Fin 160 → Fin 160 → EReal) (bin : Fin 160 → EReal) (q : Fin 160) : EReal :=
  lrelu (lin (hcat (encParts np nc des tw pre Wnp bnp Wnc bnc Wdes bdes Wtext btext Wtweet btweet)) Win bin q)

section Layer

/- The graph as both programs read it: `row e` the source node of edge `e` (after the gather's own index
   handling), `dstZ e` its destination read as a signed integer, `segZ e` the combined key
   `relation · 50000 + destination` as the 32-bit arithmetic yields it, read signed. -/
variable (row : Fin 800000 → Fin 50000) (dstZ segZ : Fin 800000 → ℤ)

/-- How many edges of mask `m` arrive at node `i` (a sum of the mask over the edges whose destination is `i`). -/
def cnt (m : Fin 800000 → EReal) (i : Fin 50000) : EReal :=
  zeroE + ∑ e ∈ Finset.univ.filter (fun e => dstZ e = (i.val : ℤ)), m e

/-- The count clipped below at one. -/
def cnt1 (m : Fin 800000 → EReal) (i : Fin 50000) : EReal := max (cnt dstZ m i) oneE

/-- Sum-then-scale: the neighbour rows whose combined key is `r · 50000 + i`, summed, times the reciprocal of the
    clipped count. -/
def aggK (h : Fin 50000 → Fin 160 → EReal) (r : ℕ) (m : Fin 800000 → EReal) (i : Fin 50000) (k : Fin 160) : EReal :=
  (zeroE + ∑ e ∈ Finset.univ.filter (fun e => segZ e = ((r * 50000 + i.val : ℕ) : ℤ)), h (row e) k)
    * Ideal.div oneE (cnt1 dstZ m i)

/-- The layer, aggregate first and transform after. -/
def layerK (m0 m1 : Fin 800000 → EReal) (h : Fin 50000 → Fin 160 → EReal)
    (Wroot : Fin 160 → Fin 160 → EReal) (b : Fin 160 → EReal) (W0 W1 : Fin 160 → Fin 160 → EReal)
    (i : Fin 50000) (j : Fin 160) : EReal :=
  (lin (h i) Wroot b j + dot (aggK row dstZ segZ h 0 m0 i) W0 j) + dot (aggK row dstZ segZ h 1 m1 i) W1 j

/-- Transform-then-sum: every neighbour's transformed entry, masked, summed by destination, over the clipped count. -/
def msgR (h : Fin 50000 → Fin 160 → EReal) (W : Fin 160 → Fin 160 → EReal) (m : Fin 800000 → EReal)
    (i : Fin 50000) (j : Fin 160) : EReal :=
  Ideal.div (zeroE + ∑ e ∈ Finset.univ.filter (fun e => dstZ e = (i.val : ℤ)), dot (h (row e)) W j * m e)
    (cnt1 dstZ m i)

/-- The layer, transform first and aggregate after. -/
def layerR (m0 m1 : Fin 800000 → EReal) (h : Fin 50000 → Fin 160 → EReal)
    (Wroot : Fin 160 → Fin 160 → EReal) (b : Fin 160 → EReal) (W0 W1 : Fin 160 → Fin 160 → EReal)
    (i : Fin 50000) (j : Fin 160) : EReal :=
  (lin (h i) Wroot b j + msgR row dstZ h W0 m0 i j) + msgR row dstZ h W1 m1 i j

end Layer

/-- The head's hidden row. -/
def headEm (h : Fin 160 → EReal) (Wo1 : Fin 160 → Fin 80 → EReal) (bo1 : Fin 80 → EReal) (q : Fin 80) : EReal :=
  lrelu (lin h Wo1 bo1 q)

/-- The head's output row. -/
def headOut (h : Fin 160 → EReal) (Wo1 : Fin 160 → Fin 80 → EReal) (bo1 : Fin 80 → EReal)
    (Wo2 : Fin 80 → Fin 2 → EReal) (bo2 : Fin 2 → EReal) (q : Fin 2) : EReal :=
  lin (headEm h Wo1 bo1) Wo2 bo2 q

/-- An extended real that is a real number. -/
def IsReal (x : EReal) : Prop := ∃ r : ℝ, x = (r : EReal)

end Cert.Spec

end
-- ==== Proof.Whole.lean ====
/-
  The whole computation of each program as a function of the argument arrays, over the index-level mathematics of
  `Spec.lean`.  `Args` holds the arguments as plain index functions; `emK` / `outK` is the arrangement that sums
  neighbour rows before the relation matrices, `emR` / `outR` the one that applies the matrices first.  The edge data
  are read as the programs read them: the source word, shifted by 50000 when negative and then clipped to the table's
  rows; the destination and the combined key as signed integers; the relation masks as 0 / 1.
-/
import proofs.«426156_j28432683499969_3_alg».proof.Proof.Spec

noncomputable section

namespace Cert.Spec

open Idealize.ShloMosaic

/-- The table row a source word selects: a negative word is shifted up by 50000 first, and the result, read
    signed, is clipped to the last row. -/
def rowOf (s : BitVec 32) : Fin 50000 :=
  let s' : BitVec 32 := if s.toInt < 0 then s + 50000#32 else s
  ⟨min s'.toInt.toNat 49999, by omega⟩

/-- The relation mask of an edge: one when its relation word is `r`, else zero. -/
def maskOf (r t : BitVec 32) : EReal := if t = r then ((1 : ℝ) : EReal) else ((0 : ℝ) : EReal)

/-- The arguments as index functions. -/
structure Args where
  preX : Fin 50000 → Fin 768 → EReal
  des : Fin 50000 → Fin 768 → EReal
  tw : Fin 50000 → Fin 768 → EReal
  np : Fin 50000 → Fin 6 → EReal
  nc : Fin 50000 → Fin 11 → EReal
  src : Fin 800000 → BitVec 32
  dst : Fin 800000 → BitVec 32
  ty : Fin 800000 → BitVec 32
  Wnp : Fin 6 → Fin 32 → EReal
  bnp : Fin 32 → EReal
  Wnc : Fin 11 → Fin 32 → EReal
  bnc : Fin 32 → EReal
  Wdes : Fin 768 → Fin 32 → EReal
  bdes : Fin 32 → EReal
  Wtext : Fin 768 → Fin 32 → EReal
  btext : Fin 32 → EReal
  Wtweet : Fin 768 → Fin 32 → EReal
  btweet : Fin 32 → EReal
  Win : Fin 160 → Fin 160 → EReal
  bin : Fin 160 → EReal
  Wrel1 : Fin 2 → Fin 160 → Fin 160 → EReal
  Wroot1 : Fin 160 → Fin 160 → EReal
  bconv1 : Fin 160 → EReal
  Wrel2 : Fin 2 → Fin 160 → Fin 160 → EReal
  Wroot2 : Fin 160 → Fin 160 → EReal
  bconv2 : Fin 160 → EReal
  Wo1 : Fin 160 → Fin 80 → EReal
  bo1 : Fin 80 → EReal
  Wo2 : Fin 80 → Fin 2 → EReal
  bo2 : Fin 2 → EReal

namespace Args

variable (a : Args)

def row (e : Fin 800000) : Fin 50000 := rowOf (a.src e)
def dstZ (e : Fin 800000) : ℤ := (a.dst e).toInt
def segZ (e : Fin 800000) : ℤ := (a.ty e * 50000#32 + a.dst e).toInt
def m0 (e : Fin 800000) : EReal := maskOf 0#32 (a.ty e)
def m1 (e : Fin 800000) : EReal := maskOf 1#32 (a.ty e)

/-- The encoded node features. -/
def h0 (i : Fin 50000) (q : Fin 160) : EReal :=
  enc (a.np i) (a.nc i) (a.des i) (a.tw i) (a.preX i) a.Wnp a.bnp a.Wnc a.bnc a.Wdes a.bdes a.Wtext a.btext
    a.Wtweet a.btweet a.Win a.bin q

def h1K : Fin 50000 → Fin 160 → EReal :=
  layerK a.row a.dstZ a.segZ a.m0 a.m1 a.h0 a.Wroot1 a.bconv1 (a.Wrel1 0) (a.Wrel1 1)
def h2K : Fin 50000 → Fin 160 → EReal :=
  layerK a.row a.dstZ a.segZ a.m0 a.m1 a.h1K a.Wroot2 a.bconv2 (a.Wrel2 0) (a.Wrel2 1)
def emK (i : Fin 50000) (q : Fin 80) : EReal := headEm (a.h2K i) a.Wo1 a.bo1 q
def outK (i : Fin 50000) (q : Fin 2) : EReal := headOut (a.h2K i) a.Wo1 a.bo1 a.Wo2 a.bo2 q

def h1R : Fin 50000 → Fin 160 → EReal :=
  layerR a.row a.dstZ a.m0 a.m1 a.h0 a.Wroot1 a.bconv1 (a.Wrel1 0) (a.Wrel1 1)
def h2R : Fin 50000 → Fin 160 → EReal :=
  layerR a.row a.dstZ a.m0 a.m1 a.h1R a.Wroot2 a.bconv2 (a.Wrel2 0) (a.Wrel2 1)
def emR (i : Fin 50000) (q : Fin 80) : EReal := headEm (a.h2R i) a.Wo1 a.bo1 q
def outR (i : Fin 50000) (q : Fin 2) : EReal := headOut (a.h2R i) a.Wo1 a.bo1 a.Wo2 a.bo2 q

/-- What the precondition gives: every float argument is real-valued, every destination word is a node
    (`0 ≤ dst < 50000`) and every relation word is `0` or `1`. -/
structure Good : Prop where
  preX : ∀ i k, IsReal (a.preX i k)
  des : ∀ i k, IsReal (a.des i k)
  tw : ∀ i k, IsReal (a.tw i k)
  np : ∀ i k, IsReal (a.np i k)
  nc : ∀ i k, IsReal (a.nc i k)
  Wnp : ∀ k q, IsReal (a.Wnp k q)
  bnp : ∀ q, IsReal (a.bnp q)
  Wnc : ∀ k q, IsReal (a.Wnc k q)
  bnc : ∀ q, IsReal (a.bnc q)
  Wdes : ∀ k q, IsReal (a.Wdes k q)
  bdes : ∀ q, IsReal (a.bdes q)
  Wtext : ∀ k q, IsReal (a.Wtext k q)
  btext : ∀ q, IsReal (a.btext q)
  Wtweet : ∀ k q, IsReal (a.Wtweet k q)
  btweet : ∀ q, IsReal (a.btweet q)
  Win : ∀ k q, IsReal (a.Win k q)
  bin : ∀ q, IsReal (a.bin q)
  Wrel1 : ∀ r k q, IsReal (a.Wrel1 r k q)
  Wroot1 : ∀ k q, IsReal (a.Wroot1 k q)
  bconv1 : ∀ q, IsReal (a.bconv1 q)
  Wrel2 : ∀ r k q, IsReal (a.Wrel2 r k q)
  Wroot2 : ∀ k q, IsReal (a.Wroot2 k q)
  bconv2 : ∀ q, IsReal (a.bconv2 q)
  dst_lo : ∀ e, 0 ≤ (a.dst e).toInt
  dst_hi : ∀ e, (a.dst e).toInt < 50000
  ty_lo : ∀ e, 0 ≤ (a.ty e).toInt
  ty_hi : ∀ e, (a.ty e).toInt < 2

end Args

end Cert.Spec

end
-- ==== Proof.ArgsK.lean ====
/-
  The arguments of `KernelIdeal`'s @main on one core, read off a launch memory as the index functions of `Spec.Args`:
  matrices by row and column, biases by entry, the edge list's two rows and the relation words by edge.
-/
import proofs.«426156_j28432683499969_3_alg».proof.KernelIdeal
import proofs.«426156_j28432683499969_3_alg».proof.Proof.Whole

noncomputable section

namespace Cert.KernelIdeal

open Idealize.ShloMosaic Idealize.ShloMosaic.ValueIdx Idealize.SL.Sem

/-- The argument arrays of core `c` in the memory `m`, as `Spec.Args`. -/
def argsOf (m : (ℓ : Loc nD τ sig) → Buf (Elt Ideal) ℓ) (c : Dev nD) : Cert.Spec.Args where
  preX := fun i k => m ((c.tc : Thread nD τ).loc main_arg0) (ix2 i k)
  des := fun i k => m ((c.tc : Thread nD τ).loc main_arg6) (ix2 i k)
  tw := fun i k => m ((c.tc : Thread nD τ).loc main_arg7) (ix2 i k)
  np := fun i k => m ((c.tc : Thread nD τ).loc main_arg4) (ix2 i k)
  nc := fun i k => m ((c.tc : Thread nD τ).loc main_arg5) (ix2 i k)
  src := fun e => m ((c.tc : Thread nD τ).loc main_arg2) (ix2 (0 : Fin 2) e)
  dst := fun e => m ((c.tc : Thread nD τ).loc main_arg2) (ix2 (1 : Fin 2) e)
  ty := fun e => m ((c.tc : Thread nD τ).loc main_arg3) (ix1 e)
  Wnp := fun k q => m ((c.tc : Thread nD τ).loc main_arg8) (ix2 k q)
  bnp := fun q => m ((c.tc : Thread nD τ).loc main_arg9) (ix1 q)
  Wnc := fun k q => m ((c.tc : Thread nD τ).loc main_arg10) (ix2 k q)
  bnc := fun q => m ((c.tc : Thread nD τ).loc main_arg11) (ix1 q)
  Wdes := fun k q => m ((c.tc : Thread nD τ).loc main_arg12) (ix2 k q)
  bdes := fun q => m ((c.tc : Thread nD τ).loc main_arg13) (ix1 q)
  Wtext := fun k q => m ((c.tc : Thread nD τ).loc main_arg14) (ix2 k q)
  btext := fun q => m ((c.tc : Thread nD τ).loc main_arg15) (ix1 q)
  Wtweet := fun k q => m ((c.tc : Thread nD τ).loc main_arg16) (ix2 k q)
  btweet := fun q => m ((c.tc : Thread nD τ).loc main_arg17) (ix1 q)
  Win := fun k q => m ((c.tc : Thread nD τ).loc main_arg18) (ix2 k q)
  bin := fun q => m ((c.tc : Thread nD τ).loc main_arg19) (ix1 q)
  Wrel1 := fun r k q => m ((c.tc : Thread nD τ).loc main_arg20) (ix3 r k q)
  Wroot1 := fun k q => m ((c.tc : Thread nD τ).loc main_arg21) (ix2 k q)
  bconv1 := fun q => m ((c.tc : Thread nD τ).loc main_arg22) (ix1 q)
  Wrel2 := fun r k q => m ((c.tc : Thread nD τ).loc main_arg23) (ix3 r k q)
  Wroot2 := fun k q => m ((c.tc : Thread nD τ).loc main_arg24) (ix2 k q)
  bconv2 := fun q => m ((c.tc : Thread nD τ).loc main_arg25) (ix1 q)
  Wo1 := fun k q => m ((c.tc : Thread nD τ).loc main_arg26) (ix2 k q)
  bo1 := fun q => m ((c.tc : Thread nD τ).loc main_arg27) (ix1 q)
  Wo2 := fun k q => m ((c.tc : Thread nD τ).loc main_arg28) (ix2 k q)
  bo2 := fun q => m ((c.tc : Thread nD τ).loc main_arg29) (ix1 q)

end Cert.KernelIdeal

end
-- ==== Proof.KFoldHead.lean ====
/-
  The buffer contents at the boundaries of the kernel program's last region (the output head), read off the fold
  through the program's segments.  Each of the two results ends at what the head region's write-backs leave.  Of the
  head's five inputs, the node rows are what the second graph layer's write-backs left, the two matrices are as
  launched, and the two bias rows are the launched bias vectors laid out as one row each by the two reshapes that
  run between the layer and the head: entry `(0, q)` of the row is entry `q` of the vector.
-/
import proofs.«426156_j28432683499969_3_alg».proof.Proof.Gen.KernelIdeal.Frame
import Idealize.ShloMosaic.Lib.ValueIdx
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

/-! ## The two result buffers at the end of the run -/

/-- The first result (the head's output rows) ends at what region 3's write-backs of window 6 leave. -/
theorem W8_main_v90_1 (c : Dev nD) :
    W8 m ρ c (Proc.devRef .tc main_v90_1) = (dat3 (V7 m ρ) c).arrAt 6 cfg3.N := W8_arr m ρ c 6
/-- The second result (the head's hidden rows) ends at what region 3's write-backs of window 5 leave. -/
theorem W8_main_v90_0 (c : Dev nD) :
    W8 m ρ c (Proc.devRef .tc main_v90_0) = (dat3 (V7 m ρ) c).arrAt 5 cfg3.N := W8_arr m ρ c 5

/-! ## What region 3 finds in its input arrays -/

/-- The node rows region 3 reads are what region 2's write-backs of window 7 left: the two reshapes between the
    regions do not write that buffer. -/
theorem V7_main_v87 (c : Dev nD) : V7 m ρ c main_v87 = (dat2 (V5 m ρ) c).arrAt 7 cfg2.N :=
  calc V7 m ρ c main_v87
    _ = W6 m ρ c (Proc.devRef .tc main_v87) := StableHlo.after_of_forall_not_mem (b := Proc.devRef .tc main_v87) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (V5 m ρ) c).arrAt 7 cfg2.N := W6_arr m ρ c 7

/-- The head's first matrix is as launched: no host operation and no region writes it. -/
theorem V7_main_arg26 (c : Dev nD) : V7 m ρ c main_arg26 = m ((c : Thread nD τ).loc main_arg26) :=
  calc V7 m ρ c main_arg26
    _ = W6 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl
/-- The head's second matrix is as launched. -/
theorem V7_main_arg28 (c : Dev nD) : V7 m ρ c main_arg28 = m ((c : Thread nD τ).loc main_arg28) :=
  calc V7 m ρ c main_arg28
    _ = W6 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg28) := rfl

/-- The head's first bias, before the reshapes, is as launched. -/
theorem W6_main_arg27 (c : Dev nD) : W6 m ρ c (Proc.devRef .tc main_arg27) = m ((c : Thread nD τ).loc main_arg27) :=
  calc W6 m ρ c (Proc.devRef .tc main_arg27)
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl
/-- The head's second bias, before the reshapes, is as launched. -/
theorem W6_main_arg29 (c : Dev nD) : W6 m ρ c (Proc.devRef .tc main_arg29) = m ((c : Thread nD τ).loc main_arg29) :=
  calc W6 m ρ c (Proc.devRef .tc main_arg29)
    _ = W5 m ρ c (Proc.devRef .tc main_arg29) := W6_of_ne m ρ c main_arg29 (by decide)
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg29) := rfl

/-- The first bias row region 3 reads is the launched bias vector laid out as one row of 80. -/
theorem V7_main_v88 (c : Dev nD) :
    (V7 m ρ c main_v88 : S1x80.Idx → Elt F .f32)
      = shapeCast S1x80 (m ((c : Thread nD τ).loc main_arg27) : S80.Idx → Elt F .f32) shapeCasts_S80_S1x80 := by
  rw [← W6_main_arg27 m ρ c]
  show StableHlo.after hostOps3 _ (Proc.devRef .tc main_v88) = _
  after_results
  rfl
/-- The second bias row region 3 reads is the launched bias vector laid out as one row of 2. -/
theorem V7_main_v89 (c : Dev nD) :
    (V7 m ρ c main_v89 : S1x2.Idx → Elt F .f32)
      = shapeCast S1x2 (m ((c : Thread nD τ).loc main_arg29) : S2.Idx → Elt F .f32) shapeCasts_S2_S1x2 := by
  rw [← W6_main_arg29 m ρ c]
  show StableHlo.after hostOps3 _ (Proc.devRef .tc main_v89) = _
  after_results
  rfl

/-- The first bias row at an index: entry `(0, q)` is entry `q` of the launched vector. -/
theorem V7_main_v88_apply (c : Dev nD) (q : Fin 80) :
    (V7 m ρ c main_v88 : S1x80.Idx → Elt F .f32) (ix2 0 q)
      = (m ((c : Thread nD τ).loc main_arg27) : S80.Idx → Elt F .f32) (ix1 q) := by
  rw [V7_main_v88]
  refine shapeCast_apply (s := S80) (t := S1x80) _ _ _ _ ?_
  rw [Shape.rowMajor_val_one, Shape.rowMajor_val_two]
  show q.val = 0 * 80 + q.val
  omega
/-- The second bias row at an index: entry `(0, q)` is entry `q` of the launched vector. -/
theorem V7_main_v89_apply (c : Dev nD) (q : Fin 2) :
    (V7 m ρ c main_v89 : S1x2.Idx → Elt F .f32) (ix2 0 q)
      = (m ((c : Thread nD τ).loc main_arg29) : S2.Idx → Elt F .f32) (ix1 q) := by
  rw [V7_main_v89]
  refine shapeCast_apply (s := S2) (t := S1x2) _ _ _ _ ?_
  rw [Shape.rowMajor_val_one, Shape.rowMajor_val_two]
  show q.val = 0 * 2 + q.val
  omega

end Cert.KernelIdeal.Fold

end
-- ==== Proof.KAggDefs.lean ====
/-
  The host computation between two kernel regions, as functions of the edge arrays and of the node features.

  From the edge array (row 0 the source words, row 1 the destination words) and the relation words it forms: the two
  relation masks (the relation word compared with 0 and with 1, as floats); each relation's in-degree (its mask summed
  by destination into zeros); the reciprocals of the degrees clipped below at one; the combined key
  `relation · 50000 + destination` in 32-bit arithmetic; the source words with a negative one shifted up by 50000.
  From the node features it then looks up each edge's source row, sums the rows by combined key into a zero array of
  100000 rows, reads that array as two blocks of 50000 rows (one per relation) and scales each block, row by row, by
  the relation's reciprocal clipped degree.  Each definition is the composition of the printed operations' own
  functions, with their own shape and dimension records, at the ideal instance.
-/
import proofs.«426156_j28432683499969_3_alg».proof.KernelIdeal
import Idealize.ShloMosaic.PureOps.Ideal

noncomputable section

open scoped BigOperators

namespace Cert.KernelIdeal.Agg

open Cert.KernelIdeal Idealize.ShloMosaic Idealize.ShloMosaic.StableHlo
open Cert.KernelIdeal.Facts₀ Cert.KernelIdeal.Facts

variable [Cert.KernelIdeal.Facts]

/-! ## The host stretch between two regions, as functions of the edge arrays and the node features -/

/-- The edges' source words: row 0 of the edge array. -/
def srcT (a2 : IVec S2x800000 32) : IVec S800000 32 :=
  shapeCast S800000 (extractStridedSlice S1x800000 ![0, 0] a2 slices_S2x800000_S1x800000_0_0) shapeCasts_S1x800000_S800000

/-- The edges' destination words: row 1 of the edge array. -/
def dstT (a2 : IVec S2x800000 32) : IVec S800000 32 :=
  shapeCast S800000 (extractStridedSlice S1x800000 ![1, 0] a2 slices_S2x800000_S1x800000_1_0) shapeCasts_S1x800000_S800000

/-- The mask of relation 0: the comparison of the relation words against the zero word, as a float. -/
def maskT0 (a3 : IVec S800000 32) : FVec Ideal S800000 .f32 :=
  uitofp (F := Ideal) .f32 (cmpi .eq a3 (broadcastInDim S800000 ![] bcast_S_S800000 (constantI S_ 32 0#32)))

/-- The mask of relation 1. -/
def maskT1 (a3 : IVec S800000 32) : FVec Ideal S800000 .f32 :=
  uitofp (F := Ideal) .f32 (cmpi .eq a3 (broadcastInDim S800000 ![] bcast_S_S800000 (constantI S_ 32 1#32)))

/-- The destinations as a column of start indices. -/
def dstColT (a2 : IVec S2x800000 32) : IVec S800000x1 32 :=
  broadcastInDim S800000x1 ![0] bcast_S800000_S800000x1_0 (dstT a2)

/-- How many edges of relation 0 arrive at each node: the mask summed by destination into zeros. -/
def cntT0 (a2 : IVec S2x800000 32) (a3 : IVec S800000 32) : FVec Ideal S50000 .f32 :=
  Host.scatterAdd (F := Ideal) scatter_S50000_S800000x1_S800000_n_0_0_1
    (broadcastInDim S50000 ![] bcast_S_S50000 (constant (F := Ideal) S_ .f32 0x00000000#32)) (dstColT a2) (maskT0 a3)

/-- How many edges of relation 1 arrive at each node. -/
def cntT1 (a2 : IVec S2x800000 32) (a3 : IVec S800000 32) : FVec Ideal S50000 .f32 :=
  Host.scatterAdd (F := Ideal) scatter_S50000_S800000x1_S800000_n_0_0_1
    (broadcastInDim S50000 ![] bcast_S_S50000 (constant (F := Ideal) S_ .f32 0x00000000#32)) (dstColT a2) (maskT1 a3)

/-- The reciprocal of relation 0's count clipped below at one. -/
def invT0 (a2 : IVec S2x800000 32) (a3 : IVec S800000 32) : FVec Ideal S50000 .f32 :=
  Host.divf (F := Ideal) (broadcastInDim S50000 ![] bcast_S_S50000 (constant (F := Ideal) S_ .f32 0x3F800000#32))
    (maximumf (F := Ideal) (cntT0 a2 a3) (broadcastInDim S50000 ![] bcast_S_S50000 (constant (F := Ideal) S_ .f32 0x3F800000#32)))

/-- The reciprocal of relation 1's count clipped below at one. -/
def invT1 (a2 : IVec S2x800000 32) (a3 : IVec S800000 32) : FVec Ideal S50000 .f32 :=
  Host.divf (F := Ideal) (broadcastInDim S50000 ![] bcast_S_S50000 (constant (F := Ideal) S_ .f32 0x3F800000#32))
    (maximumf (F := Ideal) (cntT1 a2 a3) (broadcastInDim S50000 ![] bcast_S_S50000 (constant (F := Ideal) S_ .f32 0x3F800000#32)))

/-- The combined key: relation times 50000 plus destination, in 32-bit arithmetic. -/
def segT (a2 : IVec S2x800000 32) (a3 : IVec S800000 32) : IVec S800000 32 :=
  addi (muli a3 (broadcastInDim S800000 ![] bcast_S_S800000 (constantI S_ 32 50000#32))) (dstT a2)

/-- The source words, a negative one shifted up by 50000. -/
def srcNT (a2 : IVec S2x800000 32) : IVec S800000 32 :=
  select (cmpi .slt (srcT a2) (broadcastInDim S800000 ![] bcast_S_S800000 (constantI S_ 32 0#32)))
    (addi (srcT a2) (broadcastInDim S800000 ![] bcast_S_S800000 (constantI S_ 32 50000#32))) (srcT a2)

/-- The neighbour rows: the feature table looked up at the normalised sources. -/
def gathT (h : FVec Ideal S50000x160 .f32) (a2 : IVec S2x800000 32) : FVec Ideal S800000x160 .f32 :=
  Host.gather gather_S50000x160_S800000x1_S800000x160_1_0_n_n_0_1_1160 h
    (broadcastInDim S800000x1 ![0] bcast_S800000_S800000x1_0 (srcNT a2))

/-- The neighbour rows summed by combined key into zeros. -/
def segSumT (h : FVec Ideal S50000x160 .f32) (a2 : IVec S2x800000 32) (a3 : IVec S800000 32) : FVec Ideal S100000x160 .f32 :=
  Host.scatterAdd (F := Ideal) scatter_S100000x160_S800000x1_S800000x160_1_0_0_1
    (broadcastInDim S100000x160 ![] bcast_S_S100000x160 (constant (F := Ideal) S_ .f32 0x00000000#32))
    (broadcastInDim S800000x1 ![0] bcast_S800000_S800000x1_0 (segT a2 a3)) (gathT h a2)

/-- The segment sums as two blocks of 50000 rows, one per relation. -/
def segSum3T (h : FVec Ideal S50000x160 .f32) (a2 : IVec S2x800000 32) (a3 : IVec S800000 32) : FVec Ideal S2x50000x160 .f32 :=
  shapeCast S2x50000x160 (segSumT h a2 a3) shapeCasts_S100000x160_S2x50000x160

/-- Relation 0's aggregate: its block of segment sums times the reciprocal clipped count, row by row. -/
def aggT0 (h : FVec Ideal S50000x160 .f32) (a2 : IVec S2x800000 32) (a3 : IVec S800000 32) : FVec Ideal S50000x160 .f32 :=
  mulf (F := Ideal)
    (shapeCast S50000x160 (extractStridedSlice S1x50000x160 ![0, 0, 0] (segSum3T h a2 a3) slices_S2x50000x160_S1x50000x160_0_0_0) shapeCasts_S1x50000x160_S50000x160)
    (broadcastInDim S50000x160 ![0, 1] bcast_S50000x1_S50000x160_0_1 (broadcastInDim S50000x1 ![0] bcast_S50000_S50000x1_0 (invT0 a2 a3)))

/-- Relation 1's aggregate. -/
def aggT1 (h : FVec Ideal S50000x160 .f32) (a2 : IVec S2x800000 32) (a3 : IVec S800000 32) : FVec Ideal S50000x160 .f32 :=
  mulf (F := Ideal)
    (shapeCast S50000x160 (extractStridedSlice S1x50000x160 ![1, 0, 0] (segSum3T h a2 a3) slices_S2x50000x160_S1x50000x160_1_0_0) shapeCasts_S1x50000x160_S50000x160)
    (broadcastInDim S50000x160 ![0, 1] bcast_S50000x1_S50000x160_0_1 (broadcastInDim S50000x1 ![0] bcast_S50000_S50000x1_0 (invT1 a2 a3)))

end Cert.KernelIdeal.Agg

end
-- ==== Proof.KFold1.lean ====
/-
  What the encoder and the first graph layer find in their input arrays, read back through the run to the launch
  memory.

  Before the encoder the program only reshapes the six bias vectors to one-row matrices; every other input of the
  encoder is an argument, untouched.  Between the encoder and the first layer it forms, from the edge arrays and the
  encoder's output, the two scaled relation aggregates, and it reshapes the layer's bias and cuts the stack of two
  relation matrices into its two matrices; the encoder's output and the root matrix pass through untouched.  Each
  input array of the two regions is stated here as an equation of arrays and, for the reshapes and the cuts, at an
  index.  The edge-derived arrays the second layer reads again (the source words, the combined key, the two
  reciprocal clipped in-degrees) are stated at the first layer's entry as well.
-/
import proofs.«426156_j28432683499969_3_alg».proof.Proof.Gen.KernelIdeal.Frame
import proofs.«426156_j28432683499969_3_alg».proof.Proof.KAggDefs
import Idealize.ShloMosaic.Lib.ValueIdx
import Idealize.ShloMosaic.Lib.Pipeline.Value
import Idealize.ShloMosaic.Lib.ValueLayout

set_option maxRecDepth 16384

noncomputable section
namespace Cert.KernelIdeal.Fold

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## Cutting one matrix out of a stack, at an index -/

/-- A stack of matrices cut to its first: entry `(0, k, q)` of the cut is entry `(0, k, q)` of the stack. -/
theorem slice3_first_apply {n a b : Nat} (X : (⟨3, ![n, a, b]⟩ : Shape).Idx → EReal)
    (h : (⟨3, ![n, a, b]⟩ : Shape).Slices ![0, 0, 0] ⟨3, ![1, a, b]⟩) (r : Fin n) (hr : r.val = 0) (k : Fin a) (q : Fin b) :
    extractStridedSlice ⟨3, ![1, a, b]⟩ ![0, 0, 0] X h (ix3 0 k q) = X (ix3 r k q) :=
  extractStridedSlice_apply _ _ _ _ _ (fun ax => by
    match ax with
    | ⟨0, _⟩ => exact hr.trans (Nat.zero_add _).symm
    | ⟨1, _⟩ => exact (Nat.zero_add _).symm
    | ⟨2, _⟩ => exact (Nat.zero_add _).symm)

/-- The same stack cut to its second matrix: entry `(0, k, q)` of the cut is entry `(1, k, q)` of the stack. -/
theorem slice3_second_apply {n a b : Nat} (X : (⟨3, ![n, a, b]⟩ : Shape).Idx → EReal)
    (h : (⟨3, ![n, a, b]⟩ : Shape).Slices ![1, 0, 0] ⟨3, ![1, a, b]⟩) (r : Fin n) (hr : r.val = 1) (k : Fin a) (q : Fin b) :
    extractStridedSlice ⟨3, ![1, a, b]⟩ ![1, 0, 0] X h (ix3 0 k q) = X (ix3 r k q) :=
  extractStridedSlice_apply _ _ _ _ _ (fun ax => by
    match ax with
    | ⟨0, _⟩ => exact hr
    | ⟨1, _⟩ => exact (Nat.zero_add _).symm
    | ⟨2, _⟩ => exact (Nat.zero_add _).symm)

/-! ## The encoder's entry: the six bias reshapes -/

/-- A buffer none of the six bias reshapes writes is, at the encoder's entry, as launched. -/
theorem V1_of_ne (c : Dev nD) (b : Ref sig .tc)
    (hb : b ≠ main_v0 ∧ b ≠ main_v1 ∧ b ≠ main_v2 ∧ b ≠ main_v3 ∧ b ≠ main_v4 ∧ b ≠ main_v5) :
    V1 m ρ c b = m ((c : Thread nD τ).loc b) := by
  obtain ⟨h0, h1, h2, h3, h4, h5⟩ := hb
  refine (StableHlo.after_of_forall_not_mem (b := Proc.devRef .tc b) _ _ (List.forall_iff_forall_mem.mp ?_)).trans rfl
  simp only [hostOps0, List.Forall, StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5⟩

/-! The eleven argument arrays among the encoder's inputs. -/

theorem V1_main_arg4 (c : Dev nD) : V1 m ρ c main_arg4 = m ((c : Thread nD τ).loc main_arg4) := V1_of_ne m ρ c _ (by decide)
theorem V1_main_arg5 (c : Dev nD) : V1 m ρ c main_arg5 = m ((c : Thread nD τ).loc main_arg5) := V1_of_ne m ρ c _ (by decide)
theorem V1_main_arg6 (c : Dev nD) : V1 m ρ c main_arg6 = m ((c : Thread nD τ).loc main_arg6) := V1_of_ne m ρ c _ (by decide)
theorem V1_main_arg7 (c : Dev nD) : V1 m ρ c main_arg7 = m ((c : Thread nD τ).loc main_arg7) := V1_of_ne m ρ c _ (by decide)
theorem V1_main_arg0 (c : Dev nD) : V1 m ρ c main_arg0 = m ((c : Thread nD τ).loc main_arg0) := V1_of_ne m ρ c _ (by decide)
theorem V1_main_arg8 (c : Dev nD) : V1 m ρ c main_arg8 = m ((c : Thread nD τ).loc main_arg8) := V1_of_ne m ρ c _ (by decide)
theorem V1_main_arg10 (c : Dev nD) : V1 m ρ c main_arg10 = m ((c : Thread nD τ).loc main_arg10) := V1_of_ne m ρ c _ (by decide)
theorem V1_main_arg12 (c : Dev nD) : V1 m ρ c main_arg12 = m ((c : Thread nD τ).loc main_arg12) := V1_of_ne m ρ c _ (by decide)
theorem V1_main_arg14 (c : Dev nD) : V1 m ρ c main_arg14 = m ((c : Thread nD τ).loc main_arg14) := V1_of_ne m ρ c _ (by decide)
theorem V1_main_arg16 (c : Dev nD) : V1 m ρ c main_arg16 = m ((c : Thread nD τ).loc main_arg16) := V1_of_ne m ρ c _ (by decide)
theorem V1_main_arg18 (c : Dev nD) : V1 m ρ c main_arg18 = m ((c : Thread nD τ).loc main_arg18) := V1_of_ne m ρ c _ (by decide)

/-! Each bias row is its vector with a unit axis put in front: entry `(0, q)` of the row is entry `q` of the vector. -/

theorem V1_main_v0 (c : Dev nD) :
    (V1 m ρ c main_v0 : S1x32.Idx → EReal)
      = shapeCast S1x32 (m ((c : Thread nD τ).loc main_arg9) : S32.Idx → EReal) shapeCasts_S32_S1x32 := by
  show StableHlo.after hostOps0 _ (Proc.devRef .tc main_v0) = _
  after_results
  rfl
theorem V1_main_v0_apply (c : Dev nD) (q : Fin 32) :
    (V1 m ρ c main_v0 : S1x32.Idx → EReal) (ix2 0 q) = (m ((c : Thread nD τ).loc main_arg9) : S32.Idx → EReal) (ix1 q) := by
  rw [V1_main_v0]; exact shapeCast_a_1a_apply _ _ 0 q
theorem V1_main_v1 (c : Dev nD) :
    (V1 m ρ c main_v1 : S1x32.Idx → EReal)
      = shapeCast S1x32 (m ((c : Thread nD τ).loc main_arg11) : S32.Idx → EReal) shapeCasts_S32_S1x32 := by
  show StableHlo.after hostOps0 _ (Proc.devRef .tc main_v1) = _
  after_results
  rfl
theorem V1_main_v1_apply (c : Dev nD) (q : Fin 32) :
    (V1 m ρ c main_v1 : S1x32.Idx → EReal) (ix2 0 q) = (m ((c : Thread nD τ).loc main_arg11) : S32.Idx → EReal) (ix1 q) := by
  rw [V1_main_v1]; exact shapeCast_a_1a_apply _ _ 0 q
theorem V1_main_v2 (c : Dev nD) :
    (V1 m ρ c main_v2 : S1x32.Idx → EReal)
      = shapeCast S1x32 (m ((c : Thread nD τ).loc main_arg13) : S32.Idx → EReal) shapeCasts_S32_S1x32 := by
  show StableHlo.after hostOps0 _ (Proc.devRef .tc main_v2) = _
  after_results
  rfl
theorem V1_main_v2_apply (c : Dev nD) (q : Fin 32) :
    (V1 m ρ c main_v2 : S1x32.Idx → EReal) (ix2 0 q) = (m ((c : Thread nD τ).loc main_arg13) : S32.Idx → EReal) (ix1 q) := by
  rw [V1_main_v2]; exact shapeCast_a_1a_apply _ _ 0 q
theorem V1_main_v3 (c : Dev nD) :
    (V1 m ρ c main_v3 : S1x32.Idx → EReal)
      = shapeCast S1x32 (m ((c : Thread nD τ).loc main_arg15) : S32.Idx → EReal) shapeCasts_S32_S1x32 := by
  show StableHlo.after hostOps0 _ (Proc.devRef .tc main_v3) = _
  after_results
  rfl
theorem V1_main_v3_apply (c : Dev nD) (q : Fin 32) :
    (V1 m ρ c main_v3 : S1x32.Idx → EReal) (ix2 0 q) = (m ((c : Thread nD τ).loc main_arg15) : S32.Idx → EReal) (ix1 q) := by
  rw [V1_main_v3]; exact shapeCast_a_1a_apply _ _ 0 q
theorem V1_main_v4 (c : Dev nD) :
    (V1 m ρ c main_v4 : S1x32.Idx → EReal)
      = shapeCast S1x32 (m ((c : Thread nD τ).loc main_arg17) : S32.Idx → EReal) shapeCasts_S32_S1x32 := by
  show StableHlo.after hostOps0 _ (Proc.devRef .tc main_v4) = _
  after_results
  rfl
theorem V1_main_v4_apply (c : Dev nD) (q : Fin 32) :
    (V1 m ρ c main_v4 : S1x32.Idx → EReal) (ix2 0 q) = (m ((c : Thread nD τ).loc main_arg17) : S32.Idx → EReal) (ix1 q) := by
  rw [V1_main_v4]; exact shapeCast_a_1a_apply _ _ 0 q
theorem V1_main_v5 (c : Dev nD) :
    (V1 m ρ c main_v5 : S1x160.Idx → EReal)
      = shapeCast S1x160 (m ((c : Thread nD τ).loc main_arg19) : S160.Idx → EReal) shapeCasts_S160_S1x160 := by
  show StableHlo.after hostOps0 _ (Proc.devRef .tc main_v5) = _
  after_results
  rfl
theorem V1_main_v5_apply (c : Dev nD) (q : Fin 160) :
    (V1 m ρ c main_v5 : S1x160.Idx → EReal) (ix2 0 q) = (m ((c : Thread nD τ).loc main_arg19) : S160.Idx → EReal) (ix1 q) := by
  rw [V1_main_v5]; exact shapeCast_a_1a_apply _ _ 0 q

/-! ## The encoder's exit: the arguments it does not touch -/

/-- A buffer that is no array of the encoder and that the bias reshapes do not write is, at the encoder's exit, as
    launched. -/
theorem W2_of_launch (c : Dev nD) (b : Ref sig .tc) (hw : ∀ w, Pipeline.arrRef spec0 w ≠ b)
    (hb : b ≠ main_v0 ∧ b ≠ main_v1 ∧ b ≠ main_v2 ∧ b ≠ main_v3 ∧ b ≠ main_v4 ∧ b ≠ main_v5) :
    W2 m ρ c (Proc.devRef .tc b) = m ((c : Thread nD τ).loc b) :=
  (W2_of_ne m ρ c b hw).trans (V1_of_ne m ρ c b hb)

theorem W2_main_arg2 (c : Dev nD) : W2 m ρ c (Proc.devRef .tc main_arg2) = m ((c : Thread nD τ).loc main_arg2) :=
  W2_of_launch m ρ c _ (by decide) (by decide)
theorem W2_main_arg3 (c : Dev nD) : W2 m ρ c (Proc.devRef .tc main_arg3) = m ((c : Thread nD τ).loc main_arg3) :=
  W2_of_launch m ρ c _ (by decide) (by decide)
theorem W2_main_arg20 (c : Dev nD) : W2 m ρ c (Proc.devRef .tc main_arg20) = m ((c : Thread nD τ).loc main_arg20) :=
  W2_of_launch m ρ c _ (by decide) (by decide)
theorem W2_main_arg21 (c : Dev nD) : W2 m ρ c (Proc.devRef .tc main_arg21) = m ((c : Thread nD τ).loc main_arg21) :=
  W2_of_launch m ρ c _ (by decide) (by decide)
theorem W2_main_arg22 (c : Dev nD) : W2 m ρ c (Proc.devRef .tc main_arg22) = m ((c : Thread nD τ).loc main_arg22) :=
  W2_of_launch m ρ c _ (by decide) (by decide)

/-- The encoder's output array at the encoder's exit is what its pipeline leaves. -/
theorem W2_main_v6 (c : Dev nD) : W2 m ρ c (Proc.devRef .tc main_v6) = (dat0 (V1 m ρ) c).arrAt 17 cfg0.N :=
  W2_arr m ρ c 17

/-! ## The first layer's entry -/

/-- The encoder's output reaches the first layer untouched: the host computation between them does not write it. -/
theorem V3_main_v6 (c : Dev nD) : V3 m ρ c main_v6 = (dat0 (V1 m ρ) c).arrAt 17 cfg0.N := by
  refine Eq.trans ?_ (W2_arr m ρ c 17)
  refine StableHlo.after_of_forall_not_mem (b := Proc.devRef .tc main_v6) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- The root matrix reaches the first layer as launched. -/
theorem V3_main_arg21 (c : Dev nD) : V3 m ρ c main_arg21 = m ((c : Thread nD τ).loc main_arg21) := by
  refine Eq.trans ?_ (W2_main_arg21 m ρ c)
  refine StableHlo.after_of_forall_not_mem (b := Proc.devRef .tc main_arg21) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- The layer's bias row is the bias vector with a unit axis put in front. -/
theorem V3_main_v55 (c : Dev nD) :
    (V3 m ρ c main_v55 : S1x160.Idx → EReal)
      = shapeCast S1x160 (m ((c : Thread nD τ).loc main_arg22) : S160.Idx → EReal) shapeCasts_S160_S1x160 := by
  show StableHlo.after hostOps1 _ (Proc.devRef .tc main_v55) = _
  after_results_simp
  rw [W2_main_arg22]
  rfl
theorem V3_main_v55_apply (c : Dev nD) (q : Fin 160) :
    (V3 m ρ c main_v55 : S1x160.Idx → EReal) (ix2 0 q) = (m ((c : Thread nD τ).loc main_arg22) : S160.Idx → EReal) (ix1 q) := by
  rw [V3_main_v55]; exact shapeCast_a_1a_apply _ _ 0 q

/-- Relation 0's matrix: the first matrix of the stack of two, its unit axis dropped. -/
theorem V3_main_v57 (c : Dev nD) :
    (V3 m ρ c main_v57 : S160x160.Idx → EReal)
      = shapeCast S160x160 (extractStridedSlice S1x160x160 ![0, 0, 0]
          (m ((c : Thread nD τ).loc main_arg20) : S2x160x160.Idx → EReal) slices_S2x160x160_S1x160x160_0_0_0)
          shapeCasts_S1x160x160_S160x160 := by
  show StableHlo.after hostOps1 _ (Proc.devRef .tc main_v57) = _
  after_results_simp
  rw [W2_main_arg20]
  rfl
theorem V3_main_v57_apply (c : Dev nD) (k q : Fin 160) :
    (V3 m ρ c main_v57 : S160x160.Idx → EReal) (ix2 k q)
      = (m ((c : Thread nD τ).loc main_arg20) : S2x160x160.Idx → EReal) (ix3 0 k q) := by
  rw [V3_main_v57]
  exact (shapeCast_1ab_ab_apply _ _ k q).trans (slice3_first_apply _ _ 0 rfl k q)

/-- Relation 1's matrix: the second matrix of the stack. -/
theorem V3_main_v59 (c : Dev nD) :
    (V3 m ρ c main_v59 : S160x160.Idx → EReal)
      = shapeCast S160x160 (extractStridedSlice S1x160x160 ![1, 0, 0]
          (m ((c : Thread nD τ).loc main_arg20) : S2x160x160.Idx → EReal) slices_S2x160x160_S1x160x160_1_0_0)
          shapeCasts_S1x160x160_S160x160 := by
  show StableHlo.after hostOps1 _ (Proc.devRef .tc main_v59) = _
  after_results_simp
  rw [W2_main_arg20]
  rfl
theorem V3_main_v59_apply (c : Dev nD) (k q : Fin 160) :
    (V3 m ρ c main_v59 : S160x160.Idx → EReal) (ix2 k q)
      = (m ((c : Thread nD τ).loc main_arg20) : S2x160x160.Idx → EReal) (ix3 1 k q) := by
  rw [V3_main_v59]
  exact (shapeCast_1ab_ab_apply _ _ k q).trans (slice3_second_apply _ _ 1 rfl k q)

/-! ### The edge-derived arrays, as functions of the edge array and the relation words -/

/-- The source words. -/
theorem W3_main_v8 (c : Dev nD) :
    (W3 m ρ c (Proc.devRef .tc main_v8) : S800000.Idx → BitVec 32) = Agg.srcT (m ((c : Thread nD τ).loc main_arg2)) := by
  show StableHlo.after hostOps1 _ (Proc.devRef .tc main_v8) = _
  after_results_simp
  rw [W2_main_arg2]
  rfl

/-- The combined key. -/
theorem W3_main_v33 (c : Dev nD) :
    (W3 m ρ c (Proc.devRef .tc main_v33) : S800000.Idx → BitVec 32)
      = Agg.segT (m ((c : Thread nD τ).loc main_arg2)) (m ((c : Thread nD τ).loc main_arg3)) := by
  show StableHlo.after hostOps1 _ (Proc.devRef .tc main_v33) = _
  after_results_simp
  rw [W2_main_arg2, W2_main_arg3]
  rfl

/-- Relation 0's reciprocal clipped in-degree. -/
theorem W3_main_v26 (c : Dev nD) :
    (W3 m ρ c (Proc.devRef .tc main_v26) : S50000.Idx → EReal)
      = Agg.invT0 (m ((c : Thread nD τ).loc main_arg2)) (m ((c : Thread nD τ).loc main_arg3)) := by
  show StableHlo.after hostOps1 _ (Proc.devRef .tc main_v26) = _
  after_results_simp
  rw [W2_main_arg2, W2_main_arg3]
  rfl

/-- Relation 1's reciprocal clipped in-degree. -/
theorem W3_main_v30 (c : Dev nD) :
    (W3 m ρ c (Proc.devRef .tc main_v30) : S50000.Idx → EReal)
      = Agg.invT1 (m ((c : Thread nD τ).loc main_arg2)) (m ((c : Thread nD τ).loc main_arg3)) := by
  show StableHlo.after hostOps1 _ (Proc.devRef .tc main_v30) = _
  after_results_simp
  rw [W2_main_arg2, W2_main_arg3]
  rfl

/-! ### The two scaled relation aggregates of the encoder's output -/

/-- Relation 0's aggregate, over the encoder's output as its exit leaves it. -/
theorem V3_main_v49 (c : Dev nD) :
    (V3 m ρ c main_v49 : S50000x160.Idx → EReal)
      = Agg.aggT0 (W2 m ρ c (Proc.devRef .tc main_v6)) (m ((c : Thread nD τ).loc main_arg2))
          (m ((c : Thread nD τ).loc main_arg3)) := by
  show StableHlo.after hostOps1 _ (Proc.devRef .tc main_v49) = _
  after_results_simp
  rw [W2_main_arg2, W2_main_arg3]
  rfl

/-- Relation 1's aggregate. -/
theorem V3_main_v54 (c : Dev nD) :
    (V3 m ρ c main_v54 : S50000x160.Idx → EReal)
      = Agg.aggT1 (W2 m ρ c (Proc.devRef .tc main_v6)) (m ((c : Thread nD τ).loc main_arg2))
          (m ((c : Thread nD τ).loc main_arg3)) := by
  show StableHlo.after hostOps1 _ (Proc.devRef .tc main_v54) = _
  after_results_simp
  rw [W2_main_arg2, W2_main_arg3]
  rfl

/-- The same two, over what the encoder's pipeline leaves in its output array. -/
theorem V3_main_v49_arr (c : Dev nD) :
    (V3 m ρ c main_v49 : S50000x160.Idx → EReal)
      = Agg.aggT0 ((dat0 (V1 m ρ) c).arrAt 17 cfg0.N) (m ((c : Thread nD τ).loc main_arg2))
          (m ((c : Thread nD τ).loc main_arg3)) :=
  (V3_main_v49 m ρ c).trans (congrArg (fun h => Agg.aggT0 h _ _) (W2_main_v6 m ρ c))
theorem V3_main_v54_arr (c : Dev nD) :
    (V3 m ρ c main_v54 : S50000x160.Idx → EReal)
      = Agg.aggT1 ((dat0 (V1 m ρ) c).arrAt 17 cfg0.N) (m ((c : Thread nD τ).loc main_arg2))
          (m ((c : Thread nD τ).loc main_arg3)) :=
  (V3_main_v54 m ρ c).trans (congrArg (fun h => Agg.aggT1 h _ _) (W2_main_v6 m ρ c))

end Cert.KernelIdeal.Fold

end
-- ==== Proof.KFold2.lean ====
/-
  What region 2 (the second relational layer's combine step) finds in its seven input arrays, as functions of the
  launch memory and of the first layer's output array: the buffer contents walked back through the run's fold.
  The first layer's output reaches it untouched; the two scaled aggregates are the host stretch's gather, segment sum
  and scaling applied to that output and to the edge arrays; the root matrix is the argument; the bias and the two
  relation matrices are the arguments reshaped and sliced, read here at an index.
-/
import proofs.«426156_j28432683499969_3_alg».proof.Proof.Gen.KernelIdeal.Frame
import proofs.«426156_j28432683499969_3_alg».proof.Proof.KAggDefs
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

set_option maxRecDepth 16384

noncomputable section

namespace Cert.KernelIdeal.Fold

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- A buffer that no operation of a literal host stretch writes: the obligation of
    `StableHlo.after_of_forall_not_mem`, decided reference by reference. -/
local macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Region 1's output array reaches region 2 untouched. -/
theorem V5_v60 (c : Dev nD) : V5 m ρ c main_v60 = (dat1 (V3 m ρ) c).arrAt 7 cfg1.N :=
  calc W5 m ρ c (Proc.devRef .tc main_v60)
    _ = W4 m ρ c (Proc.devRef .tc main_v60) :=
        StableHlo.after_of_forall_not_mem (b := Proc.devRef .tc main_v60) _ _ (by not_written hostOps2)
    _ = (dat1 (V3 m ρ) c).arrAt 7 cfg1.N := W4_arr m ρ c 7

theorem W4_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) :=
        StableHlo.after_of_forall_not_mem (b := Proc.devRef .tc main_arg24) _ _ (by not_written hostOps1)
    _ = W1 m ρ c (Proc.devRef .tc main_arg24) := W2_of_ne m ρ c main_arg24 (by decide)
    _ = W0 m ρ c (Proc.devRef .tc main_arg24) :=
        StableHlo.after_of_forall_not_mem (b := Proc.devRef .tc main_arg24) _ _ (by not_written hostOps0)
    _ = m ((c : Thread nD τ).loc main_arg24) := rfl

theorem V5_arg24 (c : Dev nD) : V5 m ρ c main_arg24 = m ((c : Thread nD τ).loc main_arg24) :=
  calc W5 m ρ c (Proc.devRef .tc main_arg24)
    _ = W4 m ρ c (Proc.devRef .tc main_arg24) :=
        StableHlo.after_of_forall_not_mem (b := Proc.devRef .tc main_arg24) _ _ (by not_written hostOps2)
    _ = _ := W4_arg24 m ρ c

theorem W4_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) :=
        StableHlo.after_of_forall_not_mem (b := Proc.devRef .tc main_arg25) _ _ (by not_written hostOps1)
    _ = W1 m ρ c (Proc.devRef .tc main_arg25) := W2_of_ne m ρ c main_arg25 (by decide)
    _ = W0 m ρ c (Proc.devRef .tc main_arg25) :=
        StableHlo.after_of_forall_not_mem (b := Proc.devRef .tc main_arg25) _ _ (by not_written hostOps0)
    _ = m ((c : Thread nD τ).loc main_arg25) := rfl

theorem W4_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) :=
        StableHlo.after_of_forall_not_mem (b := Proc.devRef .tc main_arg23) _ _ (by not_written hostOps1)
    _ = W1 m ρ c (Proc.devRef .tc main_arg23) := W2_of_ne m ρ c main_arg23 (by decide)
    _ = W0 m ρ c (Proc.devRef .tc main_arg23) :=
        StableHlo.after_of_forall_not_mem (b := Proc.devRef .tc main_arg23) _ _ (by not_written hostOps0)
    _ = m ((c : Thread nD τ).loc main_arg23) := rfl

/-- The second layer's bias as a row: the argument reshaped `[160] → [1, 160]`. -/
theorem V5_v82_eq (c : Dev nD) :
    (V5 m ρ c main_v82 : S1x160.Idx → EReal)
      = shapeCast S1x160 (m ((c : Thread nD τ).loc main_arg25)) shapeCasts_S160_S1x160 := by
  have e : (V5 m ρ c main_v82 : S1x160.Idx → EReal)
      = shapeCast S1x160 (W4 m ρ c (Proc.devRef .tc main_arg25)) shapeCasts_S160_S1x160 := by
    show StableHlo.after hostOps2 (W4 m ρ c) (Proc.devRef .tc main_v82) = _
    after_results; rfl
  rw [e, W4_arg25]

theorem V5_v82 (c : Dev nD) (u : Fin 1) (q : Fin 160) :
    V5 m ρ c main_v82 (ix2 u q) = m ((c : Thread nD τ).loc main_arg25) (ix1 q) := by
  rw [V5_v82_eq]
  exact shapeCast_a_1a_apply _ _ u q

/-- A relation's matrix of the second layer: block `r` of the `[2, 160, 160]` argument, as a `[160, 160]` array. -/
theorem V5_v84_eq (c : Dev nD) :
    (V5 m ρ c main_v84 : S160x160.Idx → EReal)
      = shapeCast S160x160 (extractStridedSlice S1x160x160 ![0, 0, 0] (m ((c : Thread nD τ).loc main_arg23))
          slices_S2x160x160_S1x160x160_0_0_0) shapeCasts_S1x160x160_S160x160 := by
  have e : (V5 m ρ c main_v84 : S160x160.Idx → EReal)
      = shapeCast S160x160 (extractStridedSlice S1x160x160 ![0, 0, 0] (W4 m ρ c (Proc.devRef .tc main_arg23))
          slices_S2x160x160_S1x160x160_0_0_0) shapeCasts_S1x160x160_S160x160 := by
    show StableHlo.after hostOps2 (W4 m ρ c) (Proc.devRef .tc main_v84) = _
    after_results; rfl
  rw [e, W4_arg23]

theorem V5_v86_eq (c : Dev nD) :
    (V5 m ρ c main_v86 : S160x160.Idx → EReal)
      = shapeCast S160x160 (extractStridedSlice S1x160x160 ![1, 0, 0] (m ((c : Thread nD τ).loc main_arg23))
          slices_S2x160x160_S1x160x160_1_0_0) shapeCasts_S1x160x160_S160x160 := by
  have e : (V5 m ρ c main_v86 : S160x160.Idx → EReal)
      = shapeCast S160x160 (extractStridedSlice S1x160x160 ![1, 0, 0] (W4 m ρ c (Proc.devRef .tc main_arg23))
          slices_S2x160x160_S1x160x160_1_0_0) shapeCasts_S1x160x160_S160x160 := by
    show StableHlo.after hostOps2 (W4 m ρ c) (Proc.devRef .tc main_v86) = _
    after_results; rfl
  rw [e, W4_arg23]

/-- Block `0` of a `[2, 160, 160]` array, as a matrix, at `(k, q)`. -/
theorem slice0_apply {α : Type} (x : S2x160x160.Idx → α) (k q : Fin 160) :
    shapeCast S160x160 (extractStridedSlice S1x160x160 ![0, 0, 0] x slices_S2x160x160_S1x160x160_0_0_0)
        shapeCasts_S1x160x160_S160x160 (ix2 k q) = x (ix3 (0 : Fin 2) k q) := by
  refine (shapeCast_1ab_ab_apply _ _ k q).trans ?_
  exact extractStridedSlice_apply ![0, 0, 0] x slices_S2x160x160_S1x160x160_0_0_0 _ _ (fun a => match a with
    | ⟨0, _⟩ => rfl
    | ⟨1, _⟩ => by show k.val = 0 + k.val; omega
    | ⟨2, _⟩ => by show q.val = 0 + q.val; omega)

/-- Block `1` of a `[2, 160, 160]` array, as a matrix, at `(k, q)`. -/
theorem slice1_apply {α : Type} (x : S2x160x160.Idx → α) (k q : Fin 160) :
    shapeCast S160x160 (extractStridedSlice S1x160x160 ![1, 0, 0] x slices_S2x160x160_S1x160x160_1_0_0)
        shapeCasts_S1x160x160_S160x160 (ix2 k q) = x (ix3 (1 : Fin 2) k q) := by
  refine (shapeCast_1ab_ab_apply _ _ k q).trans ?_
  exact extractStridedSlice_apply ![1, 0, 0] x slices_S2x160x160_S1x160x160_1_0_0 _ _ (fun a => match a with
    | ⟨0, _⟩ => rfl
    | ⟨1, _⟩ => by show k.val = 0 + k.val; omega
    | ⟨2, _⟩ => by show q.val = 0 + q.val; omega)

theorem V5_v84 (c : Dev nD) (k q : Fin 160) :
    V5 m ρ c main_v84 (ix2 k q) = m ((c : Thread nD τ).loc main_arg23) (ix3 (0 : Fin 2) k q) := by
  rw [V5_v84_eq]; exact slice0_apply _ k q

theorem V5_v86 (c : Dev nD) (k q : Fin 160) :
    V5 m ρ c main_v86 (ix2 k q) = m ((c : Thread nD τ).loc main_arg23) (ix3 (1 : Fin 2) k q) := by
  rw [V5_v86_eq]; exact slice1_apply _ k q

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) :=
        StableHlo.after_of_forall_not_mem (b := Proc.devRef .tc main_arg2) _ _ (by not_written hostOps0)
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) :=
        StableHlo.after_of_forall_not_mem (b := Proc.devRef .tc main_arg3) _ _ (by not_written hostOps0)
    _ = m ((c : Thread nD τ).loc main_arg3) := rfl

set_option maxHeartbeats 4000000 in
/-- The source words, as the first host stretch left them and the first layer's region did not touch. -/
theorem W4_v8 (c : Dev nD) :
    W4 m ρ c (Proc.devRef .tc main_v8) = Agg.srcT (m ((c : Thread nD τ).loc main_arg2)) := by
  rw [W4_of_ne m ρ c main_v8 (by decide)]
  show StableHlo.after hostOps1 (W2 m ρ c) (Proc.devRef .tc main_v8) = _
  after_results
  rw [W2_arg2]; rfl

set_option maxHeartbeats 4000000 in
/-- The combined key `relation · 50000 + destination`, as the first host stretch left it. -/
theorem W4_v33 (c : Dev nD) :
    W4 m ρ c (Proc.devRef .tc main_v33)
      = Agg.segT (m ((c : Thread nD τ).loc main_arg2)) (m ((c : Thread nD τ).loc main_arg3)) := by
  rw [W4_of_ne m ρ c main_v33 (by decide)]
  show StableHlo.after hostOps1 (W2 m ρ c) (Proc.devRef .tc main_v33) = _
  after_results
  rw [W2_arg2, W2_arg3]; rfl

set_option maxHeartbeats 4000000 in
/-- Relation 0's reciprocal clipped count, as the first host stretch left it. -/
theorem W4_v26 (c : Dev nD) :
    W4 m ρ c (Proc.devRef .tc main_v26)
      = Agg.invT0 (m ((c : Thread nD τ).loc main_arg2)) (m ((c : Thread nD τ).loc main_arg3)) := by
  rw [W4_of_ne m ρ c main_v26 (by decide)]
  show StableHlo.after hostOps1 (W2 m ρ c) (Proc.devRef .tc main_v26) = _
  after_results
  rw [W2_arg2, W2_arg3]; rfl

set_option maxHeartbeats 4000000 in
/-- Relation 1's reciprocal clipped count, as the first host stretch left it. -/
theorem W4_v30 (c : Dev nD) :
    W4 m ρ c (Proc.devRef .tc main_v30)
      = Agg.invT1 (m ((c : Thread nD τ).loc main_arg2)) (m ((c : Thread nD τ).loc main_arg3)) := by
  rw [W4_of_ne m ρ c main_v30 (by decide)]
  show StableHlo.after hostOps1 (W2 m ρ c) (Proc.devRef .tc main_v30) = _
  after_results
  rw [W2_arg2, W2_arg3]; rfl

set_option maxHeartbeats 4000000 in
/-- Relation 0's scaled aggregate of the second layer: the first layer's output rows gathered at the normalised
    sources, summed by combined key, its block of 50000 rows times the reciprocal clipped count. -/
theorem V5_v76 (c : Dev nD) :
    V5 m ρ c main_v76
      = Agg.aggT0 (W4 m ρ c (Proc.devRef .tc main_v60)) (m ((c : Thread nD τ).loc main_arg2))
          (m ((c : Thread nD τ).loc main_arg3)) := by
  show StableHlo.after hostOps2 (W4 m ρ c) (Proc.devRef .tc main_v76) = _
  after_results
  rw [W4_v8, W4_v33, W4_v26]; rfl

set_option maxHeartbeats 4000000 in
/-- Relation 1's scaled aggregate of the second layer. -/
theorem V5_v81 (c : Dev nD) :
    V5 m ρ c main_v81
      = Agg.aggT1 (W4 m ρ c (Proc.devRef .tc main_v60)) (m ((c : Thread nD τ).loc main_arg2))
          (m ((c : Thread nD τ).loc main_arg3)) := by
  show StableHlo.after hostOps2 (W4 m ρ c) (Proc.devRef .tc main_v81) = _
  after_results
  rw [W4_v8, W4_v33, W4_v30]; rfl

/-- Region 1's output array, at region 1's exit. -/
theorem W4_v60 (c : Dev nD) : W4 m ρ c (Proc.devRef .tc main_v60) = (dat1 (V3 m ρ) c).arrAt 7 cfg1.N :=
  W4_arr m ρ c 7

end Cert.KernelIdeal.Fold

end
-- ==== Proof.KReg0.lean ====
/-
  The encoder region of the kernel program, read as an array: after the region has run, the array its output window
  writes holds, at row `i` and column `q`, the specification's encoder `Spec.enc` of row `i` of the five feature arrays
  and of the eleven weight and bias arrays, as the region found them.

  First the body's arithmetic at one index of a block: every matrix product into the zero accumulator is the sum over
  the contracted axis, a bias row broadcast over the block's rows is the bias at the column, the rectifier is pointwise,
  and the five pieces of 32 columns laid side by side read piece `k / 32` at column `k % 32`.  Then one grid point:
  the block it writes back is the specification read through the block, because each row-blocked window's block sits at
  the rows the output's block sits at and each weight window's block is the whole array.  Then the blocks cover the
  array, row `r` lying in block `r / 1000`.
-/
import proofs.«426156_j28432683499969_3_alg».proof.Proof.Gen.KernelIdeal.Frame
import proofs.«426156_j28432683499969_3_alg».proof.Proof.Spec
import Idealize.ShloMosaic.Lib.ValueIdx
import Idealize.ShloMosaic.Lib.Pipeline.Value
import Idealize.ShloMosaic.PureOps.Ideal.Laws

noncomputable section

namespace Cert.KernelIdeal.Reg.Enc

open Cert.KernelIdeal Cert.KernelIdeal.Gen Idealize.ShloMosaic Idealize.ShloMosaic.TcCoe Idealize.SL.Sem
open Idealize.ShloMosaic.ValueIdx
open Idealize.ShloMosaic.Pipeline (Dat)

/-! The product of a block of 1000 rows by a matrix with 6 rows, at one entry. -/
theorem lhs6_0 (i : S1000x32.Idx) (q : dot_S1000x6_S6x32_S1000x32_1_0_0_1_n_n.contr.Idx) :
    (dot_S1000x6_S6x32_S1000x32_1_0_0_1_n_n.lhsIdx i q 0).val = (i 0).val := by
  unfold DotDims.lhsIdx
  rw [dif_neg (show ¬(0 : Fin S1000x6.rank) ∈ dot_S1000x6_S6x32_S1000x32_1_0_0_1_n_n.lhsBatch by decide), dif_pos (show (0 : Fin S1000x6.rank) ∈ dot_S1000x6_S6x32_S1000x32_1_0_0_1_n_n.lhsNonContracting by decide)]
  rfl
theorem lhs6_1 (i : S1000x32.Idx) (q : dot_S1000x6_S6x32_S1000x32_1_0_0_1_n_n.contr.Idx) :
    (dot_S1000x6_S6x32_S1000x32_1_0_0_1_n_n.lhsIdx i q 1).val = (q ⟨0, by decide⟩).val :=
  dot_S1000x6_S6x32_S1000x32_1_0_0_1_n_n.lhsIdx_val_of_single rfl i q
theorem rhs6_0 (i : S1000x32.Idx) (q : dot_S1000x6_S6x32_S1000x32_1_0_0_1_n_n.contr.Idx) :
    (dot_S1000x6_S6x32_S1000x32_1_0_0_1_n_n.rhsIdx i q 0).val = (q ⟨0, by decide⟩).val :=
  dot_S1000x6_S6x32_S1000x32_1_0_0_1_n_n.rhsIdx_val_of_single rfl i q
theorem rhs6_1 (i : S1000x32.Idx) (q : dot_S1000x6_S6x32_S1000x32_1_0_0_1_n_n.contr.Idx) :
    (dot_S1000x6_S6x32_S1000x32_1_0_0_1_n_n.rhsIdx i q 1).val = (i 1).val := by
  unfold DotDims.rhsIdx
  rw [dif_neg (show ¬(1 : Fin S6x32.rank) ∈ dot_S1000x6_S6x32_S1000x32_1_0_0_1_n_n.rhsBatch by decide), dif_pos (show (1 : Fin S6x32.rank) ∈ dot_S1000x6_S6x32_S1000x32_1_0_0_1_n_n.rhsNonContracting by decide)]
  rfl
/-- Entry `(p, q)` of the product into the zero accumulator is `∑ₖ x p k · w k q`. -/
theorem mm6 (x : FVec Ideal S1000x6 .f32) (w : FVec Ideal S6x32 .f32) (p : Fin 1000) (q : Fin 32) :
    matmul dot_S1000x6_S6x32_S1000x32_1_0_0_1_n_n none x w (constant (F := Ideal) S1000x32 .f32 0x00000000#32) (ix2 p q)
      = ∑ k : Fin 6, x (ix2 p k) * w (ix2 k q) := by
  refine (Ideal.matmul_constant_zero_apply dot_S1000x6_S6x32_S1000x32_1_0_0_1_n_n none x w (ix2 p q)).trans ?_
  rw [← Equiv.sum_comp (contrEquiv1 dot_S1000x6_S6x32_S1000x32_1_0_0_1_n_n 6 rfl rfl).symm]
  refine Finset.sum_congr rfl fun k _ => ?_
  have hk := contrEquiv1_symm_val dot_S1000x6_S6x32_S1000x32_1_0_0_1_n_n 6 rfl rfl k
  have el : dot_S1000x6_S6x32_S1000x32_1_0_0_1_n_n.lhsIdx (ix2 p q) ((contrEquiv1 dot_S1000x6_S6x32_S1000x32_1_0_0_1_n_n 6 rfl rfl).symm k) = ix2 p k := funext fun a => Fin.ext (by
    match a with
    | ⟨0, _⟩ => exact lhs6_0 _ _
    | ⟨1, _⟩ => exact (lhs6_1 _ _).trans hk)
  have er : dot_S1000x6_S6x32_S1000x32_1_0_0_1_n_n.rhsIdx (ix2 p q) ((contrEquiv1 dot_S1000x6_S6x32_S1000x32_1_0_0_1_n_n 6 rfl rfl).symm k) = ix2 k q := funext fun a => Fin.ext (by
    match a with
    | ⟨0, _⟩ => exact (rhs6_0 _ _).trans hk
    | ⟨1, _⟩ => exact rhs6_1 _ _)
  rw [el, er]

/-! The product of a block of 1000 rows by a matrix with 11 rows, at one entry. -/
theorem lhs11_0 (i : S1000x32.Idx) (q : dot_S1000x11_S11x32_S1000x32_1_0_0_1_n_n.contr.Idx) :
    (dot_S1000x11_S11x32_S1000x32_1_0_0_1_n_n.lhsIdx i q 0).val = (i 0).val := by
  unfold DotDims.lhsIdx
  rw [dif_neg (show ¬(0 : Fin S1000x11.rank) ∈ dot_S1000x11_S11x32_S1000x32_1_0_0_1_n_n.lhsBatch by decide), dif_pos (show (0 : Fin S1000x11.rank) ∈ dot_S1000x11_S11x32_S1000x32_1_0_0_1_n_n.lhsNonContracting by decide)]
  rfl
theorem lhs11_1 (i : S1000x32.Idx) (q : dot_S1000x11_S11x32_S1000x32_1_0_0_1_n_n.contr.Idx) :
    (dot_S1000x11_S11x32_S1000x32_1_0_0_1_n_n.lhsIdx i q 1).val = (q ⟨0, by decide⟩).val :=
  dot_S1000x11_S11x32_S1000x32_1_0_0_1_n_n.lhsIdx_val_of_single rfl i q
theorem rhs11_0 (i : S1000x32.Idx) (q : dot_S1000x11_S11x32_S1000x32_1_0_0_1_n_n.contr.Idx) :
    (dot_S1000x11_S11x32_S1000x32_1_0_0_1_n_n.rhsIdx i q 0).val = (q ⟨0, by decide⟩).val :=
  dot_S1000x11_S11x32_S1000x32_1_0_0_1_n_n.rhsIdx_val_of_single rfl i q
theorem rhs11_1 (i : S1000x32.Idx) (q : dot_S1000x11_S11x32_S1000x32_1_0_0_1_n_n.contr.Idx) :
    (dot_S1000x11_S11x32_S1000x32_1_0_0_1_n_n.rhsIdx i q 1).val = (i 1).val := by
  unfold DotDims.rhsIdx
  rw [dif_neg (show ¬(1 : Fin S11x32.rank) ∈ dot_S1000x11_S11x32_S1000x32_1_0_0_1_n_n.rhsBatch by decide), dif_pos (show (1 : Fin S11x32.rank) ∈ dot_S1000x11_S11x32_S1000x32_1_0_0_1_n_n.rhsNonContracting by decide)]
  rfl
/-- Entry `(p, q)` of the product into the zero accumulator is `∑ₖ x p k · w k q`. -/
theorem mm11 (x : FVec Ideal S1000x11 .f32) (w : FVec Ideal S11x32 .f32) (p : Fin 1000) (q : Fin 32) :
    matmul dot_S1000x11_S11x32_S1000x32_1_0_0_1_n_n none x w (constant (F := Ideal) S1000x32 .f32 0x00000000#32) (ix2 p q)
      = ∑ k : Fin 11, x (ix2 p k) * w (ix2 k q) := by
  refine (Ideal.matmul_constant_zero_apply dot_S1000x11_S11x32_S1000x32_1_0_0_1_n_n none x w (ix2 p q)).trans ?_
  rw [← Equiv.sum_comp (contrEquiv1 dot_S1000x11_S11x32_S1000x32_1_0_0_1_n_n 11 rfl rfl).symm]
  refine Finset.sum_congr rfl fun k _ => ?_
  have hk := contrEquiv1_symm_val dot_S1000x11_S11x32_S1000x32_1_0_0_1_n_n 11 rfl rfl k
  have el : dot_S1000x11_S11x32_S1000x32_1_0_0_1_n_n.lhsIdx (ix2 p q) ((contrEquiv1 dot_S1000x11_S11x32_S1000x32_1_0_0_1_n_n 11 rfl rfl).symm k) = ix2 p k := funext fun a => Fin.ext (by
    match a with
    | ⟨0, _⟩ => exact lhs11_0 _ _
    | ⟨1, _⟩ => exact (lhs11_1 _ _).trans hk)
  have er : dot_S1000x11_S11x32_S1000x32_1_0_0_1_n_n.rhsIdx (ix2 p q) ((contrEquiv1 dot_S1000x11_S11x32_S1000x32_1_0_0_1_n_n 11 rfl rfl).symm k) = ix2 k q := funext fun a => Fin.ext (by
    match a with
    | ⟨0, _⟩ => exact (rhs11_0 _ _).trans hk
    | ⟨1, _⟩ => exact rhs11_1 _ _)
  rw [el, er]

/-! The product of a block of 1000 rows by a matrix with 768 rows, at one entry. -/
theorem lhs768_0 (i : S1000x32.Idx) (q : dot_S1000x768_S768x32_S1000x32_1_0_0_1_n_n.contr.Idx) :
    (dot_S1000x768_S768x32_S1000x32_1_0_0_1_n_n.lhsIdx i q 0).val = (i 0).val := by
  unfold DotDims.lhsIdx
  rw [dif_neg (show ¬(0 : Fin S1000x768.rank) ∈ dot_S1000x768_S768x32_S1000x32_1_0_0_1_n_n.lhsBatch by decide), dif_pos (show (0 : Fin S1000x768.rank) ∈ dot_S1000x768_S768x32_S1000x32_1_0_0_1_n_n.lhsNonContracting by decide)]
  rfl
theorem lhs768_1 (i : S1000x32.Idx) (q : dot_S1000x768_S768x32_S1000x32_1_0_0_1_n_n.contr.Idx) :
    (dot_S1000x768_S768x32_S1000x32_1_0_0_1_n_n.lhsIdx i q 1).val = (q ⟨0, by decide⟩).val :=
  dot_S1000x768_S768x32_S1000x32_1_0_0_1_n_n.lhsIdx_val_of_single rfl i q
theorem rhs768_0 (i : S1000x32.Idx) (q : dot_S1000x768_S768x32_S1000x32_1_0_0_1_n_n.contr.Idx) :
    (dot_S1000x768_S768x32_S1000x32_1_0_0_1_n_n.rhsIdx i q 0).val = (q ⟨0, by decide⟩).val :=
  dot_S1000x768_S768x32_S1000x32_1_0_0_1_n_n.rhsIdx_val_of_single rfl i q
theorem rhs768_1 (i : S1000x32.Idx) (q : dot_S1000x768_S768x32_S1000x32_1_0_0_1_n_n.contr.Idx) :
    (dot_S1000x768_S768x32_S1000x32_1_0_0_1_n_n.rhsIdx i q 1).val = (i 1).val := by
  unfold DotDims.rhsIdx
  rw [dif_neg (show ¬(1 : Fin S768x32.rank) ∈ dot_S1000x768_S768x32_S1000x32_1_0_0_1_n_n.rhsBatch by decide), dif_pos (show (1 : Fin S768x32.rank) ∈ dot_S1000x768_S768x32_S1000x32_1_0_0_1_n_n.rhsNonContracting by decide)]
  rfl
/-- Entry `(p, q)` of the product into the zero accumulator is `∑ₖ x p k · w k q`. -/
theorem mm768 (x : FVec Ideal S1000x768 .f32) (w : FVec Ideal S768x32 .f32) (p : Fin 1000) (q : Fin 32) :
    matmul dot_S1000x768_S768x32_S1000x32_1_0_0_1_n_n none x w (constant (F := Ideal) S1000x32 .f32 0x00000000#32) (ix2 p q)
      = ∑ k : Fin 768, x (ix2 p k) * w (ix2 k q) := by
  refine (Ideal.matmul_constant_zero_apply dot_S1000x768_S768x32_S1000x32_1_0_0_1_n_n none x w (ix2 p q)).trans ?_
  rw [← Equiv.sum_comp (contrEquiv1 dot_S1000x768_S768x32_S1000x32_1_0_0_1_n_n 768 rfl rfl).symm]
  refine Finset.sum_congr rfl fun k _ => ?_
  have hk := contrEquiv1_symm_val dot_S1000x768_S768x32_S1000x32_1_0_0_1_n_n 768 rfl rfl k
  have el : dot_S1000x768_S768x32_S1000x32_1_0_0_1_n_n.lhsIdx (ix2 p q) ((contrEquiv1 dot_S1000x768_S768x32_S1000x32_1_0_0_1_n_n 768 rfl rfl).symm k) = ix2 p k := funext fun a => Fin.ext (by
    match a with
    | ⟨0, _⟩ => exact lhs768_0 _ _
    | ⟨1, _⟩ => exact (lhs768_1 _ _).trans hk)
  have er : dot_S1000x768_S768x32_S1000x32_1_0_0_1_n_n.rhsIdx (ix2 p q) ((contrEquiv1 dot_S1000x768_S768x32_S1000x32_1_0_0_1_n_n 768 rfl rfl).symm k) = ix2 k q := funext fun a => Fin.ext (by
    match a with
    | ⟨0, _⟩ => exact (rhs768_0 _ _).trans hk
    | ⟨1, _⟩ => exact rhs768_1 _ _)
  rw [el, er]

/-! The product of a block of 1000 rows by a matrix with 160 rows, at one entry. -/
theorem lhs160_0 (i : S1000x160.Idx) (q : dot_S1000x160_S160x160_S1000x160_1_0_0_1_n_n.contr.Idx) :
    (dot_S1000x160_S160x160_S1000x160_1_0_0_1_n_n.lhsIdx i q 0).val = (i 0).val := by
  unfold DotDims.lhsIdx
  rw [dif_neg (show ¬(0 : Fin S1000x160.rank) ∈ dot_S1000x160_S160x160_S1000x160_1_0_0_1_n_n.lhsBatch by decide), dif_pos (show (0 : Fin S1000x160.rank) ∈ dot_S1000x160_S160x160_S1000x160_1_0_0_1_n_n.lhsNonContracting by decide)]
  rfl
theorem lhs160_1 (i : S1000x160.Idx) (q : dot_S1000x160_S160x160_S1000x160_1_0_0_1_n_n.contr.Idx) :
    (dot_S1000x160_S160x160_S1000x160_1_0_0_1_n_n.lhsIdx i q 1).val = (q ⟨0, by decide⟩).val :=
  dot_S1000x160_S160x160_S1000x160_1_0_0_1_n_n.lhsIdx_val_of_single rfl i q
theorem rhs160_0 (i : S1000x160.Idx) (q : dot_S1000x160_S160x160_S1000x160_1_0_0_1_n_n.contr.Idx) :
    (dot_S1000x160_S160x160_S1000x160_1_0_0_1_n_n.rhsIdx i q 0).val = (q ⟨0, by decide⟩).val :=
  dot_S1000x160_S160x160_S1000x160_1_0_0_1_n_n.rhsIdx_val_of_single rfl i q
theorem rhs160_1 (i : S1000x160.Idx) (q : dot_S1000x160_S160x160_S1000x160_1_0_0_1_n_n.contr.Idx) :
    (dot_S1000x160_S160x160_S1000x160_1_0_0_1_n_n.rhsIdx i q 1).val = (i 1).val := by
  unfold DotDims.rhsIdx
  rw [dif_neg (show ¬(1 : Fin S160x160.rank) ∈ dot_S1000x160_S160x160_S1000x160_1_0_0_1_n_n.rhsBatch by decide), dif_pos (show (1 : Fin S160x160.rank) ∈ dot_S1000x160_S160x160_S1000x160_1_0_0_1_n_n.rhsNonContracting by decide)]
  rfl
/-- Entry `(p, q)` of the product into the zero accumulator is `∑ₖ x p k · w k q`. -/
theorem mm160 (x : FVec Ideal S1000x160 .f32) (w : FVec Ideal S160x160 .f32) (p : Fin 1000) (q : Fin 160) :
    matmul dot_S1000x160_S160x160_S1000x160_1_0_0_1_n_n none x w (constant (F := Ideal) S1000x160 .f32 0x00000000#32) (ix2 p q)
      = ∑ k : Fin 160, x (ix2 p k) * w (ix2 k q) := by
  refine (Ideal.matmul_constant_zero_apply dot_S1000x160_S160x160_S1000x160_1_0_0_1_n_n none x w (ix2 p q)).trans ?_
  rw [← Equiv.sum_comp (contrEquiv1 dot_S1000x160_S160x160_S1000x160_1_0_0_1_n_n 160 rfl rfl).symm]
  refine Finset.sum_congr rfl fun k _ => ?_
  have hk := contrEquiv1_symm_val dot_S1000x160_S160x160_S1000x160_1_0_0_1_n_n 160 rfl rfl k
  have el : dot_S1000x160_S160x160_S1000x160_1_0_0_1_n_n.lhsIdx (ix2 p q) ((contrEquiv1 dot_S1000x160_S160x160_S1000x160_1_0_0_1_n_n 160 rfl rfl).symm k) = ix2 p k := funext fun a => Fin.ext (by
    match a with
    | ⟨0, _⟩ => exact lhs160_0 _ _
    | ⟨1, _⟩ => exact (lhs160_1 _ _).trans hk)
  have er : dot_S1000x160_S160x160_S1000x160_1_0_0_1_n_n.rhsIdx (ix2 p q) ((contrEquiv1 dot_S1000x160_S160x160_S1000x160_1_0_0_1_n_n 160 rfl rfl).symm k) = ix2 k q := funext fun a => Fin.ext (by
    match a with
    | ⟨0, _⟩ => exact (rhs160_0 _ _).trans hk
    | ⟨1, _⟩ => exact rhs160_1 _ _)
  rw [el, er]

/-! ## Bias rows, the rectifier, the five pieces side by side -/

/-- A bias row of 32 broadcast over the block's 1000 rows reads the bias at the column. -/
theorem bias32 (b : FVec Ideal S1x32 .f32) (p : Fin 1000) (q : Fin 32) :
    broadcastTo S1000x32 (shapeCast S1x32 b shapeCasts_S1x32_S1x32) broadcasts_S1x32_S1000x32 (ix2 p q) = b (ix2 0 q) := by
  rw [shapeCast_self]
  refine broadcastTo_apply b _ (ix2 p q) (ix2 0 q) (fun a => ?_)
  match a with
  | ⟨0, _⟩ => rfl
  | ⟨1, _⟩ => rfl

/-- A bias row of 160 broadcast over the block's 1000 rows reads the bias at the column. -/
theorem bias160 (b : FVec Ideal S1x160 .f32) (p : Fin 1000) (q : Fin 160) :
    broadcastTo S1000x160 (shapeCast S1x160 b shapeCasts_S1x160_S1x160) broadcasts_S1x160_S1000x160 (ix2 p q) = b (ix2 0 q) := by
  rw [shapeCast_self]
  refine broadcastTo_apply b _ (ix2 p q) (ix2 0 q) (fun a => ?_)
  match a with
  | ⟨0, _⟩ => rfl
  | ⟨1, _⟩ => rfl

/-- Five blocks of 32 columns laid side by side along the columns: column `k` is column `k % 32` of piece `k / 32`. -/
theorem cat5_apply (f : Fin 5 → S1000x32.Idx → EReal) (p : Fin 1000) (k : Fin 160) :
    concatenate S1000x160 1 [⟨S1000x32, f 0⟩, ⟨S1000x32, f 1⟩, ⟨S1000x32, f 2⟩, ⟨S1000x32, f 3⟩, ⟨S1000x32, f 4⟩]
        concatenates_S1000x32_S1000x32_S1000x32_S1000x32_S1000x32_S1000x160_d1 (ix2 p k)
      = f ⟨k.val / 32, by omega⟩ (ix2 p ⟨k.val % 32, Nat.mod_lt _ (by decide)⟩) := by
  have h : Shape.Concatenates ((List.ofFn fun n : Fin 5 => (⟨S1000x32, f n⟩ : (s : Shape) × (s.Idx → EReal))).map (·.1)) S1000x160 1 :=
    concatenates_S1000x32_S1000x32_S1000x32_S1000x32_S1000x32_S1000x160_d1
  refine concatenate_ofFn_apply (t := S1000x160) (s₁ := S1000x32) 1 f h rfl 32 rfl (ix2 p k) ⟨k.val / 32, by omega⟩ rfl
    (ix2 p ⟨k.val % 32, Nat.mod_lt _ (by decide)⟩) rfl (fun b hb => ?_)
  match b, hb with
  | ⟨0, _⟩, _ => rfl
  | ⟨1, _⟩, hb => exact absurd rfl hb

/-! ## The body's arithmetic at one index of a block -/

open Cert.Spec (lrelu lin dot hcat encParts enc slope zeroE)

/-- The first encoder's block at `(p, q)`: the dense layer of row `p` and the rectifier. -/
theorem pay2_apply (v0 : Vec Ideal S1000x6 .f32) (v1 : Vec Ideal S6x32 .f32) (v3 : Vec Ideal S1x32 .f32) (p : Fin 1000) (q : Fin 32) :
    k0_pay2 (F := Ideal) v0 v1 v3 (ix2 p q)
      = lrelu (lin (fun k => v0 (ix2 p k)) (fun k q => v1 (ix2 k q)) (fun q => v3 (ix2 0 q)) q) := by
  unfold k0_pay2
  simp only [select_apply, cmpf_apply, mulf_apply, addf_apply, broadcast_apply, mm6, bias32]
  rfl

/-- The second encoder's block at `(p, q)`. -/
theorem pay3_apply (v12 : Vec Ideal S1000x11 .f32) (v13 : Vec Ideal S11x32 .f32) (v15 : Vec Ideal S1x32 .f32) (p : Fin 1000) (q : Fin 32) :
    k0_pay3 (F := Ideal) v12 v13 v15 (ix2 p q)
      = lrelu (lin (fun k => v12 (ix2 p k)) (fun k q => v13 (ix2 k q)) (fun q => v15 (ix2 0 q)) q) := by
  unfold k0_pay3
  simp only [select_apply, cmpf_apply, mulf_apply, addf_apply, broadcast_apply, mm11, bias32]
  rfl

/-- The third encoder's dense layer at `(p, q)`, before the rectifier. -/
theorem pay4_apply (v24 : Vec Ideal S1000x768 .f32) (v25 : Vec Ideal S768x32 .f32) (v27 : Vec Ideal S1x32 .f32) (p : Fin 1000) (q : Fin 32) :
    k0_pay4 (F := Ideal) v24 v25 v27 (ix2 p q)
      = lin (fun k => v24 (ix2 p k)) (fun k q => v25 (ix2 k q)) (fun q => v27 (ix2 0 q)) q := by
  unfold k0_pay4
  simp only [addf_apply, mm768, bias32]
  rfl

/-- Its comparison with zero at `(p, q)`. -/
theorem pay5_apply (v24 : Vec Ideal S1000x768 .f32) (v25 : Vec Ideal S768x32 .f32) (v27 : Vec Ideal S1x32 .f32) (p : Fin 1000) (q : Fin 32) :
    k0_pay5 (F := Ideal) v24 v25 v27 (ix2 p q)
      = FloatOps.cmpf (F := Ideal) (φ := .f32) .oge (lin (fun k => v24 (ix2 p k)) (fun k q => v25 (ix2 k q)) (fun q => v27 (ix2 0 q)) q) zeroE := by
  unfold k0_pay5
  simp only [cmpf_apply, broadcast_apply, pay4_apply]
  rfl

/-- One of the 768-wide encoders written out in the body: the dense layer of row `p` and the rectifier. -/
theorem enc768_apply (x : FVec Ideal S1000x768 .f32) (w : FVec Ideal S768x32 .f32) (b : FVec Ideal S1x32 .f32) (p : Fin 1000) (q : Fin 32) :
    select (cmpf .oge (addf (matmul dot_S1000x768_S768x32_S1000x32_1_0_0_1_n_n none x w (constant (F := Ideal) S1000x32 .f32 0x00000000#32))
          (broadcastTo S1000x32 (shapeCast S1x32 b shapeCasts_S1x32_S1x32) broadcasts_S1x32_S1000x32))
        (broadcast S1000x32 (Scalar.ofBits (F := Ideal) .f32 0x00000000#32)))
      (addf (matmul dot_S1000x768_S768x32_S1000x32_1_0_0_1_n_n none x w (constant (F := Ideal) S1000x32 .f32 0x00000000#32))
          (broadcastTo S1000x32 (shapeCast S1x32 b shapeCasts_S1x32_S1x32) broadcasts_S1x32_S1000x32))
      (mulf (broadcast S1000x32 (Scalar.ofBits (F := Ideal) .f32 0x3C23D70A#32))
        (addf (matmul dot_S1000x768_S768x32_S1000x32_1_0_0_1_n_n none x w (constant (F := Ideal) S1000x32 .f32 0x00000000#32))
          (broadcastTo S1000x32 (shapeCast S1x32 b shapeCasts_S1x32_S1x32) broadcasts_S1x32_S1000x32))) (ix2 p q)
      = lrelu (lin (fun k => x (ix2 p k)) (fun k q => w (ix2 k q)) (fun q => b (ix2 0 q)) q) := by
  simp only [select_apply, cmpf_apply, mulf_apply, addf_apply, broadcast_apply, mm768, bias32]
  rfl

/-- Which of five blocks a piece index names, read at row `p`: the row functions `P` the blocks are known to hold. -/
theorem pick5_rows (a0 a1 a2 a3 a4 : S1000x32.Idx → EReal) (P : Fin 5 → Fin 32 → EReal) (p : Fin 1000)
    (h0 : ∀ r, a0 (ix2 p r) = P 0 r) (h1 : ∀ r, a1 (ix2 p r) = P 1 r) (h2 : ∀ r, a2 (ix2 p r) = P 2 r)
    (h3 : ∀ r, a3 (ix2 p r) = P 3 r) (h4 : ∀ r, a4 (ix2 p r) = P 4 r) (n : Fin 5) (r : Fin 32) :
    (![a0, a1, a2, a3, a4] : Fin 5 → S1000x32.Idx → EReal) n (ix2 p r) = P n r := by
  match n with
  | ⟨0, _⟩ => exact h0 r
  | ⟨1, _⟩ => exact h1 r
  | ⟨2, _⟩ => exact h2 r
  | ⟨3, _⟩ => exact h3 r
  | ⟨4, _⟩ => exact h4 r

/-- The five blocks side by side, read at row `p` and column `k`, are the five row functions side by side. -/
theorem cat5_rows (a0 a1 a2 a3 a4 : S1000x32.Idx → EReal) (P : Fin 5 → Fin 32 → EReal) (p : Fin 1000)
    (h0 : ∀ r, a0 (ix2 p r) = P 0 r) (h1 : ∀ r, a1 (ix2 p r) = P 1 r) (h2 : ∀ r, a2 (ix2 p r) = P 2 r)
    (h3 : ∀ r, a3 (ix2 p r) = P 3 r) (h4 : ∀ r, a4 (ix2 p r) = P 4 r) (k : Fin 160) :
    concatenate S1000x160 1 [⟨S1000x32, a0⟩, ⟨S1000x32, a1⟩, ⟨S1000x32, a2⟩, ⟨S1000x32, a3⟩, ⟨S1000x32, a4⟩]
        concatenates_S1000x32_S1000x32_S1000x32_S1000x32_S1000x32_S1000x160_d1 (ix2 p k) = hcat P k :=
  (cat5_apply ![a0, a1, a2, a3, a4] p k).trans (pick5_rows a0 a1 a2 a3 a4 P p h0 h1 h2 h3 h4 _ _)

/-- The block before the last rectifier at `(p, q)`: whatever row functions `P` the first two pieces and the third
    encoder's rectified layer are at row `p`, and the last two encoders of row `p`, laid side by side, through the
    dense layer of 160. -/
theorem pay6_apply (v11 v23 v30 : FVec Ideal S1000x32 .f32) (v32 : IVec S1000x32 1)
    (v36 : Vec Ideal S1000x768 .f32) (v37 : Vec Ideal S768x32 .f32) (v39 : Vec Ideal S1x32 .f32)
    (v48 : Vec Ideal S1000x768 .f32) (v49 : Vec Ideal S768x32 .f32) (v51 : Vec Ideal S1x32 .f32)
    (v61 : Vec Ideal S160x160 .f32) (v63 : Vec Ideal S1x160 .f32) (p : Fin 1000) (q : Fin 160)
    (P : Fin 5 → Fin 32 → EReal)
    (h0 : ∀ r, v11 (ix2 p r) = P 0 r) (h1 : ∀ r, v23 (ix2 p r) = P 1 r)
    (h2 : ∀ r, Scalar.select (v32 (ix2 p r)) (v30 (ix2 p r)) (slope * v30 (ix2 p r)) = P 2 r)
    (h3 : ∀ r, lrelu (lin (fun k => v36 (ix2 p k)) (fun k q => v37 (ix2 k q)) (fun q => v39 (ix2 0 q)) r) = P 3 r)
    (h4 : ∀ r, lrelu (lin (fun k => v48 (ix2 p k)) (fun k q => v49 (ix2 k q)) (fun q => v51 (ix2 0 q)) r) = P 4 r) :
    k0_pay6 (F := Ideal) v11 v23 v30 v32 v36 v37 v39 v48 v49 v51 v61 v63 (ix2 p q)
      = lin (hcat P) (fun k q => v61 (ix2 k q)) (fun q => v63 (ix2 0 q)) q := by
  unfold k0_pay6
  simp only [addf_apply, mm160, bias160]
  unfold lin dot
  refine congrArg (· + _) (Finset.sum_congr rfl fun k _ => congrArg (· * _) ?_)
  exact cat5_rows _ _ _ _ _ P p h0 h1 h2 (fun r => (enc768_apply v36 v37 v39 p r).trans (h3 r))
    (fun r => (enc768_apply v48 v49 v51 p r).trans (h4 r)) k

/-- THE BODY AT ONE INDEX: the block the body stores, at row `p` and column `q`, is the specification's encoder of
    rows `p` of the five feature blocks. -/
theorem body_apply (x0 : Vec Ideal S1000x6 .f32) (x1 : Vec Ideal S1000x11 .f32) (x2 x3 x4 : Vec Ideal S1000x768 .f32)
    (x5 : Vec Ideal S6x32 .f32) (x6 : Vec Ideal S1x32 .f32) (x7 : Vec Ideal S11x32 .f32) (x8 : Vec Ideal S1x32 .f32)
    (x9 : Vec Ideal S768x32 .f32) (x10 : Vec Ideal S1x32 .f32) (x11 : Vec Ideal S768x32 .f32) (x12 : Vec Ideal S1x32 .f32)
    (x13 : Vec Ideal S768x32 .f32) (x14 : Vec Ideal S1x32 .f32) (x15 : Vec Ideal S160x160 .f32) (x16 : Vec Ideal S1x160 .f32)
    (p : Fin 1000) (q : Fin 160) :
    k0_pay1 (F := Ideal) (k0_pay6 (k0_pay2 x0 x5 x6) (k0_pay3 x1 x7 x8) (k0_pay4 x2 x9 x10) (k0_pay5 x2 x9 x10)
        x3 x11 x12 x4 x13 x14 x15 x16) (k0_pay7 (F := Ideal)) (ix2 p q)
      = enc (fun k => x0 (ix2 p k)) (fun k => x1 (ix2 p k)) (fun k => x2 (ix2 p k)) (fun k => x3 (ix2 p k))
          (fun k => x4 (ix2 p k)) (fun k q => x5 (ix2 k q)) (fun q => x6 (ix2 0 q)) (fun k q => x7 (ix2 k q))
          (fun q => x8 (ix2 0 q)) (fun k q => x9 (ix2 k q)) (fun q => x10 (ix2 0 q)) (fun k q => x11 (ix2 k q))
          (fun q => x12 (ix2 0 q)) (fun k q => x13 (ix2 k q)) (fun q => x14 (ix2 0 q)) (fun k q => x15 (ix2 k q))
          (fun q => x16 (ix2 0 q)) q := by
  unfold k0_pay1 k0_pay7
  simp only [select_apply, cmpf_apply, mulf_apply, broadcast_apply]
  rw [pay6_apply (k0_pay2 x0 x5 x6) (k0_pay3 x1 x7 x8) (k0_pay4 x2 x9 x10) (k0_pay5 x2 x9 x10) x3 x11 x12 x4 x13 x14 x15 x16 p q
    (encParts (fun k => x0 (ix2 p k)) (fun k => x1 (ix2 p k)) (fun k => x2 (ix2 p k)) (fun k => x3 (ix2 p k))
          (fun k => x4 (ix2 p k)) (fun k q => x5 (ix2 k q)) (fun q => x6 (ix2 0 q)) (fun k q => x7 (ix2 k q))
          (fun q => x8 (ix2 0 q)) (fun k q => x9 (ix2 k q)) (fun q => x10 (ix2 0 q)) (fun k q => x11 (ix2 k q))
          (fun q => x12 (ix2 0 q)) (fun k q => x13 (ix2 k q)) (fun q => x14 (ix2 0 q)))
    (fun r => pay2_apply x0 x5 x6 p r) (fun r => pay3_apply x1 x7 x8 p r)
    (fun r => by rw [pay5_apply, pay4_apply]; rfl) (fun r => rfl) (fun r => rfl)]
  rfl

/-! ## One grid point: the block written back is the specification read through the block -/

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-- The array the region leaves, as a function of the arrays it finds: row `i`, column `q` is the encoder of row `i`. -/
abbrev encArr (c : Dev nD) : S50000x160.Idx → EReal := fun j =>
  enc (fun k => V c (Pipeline.arrRef spec0 0) (ix2 (j 0) k))
      (fun k => V c (Pipeline.arrRef spec0 1) (ix2 (j 0) k))
      (fun k => V c (Pipeline.arrRef spec0 2) (ix2 (j 0) k))
      (fun k => V c (Pipeline.arrRef spec0 3) (ix2 (j 0) k))
      (fun k => V c (Pipeline.arrRef spec0 4) (ix2 (j 0) k))
      (fun k q => V c (Pipeline.arrRef spec0 5) (ix2 k q))
      (fun q => V c (Pipeline.arrRef spec0 6) (ix2 0 q))
      (fun k q => V c (Pipeline.arrRef spec0 7) (ix2 k q))
      (fun q => V c (Pipeline.arrRef spec0 8) (ix2 0 q))
      (fun k q => V c (Pipeline.arrRef spec0 9) (ix2 k q))
      (fun q => V c (Pipeline.arrRef spec0 10) (ix2 0 q))
      (fun k q => V c (Pipeline.arrRef spec0 11) (ix2 k q))
      (fun q => V c (Pipeline.arrRef spec0 12) (ix2 0 q))
      (fun k q => V c (Pipeline.arrRef spec0 13) (ix2 k q))
      (fun q => V c (Pipeline.arrRef spec0 14) (ix2 0 q))
      (fun k q => V c (Pipeline.arrRef spec0 15) (ix2 k q))
      (fun q => V c (Pipeline.arrRef spec0 16) (ix2 0 q)) (j 1)

/-! The printed index maps, decided once over the 50 grid points: a feature window's block and the output's block are
    block `t` of the rows; a weight or bias window's block is the whole array. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)

/-- Window 0's block at point `t` holds rows `1000 t …` of its array. -/
theorem blk_0 (c : Dev nD) (t : Fin cfg0.N) (p : Fin 1000) (k : Fin 6) (i0 : Fin 50000) (h : i0.val = t.val * 1000 + p.val) :
    iblk0 V c 0 t (ix2 p k) = V c (Pipeline.arrRef spec0 0) (ix2 i0 k) := by
  obtain ⟨f0, f1⟩ := idx_0 t
  show V c (Pipeline.arrRef spec0 0) (((cfg0.win 0).blk t).view.emb (ix2 p k)) = _
  refine congrArg _ (funext fun a => Fin.ext ?_)
  match a with
  | ⟨0, _⟩ => show win0_0.index t (0 : Fin 2) * 1000 + 1 * p.val = i0.val; omega
  | ⟨1, _⟩ => show win0_0.index t (1 : Fin 2) * 6 + 1 * k.val = k.val; omega

/-- Window 1's block at point `t` holds rows `1000 t …` of its array. -/
theorem blk_1 (c : Dev nD) (t : Fin cfg0.N) (p : Fin 1000) (k : Fin 11) (i0 : Fin 50000) (h : i0.val = t.val * 1000 + p.val) :
    iblk0 V c 1 t (ix2 p k) = V c (Pipeline.arrRef spec0 1) (ix2 i0 k) := by
  obtain ⟨f0, f1⟩ := idx_1 t
  show V c (Pipeline.arrRef spec0 1) (((cfg0.win 1).blk t).view.emb (ix2 p k)) = _
  refine congrArg _ (funext fun a => Fin.ext ?_)
  match a with
  | ⟨0, _⟩ => show win0_1.index t (0 : Fin 2) * 1000 + 1 * p.val = i0.val; omega
  | ⟨1, _⟩ => show win0_1.index t (1 : Fin 2) * 11 + 1 * k.val = k.val; omega

/-- Window 2's block at point `t` holds rows `1000 t …` of its array. -/
theorem blk_2 (c : Dev nD) (t : Fin cfg0.N) (p : Fin 1000) (k : Fin 768) (i0 : Fin 50000) (h : i0.val = t.val * 1000 + p.val) :
    iblk0 V c 2 t (ix2 p k) = V c (Pipeline.arrRef spec0 2) (ix2 i0 k) := by
  obtain ⟨f0, f1⟩ := idx_2 t
  show V c (Pipeline.arrRef spec0 2) (((cfg0.win 2).blk t).view.emb (ix2 p k)) = _
  refine congrArg _ (funext fun a => Fin.ext ?_)
  match a with
  | ⟨0, _⟩ => show win0_2.index t (0 : Fin 2) * 1000 + 1 * p.val = i0.val; omega
  | ⟨1, _⟩ => show win0_2.index t (1 : Fin 2) * 768 + 1 * k.val = k.val; omega

/-- Window 3's block at point `t` holds rows `1000 t …` of its array. -/
theorem blk_3 (c : Dev nD) (t : Fin cfg0.N) (p : Fin 1000) (k : Fin 768) (i0 : Fin 50000) (h : i0.val = t.val * 1000 + p.val) :
    iblk0 V c 3 t (ix2 p k) = V c (Pipeline.arrRef spec0 3) (ix2 i0 k) := by
  obtain ⟨f0, f1⟩ := idx_3 t
  show V c (Pipeline.arrRef spec0 3) (((cfg0.win 3).blk t).view.emb (ix2 p k)) = _
  refine congrArg _ (funext fun a => Fin.ext ?_)
  match a with
  | ⟨0, _⟩ => show win0_3.index t (0 : Fin 2) * 1000 + 1 * p.val = i0.val; omega
  | ⟨1, _⟩ => show win0_3.index t (1 : Fin 2) * 768 + 1 * k.val = k.val; omega

/-- Window 4's block at point `t` holds rows `1000 t …` of its array. -/
theorem blk_4 (c : Dev nD) (t : Fin cfg0.N) (p : Fin 1000) (k : Fin 768) (i0 : Fin 50000) (h : i0.val = t.val * 1000 + p.val) :
    iblk0 V c 4 t (ix2 p k) = V c (Pipeline.arrRef spec0 4) (ix2 i0 k) := by
  obtain ⟨f0, f1⟩ := idx_4 t
  show V c (Pipeline.arrRef spec0 4) (((cfg0.win 4).blk t).view.emb (ix2 p k)) = _
  refine congrArg _ (funext fun a => Fin.ext ?_)
  match a with
  | ⟨0, _⟩ => show win0_4.index t (0 : Fin 2) * 1000 + 1 * p.val = i0.val; omega
  | ⟨1, _⟩ => show win0_4.index t (1 : Fin 2) * 768 + 1 * k.val = k.val; omega

/-- Window 5's block at every point is its whole array. -/
theorem blk_5 (c : Dev nD) (t : Fin cfg0.N) (k : Fin 6) (r : Fin 32) :
    iblk0 V c 5 t (ix2 k r) = V c (Pipeline.arrRef spec0 5) (ix2 k r) := by
  obtain ⟨f0, f1⟩ := idx_5 t
  show V c (Pipeline.arrRef spec0 5) (((cfg0.win 5).blk t).view.emb (ix2 k r)) = _
  refine congrArg _ (funext fun a => Fin.ext ?_)
  match a with
  | ⟨0, _⟩ => show win0_5.index t (0 : Fin 2) * 6 + 1 * k.val = k.val; omega
  | ⟨1, _⟩ => show win0_5.index t (1 : Fin 2) * 32 + 1 * r.val = r.val; omega

/-- Window 6's block at every point is its whole array. -/
theorem blk_6 (c : Dev nD) (t : Fin cfg0.N) (k : Fin 1) (r : Fin 32) :
    iblk0 V c 6 t (ix2 k r) = V c (Pipeline.arrRef spec0 6) (ix2 k r) := by
  obtain ⟨f0, f1⟩ := idx_6 t
  show V c (Pipeline.arrRef spec0 6) (((cfg0.win 6).blk t).view.emb (ix2 k r)) = _
  refine congrArg _ (funext fun a => Fin.ext ?_)
  match a with
  | ⟨0, _⟩ => show win0_6.index t (0 : Fin 2) * 1 + 1 * k.val = k.val; omega
  | ⟨1, _⟩ => show win0_6.index t (1 : Fin 2) * 32 + 1 * r.val = r.val; omega

/-- Window 7's block at every point is its whole array. -/
theorem blk_7 (c : Dev nD) (t : Fin cfg0.N) (k : Fin 11) (r : Fin 32) :
    iblk0 V c 7 t (ix2 k r) = V c (Pipeline.arrRef spec0 7) (ix2 k r) := by
  obtain ⟨f0, f1⟩ := idx_7 t
  show V c (Pipeline.arrRef spec0 7) (((cfg0.win 7).blk t).view.emb (ix2 k r)) = _
  refine congrArg _ (funext fun a => Fin.ext ?_)
  match a with
  | ⟨0, _⟩ => show win0_7.index t (0 : Fin 2) * 11 + 1 * k.val = k.val; omega
  | ⟨1, _⟩ => show win0_7.index t (1 : Fin 2) * 32 + 1 * r.val = r.val; omega

/-- Window 8's block at every point is its whole array. -/
theorem blk_8 (c : Dev nD) (t : Fin cfg0.N) (k : Fin 1) (r : Fin 32) :
    iblk0 V c 8 t (ix2 k r) = V c (Pipeline.arrRef spec0 8) (ix2 k r) := by
  obtain ⟨f0, f1⟩ := idx_8 t
  show V c (Pipeline.arrRef spec0 8) (((cfg0.win 8).blk t).view.emb (ix2 k r)) = _
  refine congrArg _ (funext fun a => Fin.ext ?_)
  match a with
  | ⟨0, _⟩ => show win0_8.index t (0 : Fin 2) * 1 + 1 * k.val = k.val; omega
  | ⟨1, _⟩ => show win0_8.index t (1 : Fin 2) * 32 + 1 * r.val = r.val; omega

/-- Window 9's block at every point is its whole array. -/
theorem blk_9 (c : Dev nD) (t : Fin cfg0.N) (k : Fin 768) (r : Fin 32) :
    iblk0 V c 9 t (ix2 k r) = V c (Pipeline.arrRef spec0 9) (ix2 k r) := by
  obtain ⟨f0, f1⟩ := idx_9 t
  show V c (Pipeline.arrRef spec0 9) (((cfg0.win 9).blk t).view.emb (ix2 k r)) = _
  refine congrArg _ (funext fun a => Fin.ext ?_)
  match a with
  | ⟨0, _⟩ => show win0_9.index t (0 : Fin 2) * 768 + 1 * k.val = k.val; omega
  | ⟨1, _⟩ => show win0_9.index t (1 : Fin 2) * 32 + 1 * r.val = r.val; omega

/-- Window 10's block at every point is its whole array. -/
theorem blk_10 (c : Dev nD) (t : Fin cfg0.N) (k : Fin 1) (r : Fin 32) :
    iblk0 V c 10 t (ix2 k r) = V c (Pipeline.arrRef spec0 10) (ix2 k r) := by
  obtain ⟨f0, f1⟩ := idx_10 t
  show V c (Pipeline.arrRef spec0 10) (((cfg0.win 10).blk t).view.emb (ix2 k r)) = _
  refine congrArg _ (funext fun a => Fin.ext ?_)
  match a with
  | ⟨0, _⟩ => show win0_10.index t (0 : Fin 2) * 1 + 1 * k.val = k.val; omega
  | ⟨1, _⟩ => show win0_10.index t (1 : Fin 2) * 32 + 1 * r.val = r.val; omega

/-- Window 11's block at every point is its whole array. -/
theorem blk_11 (c : Dev nD) (t : Fin cfg0.N) (k : Fin 768) (r : Fin 32) :
    iblk0 V c 11 t (ix2 k r) = V c (Pipeline.arrRef spec0 11) (ix2 k r) := by
  obtain ⟨f0, f1⟩ := idx_11 t
  show V c (Pipeline.arrRef spec0 11) (((cfg0.win 11).blk t).view.emb (ix2 k r)) = _
  refine congrArg _ (funext fun a => Fin.ext ?_)
  match a with
  | ⟨0, _⟩ => show win0_11.index t (0 : Fin 2) * 768 + 1 * k.val = k.val; omega
  | ⟨1, _⟩ => show win0_11.index t (1 : Fin 2) * 32 + 1 * r.val = r.val; omega

/-- Window 12's block at every point is its whole array. -/
theorem blk_12 (c : Dev nD) (t : Fin cfg0.N) (k : Fin 1) (r : Fin 32) :
    iblk0 V c 12 t (ix2 k r) = V c (Pipeline.arrRef spec0 12) (ix2 k r) := by
  obtain ⟨f0, f1⟩ := idx_12 t
  show V c (Pipeline.arrRef spec0 12) (((cfg0.win 12).blk t).view.emb (ix2 k r)) = _
  refine congrArg _ (funext fun a => Fin.ext ?_)
  match a with
  | ⟨0, _⟩ => show win0_12.index t (0 : Fin 2) * 1 + 1 * k.val = k.val; omega
  | ⟨1, _⟩ => show win0_12.index t (1 : Fin 2) * 32 + 1 * r.val = r.val; omega

/-- Window 13's block at every point is its whole array. -/
theorem blk_13 (c : Dev nD) (t : Fin cfg0.N) (k : Fin 768) (r : Fin 32) :
    iblk0 V c 13 t (ix2 k r) = V c (Pipeline.arrRef spec0 13) (ix2 k r) := by
  obtain ⟨f0, f1⟩ := idx_13 t
  show V c (Pipeline.arrRef spec0 13) (((cfg0.win 13).blk t).view.emb (ix2 k r)) = _
  refine congrArg _ (funext fun a => Fin.ext ?_)
  match a with
  | ⟨0, _⟩ => show win0_13.index t (0 : Fin 2) * 768 + 1 * k.val = k.val; omega
  | ⟨1, _⟩ => show win0_13.index t (1 : Fin 2) * 32 + 1 * r.val = r.val; omega

/-- Window 14's block at every point is its whole array. -/
theorem blk_14 (c : Dev nD) (t : Fin cfg0.N) (k : Fin 1) (r : Fin 32) :
    iblk0 V c 14 t (ix2 k r) = V c (Pipeline.arrRef spec0 14) (ix2 k r) := by
  obtain ⟨f0, f1⟩ := idx_14 t
  show V c (Pipeline.arrRef spec0 14) (((cfg0.win 14).blk t).view.emb (ix2 k r)) = _
  refine congrArg _ (funext fun a => Fin.ext ?_)
  match a with
  | ⟨0, _⟩ => show win0_14.index t (0 : Fin 2) * 1 + 1 * k.val = k.val; omega
  | ⟨1, _⟩ => show win0_14.index t (1 : Fin 2) * 32 + 1 * r.val = r.val; omega

/-- Window 15's block at every point is its whole array. -/
theorem blk_15 (c : Dev nD) (t : Fin cfg0.N) (k : Fin 160) (r : Fin 160) :
    iblk0 V c 15 t (ix2 k r) = V c (Pipeline.arrRef spec0 15) (ix2 k r) := by
  obtain ⟨f0, f1⟩ := idx_15 t
  show V c (Pipeline.arrRef spec0 15) (((cfg0.win 15).blk t).view.emb (ix2 k r)) = _
  refine congrArg _ (funext fun a => Fin.ext ?_)
  match a with
  | ⟨0, _⟩ => show win0_15.index t (0 : Fin 2) * 160 + 1 * k.val = k.val; omega
  | ⟨1, _⟩ => show win0_15.index t (1 : Fin 2) * 160 + 1 * r.val = r.val; omega

/-- Window 16's block at every point is its whole array. -/
theorem blk_16 (c : Dev nD) (t : Fin cfg0.N) (k : Fin 1) (r : Fin 160) :
    iblk0 V c 16 t (ix2 k r) = V c (Pipeline.arrRef spec0 16) (ix2 k r) := by
  obtain ⟨f0, f1⟩ := idx_16 t
  show V c (Pipeline.arrRef spec0 16) (((cfg0.win 16).blk t).view.emb (ix2 k r)) = _
  refine congrArg _ (funext fun a => Fin.ext ?_)
  match a with
  | ⟨0, _⟩ => show win0_16.index t (0 : Fin 2) * 1 + 1 * k.val = k.val; omega
  | ⟨1, _⟩ => show win0_16.index t (1 : Fin 2) * 160 + 1 * r.val = r.val; omega

/-- Where entry `(p, q)` of the output's block at point `t` sits in the array: row `1000 t + p`, column `q`. -/
theorem emb17_val (t : Fin cfg0.N) (p : Fin 1000) (q : Fin 160) :
    ((((cfg0.win 17).blk t).view.emb (ix2 p q) : S50000x160.Idx) 0).val = t.val * 1000 + p.val
      ∧ ((((cfg0.win 17).blk t).view.emb (ix2 p q) : S50000x160.Idx) 1).val = q.val := by
  obtain ⟨f0, f1⟩ := idx_17 t
  refine ⟨?_, ?_⟩
  · show win0_17.index t (0 : Fin 2) * 1000 + 1 * p.val = _; omega
  · show win0_17.index t (1 : Fin 2) * 160 + 1 * q.val = _; omega

/-- The encoder of equal rows and equal weights at equal columns. -/
theorem enc_congr {a0 b0 : Fin 6 → EReal} {a1 b1 : Fin 11 → EReal} {a2 b2 : Fin 768 → EReal} {a3 b3 : Fin 768 → EReal} {a4 b4 : Fin 768 → EReal} {a5 b5 : Fin 6 → Fin 32 → EReal} {a6 b6 : Fin 32 → EReal} {a7 b7 : Fin 11 → Fin 32 → EReal} {a8 b8 : Fin 32 → EReal} {a9 b9 : Fin 768 → Fin 32 → EReal} {a10 b10 : Fin 32 → EReal} {a11 b11 : Fin 768 → Fin 32 → EReal} {a12 b12 : Fin 32 → EReal} {a13 b13 : Fin 768 → Fin 32 → EReal} {a14 b14 : Fin 32 → EReal} {a15 b15 : Fin 160 → Fin 160 → EReal} {a16 b16 : Fin 160 → EReal} {q q' : Fin 160}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (hq : q = q') :
    enc a0 a1 a2 a3 a4 a5 a6 a7 a8 a9 a10 a11 a12 a13 a14 a15 a16 q = enc b0 b1 b2 b3 b4 b5 b6 b7 b8 b9 b10 b11 b12 b13 b14 b15 b16 q' := by
  subst h0 h1 h2 h3 h4 h5 h6 h7 h8 h9 h10 h11 h12 h13 h14 h15 h16 hq; rfl

/-- WHAT POINT `t` WRITES BACK is block `t` of the encoder array. -/
theorem flushed17 (c : Dev nD) (t : Fin cfg0.N) :
    (dat0 V c).flushed 17 t = ((cfg0.win 17).blk t).view.read (Elt Ideal) (encArr V c) := by
  show (cfg0.win 17).cut (grid0.coords t) ((dat0 V c).after 17 t) = _
  rw [after0_17]
  unfold out0_17
  rw [View.canon_unit_zero hz]
  simp only [View.ld_unit_zero (S := S1000x6) hz, View.ld_unit_zero (S := S1000x11) hz, View.ld_unit_zero (S := S1000x768) hz, View.ld_unit_zero (S := S6x32) hz, View.ld_unit_zero (S := S1x32) hz, View.ld_unit_zero (S := S11x32) hz, View.ld_unit_zero (S := S768x32) hz, View.ld_unit_zero (S := S160x160) hz, View.ld_unit_zero (S := S1x160) hz]
  funext y
  obtain ⟨p, q, rfl⟩ : ∃ (p : Fin 1000) (q : Fin 160), y = ix2 p q := ⟨y 0, y 1, eq_ix2 y⟩
  refine (body_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) p q).trans ?_
  obtain ⟨e0, e1⟩ := emb17_val t p q
  exact enc_congr (funext fun k => blk_0 V c t p k _ e0)
    (funext fun k => blk_1 V c t p k _ e0)
    (funext fun k => blk_2 V c t p k _ e0)
    (funext fun k => blk_3 V c t p k _ e0)
    (funext fun k => blk_4 V c t p k _ e0)
    (funext fun k => funext fun r => blk_5 V c t k r)
    (funext fun r => blk_6 V c t 0 r)
    (funext fun k => funext fun r => blk_7 V c t k r)
    (funext fun r => blk_8 V c t 0 r)
    (funext fun k => funext fun r => blk_9 V c t k r)
    (funext fun r => blk_10 V c t 0 r)
    (funext fun k => funext fun r => blk_11 V c t k r)
    (funext fun r => blk_12 V c t 0 r)
    (funext fun k => funext fun r => blk_13 V c t k r)
    (funext fun r => blk_14 V c t 0 r)
    (funext fun k => funext fun r => blk_15 V c t k r)
    (funext fun r => blk_16 V c t 0 r)
    (Fin.ext e1.symm)

/-! ## The blocks cover the array -/

/-- An index of the array is in point `t`'s block iff each coordinate is in the block's range on its axis. -/
theorem mem_blk17 (t : Fin cfg0.N) (i : S50000x160.Idx) :
    i ∈ ((cfg0.win 17).blk t).view.set ↔ ∀ a : Fin 2, win0_17.index t a * S1000x160.size a ≤ (i a).val
      ∧ (i a).val < win0_17.index t a * S1000x160.size a + S1000x160.size a := by
  show i ∈ ((View.whole main_v6).slice (win0_17.rect t)).set ↔ _
  rw [View.set_slice_whole, Rect.mem_set_unit]
  exact Iff.rfl

/-- Row `r` of the array lies in the block of point `r / 1000`. -/
theorem cover17 (i : S50000x160.Idx) :
    ∃ t : Fin cfg0.N, (cfg0.win 17).flush t = true ∧ i ∈ ((cfg0.win 17).blk t).view.set := by
  have hi0 : (i 0).val < 50000 := (i 0).isLt
  have hi1 : (i 1).val < 160 := (i 1).isLt
  have hN : grid0.N = 50 := N_0
  have ht : (i 0).val / 1000 < cfg0.N := by show (i 0).val / 1000 < grid0.N; rw [hN]; omega
  refine ⟨⟨(i 0).val / 1000, ht⟩, flush0_17 _, ?_⟩
  rw [mem_blk17]
  obtain ⟨f0, f1⟩ := idx_17 ⟨(i 0).val / 1000, ht⟩
  intro a
  match a with
  | ⟨0, _⟩ =>
    show win0_17.index ⟨(i 0).val / 1000, ht⟩ (0 : Fin 2) * 1000 ≤ (i 0).val
      ∧ (i 0).val < win0_17.index ⟨(i 0).val / 1000, ht⟩ (0 : Fin 2) * 1000 + 1000
    rw [f0]; show (i 0).val / 1000 * 1000 ≤ (i 0).val ∧ (i 0).val < (i 0).val / 1000 * 1000 + 1000; omega
  | ⟨1, _⟩ =>
    show win0_17.index ⟨(i 0).val / 1000, ht⟩ (1 : Fin 2) * 160 ≤ (i 1).val
      ∧ (i 1).val < win0_17.index ⟨(i 0).val / 1000, ht⟩ (1 : Fin 2) * 160 + 160
    rw [f1]; omega

/-- The array after the region is the encoder array. -/
theorem arr (c : Dev nD) : (dat0 V c).arrAt 17 cfg0.N = encArr V c :=
  (dat0 V c).arrAt_eq_of_cover 17 (encArr V c) (fun t _ => flushed17 V c t) cover17

end Cert.KernelIdeal.Reg.Enc

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- THE ARRAY AFTER THE ENCODER REGION: at row `j 0` and column `j 1`, the specification's encoder of row `j 0` of the
    five feature arrays, with the eleven weight and bias arrays, all as the region finds them. -/
theorem arr0 (c : Dev nD) : (Gen.dat0 (F := Ideal) V c).arrAt 17 cfg0.N = fun j =>
    Cert.Spec.enc (fun k => V c (Pipeline.arrRef spec0 0) (ix2 (j 0) k))
      (fun k => V c (Pipeline.arrRef spec0 1) (ix2 (j 0) k))
      (fun k => V c (Pipeline.arrRef spec0 2) (ix2 (j 0) k))
      (fun k => V c (Pipeline.arrRef spec0 3) (ix2 (j 0) k))
      (fun k => V c (Pipeline.arrRef spec0 4) (ix2 (j 0) k))
      (fun k q => V c (Pipeline.arrRef spec0 5) (ix2 k q))
      (fun q => V c (Pipeline.arrRef spec0 6) (ix2 0 q))
      (fun k q => V c (Pipeline.arrRef spec0 7) (ix2 k q))
      (fun q => V c (Pipeline.arrRef spec0 8) (ix2 0 q))
      (fun k q => V c (Pipeline.arrRef spec0 9) (ix2 k q))
      (fun q => V c (Pipeline.arrRef spec0 10) (ix2 0 q))
      (fun k q => V c (Pipeline.arrRef spec0 11) (ix2 k q))
      (fun q => V c (Pipeline.arrRef spec0 12) (ix2 0 q))
      (fun k q => V c (Pipeline.arrRef spec0 13) (ix2 k q))
      (fun q => V c (Pipeline.arrRef spec0 14) (ix2 0 q))
      (fun k q => V c (Pipeline.arrRef spec0 15) (ix2 k q))
      (fun q => V c (Pipeline.arrRef spec0 16) (ix2 0 q)) (j 1) :=
  Enc.arr V c

end Cert.KernelIdeal.Reg

end
-- ==== Proof.KReg1.lean ====
/-
  The relational graph layer's combine step, region 1 of the kernel program, read off its blocks: for any contents
  of the arrays when the region is entered, the output array afterwards holds, at node `i` and column `j`,
  `(∑ₖ h i k · W_root k j + b j) + ∑ₖ a₀ i k · W₀ k j + ∑ₖ a₁ i k · W₁ k j`, where `h` is the node-feature array, `a₀`,
  `a₁` the two relations' aggregate arrays, and `W_root`, `b`, `W₀`, `W₁` the root matrix, the bias row and the two
  relation matrices.  First the body's stored block entry by entry (three products into zero accumulators, a row
  broadcast, three sums); then each input block as rows of its array (the three node arrays move down 5000 rows per
  grid point, the matrices and the bias stay); then the ten output blocks cover the 50000 rows, row `r` in block
  `r / 5000`.
-/
import proofs.«426156_j28432683499969_3_alg».proof.Proof.Gen.KernelIdeal.Frame
import proofs.«426156_j28432683499969_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

/-! ## The product of a 5000×160 block by a 160×160 matrix, entry by entry -/

theorem mm1_lhs_0 (i : S5000x160.Idx) (q : dot_S5000x160_S160x160_S5000x160_1_0_0_1_n_n.contr.Idx) :
    (dot_S5000x160_S160x160_S5000x160_1_0_0_1_n_n.lhsIdx i q 0).val = (i 0).val := by
  unfold DotDims.lhsIdx
  rw [dif_neg (show ¬(0 : Fin S5000x160.rank) ∈ dot_S5000x160_S160x160_S5000x160_1_0_0_1_n_n.lhsBatch by decide), dif_pos (show (0 : Fin S5000x160.rank) ∈ dot_S5000x160_S160x160_S5000x160_1_0_0_1_n_n.lhsNonContracting by decide)]
  rfl
theorem mm1_lhs_1 (i : S5000x160.Idx) (q : dot_S5000x160_S160x160_S5000x160_1_0_0_1_n_n.contr.Idx) :
    (dot_S5000x160_S160x160_S5000x160_1_0_0_1_n_n.lhsIdx i q 1).val = (q ⟨0, by decide⟩).val :=
  dot_S5000x160_S160x160_S5000x160_1_0_0_1_n_n.lhsIdx_val_of_single rfl i q
theorem mm1_rhs_0 (i : S5000x160.Idx) (q : dot_S5000x160_S160x160_S5000x160_1_0_0_1_n_n.contr.Idx) :
    (dot_S5000x160_S160x160_S5000x160_1_0_0_1_n_n.rhsIdx i q 0).val = (q ⟨0, by decide⟩).val :=
  dot_S5000x160_S160x160_S5000x160_1_0_0_1_n_n.rhsIdx_val_of_single rfl i q
theorem mm1_rhs_1 (i : S5000x160.Idx) (q : dot_S5000x160_S160x160_S5000x160_1_0_0_1_n_n.contr.Idx) :
    (dot_S5000x160_S160x160_S5000x160_1_0_0_1_n_n.rhsIdx i q 1).val = (i 1).val := by
  unfold DotDims.rhsIdx
  rw [dif_neg (show ¬(1 : Fin S160x160.rank) ∈ dot_S5000x160_S160x160_S5000x160_1_0_0_1_n_n.rhsBatch by decide), dif_pos (show (1 : Fin S160x160.rank) ∈ dot_S5000x160_S160x160_S5000x160_1_0_0_1_n_n.rhsNonContracting by decide)]
  rfl

/-- A block times a matrix into the zero accumulator: entry `(p, q)` is `∑ₖ x (p, k) · w (k, q)`. -/
theorem mm1_apply (x : FVec Ideal S5000x160 .f32) (w : FVec Ideal S160x160 .f32) (p : Fin 5000) (q : Fin 160) :
    matmul dot_S5000x160_S160x160_S5000x160_1_0_0_1_n_n none x w (constant (F := Ideal) S5000x160 .f32 0x00000000#32) (ix2 p q)
      = ∑ k : Fin 160, x (ix2 p k) * w (ix2 k q) := by
  simp only [matmul]
  rw [Ideal.matmul_constant_zero_apply, ← Equiv.sum_comp (contrEquiv1 dot_S5000x160_S160x160_S5000x160_1_0_0_1_n_n 160 rfl rfl).symm]
  refine Finset.sum_congr rfl fun k _ => ?_
  have hk := contrEquiv1_symm_val dot_S5000x160_S160x160_S5000x160_1_0_0_1_n_n 160 rfl rfl k
  have el : dot_S5000x160_S160x160_S5000x160_1_0_0_1_n_n.lhsIdx (ix2 p q) ((contrEquiv1 dot_S5000x160_S160x160_S5000x160_1_0_0_1_n_n 160 rfl rfl).symm k) = ix2 p k := funext fun a => Fin.ext (by
    match a with
    | ⟨0, _⟩ => exact mm1_lhs_0 _ _
    | ⟨1, _⟩ => exact (mm1_lhs_1 _ _).trans hk)
  have er : dot_S5000x160_S160x160_S5000x160_1_0_0_1_n_n.rhsIdx (ix2 p q) ((contrEquiv1 dot_S5000x160_S160x160_S5000x160_1_0_0_1_n_n 160 rfl rfl).symm k) = ix2 k q := funext fun a => Fin.ext (by
    match a with
    | ⟨0, _⟩ => exact (mm1_rhs_0 _ _).trans hk
    | ⟨1, _⟩ => exact mm1_rhs_1 _ _)
  rw [el, er]

/-! ## The body's result, entry by entry -/

/-- Entry `(p, q)` of what the body stores: the root transform of row `p` of the feature block plus the bias, plus
    each relation's aggregate row `p` through that relation's matrix. -/
theorem pay1_apply (v0 : Vec Ideal S5000x160 .f32) (v2 : Vec Ideal S160x160 .f32) (v4 : Vec Ideal S1x160 .f32)
    (v8 : Vec Ideal S5000x160 .f32) (v10 : Vec Ideal S160x160 .f32) (v13 : Vec Ideal S5000x160 .f32) (v15 : Vec Ideal S160x160 .f32)
    (p : Fin 5000) (q : Fin 160) :
    k1_pay1 (F := Ideal) v0 v2 v4 v8 v10 v13 v15 (ix2 p q)
      = (Cert.Spec.lin (fun k => v0 (ix2 p k)) (fun k q => v2 (ix2 k q)) (fun q => v4 (ix2 0 q)) q
          + Cert.Spec.dot (fun k => v8 (ix2 p k)) (fun k q => v10 (ix2 k q)) q)
        + Cert.Spec.dot (fun k => v13 (ix2 p k)) (fun k q => v15 (ix2 k q)) q := by
  unfold k1_pay1
  simp only [shapeCast_self]
  rw [addf_apply, addf_apply, addf_apply, mm1_apply, mm1_apply, mm1_apply, broadcastTo_1b_ab_apply]
  rfl

/-! ## From the blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The layer's array, entry by entry, from the arrays the region finds. -/
abbrev rows1 (c : Dev nD) : S50000x160.Idx → EReal := fun j =>
  (Cert.Spec.lin (fun k => V c (Pipeline.arrRef spec1 0) (ix2 (j 0) k)) (fun k q => V c (Pipeline.arrRef spec1 3) (ix2 k q))
      (fun q => V c (Pipeline.arrRef spec1 4) (ix2 0 q)) (j 1)
    + Cert.Spec.dot (fun k => V c (Pipeline.arrRef spec1 1) (ix2 (j 0) k)) (fun k q => V c (Pipeline.arrRef spec1 5) (ix2 k q)) (j 1))
  + Cert.Spec.dot (fun k => V c (Pipeline.arrRef spec1 2) (ix2 (j 0) k)) (fun k q => V c (Pipeline.arrRef spec1 6) (ix2 k q)) (j 1)

/-- The printed index maps over the grid: the three row-blocked inputs and the output move down one block of rows per
    point; the matrices and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row-blocked input 0's block at point `t`: its row `p` is row `5000 t + p` of the array. -/
theorem blk1_0 (c : Dev nD) (t : Fin cfg1.N) (p : Fin 5000) (k : Fin 160) (r : Fin 50000) (hr : r.val = t.val * 5000 + p.val) :
    (iblk1 (F := Ideal) V c 0 t : Vec Ideal S5000x160 .f32) (ix2 p k) = V c (Pipeline.arrRef spec1 0) (ix2 r k) := by
  obtain ⟨e00, e01, e10, e11, e20, e21, -⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 160 + 1 * k.val = k.val; omega

/-- Row-blocked input 1's block at point `t`: its row `p` is row `5000 t + p` of the array. -/
theorem blk1_1 (c : Dev nD) (t : Fin cfg1.N) (p : Fin 5000) (k : Fin 160) (r : Fin 50000) (hr : r.val = t.val * 5000 + p.val) :
    (iblk1 (F := Ideal) V c 1 t : Vec Ideal S5000x160 .f32) (ix2 p k) = V c (Pipeline.arrRef spec1 1) (ix2 r k) := by
  obtain ⟨e00, e01, e10, e11, e20, e21, -⟩ := idx_facts1 t
  unfold iblk1
  rw [View.read_apply]
  refine congrArg (V c (Pipeline.arrRef spec1 1)) (funext fun a => Fin.ext ?_)
  match a with
  | ⟨0, _⟩ => show win1_1.index t (0 : Fin 2) * 5000 + 1 * p.val = r.val; omega
  | ⟨1, _⟩ => show win1_1.index t (1 : Fin 2) * 160 + 1 * k.val = k.val; omega

/-- Row-blocked input 2's block at point `t`: its row `p` is row `5000 t + p` of the array. -/
theorem blk1_2 (c : Dev nD) (t : Fin cfg1.N) (p : Fin 5000) (k : Fin 160) (r : Fin 50000) (hr : r.val = t.val * 5000 + p.val) :
    (iblk1 (F := Ideal) V c 2 t : Vec Ideal S5000x160 .f32) (ix2 p k) = V c (Pipeline.arrRef spec1 2) (ix2 r k) := by
  obtain ⟨e00, e01, e10, e11, e20, e21, -⟩ := idx_facts1 t
  unfold iblk1
  rw [View.read_apply]
  refine congrArg (V c (Pipeline.arrRef spec1 2)) (funext fun a => Fin.ext ?_)
  match a with
  | ⟨0, _⟩ => show win1_2.index t (0 : Fin 2) * 5000 + 1 * p.val = r.val; omega
  | ⟨1, _⟩ => show win1_2.index t (1 : Fin 2) * 160 + 1 * k.val = k.val; omega

/-- Matrix 3's block at every point is the matrix. -/
theorem blk1_3 (c : Dev nD) (t : Fin cfg1.N) (k q : Fin 160) :
    (iblk1 (F := Ideal) V c 3 t : Vec Ideal S160x160 .f32) (ix2 k q) = V c (Pipeline.arrRef spec1 3) (ix2 k q) := by
  obtain ⟨-, -, -, -, -, -, e30, e31, e40, e41, e50, e51, e60, e61, -⟩ := idx_facts1 t
  unfold iblk1
  rw [View.read_apply]
  refine congrArg (V c (Pipeline.arrRef spec1 3)) (funext fun a => Fin.ext ?_)
  match a with
  | ⟨0, _⟩ => show win1_3.index t (0 : Fin 2) * 160 + 1 * k.val = k.val; omega
  | ⟨1, _⟩ => show win1_3.index t (1 : Fin 2) * 160 + 1 * q.val = q.val; omega

/-- The bias row's block at every point is the row. -/
theorem blk1_4 (c : Dev nD) (t : Fin cfg1.N) (q : Fin 160) :
    (iblk1 (F := Ideal) V c 4 t : Vec Ideal S1x160 .f32) (ix2 0 q) = V c (Pipeline.arrRef spec1 4) (ix2 0 q) := by
  obtain ⟨-, -, -, -, -, -, e30, e31, e40, e41, -⟩ := idx_facts1 t
  unfold iblk1
  rw [View.read_apply]
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 160 + 1 * q.val = q.val; omega

/-- Matrix 5's block at every point is the matrix. -/
theorem blk1_5 (c : Dev nD) (t : Fin cfg1.N) (k q : Fin 160) :
    (iblk1 (F := Ideal) V c 5 t : Vec Ideal S160x160 .f32) (ix2 k q) = V c (Pipeline.arrRef spec1 5) (ix2 k q) := by
  obtain ⟨-, -, -, -, -, -, e30, e31, e40, e41, e50, e51, e60, e61, -⟩ := idx_facts1 t
  unfold iblk1
  rw [View.read_apply]
  refine congrArg (V c (Pipeline.arrRef spec1 5)) (funext fun a => Fin.ext ?_)
  match a with
  | ⟨0, _⟩ => show win1_5.index t (0 : Fin 2) * 160 + 1 * k.val = k.val; omega
  | ⟨1, _⟩ => show win1_5.index t (1 : Fin 2) * 160 + 1 * q.val = q.val; omega

/-- Matrix 6's block at every point is the matrix. -/
theorem blk1_6 (c : Dev nD) (t : Fin cfg1.N) (k q : Fin 160) :
    (iblk1 (F := Ideal) V c 6 t : Vec Ideal S160x160 .f32) (ix2 k q) = V c (Pipeline.arrRef spec1 6) (ix2 k q) := by
  obtain ⟨-, -, -, -, -, -, e30, e31, e40, e41, e50, e51, e60, e61, -⟩ := idx_facts1 t
  unfold iblk1
  rw [View.read_apply]
  refine congrArg (V c (Pipeline.arrRef spec1 6)) (funext fun a => Fin.ext ?_)
  match a with
  | ⟨0, _⟩ => show win1_6.index t (0 : Fin 2) * 160 + 1 * k.val = k.val; omega
  | ⟨1, _⟩ => show win1_6.index t (1 : Fin 2) * 160 + 1 * q.val = q.val; omega

/-- Where entry `(p, q)` of the output's block at point `t` sits in the array: row `5000 t + p`, column `q`. -/
theorem emb1_7 (t : Fin cfg1.N) (p : Fin 5000) (q : Fin 160) (r : Fin 50000) (hr : r.val = t.val * 5000 + p.val) :
    ((cfg1.win 7).blk t).view.emb (ix2 p q) = (ix2 r q : S50000x160.Idx) := by
  obtain ⟨-, -, -, -, -, -, -, -, -, -, -, -, -, -, e70, e71⟩ := idx_facts1 t
  refine funext fun a => Fin.ext ?_
  match a with
  | ⟨0, _⟩ => show win1_7.index t (0 : Fin 2) * 5000 + 1 * p.val = r.val; omega
  | ⟨1, _⟩ => show win1_7.index t (1 : Fin 2) * 160 + 1 * q.val = q.val; omega

/-- What point `t` writes back is block `t` of the layer's array. -/
theorem flushed1_eq (c : Dev nD) (t : Fin cfg1.N) :
    (dat1 (F := Ideal) V c).flushed 7 t = ((cfg1.win 7).blk t).view.read (Elt Ideal) (rows1 V c) := by
  show (cfg1.win 7).cut (grid1.coords t) ((dat1 V c).after 7 t) = _
  rw [after1_7]
  unfold out1_7
  rw [View.canon_unit_zero hz1]
  simp only [View.ld_unit_zero (S := S5000x160) hz1, View.ld_unit_zero (S := S160x160) hz1, View.ld_unit_zero (S := S1x160) hz1]
  funext y
  obtain ⟨p, q, rfl⟩ : ∃ (p : Fin 5000) (q : Fin 160), y = ix2 p q := ⟨y 0, y 1, eq_ix2 y⟩
  have hN : cfg1.N = 10 := N_1
  have ht : t.val < 10 := hN ▸ t.isLt
  have hr : (⟨t.val * 5000 + p.val, by omega⟩ : Fin 50000).val = t.val * 5000 + p.val := rfl
  show k1_pay1 (F := Ideal) (iblk1 V c 0 t) (iblk1 V c 3 t) (iblk1 V c 4 t) (iblk1 V c 1 t) (iblk1 V c 5 t) (iblk1 V c 2 t) (iblk1 V c 6 t) (ix2 p q)
    = rows1 V c (((cfg1.win 7).blk t).view.emb (ix2 p q))
  rw [emb1_7 t p q _ hr]
  refine (pay1_apply _ _ _ _ _ _ _ p q).trans ?_
  have e0 := funext fun k => blk1_0 V c t p k _ hr
  have e1 := funext fun k => blk1_1 V c t p k _ hr
  have e2 := funext fun k => blk1_2 V c t p k _ hr
  have e3 := funext fun k => funext fun q => blk1_3 V c t k q
  have e4 := funext fun q => blk1_4 V c t q
  have e5 := funext fun k => funext fun q => blk1_5 V c t k q
  have e6 := funext fun k => funext fun q => blk1_6 V c t k q
  rw [e0, e1, e2, e3, e4, e5, e6]

/-- An index of the array is in point `t`'s block iff each coordinate is in the block's range on its axis. -/
theorem mem_blk1 (t : Fin cfg1.N) (i : S50000x160.Idx) :
    i ∈ ((cfg1.win 7).blk t).view.set ↔ ∀ a : Fin 2, win1_7.index t a * S5000x160.size a ≤ (i a).val ∧ (i a).val < win1_7.index t a * S5000x160.size a + S5000x160.size a := by
  show i ∈ ((View.whole main_v60).slice (win1_7.rect t)).set ↔ _
  rw [View.set_slice_whole, Rect.mem_set_unit]
  exact Iff.rfl

/-- Row `r` of the array lies in the block of point `r / 5000`: the ten blocks cover the array. -/
theorem cover1 (i : S50000x160.Idx) :
    ∃ t : Fin cfg1.N, (cfg1.win 7).flush t = true ∧ i ∈ ((cfg1.win 7).blk t).view.set := by
  have hi0 : (i 0).val < 50000 := (i 0).isLt
  have hi1 : (i 1).val < 160 := (i 1).isLt
  have hN : cfg1.N = 10 := N_1
  refine ⟨⟨(i 0).val / 5000, by rw [hN]; omega⟩, flush1_7 _, ?_⟩
  rw [mem_blk1]
  obtain ⟨-, -, -, -, -, -, -, -, -, -, -, -, -, -, e70, e71⟩ := idx_facts1 ⟨(i 0).val / 5000, by rw [hN]; omega⟩
  intro a
  match a with
  | ⟨0, _⟩ =>
    show win1_7.index ⟨(i 0).val / 5000, _⟩ (0 : Fin 2) * 5000 ≤ (i 0).val ∧ (i 0).val < win1_7.index ⟨(i 0).val / 5000, _⟩ (0 : Fin 2) * 5000 + 5000
    rw [e70]; show (i 0).val / 5000 * 5000 ≤ (i 0).val ∧ (i 0).val < (i 0).val / 5000 * 5000 + 5000; omega
  | ⟨1, _⟩ =>
    show win1_7.index ⟨(i 0).val / 5000, _⟩ (1 : Fin 2) * 160 ≤ (i 1).val ∧ (i 1).val < win1_7.index ⟨(i 0).val / 5000, _⟩ (1 : Fin 2) * 160 + 160
    rw [e71]; omega

/-- After the region's run the output array holds the layer, entry by entry: the root transform of the node's row plus
    the bias, plus each relation's aggregate row through that relation's matrix. -/
theorem arr1 (c : Dev nD) : (Gen.dat1 (F := Ideal) V c).arrAt 7 cfg1.N = fun j =>
    (Cert.Spec.lin (fun k => V c (Pipeline.arrRef spec1 0) (ix2 (j 0) k)) (fun k q => V c (Pipeline.arrRef spec1 3) (ix2 k q))
        (fun q => V c (Pipeline.arrRef spec1 4) (ix2 0 q)) (j 1)
      + Cert.Spec.dot (fun k => V c (Pipeline.arrRef spec1 1) (ix2 (j 0) k)) (fun k q => V c (Pipeline.arrRef spec1 5) (ix2 k q)) (j 1))
    + Cert.Spec.dot (fun k => V c (Pipeline.arrRef spec1 2) (ix2 (j 0) k)) (fun k q => V c (Pipeline.arrRef spec1 6) (ix2 k q)) (j 1) :=
  (dat1 V c).arrAt_eq_of_cover 7 (rows1 V c) (fun t _ => flushed1_eq V c t) (cover1)

end Cert.KernelIdeal.Reg

end
-- ==== Proof.KReg2.lean ====
/-
  The relational graph layer's combine step, region 2 of the kernel program, read off its blocks: for any contents
  of the arrays when the region is entered, the output array afterwards holds, at node `i` and column `j`,
  `(∑ₖ h i k · W_root k j + b j) + ∑ₖ a₀ i k · W₀ k j + ∑ₖ a₁ i k · W₁ k j`, where `h` is the node-feature array, `a₀`,
  `a₁` the two relations' aggregate arrays, and `W_root`, `b`, `W₀`, `W₁` the root matrix, the bias row and the two
  relation matrices.  First the body's stored block entry by entry (three products into zero accumulators, a row
  broadcast, three sums); then each input block as rows of its array (the three node arrays move down 5000 rows per
  grid point, the matrices and the bias stay); then the ten output blocks cover the 50000 rows, row `r` in block
  `r / 5000`.
-/
import proofs.«426156_j28432683499969_3_alg».proof.Proof.Gen.KernelIdeal.Frame
import proofs.«426156_j28432683499969_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

/-! ## The product of a 5000×160 block by a 160×160 matrix, entry by entry -/

theorem mm2_lhs_0 (i : S5000x160.Idx) (q : dot_S5000x160_S160x160_S5000x160_1_0_0_1_n_n.contr.Idx) :
    (dot_S5000x160_S160x160_S5000x160_1_0_0_1_n_n.lhsIdx i q 0).val = (i 0).val := by
  unfold DotDims.lhsIdx
  rw [dif_neg (show ¬(0 : Fin S5000x160.rank) ∈ dot_S5000x160_S160x160_S5000x160_1_0_0_1_n_n.lhsBatch by decide), dif_pos (show (0 : Fin S5000x160.rank) ∈ dot_S5000x160_S160x160_S5000x160_1_0_0_1_n_n.lhsNonContracting by decide)]
  rfl
theorem mm2_lhs_1 (i : S5000x160.Idx) (q : dot_S5000x160_S160x160_S5000x160_1_0_0_1_n_n.contr.Idx) :
    (dot_S5000x160_S160x160_S5000x160_1_0_0_1_n_n.lhsIdx i q 1).val = (q ⟨0, by decide⟩).val :=
  dot_S5000x160_S160x160_S5000x160_1_0_0_1_n_n.lhsIdx_val_of_single rfl i q
theorem mm2_rhs_0 (i : S5000x160.Idx) (q : dot_S5000x160_S160x160_S5000x160_1_0_0_1_n_n.contr.Idx) :
    (dot_S5000x160_S160x160_S5000x160_1_0_0_1_n_n.rhsIdx i q 0).val = (q ⟨0, by decide⟩).val :=
  dot_S5000x160_S160x160_S5000x160_1_0_0_1_n_n.rhsIdx_val_of_single rfl i q
theorem mm2_rhs_1 (i : S5000x160.Idx) (q : dot_S5000x160_S160x160_S5000x160_1_0_0_1_n_n.contr.Idx) :
    (dot_S5000x160_S160x160_S5000x160_1_0_0_1_n_n.rhsIdx i q 1).val = (i 1).val := by
  unfold DotDims.rhsIdx
  rw [dif_neg (show ¬(1 : Fin S160x160.rank) ∈ dot_S5000x160_S160x160_S5000x160_1_0_0_1_n_n.rhsBatch by decide), dif_pos (show (1 : Fin S160x160.rank) ∈ dot_S5000x160_S160x160_S5000x160_1_0_0_1_n_n.rhsNonContracting by decide)]
  rfl

/-- A block times a matrix into the zero accumulator: entry `(p, q)` is `∑ₖ x (p, k) · w (k, q)`. -/
theorem mm2_apply (x : FVec Ideal S5000x160 .f32) (w : FVec Ideal S160x160 .f32) (p : Fin 5000) (q : Fin 160) :
    matmul dot_S5000x160_S160x160_S5000x160_1_0_0_1_n_n none x w (constant (F := Ideal) S5000x160 .f32 0x00000000#32) (ix2 p q)
      = ∑ k : Fin 160, x (ix2 p k) * w (ix2 k q) := by
  simp only [matmul]
  rw [Ideal.matmul_constant_zero_apply, ← Equiv.sum_comp (contrEquiv1 dot_S5000x160_S160x160_S5000x160_1_0_0_1_n_n 160 rfl rfl).symm]
  refine Finset.sum_congr rfl fun k _ => ?_
  have hk := contrEquiv1_symm_val dot_S5000x160_S160x160_S5000x160_1_0_0_1_n_n 160 rfl rfl k
  have el : dot_S5000x160_S160x160_S5000x160_1_0_0_1_n_n.lhsIdx (ix2 p q) ((contrEquiv1 dot_S5000x160_S160x160_S5000x160_1_0_0_1_n_n 160 rfl rfl).symm k) = ix2 p k := funext fun a => Fin.ext (by
    match a with
    | ⟨0, _⟩ => exact mm2_lhs_0 _ _
    | ⟨1, _⟩ => exact (mm2_lhs_1 _ _).trans hk)
  have er : dot_S5000x160_S160x160_S5000x160_1_0_0_1_n_n.rhsIdx (ix2 p q) ((contrEquiv1 dot_S5000x160_S160x160_S5000x160_1_0_0_1_n_n 160 rfl rfl).symm k) = ix2 k q := funext fun a => Fin.ext (by
    match a with
    | ⟨0, _⟩ => exact (mm2_rhs_0 _ _).trans hk
    | ⟨1, _⟩ => exact mm2_rhs_1 _ _)
  rw [el, er]

/-! ## The body's result, entry by entry -/

/-- Entry `(p, q)` of what the body stores: the root transform of row `p` of the feature block plus the bias, plus
    each relation's aggregate row `p` through that relation's matrix. -/
theorem pay2_apply (v0 : Vec Ideal S5000x160 .f32) (v2 : Vec Ideal S160x160 .f32) (v4 : Vec Ideal S1x160 .f32)
    (v8 : Vec Ideal S5000x160 .f32) (v10 : Vec Ideal S160x160 .f32) (v13 : Vec Ideal S5000x160 .f32) (v15 : Vec Ideal S160x160 .f32)
    (p : Fin 5000) (q : Fin 160) :
    k2_pay1 (F := Ideal) v0 v2 v4 v8 v10 v13 v15 (ix2 p q)
      = (Cert.Spec.lin (fun k => v0 (ix2 p k)) (fun k q => v2 (ix2 k q)) (fun q => v4 (ix2 0 q)) q
          + Cert.Spec.dot (fun k => v8 (ix2 p k)) (fun k q => v10 (ix2 k q)) q)
        + Cert.Spec.dot (fun k => v13 (ix2 p k)) (fun k q => v15 (ix2 k q)) q := by
  unfold k2_pay1
  simp only [shapeCast_self]
  rw [addf_apply, addf_apply, addf_apply, mm2_apply, mm2_apply, mm2_apply, broadcastTo_1b_ab_apply]
  rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The layer's array, entry by entry, from the arrays the region finds. -/
abbrev rows2 (c : Dev nD) : S50000x160.Idx → EReal := fun j =>
  (Cert.Spec.lin (fun k => V c (Pipeline.arrRef spec2 0) (ix2 (j 0) k)) (fun k q => V c (Pipeline.arrRef spec2 3) (ix2 k q))
      (fun q => V c (Pipeline.arrRef spec2 4) (ix2 0 q)) (j 1)
    + Cert.Spec.dot (fun k => V c (Pipeline.arrRef spec2 1) (ix2 (j 0) k)) (fun k q => V c (Pipeline.arrRef spec2 5) (ix2 k q)) (j 1))
  + Cert.Spec.dot (fun k => V c (Pipeline.arrRef spec2 2) (ix2 (j 0) k)) (fun k q => V c (Pipeline.arrRef spec2 6) (ix2 k q)) (j 1)

/-- The printed index maps over the grid: the three row-blocked inputs and the output move down one block of rows per
    point; the matrices and the bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row-blocked input 0's block at point `t`: its row `p` is row `5000 t + p` of the array. -/
theorem blk2_0 (c : Dev nD) (t : Fin cfg2.N) (p : Fin 5000) (k : Fin 160) (r : Fin 50000) (hr : r.val = t.val * 5000 + p.val) :
    (iblk2 (F := Ideal) V c 0 t : Vec Ideal S5000x160 .f32) (ix2 p k) = V c (Pipeline.arrRef spec2 0) (ix2 r k) := by
  obtain ⟨e00, e01, e10, e11, e20, e21, -⟩ := idx_facts2 t
  unfold iblk2
  rw [View.read_apply]
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 160 + 1 * k.val = k.val; omega

/-- Row-blocked input 1's block at point `t`: its row `p` is row `5000 t + p` of the array. -/
theorem blk2_1 (c : Dev nD) (t : Fin cfg2.N) (p : Fin 5000) (k : Fin 160) (r : Fin 50000) (hr : r.val = t.val * 5000 + p.val) :
    (iblk2 (F := Ideal) V c 1 t : Vec Ideal S5000x160 .f32) (ix2 p k) = V c (Pipeline.arrRef spec2 1) (ix2 r k) := by
  obtain ⟨e00, e01, e10, e11, e20, e21, -⟩ := idx_facts2 t
  unfold iblk2
  rw [View.read_apply]
  refine congrArg (V c (Pipeline.arrRef spec2 1)) (funext fun a => Fin.ext ?_)
  match a with
  | ⟨0, _⟩ => show win2_1.index t (0 : Fin 2) * 5000 + 1 * p.val = r.val; omega
  | ⟨1, _⟩ => show win2_1.index t (1 : Fin 2) * 160 + 1 * k.val = k.val; omega

/-- Row-blocked input 2's block at point `t`: its row `p` is row `5000 t + p` of the array. -/
theorem blk2_2 (c : Dev nD) (t : Fin cfg2.N) (p : Fin 5000) (k : Fin 160) (r : Fin 50000) (hr : r.val = t.val * 5000 + p.val) :
    (iblk2 (F := Ideal) V c 2 t : Vec Ideal S5000x160 .f32) (ix2 p k) = V c (Pipeline.arrRef spec2 2) (ix2 r k) := by
  obtain ⟨e00, e01, e10, e11, e20, e21, -⟩ := idx_facts2 t
  unfold iblk2
  rw [View.read_apply]
  refine congrArg (V c (Pipeline.arrRef spec2 2)) (funext fun a => Fin.ext ?_)
  match a with
  | ⟨0, _⟩ => show win2_2.index t (0 : Fin 2) * 5000 + 1 * p.val = r.val; omega
  | ⟨1, _⟩ => show win2_2.index t (1 : Fin 2) * 160 + 1 * k.val = k.val; omega

/-- Matrix 3's block at every point is the matrix. -/
theorem blk2_3 (c : Dev nD) (t : Fin cfg2.N) (k q : Fin 160) :
    (iblk2 (F := Ideal) V c 3 t : Vec Ideal S160x160 .f32) (ix2 k q) = V c (Pipeline.arrRef spec2 3) (ix2 k q) := by
  obtain ⟨-, -, -, -, -, -, e30, e31, e40, e41, e50, e51, e60, e61, -⟩ := idx_facts2 t
  unfold iblk2
  rw [View.read_apply]
  refine congrArg (V c (Pipeline.arrRef spec2 3)) (funext fun a => Fin.ext ?_)
  match a with
  | ⟨0, _⟩ => show win2_3.index t (0 : Fin 2) * 160 + 1 * k.val = k.val; omega
  | ⟨1, _⟩ => show win2_3.index t (1 : Fin 2) * 160 + 1 * q.val = q.val; omega

/-- The bias row's block at every point is the row. -/
theorem blk2_4 (c : Dev nD) (t : Fin cfg2.N) (q : Fin 160) :
    (iblk2 (F := Ideal) V c 4 t : Vec Ideal S1x160 .f32) (ix2 0 q) = V c (Pipeline.arrRef spec2 4) (ix2 0 q) := by
  obtain ⟨-, -, -, -, -, -, e30, e31, e40, e41, -⟩ := idx_facts2 t
  unfold iblk2
  rw [View.read_apply]
  refine congrArg (V c (Pipeline.arrRef spec2 4)) (funext fun a => Fin.ext ?_)
  match a with
  | ⟨0, _⟩ => show win2_4.index t (0 : Fin 2) * 1 + 1 * 0 = 0; omega
  | ⟨1, _⟩ => show win2_4.index t (1 : Fin 2) * 160 + 1 * q.val = q.val; omega

/-- Matrix 5's block at every point is the matrix. -/
theorem blk2_5 (c : Dev nD) (t : Fin cfg2.N) (k q : Fin 160) :
    (iblk2 (F := Ideal) V c 5 t : Vec Ideal S160x160 .f32) (ix2 k q) = V c (Pipeline.arrRef spec2 5) (ix2 k q) := by
  obtain ⟨-, -, -, -, -, -, e30, e31, e40, e41, e50, e51, e60, e61, -⟩ := idx_facts2 t
  unfold iblk2
  rw [View.read_apply]
  refine congrArg (V c (Pipeline.arrRef spec2 5)) (funext fun a => Fin.ext ?_)
  match a with
  | ⟨0, _⟩ => show win2_5.index t (0 : Fin 2) * 160 + 1 * k.val = k.val; omega
  | ⟨1, _⟩ => show win2_5.index t (1 : Fin 2) * 160 + 1 * q.val = q.val; omega

/-- Matrix 6's block at every point is the matrix. -/
theorem blk2_6 (c : Dev nD) (t : Fin cfg2.N) (k q : Fin 160) :
    (iblk2 (F := Ideal) V c 6 t : Vec Ideal S160x160 .f32) (ix2 k q) = V c (Pipeline.arrRef spec2 6) (ix2 k q) := by
  obtain ⟨-, -, -, -, -, -, e30, e31, e40, e41, e50, e51, e60, e61, -⟩ := idx_facts2 t
  unfold iblk2
  rw [View.read_apply]
  refine congrArg (V c (Pipeline.arrRef spec2 6)) (funext fun a => Fin.ext ?_)
  match a with
  | ⟨0, _⟩ => show win2_6.index t (0 : Fin 2) * 160 + 1 * k.val = k.val; omega
  | ⟨1, _⟩ => show win2_6.index t (1 : Fin 2) * 160 + 1 * q.val = q.val; omega

/-- Where entry `(p, q)` of the output's block at point `t` sits in the array: row `5000 t + p`, column `q`. -/
theorem emb2_7 (t : Fin cfg2.N) (p : Fin 5000) (q : Fin 160) (r : Fin 50000) (hr : r.val = t.val * 5000 + p.val) :
    ((cfg2.win 7).blk t).view.emb (ix2 p q) = (ix2 r q : S50000x160.Idx) := by
  obtain ⟨-, -, -, -, -, -, -, -, -, -, -, -, -, -, e70, e71⟩ := idx_facts2 t
  refine funext fun a => Fin.ext ?_
  match a with
  | ⟨0, _⟩ => show win2_7.index t (0 : Fin 2) * 5000 + 1 * p.val = r.val; omega
  | ⟨1, _⟩ => show win2_7.index t (1 : Fin 2) * 160 + 1 * q.val = q.val; omega

/-- What point `t` writes back is block `t` of the layer's array. -/
theorem flushed2_eq (c : Dev nD) (t : Fin cfg2.N) :
    (dat2 (F := Ideal) V c).flushed 7 t = ((cfg2.win 7).blk t).view.read (Elt Ideal) (rows2 V c) := by
  show (cfg2.win 7).cut (grid2.coords t) ((dat2 V c).after 7 t) = _
  rw [after2_7]
  unfold out2_7
  rw [View.canon_unit_zero hz2]
  simp only [View.ld_unit_zero (S := S5000x160) hz2, View.ld_unit_zero (S := S160x160) hz2, View.ld_unit_zero (S := S1x160) hz2]
  funext y
  obtain ⟨p, q, rfl⟩ : ∃ (p : Fin 5000) (q : Fin 160), y = ix2 p q := ⟨y 0, y 1, eq_ix2 y⟩
  have hN : cfg2.N = 10 := N_2
  have ht : t.val < 10 := hN ▸ t.isLt
  have hr : (⟨t.val * 5000 + p.val, by omega⟩ : Fin 50000).val = t.val * 5000 + p.val := rfl
  show k2_pay1 (F := Ideal) (iblk2 V c 0 t) (iblk2 V c 3 t) (iblk2 V c 4 t) (iblk2 V c 1 t) (iblk2 V c 5 t) (iblk2 V c 2 t) (iblk2 V c 6 t) (ix2 p q)
    = rows2 V c (((cfg2.win 7).blk t).view.emb (ix2 p q))
  rw [emb2_7 t p q _ hr]
  refine (pay2_apply _ _ _ _ _ _ _ p q).trans ?_
  have e0 := funext fun k => blk2_0 V c t p k _ hr
  have e1 := funext fun k => blk2_1 V c t p k _ hr
  have e2 := funext fun k => blk2_2 V c t p k _ hr
  have e3 := funext fun k => funext fun q => blk2_3 V c t k q
  have e4 := funext fun q => blk2_4 V c t q
  have e5 := funext fun k => funext fun q => blk2_5 V c t k q
  have e6 := funext fun k => funext fun q => blk2_6 V c t k q
  rw [e0, e1, e2, e3, e4, e5, e6]

/-- An index of the array is in point `t`'s block iff each coordinate is in the block's range on its axis. -/
theorem mem_blk2 (t : Fin cfg2.N) (i : S50000x160.Idx) :
    i ∈ ((cfg2.win 7).blk t).view.set ↔ ∀ a : Fin 2, win2_7.index t a * S5000x160.size a ≤ (i a).val ∧ (i a).val < win2_7.index t a * S5000x160.size a + S5000x160.size a := by
  show i ∈ ((View.whole main_v87).slice (win2_7.rect t)).set ↔ _
  rw [View.set_slice_whole, Rect.mem_set_unit]
  exact Iff.rfl

/-- Row `r` of the array lies in the block of point `r / 5000`: the ten blocks cover the array. -/
theorem cover2 (i : S50000x160.Idx) :
    ∃ t : Fin cfg2.N, (cfg2.win 7).flush t = true ∧ i ∈ ((cfg2.win 7).blk t).view.set := by
  have hi0 : (i 0).val < 50000 := (i 0).isLt
  have hi1 : (i 1).val < 160 := (i 1).isLt
  have hN : cfg2.N = 10 := N_2
  refine ⟨⟨(i 0).val / 5000, by rw [hN]; omega⟩, flush2_7 _, ?_⟩
  rw [mem_blk2]
  obtain ⟨-, -, -, -, -, -, -, -, -, -, -, -, -, -, e70, e71⟩ := idx_facts2 ⟨(i 0).val / 5000, by rw [hN]; omega⟩
  intro a
  match a with
  | ⟨0, _⟩ =>
    show win2_7.index ⟨(i 0).val / 5000, _⟩ (0 : Fin 2) * 5000 ≤ (i 0).val ∧ (i 0).val < win2_7.index ⟨(i 0).val / 5000, _⟩ (0 : Fin 2) * 5000 + 5000
    rw [e70]; show (i 0).val / 5000 * 5000 ≤ (i 0).val ∧ (i 0).val < (i 0).val / 5000 * 5000 + 5000; omega
  | ⟨1, _⟩ =>
    show win2_7.index ⟨(i 0).val / 5000, _⟩ (1 : Fin 2) * 160 ≤ (i 1).val ∧ (i 1).val < win2_7.index ⟨(i 0).val / 5000, _⟩ (1 : Fin 2) * 160 + 160
    rw [e71]; omega

/-- After the region's run the output array holds the layer, entry by entry: the root transform of the node's row plus
    the bias, plus each relation's aggregate row through that relation's matrix. -/
theorem arr2 (c : Dev nD) : (Gen.dat2 (F := Ideal) V c).arrAt 7 cfg2.N = fun j =>
    (Cert.Spec.lin (fun k => V c (Pipeline.arrRef spec2 0) (ix2 (j 0) k)) (fun k q => V c (Pipeline.arrRef spec2 3) (ix2 k q))
        (fun q => V c (Pipeline.arrRef spec2 4) (ix2 0 q)) (j 1)
      + Cert.Spec.dot (fun k => V c (Pipeline.arrRef spec2 1) (ix2 (j 0) k)) (fun k q => V c (Pipeline.arrRef spec2 5) (ix2 k q)) (j 1))
    + Cert.Spec.dot (fun k => V c (Pipeline.arrRef spec2 2) (ix2 (j 0) k)) (fun k q => V c (Pipeline.arrRef spec2 6) (ix2 k q)) (j 1) :=
  (dat2 V c).arrAt_eq_of_cover 7 (rows2 V c) (fun t _ => flushed2_eq V c t) (cover2)

end Cert.KernelIdeal.Reg

end
-- ==== Proof.KReg3.lean ====
/-
  The output head's region of the kernel program, from its blocks to its two result arrays, at an arbitrary
  valuation `V` of the buffers as the region finds them.

  The region runs over ten row blocks of 5000 rows.  At a block it multiplies the block's feature rows [5000,160] by
  the first weight matrix [160,80], adds the bias row, applies the leaky rectifier and stores the hidden block
  [5000,80]; it multiplies that by the second weight matrix [80,2], adds the second bias row and stores the output
  block [5000,2].  Read at an entry, the hidden block's row `p` is `Spec.headEm` of the feature block's row `p`, the
  output block's row `p` is `Spec.headOut` of it (`head_pay1_apply`, `head_pay2_apply`).  The feature, hidden and output windows
  sit at block `(t, 0)` at grid point `t`, the weights and biases at `(0, 0)` (`head_idx_facts`), so what point `t` writes
  back is block `t` of one function of the whole arrays (`head_flushed5_eq`, `head_flushed6_eq`); row `r` lies in the block of
  the point with block index `r / 5000` (`head_cover5`, `head_cover6`); hence the arrays after the region (`arr3_em`, `arr3_out`).
-/
import proofs.«426156_j28432683499969_3_alg».proof.Proof.Gen.KernelIdeal.Frame
import proofs.«426156_j28432683499969_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products' operand indices -/

theorem lhs_head1_0 (i : S5000x80.Idx) (q : dot_S5000x160_S160x80_S5000x80_1_0_0_1_n_n.contr.Idx) :
    (dot_S5000x160_S160x80_S5000x80_1_0_0_1_n_n.lhsIdx i q 0).val = (i 0).val := by
  unfold DotDims.lhsIdx
  rw [dif_neg (show ¬(0 : Fin S5000x160.rank) ∈ dot_S5000x160_S160x80_S5000x80_1_0_0_1_n_n.lhsBatch by decide), dif_pos (show (0 : Fin S5000x160.rank) ∈ dot_S5000x160_S160x80_S5000x80_1_0_0_1_n_n.lhsNonContracting by decide)]
  rfl
theorem lhs_head1_1 (i : S5000x80.Idx) (q : dot_S5000x160_S160x80_S5000x80_1_0_0_1_n_n.contr.Idx) :
    (dot_S5000x160_S160x80_S5000x80_1_0_0_1_n_n.lhsIdx i q 1).val = (q ⟨0, by decide⟩).val :=
  dot_S5000x160_S160x80_S5000x80_1_0_0_1_n_n.lhsIdx_val_of_single rfl i q
theorem rhs_head1_0 (i : S5000x80.Idx) (q : dot_S5000x160_S160x80_S5000x80_1_0_0_1_n_n.contr.Idx) :
    (dot_S5000x160_S160x80_S5000x80_1_0_0_1_n_n.rhsIdx i q 0).val = (q ⟨0, by decide⟩).val :=
  dot_S5000x160_S160x80_S5000x80_1_0_0_1_n_n.rhsIdx_val_of_single rfl i q
theorem rhs_head1_1 (i : S5000x80.Idx) (q : dot_S5000x160_S160x80_S5000x80_1_0_0_1_n_n.contr.Idx) :
    (dot_S5000x160_S160x80_S5000x80_1_0_0_1_n_n.rhsIdx i q 1).val = (i 1).val := by
  unfold DotDims.rhsIdx
  rw [dif_neg (show ¬(1 : Fin S160x80.rank) ∈ dot_S5000x160_S160x80_S5000x80_1_0_0_1_n_n.rhsBatch by decide), dif_pos (show (1 : Fin S160x80.rank) ∈ dot_S5000x160_S160x80_S5000x80_1_0_0_1_n_n.rhsNonContracting by decide)]
  rfl

theorem lhs_head2_0 (i : S5000x2.Idx) (q : dot_S5000x80_S80x2_S5000x2_1_0_0_1_n_n.contr.Idx) :
    (dot_S5000x80_S80x2_S5000x2_1_0_0_1_n_n.lhsIdx i q 0).val = (i 0).val := by
  unfold DotDims.lhsIdx
  rw [dif_neg (show ¬(0 : Fin S5000x80.rank) ∈ dot_S5000x80_S80x2_S5000x2_1_0_0_1_n_n.lhsBatch by decide), dif_pos (show (0 : Fin S5000x80.rank) ∈ dot_S5000x80_S80x2_S5000x2_1_0_0_1_n_n.lhsNonContracting by decide)]
  rfl
theorem lhs_head2_1 (i : S5000x2.Idx) (q : dot_S5000x80_S80x2_S5000x2_1_0_0_1_n_n.contr.Idx) :
    (dot_S5000x80_S80x2_S5000x2_1_0_0_1_n_n.lhsIdx i q 1).val = (q ⟨0, by decide⟩).val :=
  dot_S5000x80_S80x2_S5000x2_1_0_0_1_n_n.lhsIdx_val_of_single rfl i q
theorem rhs_head2_0 (i : S5000x2.Idx) (q : dot_S5000x80_S80x2_S5000x2_1_0_0_1_n_n.contr.Idx) :
    (dot_S5000x80_S80x2_S5000x2_1_0_0_1_n_n.rhsIdx i q 0).val = (q ⟨0, by decide⟩).val :=
  dot_S5000x80_S80x2_S5000x2_1_0_0_1_n_n.rhsIdx_val_of_single rfl i q
theorem rhs_head2_1 (i : S5000x2.Idx) (q : dot_S5000x80_S80x2_S5000x2_1_0_0_1_n_n.contr.Idx) :
    (dot_S5000x80_S80x2_S5000x2_1_0_0_1_n_n.rhsIdx i q 1).val = (i 1).val := by
  unfold DotDims.rhsIdx
  rw [dif_neg (show ¬(1 : Fin S80x2.rank) ∈ dot_S5000x80_S80x2_S5000x2_1_0_0_1_n_n.rhsBatch by decide), dif_pos (show (1 : Fin S80x2.rank) ∈ dot_S5000x80_S80x2_S5000x2_1_0_0_1_n_n.rhsNonContracting by decide)]
  rfl

/-- The first product into the zero accumulator, at row `p` and column `q`: the row of the left block times the
    column of the right one. -/
theorem head_matmul1_apply (l : FVec Ideal S5000x160 .f32) (r : FVec Ideal S160x80 .f32) (p : Fin 5000) (q : Fin 80) :
    matmul (F := Ideal) dot_S5000x160_S160x80_S5000x80_1_0_0_1_n_n none l r (constant (F := Ideal) S5000x80 .f32 0x00000000#32) (ix2 p q)
      = ∑ k : Fin 160, l (ix2 p k) * r (ix2 k q) := by
  show FloatOps.matmul dot_S5000x160_S160x80_S5000x80_1_0_0_1_n_n none l r (constant (F := Ideal) S5000x80 .f32 0x00000000#32) (ix2 p q) = _
  rw [Ideal.matmul_constant_zero_apply, ← Equiv.sum_comp (contrEquiv1 dot_S5000x160_S160x80_S5000x80_1_0_0_1_n_n 160 rfl rfl).symm]
  refine Finset.sum_congr rfl fun k _ => ?_
  have hk := contrEquiv1_symm_val dot_S5000x160_S160x80_S5000x80_1_0_0_1_n_n 160 rfl rfl k
  have el : dot_S5000x160_S160x80_S5000x80_1_0_0_1_n_n.lhsIdx (ix2 p q) ((contrEquiv1 dot_S5000x160_S160x80_S5000x80_1_0_0_1_n_n 160 rfl rfl).symm k) = ix2 p k := funext fun a => Fin.ext (by
    match a with
    | ⟨0, _⟩ => exact lhs_head1_0 _ _
    | ⟨1, _⟩ => exact (lhs_head1_1 _ _).trans hk)
  have er : dot_S5000x160_S160x80_S5000x80_1_0_0_1_n_n.rhsIdx (ix2 p q) ((contrEquiv1 dot_S5000x160_S160x80_S5000x80_1_0_0_1_n_n 160 rfl rfl).symm k) = ix2 k q := funext fun a => Fin.ext (by
    match a with
    | ⟨0, _⟩ => exact (rhs_head1_0 _ _).trans hk
    | ⟨1, _⟩ => exact rhs_head1_1 _ _)
  rw [el, er]

/-- The second product into the zero accumulator, at row `p` and column `q`. -/
theorem head_matmul2_apply (l : FVec Ideal S5000x80 .f32) (r : FVec Ideal S80x2 .f32) (p : Fin 5000) (q : Fin 2) :
    matmul (F := Ideal) dot_S5000x80_S80x2_S5000x2_1_0_0_1_n_n none l r (constant (F := Ideal) S5000x2 .f32 0x00000000#32) (ix2 p q)
      = ∑ k : Fin 80, l (ix2 p k) * r (ix2 k q) := by
  show FloatOps.matmul dot_S5000x80_S80x2_S5000x2_1_0_0_1_n_n none l r (constant (F := Ideal) S5000x2 .f32 0x00000000#32) (ix2 p q) = _
  rw [Ideal.matmul_constant_zero_apply, ← Equiv.sum_comp (contrEquiv1 dot_S5000x80_S80x2_S5000x2_1_0_0_1_n_n 80 rfl rfl).symm]
  refine Finset.sum_congr rfl fun k _ => ?_
  have hk := contrEquiv1_symm_val dot_S5000x80_S80x2_S5000x2_1_0_0_1_n_n 80 rfl rfl k
  have el : dot_S5000x80_S80x2_S5000x2_1_0_0_1_n_n.lhsIdx (ix2 p q) ((contrEquiv1 dot_S5000x80_S80x2_S5000x2_1_0_0_1_n_n 80 rfl rfl).symm k) = ix2 p k := funext fun a => Fin.ext (by
    match a with
    | ⟨0, _⟩ => exact lhs_head2_0 _ _
    | ⟨1, _⟩ => exact (lhs_head2_1 _ _).trans hk)
  have er : dot_S5000x80_S80x2_S5000x2_1_0_0_1_n_n.rhsIdx (ix2 p q) ((contrEquiv1 dot_S5000x80_S80x2_S5000x2_1_0_0_1_n_n 80 rfl rfl).symm k) = ix2 k q := funext fun a => Fin.ext (by
    match a with
    | ⟨0, _⟩ => exact (rhs_head2_0 _ _).trans hk
    | ⟨1, _⟩ => exact rhs_head2_1 _ _)
  rw [el, er]

/-- A bias row laid under every row of the block reads its own column. -/
theorem head_bias80_apply (b : Vec Ideal S1x80 .f32) (p : Fin 5000) (q : Fin 80) :
    broadcastTo S5000x80 b broadcasts_S1x80_S5000x80 (ix2 p q) = b (ix2 0 q) := by
  refine broadcastTo_apply b broadcasts_S1x80_S5000x80 (ix2 p q) (ix2 0 q) fun a => ?_
  match a with
  | ⟨0, _⟩ => rfl
  | ⟨1, _⟩ => rfl

theorem head_bias2_apply (b : Vec Ideal S1x2 .f32) (p : Fin 5000) (q : Fin 2) :
    broadcastTo S5000x2 b broadcasts_S1x2_S5000x2 (ix2 p q) = b (ix2 0 q) := by
  refine broadcastTo_apply b broadcasts_S1x2_S5000x2 (ix2 p q) (ix2 0 q) fun a => ?_
  match a with
  | ⟨0, _⟩ => rfl
  | ⟨1, _⟩ => rfl

/-- The hidden block at row `p`, column `q`: the head's hidden entry of row `p` of the feature block. -/
theorem head_pay1_apply (x0 : Vec Ideal S5000x160 .f32) (x1 : Vec Ideal S160x80 .f32) (x2 : Vec Ideal S1x80 .f32)
    (p : Fin 5000) (q : Fin 80) :
    k3_pay1 (F := Ideal) x0 x1 x2 (ix2 p q)
      = Cert.Spec.headEm (fun k => x0 (ix2 p k)) (fun k q => x1 (ix2 k q)) (fun q => x2 (ix2 0 q)) q := by
  unfold k3_pay1
  simp only [shapeCast_self]
  rw [select_apply, cmpf_apply, mulf_apply, addf_apply, broadcast_apply, broadcast_apply, head_matmul1_apply, head_bias80_apply]
  rfl

/-- The output block at row `p`, column `q`: the head's output entry of row `p` of the feature block. -/
theorem head_pay2_apply (x0 : Vec Ideal S5000x160 .f32) (x1 : Vec Ideal S160x80 .f32) (x2 : Vec Ideal S1x80 .f32)
    (x3 : Vec Ideal S80x2 .f32) (x4 : Vec Ideal S1x2 .f32) (p : Fin 5000) (q : Fin 2) :
    k3_pay2 (F := Ideal) x0 x1 x2 x3 x4 (ix2 p q)
      = Cert.Spec.headOut (fun k => x0 (ix2 p k)) (fun k q => x1 (ix2 k q)) (fun q => x2 (ix2 0 q))
          (fun k q => x3 (ix2 k q)) (fun q => x4 (ix2 0 q)) q := by
  unfold k3_pay2
  simp only [shapeCast_self]
  rw [addf_apply, head_matmul2_apply, head_bias2_apply]
  simp only [head_pay1_apply]
  rfl

/-! ## From the blocks to the arrays -/

section Arrays

variable (V : (c : Dev nD) → (b : Ref sig .tc) → Buf (Elt Ideal) ((c : Thread nD τ).loc b))

theorem head_hz : (![0, 0] : Fin 2 → Nat) = fun _ => 0 := funext fun a => by fin_cases a <;> rfl

/-- The hidden array: row `j 0` of the feature array through the head's first stage. -/
abbrev headEmArr (c : Dev nD) : S50000x80.Idx → EReal := fun j =>
  Cert.Spec.headEm (fun k => V c (Pipeline.arrRef spec3 0) (ix2 (j 0) k)) (fun k q => V c (Pipeline.arrRef spec3 1) (ix2 k q))
    (fun q => V c (Pipeline.arrRef spec3 2) (ix2 0 q)) (j 1)

/-- The output array: row `j 0` of the feature array through both stages of the head. -/
abbrev headOutArr (c : Dev nD) : S50000x2.Idx → EReal := fun j =>
  Cert.Spec.headOut (fun k => V c (Pipeline.arrRef spec3 0) (ix2 (j 0) k)) (fun k q => V c (Pipeline.arrRef spec3 1) (ix2 k q))
    (fun q => V c (Pipeline.arrRef spec3 2) (ix2 0 q)) (fun k q => V c (Pipeline.arrRef spec3 3) (ix2 k q))
    (fun q => V c (Pipeline.arrRef spec3 4) (ix2 0 q)) (j 1)

/-- The index maps over the grid: the row-blocked windows sit at block `(t, 0)`, the weights and biases at `(0, 0)`. -/
theorem head_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Every row block is some grid point's. -/
theorem head_idx_onto5 : ∀ q0 : Fin 10, ∃ t : Fin cfg3.N, win3_5.index t = ![q0.val, 0] :=
  (by decide +kernel : ∀ q0 : Fin 10, ∃ t : Fin grid3.N, win3_5.index t = ![q0.val, 0])
theorem head_idx_onto6 : ∀ q0 : Fin 10, ∃ t : Fin cfg3.N, win3_6.index t = ![q0.val, 0] :=
  (by decide +kernel : ∀ q0 : Fin 10, ∃ t : Fin grid3.N, win3_6.index t = ![q0.val, 0])

/-- The feature block at point `t`, row `p`: row `r = 5000 t + p` of the feature array. -/
theorem head_iblk0_apply (c : Dev nD) (t : Fin cfg3.N) (p : Fin 5000) (k : Fin 160) (r : Fin 50000)
    (hr : r.val = t.val * 5000 + p.val) :
    (iblk3 V c 0 t : Vec Ideal S5000x160 .f32) (ix2 p k) = (V c (Pipeline.arrRef spec3 0) : S50000x160.Idx → EReal) (ix2 r k) := by
  obtain ⟨e0, e1, -⟩ := head_idx_facts t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * p.val = r.val; rw [e0, hr]; omega
  | ⟨1, _⟩ => show win3_0.index t (1 : Fin 2) * 160 + 1 * k.val = k.val; rw [e1]; omega

/-- The first weight block at any point is the whole weight array. -/
theorem head_iblk1_apply (c : Dev nD) (t : Fin cfg3.N) (k : Fin 160) (q : Fin 80) :
    (iblk3 V c 1 t : Vec Ideal S160x80 .f32) (ix2 k q) = (V c (Pipeline.arrRef spec3 1) : S160x80.Idx → EReal) (ix2 k q) := by
  obtain ⟨-, -, e0, e1, -⟩ := head_idx_facts t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 160 + 1 * k.val = k.val; rw [e0]; omega
  | ⟨1, _⟩ => show win3_1.index t (1 : Fin 2) * 80 + 1 * q.val = q.val; rw [e1]; omega

/-- The first bias block at any point is the whole bias row. -/
theorem head_iblk2_apply (c : Dev nD) (t : Fin cfg3.N) (z : Fin 1) (q : Fin 80) :
    (iblk3 V c 2 t : Vec Ideal S1x80 .f32) (ix2 z q) = (V c (Pipeline.arrRef spec3 2) : S1x80.Idx → EReal) (ix2 z q) := by
  obtain ⟨-, -, -, -, e0, e1, -⟩ := head_idx_facts t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1 + 1 * z.val = z.val; rw [e0]; omega
  | ⟨1, _⟩ => show win3_2.index t (1 : Fin 2) * 80 + 1 * q.val = q.val; rw [e1]; omega

/-- The second weight block at any point is the whole weight array. -/
theorem head_iblk3_apply (c : Dev nD) (t : Fin cfg3.N) (k : Fin 80) (q : Fin 2) :
    (iblk3 V c 3 t : Vec Ideal S80x2 .f32) (ix2 k q) = (V c (Pipeline.arrRef spec3 3) : S80x2.Idx → EReal) (ix2 k q) := by
  obtain ⟨-, -, -, -, -, -, e0, e1, -⟩ := head_idx_facts t
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 80 + 1 * k.val = k.val; rw [e0]; omega
  | ⟨1, _⟩ => show win3_3.index t (1 : Fin 2) * 2 + 1 * q.val = q.val; rw [e1]; omega

/-- The second bias block at any point is the whole bias row. -/
theorem head_iblk4_apply (c : Dev nD) (t : Fin cfg3.N) (z : Fin 1) (q : Fin 2) :
    (iblk3 V c 4 t : Vec Ideal S1x2 .f32) (ix2 z q) = (V c (Pipeline.arrRef spec3 4) : S1x2.Idx → EReal) (ix2 z q) := by
  obtain ⟨-, -, -, -, -, -, -, -, e0, e1, -⟩ := head_idx_facts t
  unfold iblk3
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 2) * 1 + 1 * z.val = z.val; rw [e0]; omega
  | ⟨1, _⟩ => show win3_4.index t (1 : Fin 2) * 2 + 1 * q.val = q.val; rw [e1]; omega

end Arrays

/-- The hidden block as a function of a block index of the literal shape. -/
theorem head_pay1_blk (x0 : Vec Ideal S5000x160 .f32) (x1 : Vec Ideal S160x80 .f32) (x2 : Vec Ideal S1x80 .f32) (j : S5000x80.Idx) :
    k3_pay1 (F := Ideal) x0 x1 x2 j
      = Cert.Spec.headEm (fun k => x0 (ix2 (j 0) k)) (fun k q => x1 (ix2 k q)) (fun q => x2 (ix2 0 q)) (j 1) := by
  obtain ⟨p, q, rfl⟩ : ∃ (p : Fin 5000) (q : Fin 80), j = ix2 p q := ⟨j 0, j 1, eq_ix2 j⟩
  exact head_pay1_apply x0 x1 x2 p q

/-- The output block as a function of a block index of the literal shape. -/
theorem head_pay2_blk (x0 : Vec Ideal S5000x160 .f32) (x1 : Vec Ideal S160x80 .f32) (x2 : Vec Ideal S1x80 .f32)
    (x3 : Vec Ideal S80x2 .f32) (x4 : Vec Ideal S1x2 .f32) (j : S5000x2.Idx) :
    k3_pay2 (F := Ideal) x0 x1 x2 x3 x4 j
      = Cert.Spec.headOut (fun k => x0 (ix2 (j 0) k)) (fun k q => x1 (ix2 k q)) (fun q => x2 (ix2 0 q))
          (fun k q => x3 (ix2 k q)) (fun q => x4 (ix2 0 q)) (j 1) := by
  obtain ⟨p, q, rfl⟩ : ∃ (p : Fin 5000) (q : Fin 2), j = ix2 p q := ⟨j 0, j 1, eq_ix2 j⟩
  exact head_pay2_apply x0 x1 x2 x3 x4 p q

section Flush

variable (V : (c : Dev nD) → (b : Ref sig .tc) → Buf (Elt Ideal) ((c : Thread nD τ).loc b))

/-- What point `t` writes back into the hidden array is block `t` of `headEmArr`. -/
theorem head_flushed5_eq (c : Dev nD) (t : Fin cfg3.N) :
    (dat3 (F := Ideal) V c).flushed 5 t = ((cfg3.win 5).blk t).view.read (Elt Ideal) (headEmArr V c) := by
  show (cfg3.win 5).cut (grid3.coords t) ((dat3 V c).after 5 t) = _
  rw [after3_5]
  unfold out3_5
  rw [View.canon_unit_zero head_hz]
  simp only [View.ld_unit_zero (S := S5000x160) head_hz, View.ld_unit_zero (S := S160x80) head_hz, View.ld_unit_zero (S := S1x80) head_hz]
  obtain ⟨-, -, -, -, -, -, -, -, -, -, e10, e11, -, -⟩ := head_idx_facts t
  funext j
  refine (head_pay1_blk _ _ _ j).trans ?_
  show _ = Cert.Spec.headEm (fun k => V c (Pipeline.arrRef spec3 0) (ix2 ((((cfg3.win 5).blk t).view.emb j) 0) k))
    (fun k q => V c (Pipeline.arrRef spec3 1) (ix2 k q)) (fun q => V c (Pipeline.arrRef spec3 2) (ix2 0 q)) ((((cfg3.win 5).blk t).view.emb j) 1)
  have hj0 : (j 0).val < 5000 := (j 0).isLt
  have hj1 : (j 1).val < 80 := (j 1).isLt
  have h0 : ((((cfg3.win 5).blk t).view.emb j) 0).val = t.val * 5000 + (j 0).val := by
    show win3_5.index t (0 : Fin 2) * 5000 + 1 * (j 0).val = _; rw [e10]; omega
  have h1 : ((((cfg3.win 5).blk t).view.emb j) 1 : Fin 80) = j 1 := Fin.ext (by
    show win3_5.index t (1 : Fin 2) * 80 + 1 * (j 1).val = (j 1).val; rw [e11]; omega)
  have a0 : (fun k => (iblk3 V c 0 t : Vec Ideal S5000x160 .f32) (ix2 (j 0) k))
      = fun k => V c (Pipeline.arrRef spec3 0) (ix2 ((((cfg3.win 5).blk t).view.emb j) 0) k) :=
    funext fun k => head_iblk0_apply V c t (j 0) k _ h0
  have a1 : (fun k q => (iblk3 V c 1 t : Vec Ideal S160x80 .f32) (ix2 k q)) = fun k q => V c (Pipeline.arrRef spec3 1) (ix2 k q) :=
    funext fun k => funext fun q => head_iblk1_apply V c t k q
  have a2 : (fun q => (iblk3 V c 2 t : Vec Ideal S1x80 .f32) (ix2 0 q)) = fun q => V c (Pipeline.arrRef spec3 2) (ix2 0 q) :=
    funext fun q => head_iblk2_apply V c t 0 q
  rw [a0, a1, a2, h1]

end Flush

section Final

variable (V : (c : Dev nD) → (b : Ref sig .tc) → Buf (Elt Ideal) ((c : Thread nD τ).loc b))

/-- What point `t` writes back into the output array is block `t` of `headOutArr`. -/
theorem head_flushed6_eq (c : Dev nD) (t : Fin cfg3.N) :
    (dat3 (F := Ideal) V c).flushed 6 t = ((cfg3.win 6).blk t).view.read (Elt Ideal) (headOutArr V c) := by
  show (cfg3.win 6).cut (grid3.coords t) ((dat3 V c).after 6 t) = _
  rw [after3_6]
  unfold out3_6
  rw [View.canon_unit_zero head_hz]
  simp only [View.ld_unit_zero (S := S5000x160) head_hz, View.ld_unit_zero (S := S160x80) head_hz, View.ld_unit_zero (S := S1x80) head_hz,
    View.ld_unit_zero (S := S80x2) head_hz, View.ld_unit_zero (S := S1x2) head_hz]
  obtain ⟨-, -, -, -, -, -, -, -, -, -, -, -, e12, e13⟩ := head_idx_facts t
  funext j
  refine (head_pay2_blk _ _ _ _ _ j).trans ?_
  show _ = Cert.Spec.headOut (fun k => V c (Pipeline.arrRef spec3 0) (ix2 ((((cfg3.win 6).blk t).view.emb j) 0) k))
    (fun k q => V c (Pipeline.arrRef spec3 1) (ix2 k q)) (fun q => V c (Pipeline.arrRef spec3 2) (ix2 0 q))
    (fun k q => V c (Pipeline.arrRef spec3 3) (ix2 k q)) (fun q => V c (Pipeline.arrRef spec3 4) (ix2 0 q))
    ((((cfg3.win 6).blk t).view.emb j) 1)
  have hj0 : (j 0).val < 5000 := (j 0).isLt
  have hj1 : (j 1).val < 2 := (j 1).isLt
  have h0 : ((((cfg3.win 6).blk t).view.emb j) 0).val = t.val * 5000 + (j 0).val := by
    show win3_6.index t (0 : Fin 2) * 5000 + 1 * (j 0).val = _; rw [e12]; omega
  have h1 : ((((cfg3.win 6).blk t).view.emb j) 1 : Fin 2) = j 1 := Fin.ext (by
    show win3_6.index t (1 : Fin 2) * 2 + 1 * (j 1).val = (j 1).val; rw [e13]; omega)
  have a0 : (fun k => (iblk3 V c 0 t : Vec Ideal S5000x160 .f32) (ix2 (j 0) k))
      = fun k => V c (Pipeline.arrRef spec3 0) (ix2 ((((cfg3.win 6).blk t).view.emb j) 0) k) :=
    funext fun k => head_iblk0_apply V c t (j 0) k _ h0
  have a1 : (fun k q => (iblk3 V c 1 t : Vec Ideal S160x80 .f32) (ix2 k q)) = fun k q => V c (Pipeline.arrRef spec3 1) (ix2 k q) :=
    funext fun k => funext fun q => head_iblk1_apply V c t k q
  have a2 : (fun q => (iblk3 V c 2 t : Vec Ideal S1x80 .f32) (ix2 0 q)) = fun q => V c (Pipeline.arrRef spec3 2) (ix2 0 q) :=
    funext fun q => head_iblk2_apply V c t 0 q
  have a3 : (fun k q => (iblk3 V c 3 t : Vec Ideal S80x2 .f32) (ix2 k q)) = fun k q => V c (Pipeline.arrRef spec3 3) (ix2 k q) :=
    funext fun k => funext fun q => head_iblk3_apply V c t k q
  have a4 : (fun q => (iblk3 V c 4 t : Vec Ideal S1x2 .f32) (ix2 0 q)) = fun q => V c (Pipeline.arrRef spec3 4) (ix2 0 q) :=
    funext fun q => head_iblk4_apply V c t 0 q
  rw [a0, a1, a2, a3, a4, h1]

/-- An index of the hidden array is in point `t`'s block iff each coordinate is in the block's range on its axis. -/
theorem head_mem_blk5 (t : Fin cfg3.N) (i : S50000x80.Idx) :
    i ∈ ((cfg3.win 5).blk t).view.set ↔ ∀ a : Fin 2, win3_5.index t a * S5000x80.size a ≤ (i a).val ∧ (i a).val < win3_5.index t a * S5000x80.size a + S5000x80.size a := by
  show i ∈ ((View.whole main_v90_0).slice (win3_5.rect t)).set ↔ _
  rw [View.set_slice_whole, Rect.mem_set_unit]
  exact Iff.rfl

/-- The same for the output array. -/
theorem head_mem_blk6 (t : Fin cfg3.N) (i : S50000x2.Idx) :
    i ∈ ((cfg3.win 6).blk t).view.set ↔ ∀ a : Fin 2, win3_6.index t a * S5000x2.size a ≤ (i a).val ∧ (i a).val < win3_6.index t a * S5000x2.size a + S5000x2.size a := by
  show i ∈ ((View.whole main_v90_1).slice (win3_6.rect t)).set ↔ _
  rw [View.set_slice_whole, Rect.mem_set_unit]
  exact Iff.rfl

/-- Row `r` of the hidden array lies in the block of the point with row-block index `r / 5000`. -/
theorem head_cover5 (i : S50000x80.Idx) : ∃ t : Fin cfg3.N, (cfg3.win 5).flush t = true ∧ i ∈ ((cfg3.win 5).blk t).view.set := by
  have hi0 : (i 0).val < 50000 := (i 0).isLt
  have hi1 : (i 1).val < 80 := (i 1).isLt
  obtain ⟨t, ht⟩ := head_idx_onto5 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [head_mem_blk5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 80 ≤ (i 1).val ∧ (i 1).val < win3_5.index t (1 : Fin 2) * 80 + 80; omega

/-- The same for the output array. -/
theorem head_cover6 (i : S50000x2.Idx) : ∃ t : Fin cfg3.N, (cfg3.win 6).flush t = true ∧ i ∈ ((cfg3.win 6).blk t).view.set := by
  have hi0 : (i 0).val < 50000 := (i 0).isLt
  have hi1 : (i 1).val < 2 := (i 1).isLt
  obtain ⟨t, ht⟩ := head_idx_onto6 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [head_mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 2 ≤ (i 1).val ∧ (i 1).val < win3_6.index t (1 : Fin 2) * 2 + 2; omega

/-- The hidden array after the region: every row is the head's hidden row of the same row of the feature array as
    the region found it. -/
theorem arr3_em (c : Dev nD) :
    (Gen.dat3 (F := Ideal) V c).arrAt 5 cfg3.N = fun j =>
      Cert.Spec.headEm (fun k => V c (Pipeline.arrRef spec3 0) (ix2 (j 0) k)) (fun k q => V c (Pipeline.arrRef spec3 1) (ix2 k q))
        (fun q => V c (Pipeline.arrRef spec3 2) (ix2 0 q)) (j 1) :=
  (dat3 V c).arrAt_eq_of_cover 5 (headEmArr V c) (fun t _ => head_flushed5_eq V c t) head_cover5

/-- The output array after the region: every row is the head's output row of the same row of the feature array. -/
theorem arr3_out (c : Dev nD) :
    (Gen.dat3 (F := Ideal) V c).arrAt 6 cfg3.N = fun j =>
      Cert.Spec.headOut (fun k => V c (Pipeline.arrRef spec3 0) (ix2 (j 0) k)) (fun k q => V c (Pipeline.arrRef spec3 1) (ix2 k q))
        (fun q => V c (Pipeline.arrRef spec3 2) (ix2 0 q)) (fun k q => V c (Pipeline.arrRef spec3 3) (ix2 k q))
        (fun q => V c (Pipeline.arrRef spec3 4) (ix2 0 q)) (j 1) :=
  (dat3 V c).arrAt_eq_of_cover 6 (headOutArr V c) (fun t _ => head_flushed6_eq V c t) head_cover6

end Final

end Cert.KernelIdeal.Reg

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.KAgg.lean ====
/-
  The host computation between two kernel regions, read at an index.

  Every operation of the stretch is read at one entry: the edge array's two rows give each edge's source and
  destination words; a relation mask is one where the relation word is the relation and zero elsewhere; an
  in-degree is zero plus the sum of the mask over the edges arriving at the node, the destination word read signed;
  the combined key is `relation · 50000 + destination` in 32-bit arithmetic; a negative source word is shifted up by
  50000, and the row lookup clips the result, read signed, to the table's rows; entry `(s, k)` of the segment sums is
  zero plus the looked-up entries `(e, k)` of the edges whose key, read signed, is `s`; block `r` of the segment sums
  read as two blocks of 50000 rows has at `(i, k)` the segment sum of row `r · 50000 + i` (the two row-major positions
  agree); and each aggregate is its block's entry times the reciprocal of the degree clipped below at one.  The two
  final statements say that the aggregates are the specification's sum-then-scale terms of relations 0 and 1.
-/
import proofs.«426156_j28432683499969_3_alg».proof.Proof.KAggDefs
import proofs.«426156_j28432683499969_3_alg».proof.Proof.Whole
import proofs.«426156_j28432683499969_3_alg».proof.Proof.LibGS
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal

noncomputable section

open scoped BigOperators

namespace Cert.KernelIdeal.Agg

open Cert.KernelIdeal Idealize.ShloMosaic Idealize.ShloMosaic.ValueIdx Idealize.ShloMosaic.StableHlo
open Cert.KernelIdeal.Facts₀ Cert.KernelIdeal.Facts

variable [Cert.KernelIdeal.Facts]

/-! ## Small readings: a broadcast scalar, a vector laid out as a column, a comparison read as a float -/

/-- A broadcast integer constant reads the constant at every edge. -/
theorem bcastI_apply (c : BitVec 32) (j : S800000.Idx) :
    broadcastInDim S800000 ![] bcast_S_S800000 (constantI S_ 32 c) j = c :=
  broadcastInDim_apply _ bcast_S_S800000 (constantI S_ 32 c) j ix0 (fun a => a.elim0)

/-- A broadcast float constant reads the constant at every node. -/
theorem bcastF_apply (b : BitVec 32) (j : S50000.Idx) :
    broadcastInDim S50000 ![] bcast_S_S50000 (constant (F := Ideal) S_ .f32 b) j = Ideal.ofBits .f32 b :=
  broadcastInDim_apply _ bcast_S_S50000 (constant (F := Ideal) S_ .f32 b) j ix0 (fun a => a.elim0)

/-- A broadcast float constant reads the constant at every entry of the segment-sum array. -/
theorem bcastF2_apply (b : BitVec 32) (j : S100000x160.Idx) :
    broadcastInDim S100000x160 ![] bcast_S_S100000x160 (constant (F := Ideal) S_ .f32 b) j = Ideal.ofBits .f32 b :=
  broadcastInDim_apply _ bcast_S_S100000x160 (constant (F := Ideal) S_ .f32 b) j ix0 (fun a => a.elim0)

/-- A vector over the edges laid out as a column reads, at `(e, u)`, the vector at `e`. -/
theorem col_apply (x : IVec S800000 32) (e : Fin 800000) (u : Fin 1) :
    broadcastInDim S800000x1 ![0] bcast_S800000_S800000x1_0 x (ix2 e u) = x (ix1 e) :=
  broadcastInDim_apply _ bcast_S800000_S800000x1_0 x (ix2 e u) (ix1 e) (fun a => match a with
    | ⟨0, _⟩ => by show e.val = if (800000 : Nat) = 1 then 0 else e.val; rw [if_neg (by decide)])

/-- An equality test converted to a float is one where the words agree and zero where they differ. -/
theorem uitofp_cmpi_eq (x r : BitVec 32) :
    FloatOps.uitofp (F := Ideal) .f32 (IntOp.cmpi .eq x r) = if x = r then ((1 : ℝ) : EReal) else ((0 : ℝ) : EReal) := by
  show (((BitVec.ofBool (x == r)).toNat : ℝ) : EReal) = _
  by_cases h : x = r
  · subst h; simp
  · rw [if_neg h]; simp [h]

/-! ## The integer edge data at an edge -/

/-- The source word of edge `e` is entry `(0, e)` of the edge array. -/
theorem srcT_apply (a2 : IVec S2x800000 32) (e : Fin 800000) : srcT a2 (ix1 e) = a2 (ix2 0 e) := by
  unfold srcT
  refine (shapeCast_1a_a_apply _ shapeCasts_S1x800000_S800000 e).trans ?_
  exact extractStridedSlice_apply ![0, 0] a2 slices_S2x800000_S1x800000_0_0 _ (ix2 0 e) (fun a => match a with
    | ⟨0, _⟩ => by show (0 : Nat) = 0 + 0; rfl
    | ⟨1, _⟩ => by show e.val = 0 + e.val; omega)

/-- The destination word of edge `e` is entry `(1, e)` of the edge array. -/
theorem dstT_apply (a2 : IVec S2x800000 32) (e : Fin 800000) : dstT a2 (ix1 e) = a2 (ix2 1 e) := by
  unfold dstT
  refine (shapeCast_1a_a_apply _ shapeCasts_S1x800000_S800000 e).trans ?_
  exact extractStridedSlice_apply ![1, 0] a2 slices_S2x800000_S1x800000_1_0 _ (ix2 1 e) (fun a => match a with
    | ⟨0, _⟩ => by show (1 : Nat) = 1 + 0; rfl
    | ⟨1, _⟩ => by show e.val = 0 + e.val; omega)

/-- Relation 0's mask at an edge. -/
theorem maskT0_apply (a3 : IVec S800000 32) (e : Fin 800000) :
    maskT0 a3 (ix1 e) = Cert.Spec.maskOf 0#32 (a3 (ix1 e)) := by
  show FloatOps.uitofp (F := Ideal) .f32 (IntOp.cmpi .eq (a3 (ix1 e))
    (broadcastInDim S800000 ![] bcast_S_S800000 (constantI S_ 32 0#32) (ix1 e))) = _
  rw [bcastI_apply, uitofp_cmpi_eq]; rfl

/-- Relation 1's mask at an edge. -/
theorem maskT1_apply (a3 : IVec S800000 32) (e : Fin 800000) :
    maskT1 a3 (ix1 e) = Cert.Spec.maskOf 1#32 (a3 (ix1 e)) := by
  show FloatOps.uitofp (F := Ideal) .f32 (IntOp.cmpi .eq (a3 (ix1 e))
    (broadcastInDim S800000 ![] bcast_S_S800000 (constantI S_ 32 1#32) (ix1 e))) = _
  rw [bcastI_apply, uitofp_cmpi_eq]; rfl

/-- The destination column at `(e, u)` is the destination word of `e`. -/
theorem dstColT_apply (a2 : IVec S2x800000 32) (e : Fin 800000) (u : Fin 1) : dstColT a2 (ix2 e u) = a2 (ix2 1 e) :=
  (col_apply (dstT a2) e u).trans (dstT_apply a2 e)

/-- The combined key of edge `e`. -/
theorem segT_apply (a2 : IVec S2x800000 32) (a3 : IVec S800000 32) (e : Fin 800000) :
    segT a2 a3 (ix1 e) = a3 (ix1 e) * 50000#32 + a2 (ix2 1 e) := by
  show IntOp.addi (IntOp.muli (a3 (ix1 e)) (broadcastInDim S800000 ![] bcast_S_S800000 (constantI S_ 32 50000#32) (ix1 e)))
    (dstT a2 (ix1 e)) = _
  rw [bcastI_apply, dstT_apply]; rfl

/-- The normalised source word of edge `e`. -/
theorem srcNT_apply (a2 : IVec S2x800000 32) (e : Fin 800000) :
    srcNT a2 (ix1 e) = if (a2 (ix2 0 e)).toInt < 0 then a2 (ix2 0 e) + 50000#32 else a2 (ix2 0 e) := by
  show Scalar.select (IntOp.cmpi .slt (srcT a2 (ix1 e)) (broadcastInDim S800000 ![] bcast_S_S800000 (constantI S_ 32 0#32) (ix1 e)))
    (IntOp.addi (srcT a2 (ix1 e)) (broadcastInDim S800000 ![] bcast_S_S800000 (constantI S_ 32 50000#32) (ix1 e)))
    (srcT a2 (ix1 e)) = _
  rw [bcastI_apply, bcastI_apply, srcT_apply]
  show (if BitVec.ofBool ((a2 (ix2 0 e)).slt 0#32) = 1 then a2 (ix2 0 e) + 50000#32 else a2 (ix2 0 e)) = _
  by_cases h : (a2 (ix2 0 e)).toInt < 0
  · have hs : (a2 (ix2 0 e)).slt 0#32 = true := by simp [BitVec.slt, h]
    rw [hs, if_pos h]; rfl
  · have hs : (a2 (ix2 0 e)).slt 0#32 = false := by simp [BitVec.slt, h]
    rw [hs, if_neg h]; rfl

/-! ## Degrees and their clipped reciprocals at a node -/

/-- At the ideal instance the host's accumulating scatter is the exact one. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- Relation 0's in-degree at node `i`. -/
theorem cntT0_apply (a2 : IVec S2x800000 32) (a3 : IVec S800000 32) (i : Fin 50000) :
    cntT0 a2 a3 (ix1 i)
      = Cert.Spec.cnt (fun e => (a2 (ix2 1 e)).toInt) (fun e => Cert.Spec.maskOf 0#32 (a3 (ix1 e))) i := by
  unfold cntT0
  rw [scatterAdd_ideal, show scatter_S50000_S800000x1_S800000_n_0_0_1
        = Cert.LibGS.vecScatterDims 50000 800000 scatter_S50000_S800000x1_S800000_n_0_0_1_wf from rfl,
    Cert.LibGS.scatterAdd_vec_apply, bcastF_apply]
  unfold Cert.Spec.cnt Cert.Spec.zeroE
  refine congrArg₂ _ rfl (Finset.sum_congr (Finset.filter_congr fun e _ => by rw [dstColT_apply]) fun e _ => maskT0_apply a3 e)

/-- Relation 1's in-degree at node `i`. -/
theorem cntT1_apply (a2 : IVec S2x800000 32) (a3 : IVec S800000 32) (i : Fin 50000) :
    cntT1 a2 a3 (ix1 i)
      = Cert.Spec.cnt (fun e => (a2 (ix2 1 e)).toInt) (fun e => Cert.Spec.maskOf 1#32 (a3 (ix1 e))) i := by
  unfold cntT1
  rw [scatterAdd_ideal, show scatter_S50000_S800000x1_S800000_n_0_0_1
        = Cert.LibGS.vecScatterDims 50000 800000 scatter_S50000_S800000x1_S800000_n_0_0_1_wf from rfl,
    Cert.LibGS.scatterAdd_vec_apply, bcastF_apply]
  unfold Cert.Spec.cnt Cert.Spec.zeroE
  refine congrArg₂ _ rfl (Finset.sum_congr (Finset.filter_congr fun e _ => by rw [dstColT_apply]) fun e _ => maskT1_apply a3 e)

/-- Relation 0's reciprocal clipped degree at node `i`. -/
theorem invT0_apply (a2 : IVec S2x800000 32) (a3 : IVec S800000 32) (i : Fin 50000) :
    invT0 a2 a3 (ix1 i) = Ideal.div Cert.Spec.oneE
      (Cert.Spec.cnt1 (fun e => (a2 (ix2 1 e)).toInt) (fun e => Cert.Spec.maskOf 0#32 (a3 (ix1 e))) i) := by
  unfold invT0 Cert.Spec.cnt1 Cert.Spec.oneE
  rw [hostDivf_apply, maximumf_apply, bcastF_apply, cntT0_apply]

/-- Relation 1's reciprocal clipped degree at node `i`. -/
theorem invT1_apply (a2 : IVec S2x800000 32) (a3 : IVec S800000 32) (i : Fin 50000) :
    invT1 a2 a3 (ix1 i) = Ideal.div Cert.Spec.oneE
      (Cert.Spec.cnt1 (fun e => (a2 (ix2 1 e)).toInt) (fun e => Cert.Spec.maskOf 1#32 (a3 (ix1 e))) i) := by
  unfold invT1 Cert.Spec.cnt1 Cert.Spec.oneE
  rw [hostDivf_apply, maximumf_apply, bcastF_apply, cntT1_apply]

/-! ## The neighbour rows and their sums by combined key -/

/-- The row looked up for edge `e` is the table's row at the edge's clipped, normalised source. -/
theorem gathT_apply (h : FVec Ideal S50000x160 .f32) (a2 : IVec S2x800000 32) (e : Fin 800000) (k : Fin 160) :
    gathT h a2 (ix2 e k) = h (ix2 (Cert.Spec.rowOf (a2 (ix2 0 e))) k) := by
  unfold gathT
  rw [show gather_S50000x160_S800000x1_S800000x160_1_0_n_n_0_1_1160
        = Cert.LibGS.rowGatherDims 50000 800000 160 gather_S50000x160_S800000x1_S800000x160_1_0_n_n_0_1_1160_wf from rfl,
    Cert.LibGS.gather_rows_apply (by decide)]
  have hr : ∀ (pf : min ((broadcastInDim S800000x1 ![0] bcast_S800000_S800000x1_0 (srcNT a2)) (ix2 e 0)).toInt.toNat (50000 - 1) < 50000),
      (⟨_, pf⟩ : Fin 50000) = Cert.Spec.rowOf (a2 (ix2 0 e)) := fun pf => Fin.ext (by
    show min _ (50000 - 1) = (Cert.Spec.rowOf (a2 (ix2 0 e))).val
    rw [col_apply, srcNT_apply]; rfl)
  rw [hr]

/-- Entry `(s, k)` of the segment sums: zero plus the looked-up entries of the edges whose combined key is `s`. -/
theorem segSumT_apply (h : FVec Ideal S50000x160 .f32) (a2 : IVec S2x800000 32) (a3 : IVec S800000 32)
    (s : Fin 100000) (k : Fin 160) :
    segSumT h a2 a3 (ix2 s k)
      = Cert.Spec.zeroE + ∑ e ∈ Finset.univ.filter
          (fun e : Fin 800000 => (a3 (ix1 e) * 50000#32 + a2 (ix2 1 e)).toInt = (s.val : ℤ)),
          h (ix2 (Cert.Spec.rowOf (a2 (ix2 0 e))) k) := by
  unfold segSumT
  rw [scatterAdd_ideal, show scatter_S100000x160_S800000x1_S800000x160_1_0_0_1
        = Cert.LibGS.rowScatterDims 100000 800000 160 scatter_S100000x160_S800000x1_S800000x160_1_0_0_1_wf from rfl,
    Cert.LibGS.scatterAdd_rows_apply, bcastF2_apply]
  unfold Cert.Spec.zeroE
  refine congrArg₂ _ rfl (Finset.sum_congr (Finset.filter_congr fun e _ => by rw [col_apply, segT_apply]) fun e _ => gathT_apply h a2 e k)

/-- Entry `(r, i, k)` of the two blocks is entry `(r · 50000 + i, k)` of the segment sums (`rn` is `r` as a
    natural number, named so that a literal relation gives a literal key). -/
theorem segSum3T_apply (h : FVec Ideal S50000x160 .f32) (a2 : IVec S2x800000 32) (a3 : IVec S800000 32)
    (r : Fin 2) (rn : ℕ) (hrn : r.val = rn) (i : Fin 50000) (k : Fin 160) :
    segSum3T h a2 a3 (ix3 r i k)
      = Cert.Spec.zeroE + ∑ e ∈ Finset.univ.filter
          (fun e : Fin 800000 => (a3 (ix1 e) * 50000#32 + a2 (ix2 1 e)).toInt = ((rn * 50000 + i.val : ℕ) : ℤ)),
          h (ix2 (Cert.Spec.rowOf (a2 (ix2 0 e))) k) := by
  unfold segSum3T
  have hr := r.isLt
  have hi := i.isLt
  rw [shapeCast_apply (segSumT h a2 a3) shapeCasts_S100000x160_S2x50000x160 (ix3 r i k)
    (ix2 (⟨rn * 50000 + i.val, by omega⟩ : Fin 100000) k) (by
      rw [Shape.rowMajor_val_two, Shape.rowMajor_val_three]
      show (rn * 50000 + i.val) * 160 + k.val = (r.val * 50000 + i.val) * 160 + k.val
      rw [hrn])]
  exact segSumT_apply h a2 a3 _ k

/-- A reciprocal laid out as a column and repeated along the row reads, at `(i, k)`, the reciprocal at `i`. -/
theorem rowScale_apply (v : FVec Ideal S50000 .f32) (i : Fin 50000) (k : Fin 160) :
    broadcastInDim S50000x160 ![0, 1] bcast_S50000x1_S50000x160_0_1
      (broadcastInDim S50000x1 ![0] bcast_S50000_S50000x1_0 v) (ix2 i k) = v (ix1 i) := by
  refine (broadcastInDim_apply _ bcast_S50000x1_S50000x160_0_1 _ (ix2 i k) (ix2 i (0 : Fin 1)) (fun a => match a with
    | ⟨0, _⟩ => by show i.val = if (50000 : Nat) = 1 then 0 else i.val; rw [if_neg (by decide)]
    | ⟨1, _⟩ => by show (0 : Nat) = if (1 : Nat) = 1 then 0 else k.val; rw [if_pos rfl])).trans ?_
  exact broadcastInDim_apply _ bcast_S50000_S50000x1_0 v (ix2 i (0 : Fin 1)) (ix1 i) (fun a => match a with
    | ⟨0, _⟩ => by show i.val = if (50000 : Nat) = 1 then 0 else i.val; rw [if_neg (by decide)])

/-! ## The two scaled aggregates -/

/-- RELATION 0'S AGGREGATE at `(i, k)`: the neighbour rows of key `i` summed, times the reciprocal clipped degree. -/
theorem aggT0_apply (h : FVec Ideal S50000x160 .f32) (a2 : IVec S2x800000 32) (a3 : IVec S800000 32)
    (i : Fin 50000) (k : Fin 160) :
    aggT0 h a2 a3 (ix2 i k)
      = Cert.Spec.aggK (fun e => Cert.Spec.rowOf (a2 (ix2 0 e))) (fun e => (a2 (ix2 1 e)).toInt)
          (fun e => (a3 (ix1 e) * 50000#32 + a2 (ix2 1 e)).toInt) (fun i k => h (ix2 i k)) 0
          (fun e => Cert.Spec.maskOf 0#32 (a3 (ix1 e))) i k := by
  unfold aggT0 Cert.Spec.aggK
  rw [mulf_apply, rowScale_apply, invT0_apply, shapeCast_1ab_ab_apply,
    extractStridedSlice_apply ![0, 0, 0] (segSum3T h a2 a3) slices_S2x50000x160_S1x50000x160_0_0_0
      (ix3 (0 : Fin 1) i k) (ix3 (0 : Fin 2) i k) (fun a => match a with
        | ⟨0, _⟩ => by show (0 : Nat) = 0 + 0; rfl
        | ⟨1, _⟩ => by show i.val = 0 + i.val; omega
        | ⟨2, _⟩ => by show k.val = 0 + k.val; omega),
    segSum3T_apply h a2 a3 0 0 rfl]

/-- RELATION 1'S AGGREGATE at `(i, k)`: the neighbour rows of key `50000 + i` summed, times the reciprocal clipped degree. -/
theorem aggT1_apply (h : FVec Ideal S50000x160 .f32) (a2 : IVec S2x800000 32) (a3 : IVec S800000 32)
    (i : Fin 50000) (k : Fin 160) :
    aggT1 h a2 a3 (ix2 i k)
      = Cert.Spec.aggK (fun e => Cert.Spec.rowOf (a2 (ix2 0 e))) (fun e => (a2 (ix2 1 e)).toInt)
          (fun e => (a3 (ix1 e) * 50000#32 + a2 (ix2 1 e)).toInt) (fun i k => h (ix2 i k)) 1
          (fun e => Cert.Spec.maskOf 1#32 (a3 (ix1 e))) i k := by
  unfold aggT1 Cert.Spec.aggK
  rw [mulf_apply, rowScale_apply, invT1_apply, shapeCast_1ab_ab_apply,
    extractStridedSlice_apply ![1, 0, 0] (segSum3T h a2 a3) slices_S2x50000x160_S1x50000x160_1_0_0
      (ix3 (0 : Fin 1) i k) (ix3 (1 : Fin 2) i k) (fun a => match a with
        | ⟨0, _⟩ => by show (1 : Nat) = 1 + 0; rfl
        | ⟨1, _⟩ => by show i.val = 0 + i.val; omega
        | ⟨2, _⟩ => by show k.val = 0 + k.val; omega),
    segSum3T_apply h a2 a3 1 1 rfl]

end Cert.KernelIdeal.Agg

end
-- ==== Proof.KValue.lean ====
/-
  The kernel program's value.  Every weakly fair run ends with the two result arrays at the aggregate-first
  arrangement of the launch arguments (`Spec.Args.outK`, `emK`), the arguments unchanged.

  The run itself (`KernelRun.lean`) leaves each result buffer at the last boundary's contents; those contents are a
  fold through the four regions and the host stretches between them.  Walking it back: the head's two arrays are
  the head's row functions of the second layer's output; a layer's output is its row function of the features
  it was given, of the two scaled neighbour sums (a host gather and a keyed segment sum of those features) and of
  its matrices; the first layer's features are the encoder's output; the encoder's windows are the arguments.
-/
import proofs.«426156_j28432683499969_3_alg».proof.Proof.ArgsK
import proofs.«426156_j28432683499969_3_alg».proof.Proof.KernelRun
import proofs.«426156_j28432683499969_3_alg».proof.Proof.KFoldHead
import proofs.«426156_j28432683499969_3_alg».proof.Proof.KFold1
import proofs.«426156_j28432683499969_3_alg».proof.Proof.KFold2
import proofs.«426156_j28432683499969_3_alg».proof.Proof.KReg0
import proofs.«426156_j28432683499969_3_alg».proof.Proof.KReg1
import proofs.«426156_j28432683499969_3_alg».proof.Proof.KReg2
import proofs.«426156_j28432683499969_3_alg».proof.Proof.KReg3
import proofs.«426156_j28432683499969_3_alg».proof.Proof.KAgg

set_option maxRecDepth 16384

noncomputable section

namespace Cert.KernelIdeal.Value

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The encoder's output array holds the encoded features of the arguments. -/
theorem h0_eq (c : Dev nD) (i : Fin 50000) (q : Fin 160) :
    (dat0 (F := Ideal) (V1 m ρ) c).arrAt 17 cfg0.N (ix2 i q) = (argsOf m c).h0 i q := by
  rw [Reg.arr0 (V1 m ρ) c]
  show Cert.Spec.enc (fun k => V1 m ρ c main_arg4 (ix2 i k)) (fun k => V1 m ρ c main_arg5 (ix2 i k)) (fun k => V1 m ρ c main_arg6 (ix2 i k)) (fun k => V1 m ρ c main_arg7 (ix2 i k)) (fun k => V1 m ρ c main_arg0 (ix2 i k))
      (fun k q => V1 m ρ c main_arg8 (ix2 k q)) (fun q => V1 m ρ c main_v0 (ix2 0 q))
      (fun k q => V1 m ρ c main_arg10 (ix2 k q)) (fun q => V1 m ρ c main_v1 (ix2 0 q))
      (fun k q => V1 m ρ c main_arg12 (ix2 k q)) (fun q => V1 m ρ c main_v2 (ix2 0 q))
      (fun k q => V1 m ρ c main_arg14 (ix2 k q)) (fun q => V1 m ρ c main_v3 (ix2 0 q))
      (fun k q => V1 m ρ c main_arg16 (ix2 k q)) (fun q => V1 m ρ c main_v4 (ix2 0 q))
      (fun k q => V1 m ρ c main_arg18 (ix2 k q)) (fun q => V1 m ρ c main_v5 (ix2 0 q)) q = _
  rw [Fold.V1_main_arg4 m ρ c, Fold.V1_main_arg5 m ρ c, Fold.V1_main_arg6 m ρ c, Fold.V1_main_arg7 m ρ c,
    Fold.V1_main_arg0 m ρ c, Fold.V1_main_arg8 m ρ c, Fold.V1_main_arg10 m ρ c, Fold.V1_main_arg12 m ρ c,
    Fold.V1_main_arg14 m ρ c, Fold.V1_main_arg16 m ρ c, Fold.V1_main_arg18 m ρ c]
  simp only [Fold.V1_main_v0_apply m ρ c, Fold.V1_main_v1_apply m ρ c, Fold.V1_main_v2_apply m ρ c,
    Fold.V1_main_v3_apply m ρ c, Fold.V1_main_v4_apply m ρ c, Fold.V1_main_v5_apply m ρ c]
  rfl

/-- The first layer's output array. -/
theorem h1_eq (c : Dev nD) (i : Fin 50000) (j : Fin 160) :
    (dat1 (F := Ideal) (V3 m ρ) c).arrAt 7 cfg1.N (ix2 i j) = (argsOf m c).h1K i j := by
  rw [Reg.arr1 (V3 m ρ) c]
  show (Cert.Spec.lin (fun k => V3 m ρ c main_v6 (ix2 i k)) (fun k q => V3 m ρ c main_arg21 (ix2 k q)) (fun q => V3 m ρ c main_v55 (ix2 0 q)) j
        + Cert.Spec.dot (fun k => V3 m ρ c main_v49 (ix2 i k)) (fun k q => V3 m ρ c main_v57 (ix2 k q)) j)
      + Cert.Spec.dot (fun k => V3 m ρ c main_v54 (ix2 i k)) (fun k q => V3 m ρ c main_v59 (ix2 k q)) j = _
  rw [Fold.V3_main_v6 m ρ c, Fold.V3_main_arg21 m ρ c, Fold.V3_main_v49_arr m ρ c, Fold.V3_main_v54_arr m ρ c]
  simp only [Fold.V3_main_v55_apply m ρ c, Fold.V3_main_v57_apply m ρ c, Fold.V3_main_v59_apply m ρ c,
    Agg.aggT0_apply, Agg.aggT1_apply, h0_eq m ρ c]
  rfl

/-- The second layer's output array. -/
theorem h2_eq (c : Dev nD) (i : Fin 50000) (j : Fin 160) :
    (dat2 (F := Ideal) (V5 m ρ) c).arrAt 7 cfg2.N (ix2 i j) = (argsOf m c).h2K i j := by
  rw [Reg.arr2 (V5 m ρ) c]
  show (Cert.Spec.lin (fun k => V5 m ρ c main_v60 (ix2 i k)) (fun k q => V5 m ρ c main_arg24 (ix2 k q)) (fun q => V5 m ρ c main_v82 (ix2 0 q)) j
        + Cert.Spec.dot (fun k => V5 m ρ c main_v76 (ix2 i k)) (fun k q => V5 m ρ c main_v84 (ix2 k q)) j)
      + Cert.Spec.dot (fun k => V5 m ρ c main_v81 (ix2 i k)) (fun k q => V5 m ρ c main_v86 (ix2 k q)) j = _
  rw [Fold.V5_v60 m ρ c, Fold.V5_arg24 m ρ c, Fold.V5_v76 m ρ c, Fold.V5_v81 m ρ c, Fold.W4_v60 m ρ c]
  simp only [Fold.V5_v82 m ρ c, Fold.V5_v84 m ρ c, Fold.V5_v86 m ρ c, Agg.aggT0_apply, Agg.aggT1_apply, h1_eq m ρ c]
  rfl

/-- The head's hidden array. -/
theorem em_eq (c : Dev nD) :
    W8 m ρ c (Proc.devRef .tc main_v90_0) = fun j => (argsOf m c).emK (j 0) (j 1) := by
  rw [Fold.W8_main_v90_0 m ρ c, Reg.arr3_em (V7 m ρ) c]
  funext j
  obtain ⟨i, q, rfl⟩ : ∃ (i : Fin 50000) (q : Fin 80), j = ix2 i q := ⟨j 0, j 1, eq_ix2 j⟩
  show Cert.Spec.headEm (fun k => V7 m ρ c main_v87 (ix2 i k)) (fun k q => V7 m ρ c main_arg26 (ix2 k q))
      (fun q => V7 m ρ c main_v88 (ix2 0 q)) q = _
  rw [Fold.V7_main_v87 m ρ c, Fold.V7_main_arg26 m ρ c]
  simp only [Fold.V7_main_v88_apply m ρ c, h2_eq m ρ c]
  rfl

/-- The head's output array. -/
theorem out_eq (c : Dev nD) :
    W8 m ρ c (Proc.devRef .tc main_v90_1) = fun j => (argsOf m c).outK (j 0) (j 1) := by
  rw [Fold.W8_main_v90_1 m ρ c, Reg.arr3_out (V7 m ρ) c]
  funext j
  obtain ⟨i, q, rfl⟩ : ∃ (i : Fin 50000) (q : Fin 2), j = ix2 i q := ⟨j 0, j 1, eq_ix2 j⟩
  show Cert.Spec.headOut (fun k => V7 m ρ c main_v87 (ix2 i k)) (fun k q => V7 m ρ c main_arg26 (ix2 k q))
      (fun q => V7 m ρ c main_v88 (ix2 0 q)) (fun k q => V7 m ρ c main_arg28 (ix2 k q))
      (fun q => V7 m ρ c main_v89 (ix2 0 q)) q = _
  rw [Fold.V7_main_v87 m ρ c, Fold.V7_main_arg26 m ρ c, Fold.V7_main_arg28 m ρ c]
  simp only [Fold.V7_main_v88_apply m ρ c, Fold.V7_main_v89_apply m ρ c, h2_eq m ρ c]
  rfl

/-- The kernel program's run, its results at the aggregate-first arrangement of the arguments. -/
theorem run :
    θ_run (defs (F := Ideal)) (onTc (τ := τ) (main (F := Ideal))) ⟨m, fun _ => 0, ρ⟩ (fun r => ∀ c : Dev nD,
      r.2.mem ((c.tc : Thread nD τ).loc main_v90_1) = (fun j => (argsOf m c).outK (j 0) (j 1))
      ∧ r.2.mem ((c.tc : Thread nD τ).loc main_v90_0) = (fun j => (argsOf m c).emK (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h c).1.trans (out_eq m ρ c), (h c).2.1.trans (em_eq m ρ c), (h c).2.2⟩)
    (Cert.KernelIdeal.Run.run_W8 (F := Ideal) m ρ)

end Cert.KernelIdeal.Value

end
-- ==== Proof.RefEnc.lean ====
/-
  The reference's encoder read at an index.  Each of the five small encoders is a matrix product of the node's row
  with a 32-column matrix, a bias added along the rows, and the leaky rectifier spelt as a comparison against zero, a
  multiplication by the slope word and a selection; the five results are laid side by side into a row of 160, which
  goes through one more dense layer of 160 and the same rectifier.  At node `i` and column `q` this is the
  specification's `enc` of the node's five feature rows.

  The pairing of feature rows and matrices is the program's: the tweet-text rows meet the text matrix, the
  pretrained rows meet the tweet matrix.
-/
import proofs.«426156_j28432683499969_3_alg».proof.Proof.RefReadP
import proofs.«426156_j28432683499969_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The numeric-property encoder's dense layer at a node and a column: the row times the matrix column, plus the bias. -/
theorem lin_np_apply (x4 : (⟨S50000x6, .f32⟩ : BufTy).Contents (Elt Ideal)) (x8 : (⟨S6x32, .f32⟩ : BufTy).Contents (Elt Ideal)) (x9 : (⟨S32, .f32⟩ : BufTy).Contents (Elt Ideal)) (i : Fin 50000) (q : Fin 32) :
    Read.val_main_v3 (F := Ideal) x4 x8 x9 (ix2 i q) = Cert.Spec.lin (fun k => x4 (ix2 i k)) (fun k q => x8 (ix2 k q)) (fun q => x9 (ix1 q)) q := by
  have hl : ∀ k : Fin 6, Read.lidx_main_v0 (ix2 i q) k = ix2 i k := fun k => funext fun a => Fin.ext (by match a with | ⟨0, _⟩ => rfl | ⟨1, _⟩ => rfl)
  have hr : ∀ k : Fin 6, Read.ridx_main_v0 (ix2 i q) k = ix2 k q := fun k => funext fun a => Fin.ext (by match a with | ⟨0, _⟩ => rfl | ⟨1, _⟩ => rfl)
  have hb : Read.idx_main_v1 (Read.idx_main_v2 (ix2 i q)) = ix1 q := funext fun a => Fin.ext (by match a with | ⟨0, _⟩ => rfl)
  rw [Read.val_main_v3_apply, Read.val_main_v0_apply, Read.val_main_v2_apply, Read.val_main_v1_apply]
  simp only [hl, hr, hb, Ideal.addf_def]
  rfl

/-- The numeric-property encoder at a node and a column: the rectifier of the dense layer. -/
theorem enc_np_apply (x4 : (⟨S50000x6, .f32⟩ : BufTy).Contents (Elt Ideal)) (x8 : (⟨S6x32, .f32⟩ : BufTy).Contents (Elt Ideal)) (x9 : (⟨S32, .f32⟩ : BufTy).Contents (Elt Ideal)) (i : Fin 50000) (q : Fin 32) :
    Read.val_main_v8 (F := Ideal) x4 x8 x9 (ix2 i q) = Cert.Spec.lrelu (Cert.Spec.lin (fun k => x4 (ix2 i k)) (fun k q => x8 (ix2 k q)) (fun q => x9 (ix1 q)) q) := by
  rw [Read.val_main_v8_apply, Read.val_main_v5_apply, Read.val_main_v7_apply, Read.val_main_v4_apply, Read.val_main_v6_apply, Read.val_main_cst_apply, Read.val_main_cst_0_apply,
    lin_np_apply]
  rfl

/-- The categorical-property encoder's dense layer at a node and a column: the row times the matrix column, plus the bias. -/
theorem lin_nc_apply (x5 : (⟨S50000x11, .f32⟩ : BufTy).Contents (Elt Ideal)) (x10 : (⟨S11x32, .f32⟩ : BufTy).Contents (Elt Ideal)) (x11 : (⟨S32, .f32⟩ : BufTy).Contents (Elt Ideal)) (i : Fin 50000) (q : Fin 32) :
    Read.val_main_v12 (F := Ideal) x5 x10 x11 (ix2 i q) = Cert.Spec.lin (fun k => x5 (ix2 i k)) (fun k q => x10 (ix2 k q)) (fun q => x11 (ix1 q)) q := by
  have hl : ∀ k : Fin 11, Read.lidx_main_v9 (ix2 i q) k = ix2 i k := fun k => funext fun a => Fin.ext (by match a with | ⟨0, _⟩ => rfl | ⟨1, _⟩ => rfl)
  have hr : ∀ k : Fin 11, Read.ridx_main_v9 (ix2 i q) k = ix2 k q := fun k => funext fun a => Fin.ext (by match a with | ⟨0, _⟩ => rfl | ⟨1, _⟩ => rfl)
  have hb : Read.idx_main_v10 (Read.idx_main_v11 (ix2 i q)) = ix1 q := funext fun a => Fin.ext (by match a with | ⟨0, _⟩ => rfl)
  rw [Read.val_main_v12_apply, Read.val_main_v9_apply, Read.val_main_v11_apply, Read.val_main_v10_apply]
  simp only [hl, hr, hb, Ideal.addf_def]
  rfl

/-- The categorical-property encoder at a node and a column: the rectifier of the dense layer. -/
theorem enc_nc_apply (x5 : (⟨S50000x11, .f32⟩ : BufTy).Contents (Elt Ideal)) (x10 : (⟨S11x32, .f32⟩ : BufTy).Contents (Elt Ideal)) (x11 : (⟨S32, .f32⟩ : BufTy).Contents (Elt Ideal)) (i : Fin 50000) (q : Fin 32) :
    Read.val_main_v17 (F := Ideal) x5 x10 x11 (ix2 i q) = Cert.Spec.lrelu (Cert.Spec.lin (fun k => x5 (ix2 i k)) (fun k q => x10 (ix2 k q)) (fun q => x11 (ix1 q)) q) := by
  rw [Read.val_main_v17_apply, Read.val_main_v14_apply, Read.val_main_v16_apply, Read.val_main_v13_apply, Read.val_main_v15_apply, Read.val_main_cst_1_apply, Read.val_main_cst_2_apply,
    lin_nc_apply]
  rfl

/-- The description encoder's dense layer at a node and a column: the row times the matrix column, plus the bias. -/
theorem lin_des_apply (x6 : (⟨S50000x768, .f32⟩ : BufTy).Contents (Elt Ideal)) (x12 : (⟨S768x32, .f32⟩ : BufTy).Contents (Elt Ideal)) (x13 : (⟨S32, .f32⟩ : BufTy).Contents (Elt Ideal)) (i : Fin 50000) (q : Fin 32) :
    Read.val_main_v21 (F := Ideal) x6 x12 x13 (ix2 i q) = Cert.Spec.lin (fun k => x6 (ix2 i k)) (fun k q => x12 (ix2 k q)) (fun q => x13 (ix1 q)) q := by
  have hl : ∀ k : Fin 768, Read.lidx_main_v18 (ix2 i q) k = ix2 i k := fun k => funext fun a => Fin.ext (by match a with | ⟨0, _⟩ => rfl | ⟨1, _⟩ => rfl)
  have hr : ∀ k : Fin 768, Read.ridx_main_v18 (ix2 i q) k = ix2 k q := fun k => funext fun a => Fin.ext (by match a with | ⟨0, _⟩ => rfl | ⟨1, _⟩ => rfl)
  have hb : Read.idx_main_v19 (Read.idx_main_v20 (ix2 i q)) = ix1 q := funext fun a => Fin.ext (by match a with | ⟨0, _⟩ => rfl)
  rw [Read.val_main_v21_apply, Read.val_main_v18_apply, Read.val_main_v20_apply, Read.val_main_v19_apply]
  simp only [hl, hr, hb, Ideal.addf_def]
  rfl

/-- The description encoder at a node and a column: the rectifier of the dense layer. -/
theorem enc_des_apply (x6 : (⟨S50000x768, .f32⟩ : BufTy).Contents (Elt Ideal)) (x12 : (⟨S768x32, .f32⟩ : BufTy).Contents (Elt Ideal)) (x13 : (⟨S32, .f32⟩ : BufTy).Contents (Elt Ideal)) (i : Fin 50000) (q : Fin 32) :
    Read.val_main_v26 (F := Ideal) x6 x12 x13 (ix2 i q) = Cert.Spec.lrelu (Cert.Spec.lin (fun k => x6 (ix2 i k)) (fun k q => x12 (ix2 k q)) (fun q => x13 (ix1 q)) q) := by
  rw [Read.val_main_v26_apply, Read.val_main_v23_apply, Read.val_main_v25_apply, Read.val_main_v22_apply, Read.val_main_v24_apply, Read.val_main_cst_3_apply, Read.val_main_cst_4_apply,
    lin_des_apply]
  rfl

/-- The tweet-text (the text matrix) encoder's dense layer at a node and a column: the row times the matrix column, plus the bias. -/
theorem lin_text_apply (x7 : (⟨S50000x768, .f32⟩ : BufTy).Contents (Elt Ideal)) (x14 : (⟨S768x32, .f32⟩ : BufTy).Contents (Elt Ideal)) (x15 : (⟨S32, .f32⟩ : BufTy).Contents (Elt Ideal)) (i : Fin 50000) (q : Fin 32) :
    Read.val_main_v30 (F := Ideal) x7 x14 x15 (ix2 i q) = Cert.Spec.lin (fun k => x7 (ix2 i k)) (fun k q => x14 (ix2 k q)) (fun q => x15 (ix1 q)) q := by
  have hl : ∀ k : Fin 768, Read.lidx_main_v27 (ix2 i q) k = ix2 i k := fun k => funext fun a => Fin.ext (by match a with | ⟨0, _⟩ => rfl | ⟨1, _⟩ => rfl)
  have hr : ∀ k : Fin 768, Read.ridx_main_v27 (ix2 i q) k = ix2 k q := fun k => funext fun a => Fin.ext (by match a with | ⟨0, _⟩ => rfl | ⟨1, _⟩ => rfl)
  have hb : Read.idx_main_v28 (Read.idx_main_v29 (ix2 i q)) = ix1 q := funext fun a => Fin.ext (by match a with | ⟨0, _⟩ => rfl)
  rw [Read.val_main_v30_apply, Read.val_main_v27_apply, Read.val_main_v29_apply, Read.val_main_v28_apply]
  simp only [hl, hr, hb, Ideal.addf_def]
  rfl

/-- The tweet-text (the text matrix) encoder at a node and a column: the rectifier of the dense layer. -/
theorem enc_text_apply (x7 : (⟨S50000x768, .f32⟩ : BufTy).Contents (Elt Ideal)) (x14 : (⟨S768x32, .f32⟩ : BufTy).Contents (Elt Ideal)) (x15 : (⟨S32, .f32⟩ : BufTy).Contents (Elt Ideal)) (i : Fin 50000) (q : Fin 32) :
    Read.val_main_v35 (F := Ideal) x7 x14 x15 (ix2 i q) = Cert.Spec.lrelu (Cert.Spec.lin (fun k => x7 (ix2 i k)) (fun k q => x14 (ix2 k q)) (fun q => x15 (ix1 q)) q) := by
  rw [Read.val_main_v35_apply, Read.val_main_v32_apply, Read.val_main_v34_apply, Read.val_main_v31_apply, Read.val_main_v33_apply, Read.val_main_cst_5_apply, Read.val_main_cst_6_apply,
    lin_text_apply]
  rfl

/-- The pretrained-feature (the tweet matrix) encoder's dense layer at a node and a column: the row times the matrix column, plus the bias. -/
theorem lin_tweet_apply (x0 : (⟨S50000x768, .f32⟩ : BufTy).Contents (Elt Ideal)) (x16 : (⟨S768x32, .f32⟩ : BufTy).Contents (Elt Ideal)) (x17 : (⟨S32, .f32⟩ : BufTy).Contents (Elt Ideal)) (i : Fin 50000) (q : Fin 32) :
    Read.val_main_v39 (F := Ideal) x0 x16 x17 (ix2 i q) = Cert.Spec.lin (fun k => x0 (ix2 i k)) (fun k q => x16 (ix2 k q)) (fun q => x17 (ix1 q)) q := by
  have hl : ∀ k : Fin 768, Read.lidx_main_v36 (ix2 i q) k = ix2 i k := fun k => funext fun a => Fin.ext (by match a with | ⟨0, _⟩ => rfl | ⟨1, _⟩ => rfl)
  have hr : ∀ k : Fin 768, Read.ridx_main_v36 (ix2 i q) k = ix2 k q := fun k => funext fun a => Fin.ext (by match a with | ⟨0, _⟩ => rfl | ⟨1, _⟩ => rfl)
  have hb : Read.idx_main_v37 (Read.idx_main_v38 (ix2 i q)) = ix1 q := funext fun a => Fin.ext (by match a with | ⟨0, _⟩ => rfl)
  rw [Read.val_main_v39_apply, Read.val_main_v36_apply, Read.val_main_v38_apply, Read.val_main_v37_apply]
  simp only [hl, hr, hb, Ideal.addf_def]
  rfl

/-- The pretrained-feature (the tweet matrix) encoder at a node and a column: the rectifier of the dense layer. -/
theorem enc_tweet_apply (x0 : (⟨S50000x768, .f32⟩ : BufTy).Contents (Elt Ideal)) (x16 : (⟨S768x32, .f32⟩ : BufTy).Contents (Elt Ideal)) (x17 : (⟨S32, .f32⟩ : BufTy).Contents (Elt Ideal)) (i : Fin 50000) (q : Fin 32) :
    Read.val_main_v44 (F := Ideal) x0 x16 x17 (ix2 i q) = Cert.Spec.lrelu (Cert.Spec.lin (fun k => x0 (ix2 i k)) (fun k q => x16 (ix2 k q)) (fun q => x17 (ix1 q)) q) := by
  rw [Read.val_main_v44_apply, Read.val_main_v41_apply, Read.val_main_v43_apply, Read.val_main_v40_apply, Read.val_main_v42_apply, Read.val_main_cst_7_apply, Read.val_main_cst_8_apply,
    lin_tweet_apply]
  rfl

/-- The five encoders' values as one family over the piece number. -/
def pieces (x0 : (⟨S50000x768, .f32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) : Fin 5 → (S50000x32.Idx → Ideal .f32)
  | ⟨0, _⟩ => Read.val_main_v8 (F := Ideal) x4 x8 x9
  | ⟨1, _⟩ => Read.val_main_v17 (F := Ideal) x5 x10 x11
  | ⟨2, _⟩ => Read.val_main_v26 (F := Ideal) x6 x12 x13
  | ⟨3, _⟩ => Read.val_main_v35 (F := Ideal) x7 x14 x15
  | ⟨_ + 4, _⟩ => Read.val_main_v44 (F := Ideal) x0 x16 x17

/-- Each piece at a node and a column is that encoder of the node's row. -/
theorem pieces_apply (x0 : (⟨S50000x768, .f32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (i : Fin 50000) (n : Fin 5) (r : Fin 32) :
    pieces x0 x4 x5 x6 x7 x8 x9 x10 x11 x12 x13 x14 x15 x16 x17 n (ix2 i r) = (Cert.Spec.encParts (fun k => x4 (ix2 i k)) (fun k => x5 (ix2 i k)) (fun k => x6 (ix2 i k)) (fun k => x7 (ix2 i k)) (fun k => x0 (ix2 i k))
        (fun k q => x8 (ix2 k q)) (fun q => x9 (ix1 q)) (fun k q => x10 (ix2 k q)) (fun q => x11 (ix1 q)) (fun k q => x12 (ix2 k q)) (fun q => x13 (ix1 q))
        (fun k q => x14 (ix2 k q)) (fun q => x15 (ix1 q)) (fun k q => x16 (ix2 k q)) (fun q => x17 (ix1 q))) n r := by
  match n with
  | ⟨0, _⟩ => exact enc_np_apply x4 x8 x9 i r
  | ⟨1, _⟩ => exact enc_nc_apply x5 x10 x11 i r
  | ⟨2, _⟩ => exact enc_des_apply x6 x12 x13 i r
  | ⟨3, _⟩ => exact enc_text_apply x7 x14 x15 i r
  | ⟨4, _⟩ => exact enc_tweet_apply x0 x16 x17 i r

/-- The concatenated row at a node and a column `k`: piece `k / 32` at column `k % 32`. -/
theorem cat_apply (x0 : (⟨S50000x768, .f32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (i : Fin 50000) (k : Fin 160) :
    Read.val_main_v45 (F := Ideal) x0 x4 x5 x6 x7 x8 x9 x10 x11 x12 x13 x14 x15 x16 x17 (ix2 i k) = Cert.Spec.hcat (Cert.Spec.encParts (fun k => x4 (ix2 i k)) (fun k => x5 (ix2 i k)) (fun k => x6 (ix2 i k)) (fun k => x7 (ix2 i k)) (fun k => x0 (ix2 i k))
        (fun k q => x8 (ix2 k q)) (fun q => x9 (ix1 q)) (fun k q => x10 (ix2 k q)) (fun q => x11 (ix1 q)) (fun k q => x12 (ix2 k q)) (fun q => x13 (ix1 q))
        (fun k q => x14 (ix2 k q)) (fun q => x15 (ix1 q)) (fun k q => x16 (ix2 k q)) (fun q => x17 (ix1 q))) k := by
  have hcat := concatenate_ofFn_apply (t := S50000x160) (s₁ := S50000x32) 1 (pieces x0 x4 x5 x6 x7 x8 x9 x10 x11 x12 x13 x14 x15 x16 x17)
    concatenates_S50000x32_S50000x32_S50000x32_S50000x32_S50000x32_S50000x160_d1 rfl 32 rfl (ix2 i k)
    ⟨k.val / 32, by omega⟩ rfl (ix2 i ⟨k.val % 32, by omega⟩) rfl
    (fun b hb => by match b with | ⟨0, _⟩ => rfl | ⟨1, _⟩ => exact absurd rfl hb)
  rw [pieces_apply] at hcat
  exact hcat

/-- The last dense layer at a node and a column. -/
theorem lin_in_apply (x0 : (⟨S50000x768, .f32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (i : Fin 50000) (q : Fin 160) :
    Read.val_main_v49 (F := Ideal) x0 x4 x5 x6 x7 x8 x9 x10 x11 x12 x13 x14 x15 x16 x17 x18 x19 (ix2 i q) =
      Cert.Spec.lin (Cert.Spec.hcat (Cert.Spec.encParts (fun k => x4 (ix2 i k)) (fun k => x5 (ix2 i k)) (fun k => x6 (ix2 i k)) (fun k => x7 (ix2 i k)) (fun k => x0 (ix2 i k))
        (fun k q => x8 (ix2 k q)) (fun q => x9 (ix1 q)) (fun k q => x10 (ix2 k q)) (fun q => x11 (ix1 q)) (fun k q => x12 (ix2 k q)) (fun q => x13 (ix1 q))
        (fun k q => x14 (ix2 k q)) (fun q => x15 (ix1 q)) (fun k q => x16 (ix2 k q)) (fun q => x17 (ix1 q)))) (fun k q => x18 (ix2 k q)) (fun q => x19 (ix1 q)) q := by
  have hl : ∀ k : Fin 160, Read.lidx_main_v46 (ix2 i q) k = ix2 i k := fun k => funext fun a => Fin.ext (by match a with | ⟨0, _⟩ => rfl | ⟨1, _⟩ => rfl)
  have hr : ∀ k : Fin 160, Read.ridx_main_v46 (ix2 i q) k = ix2 k q := fun k => funext fun a => Fin.ext (by match a with | ⟨0, _⟩ => rfl | ⟨1, _⟩ => rfl)
  have hb : Read.idx_main_v47 (Read.idx_main_v48 (ix2 i q)) = ix1 q := funext fun a => Fin.ext (by match a with | ⟨0, _⟩ => rfl)
  rw [Read.val_main_v49_apply, Read.val_main_v46_apply, Read.val_main_v48_apply, Read.val_main_v47_apply]
  simp only [hl, hr, hb, cat_apply, Ideal.addf_def]
  rfl

/-- The encoded features at a node and a column are the specification's `enc` of the node's five rows. -/
theorem enc_apply (x0 : (⟨S50000x768, .f32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (i : Fin 50000) (q : Fin 160) :
    Read.val_main_v54 (F := Ideal) x0 x4 x5 x6 x7 x8 x9 x10 x11 x12 x13 x14 x15 x16 x17 x18 x19 (ix2 i q) =
      Cert.Spec.enc (fun k => x4 (ix2 i k)) (fun k => x5 (ix2 i k)) (fun k => x6 (ix2 i k)) (fun k => x7 (ix2 i k)) (fun k => x0 (ix2 i k))
        (fun k q => x8 (ix2 k q)) (fun q => x9 (ix1 q)) (fun k q => x10 (ix2 k q)) (fun q => x11 (ix1 q)) (fun k q => x12 (ix2 k q)) (fun q => x13 (ix1 q))
        (fun k q => x14 (ix2 k q)) (fun q => x15 (ix1 q)) (fun k q => x16 (ix2 k q)) (fun q => x17 (ix1 q)) (fun k q => x18 (ix2 k q)) (fun q => x19 (ix1 q)) q := by
  rw [Read.val_main_v54_apply, Read.val_main_v51_apply, Read.val_main_v53_apply, Read.val_main_v50_apply, Read.val_main_v52_apply, Read.val_main_cst_9_apply,
    Read.val_main_cst_10_apply, lin_in_apply]
  rfl

end Cert.ReferenceIdeal.RefValue

end
-- ==== Proof.RefLayer1.lean ====
/-
  The reference program's first relational graph layer, read at an index, as a function of the encoder's output.

  The layer adds to the root transform `h W_root + b` one term per relation `r`: every edge's source row of the
  transformed table `h W_r` (the source word shifted by 50000 when negative, then clipped to the table's rows),
  times the edge's 0 / 1 relation mask, summed over the edges arriving at the node, divided by the number of such
  edges clipped below at one.  Each operation is read at an index from its operands; the row lookup and the two
  segment sums are read by the index-level lemmas of `LibGS`.  The result is `Spec.layerR`.
-/
import proofs.«426156_j28432683499969_3_alg».proof.Proof.RefReadP
import proofs.«426156_j28432683499969_3_alg».proof.Proof.Whole
import proofs.«426156_j28432683499969_3_alg».proof.Proof.LibGS
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ### Words -/

/-- A select on "the word is negative", as the `if` on its signed reading. -/
theorem select_neg (s a b : BitVec 32) :
    Scalar.select (IntOp.cmpi .slt s 0#32) a b = if s.toInt < 0 then a else b := by
  by_cases h : s.toInt < 0
  · have hc : IntOp.cmpi .slt s 0#32 = 1#1 := IntOp.cmpi_slt.mpr (by simpa using h)
    rw [hc, if_pos h]
    exact select_one a b
  · have hc : IntOp.cmpi .slt s 0#32 = 0#1 :=
      eq_zero_of_ne_one fun hc => h (by simpa using IntOp.cmpi_slt.mp hc)
    rw [hc, if_neg h]
    exact select_zero a b

/-- The equality bit of two words, read unsigned as a number, is the 0 / 1 mask. -/
theorem mask_eq (r t : BitVec 32) :
    FloatOps.uitofp (F := Ideal) FTy.f32 (IntOp.cmpi .eq t r) = Cert.Spec.maskOf r t := by
  unfold Cert.Spec.maskOf
  by_cases h : t = r
  · rw [if_pos h, IntOp.cmpi_eq.mpr h]
    show ((((1#1 : BitVec 1).toNat : ℕ) : ℝ) : EReal) = ((1 : ℝ) : EReal)
    norm_num
  · rw [if_neg h, eq_zero_of_ne_one fun hc => h (IntOp.cmpi_eq.mp hc)]
    show ((((0#1 : BitVec 1).toNat : ℕ) : ℝ) : EReal) = ((0 : ℝ) : EReal)
    norm_num

/-- At the ideal instance the host's accumulating scatter is the exact one. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

section Layer

variable (x0 : (⟨S50000x768, .f32⟩ : BufTy).Contents (Elt Ideal)) (x2 : (⟨S2x800000, .i32⟩ : BufTy).Contents (Elt Ideal)) (x3 : (⟨S800000, .i32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (x20 : (⟨S2x160x160, .f32⟩ : BufTy).Contents (Elt Ideal)) (x21 : (⟨S160x160, .f32⟩ : BufTy).Contents (Elt Ideal)) (x22 : (⟨S160, .f32⟩ : BufTy).Contents (Elt Ideal))

/-! ### The edge words -/

/-- The source word of edge `e`: row 0 of the edge array. -/
theorem src_apply (e : Fin 800000) : Read.val_main_v56 (F := Ideal) x2 (ix1 e) = x2 (ix2 0 e) := by
  rw [Read.val_main_v56_apply, Read.val_main_v55_apply]
  refine congrArg x2 (funext fun a => Fin.ext ?_)
  match a with
  | ⟨0, _⟩ => rfl
  | ⟨1, _⟩ => exact Nat.mod_eq_of_lt e.isLt

/-- The destination word of edge `e`: row 1 of the edge array. -/
theorem dst_apply (e : Fin 800000) : Read.val_main_v58 (F := Ideal) x2 (ix1 e) = x2 (ix2 1 e) := by
  rw [Read.val_main_v58_apply, Read.val_main_v57_apply]
  refine congrArg x2 (funext fun a => Fin.ext ?_)
  match a with
  | ⟨0, _⟩ => rfl
  | ⟨1, _⟩ => exact Nat.mod_eq_of_lt e.isLt

/-! ### The root transform -/

/-- The root transform of node `i`: its features times the root matrix, plus the bias. -/
theorem root_apply (i : Fin 50000) (j : Fin 160) :
    Read.val_main_v62 (F := Ideal) x0 x4 x5 x6 x7 x8 x9 x10 x11 x12 x13 x14 x15 x16 x17 x18 x19 x21 x22 (ix2 i j)
      = Cert.Spec.lin (fun k => Read.val_main_v54 (F := Ideal) x0 x4 x5 x6 x7 x8 x9 x10 x11 x12 x13 x14 x15 x16 x17 x18 x19 (ix2 i k)) (fun k q => x21 (ix2 k q))
          (fun q => x22 (ix1 q)) j := by
  have el : ∀ k, Read.lidx_main_v59 (ix2 i j) k = ix2 i k := fun k =>
    funext fun a => Fin.ext (by match a with | ⟨0, _⟩ => rfl | ⟨1, _⟩ => rfl)
  have er : ∀ k, Read.ridx_main_v59 (ix2 i j) k = ix2 k j := fun k =>
    funext fun a => Fin.ext (by match a with | ⟨0, _⟩ => rfl | ⟨1, _⟩ => rfl)
  have hb : Read.idx_main_v60 (Read.idx_main_v61 (ix2 i j)) = ix1 j :=
    funext fun a => Fin.ext (by match a with | ⟨0, _⟩ => rfl)
  rw [Read.val_main_v62_apply, Read.val_main_v59_apply, Read.val_main_v61_apply, Read.val_main_v60_apply, hb]
  simp only [el, er]
  rfl

/-! ### Relation 0 -/

/-- The relation-0 mask of edge `e`: the comparison's bit read as a number. -/
theorem mask0_apply (e : Fin 800000) :
    Read.val_main_v65 (F := Ideal) x3 (ix1 e) = Cert.Spec.maskOf 0#32 (x3 (ix1 e)) := by
  rw [Read.val_main_v65_apply, Read.val_main_v64_apply, Read.val_main_v63_apply, Read.val_main_c_apply]
  exact mask_eq 0#32 (x3 (ix1 e))

/-- The relation-0 matrix is slice 0 of the stacked matrices. -/
theorem W0_apply (k q : Fin 160) :
    Read.val_main_v67 (F := Ideal) x20 (ix2 k q) = x20 (ix3 0 k q) := by
  rw [Read.val_main_v67_apply, Read.val_main_v66_apply]
  refine congrArg x20 (funext fun a => Fin.ext ?_)
  have hk := k.isLt
  have hq := q.isLt
  match a with
  | ⟨0, _⟩ => rfl
  | ⟨1, _⟩ => show (k.val * 160 + q.val) / 160 % 160 = k.val; omega
  | ⟨2, _⟩ => show (k.val * 160 + q.val) % 160 = q.val; omega

/-- The transformed table: row `r` of the features times the relation-0 matrix. -/
theorem table0_apply (r : Fin 50000) (j : Fin 160) :
    Read.val_main_v68 (F := Ideal) x0 x4 x5 x6 x7 x8 x9 x10 x11 x12 x13 x14 x15 x16 x17 x18 x19 x20 (ix2 r j)
      = Cert.Spec.dot (fun k => Read.val_main_v54 (F := Ideal) x0 x4 x5 x6 x7 x8 x9 x10 x11 x12 x13 x14 x15 x16 x17 x18 x19 (ix2 r k)) (fun k q => x20 (ix3 0 k q)) j := by
  rw [Read.val_main_v68_apply]
  unfold Cert.Spec.dot
  refine Finset.sum_congr rfl fun k _ => ?_
  have el : Read.lidx_main_v68 (ix2 r j) k = ix2 r k :=
    funext fun a => Fin.ext (by match a with | ⟨0, _⟩ => rfl | ⟨1, _⟩ => rfl)
  have er : Read.ridx_main_v68 (ix2 r j) k = ix2 k j :=
    funext fun a => Fin.ext (by match a with | ⟨0, _⟩ => rfl | ⟨1, _⟩ => rfl)
  rw [el, er, W0_apply]

/-- The normalised source word of edge `e` selects the row `rowOf` of the raw word. -/
theorem row0_eq (e : Fin 800000)
    (h : min (Read.val_main_v74 (F := Ideal) x2 (ix2 e 0)).toInt.toNat (50000 - 1) < 50000) :
    (⟨min (Read.val_main_v74 (F := Ideal) x2 (ix2 e 0)).toInt.toNat (50000 - 1), h⟩ : Fin 50000)
      = Cert.Spec.rowOf (x2 (ix2 0 e)) := by
  have hi : Read.idx_main_v74 (ix2 e (0 : Fin 1)) = ix1 e :=
    funext fun a => Fin.ext (by match a with | ⟨0, _⟩ => rfl)
  have hv : Read.val_main_v74 (F := Ideal) x2 (ix2 e 0)
      = if (x2 (ix2 0 e)).toInt < 0 then x2 (ix2 0 e) + 50000#32 else x2 (ix2 0 e) := by
    rw [Read.val_main_v74_apply, hi, Read.val_main_v73_apply, Read.val_main_v70_apply, Read.val_main_v72_apply,
      Read.val_main_v69_apply, Read.val_main_c_11_apply, Read.val_main_v71_apply, Read.val_main_c_12_apply, src_apply]
    exact select_neg _ _ _
  refine Fin.ext ?_
  show min (Read.val_main_v74 (F := Ideal) x2 (ix2 e 0)).toInt.toNat (50000 - 1) = (Cert.Spec.rowOf (x2 (ix2 0 e))).val
  rw [hv]
  rfl

/-- The looked-up row of edge `e`. -/
theorem gather0_apply (e : Fin 800000) (j : Fin 160) :
    Read.val_main_v75 (F := Ideal) x0 x2 x4 x5 x6 x7 x8 x9 x10 x11 x12 x13 x14 x15 x16 x17 x18 x19 x20 (ix2 e j)
      = Read.val_main_v68 (F := Ideal) x0 x4 x5 x6 x7 x8 x9 x10 x11 x12 x13 x14 x15 x16 x17 x18 x19 x20 (ix2 (Cert.Spec.rowOf (x2 (ix2 0 e))) j) := by
  unfold Read.val_main_v75 gather_S50000x160_S800000x1_S800000x160_1_0_n_n_0_1_1160
  rw [Cert.LibGS.gather_rows_apply (by norm_num)]
  exact congrArg (fun r => Read.val_main_v68 (F := Ideal) x0 x4 x5 x6 x7 x8 x9 x10 x11 x12 x13 x14 x15 x16 x17 x18 x19 x20 (ix2 r j)) (row0_eq x2 e _)

/-- The masked message of edge `e`. -/
theorem edge0_apply (e : Fin 800000) (j : Fin 160) :
    Read.val_main_v78 (F := Ideal) x0 x2 x3 x4 x5 x6 x7 x8 x9 x10 x11 x12 x13 x14 x15 x16 x17 x18 x19 x20 (ix2 e j)
      = Cert.Spec.dot (fun k => Read.val_main_v54 (F := Ideal) x0 x4 x5 x6 x7 x8 x9 x10 x11 x12 x13 x14 x15 x16 x17 x18 x19 (ix2 (Cert.Spec.rowOf (x2 (ix2 0 e))) k))
          (fun k q => x20 (ix3 0 k q)) j * Cert.Spec.maskOf 0#32 (x3 (ix1 e)) := by
  have hi : Read.idx_main_v76 (Read.idx_main_v77 (ix2 e j)) = ix1 e :=
    funext fun a => Fin.ext (by match a with | ⟨0, _⟩ => rfl)
  rw [Read.val_main_v78_apply, gather0_apply, table0_apply, Read.val_main_v77_apply, Read.val_main_v76_apply, hi, mask0_apply, Ideal.mulf_def]

/-- The destination word the row sum is keyed by. -/
theorem dstA0_apply (e : Fin 800000) : Read.val_main_v80 (F := Ideal) x2 (ix2 e 0) = x2 (ix2 1 e) := by
  have hi : Read.idx_main_v80 (ix2 e (0 : Fin 1)) = ix1 e :=
    funext fun a => Fin.ext (by match a with | ⟨0, _⟩ => rfl)
  rw [Read.val_main_v80_apply, hi, dst_apply]

/-- The destination word the count is keyed by. -/
theorem dstB0_apply (e : Fin 800000) : Read.val_main_v83 (F := Ideal) x2 (ix2 e 0) = x2 (ix2 1 e) := by
  have hi : Read.idx_main_v83 (ix2 e (0 : Fin 1)) = ix1 e :=
    funext fun a => Fin.ext (by match a with | ⟨0, _⟩ => rfl)
  rw [Read.val_main_v83_apply, hi, dst_apply]

/-- The masked messages summed by destination. -/
theorem sum0_apply (i : Fin 50000) (j : Fin 160) :
    Read.val_main_v81 (F := Ideal) x0 x2 x3 x4 x5 x6 x7 x8 x9 x10 x11 x12 x13 x14 x15 x16 x17 x18 x19 x20 (ix2 i j)
      = Cert.Spec.zeroE + ∑ e ∈ Finset.univ.filter (fun e : Fin 800000 => (x2 (ix2 1 e)).toInt = (i.val : ℤ)),
          Cert.Spec.dot (fun k => Read.val_main_v54 (F := Ideal) x0 x4 x5 x6 x7 x8 x9 x10 x11 x12 x13 x14 x15 x16 x17 x18 x19 (ix2 (Cert.Spec.rowOf (x2 (ix2 0 e))) k))
            (fun k q => x20 (ix3 0 k q)) j * Cert.Spec.maskOf 0#32 (x3 (ix1 e)) := by
  unfold Read.val_main_v81
  rw [scatterAdd_ideal, show scatter_S50000x160_S800000x1_S800000x160_1_0_0_1
        = Cert.LibGS.rowScatterDims 50000 800000 160 scatter_S50000x160_S800000x1_S800000x160_1_0_0_1_wf from rfl,
    Cert.LibGS.scatterAdd_rows_apply, Read.val_main_v79_apply, Read.val_main_cst_13_apply]
  unfold Cert.Spec.zeroE
  exact congrArg₂ _ rfl
    (Finset.sum_congr (Finset.filter_congr fun e _ => by rw [dstA0_apply]) fun e _ =>
      edge0_apply x0 x2 x3 x4 x5 x6 x7 x8 x9 x10 x11 x12 x13 x14 x15 x16 x17 x18 x19 x20 e j)

/-- The count of relation-0 edges arriving at node `i`. -/
theorem cnt0_apply (i : Fin 50000) :
    Read.val_main_v84 (F := Ideal) x2 x3 (ix1 i)
      = Cert.Spec.cnt (fun e => (x2 (ix2 1 e)).toInt) (fun e => Cert.Spec.maskOf 0#32 (x3 (ix1 e))) i := by
  unfold Read.val_main_v84
  rw [scatterAdd_ideal, show scatter_S50000_S800000x1_S800000_n_0_0_1
        = Cert.LibGS.vecScatterDims 50000 800000 scatter_S50000_S800000x1_S800000_n_0_0_1_wf from rfl,
    Cert.LibGS.scatterAdd_vec_apply, Read.val_main_v82_apply, Read.val_main_cst_14_apply]
  unfold Cert.Spec.cnt Cert.Spec.zeroE
  exact congrArg₂ _ rfl
    (Finset.sum_congr (Finset.filter_congr fun e _ => by rw [dstB0_apply]) fun e _ => mask0_apply x3 e)

/-- The clipped count, broadcast along the row. -/
theorem clip0_apply (i : Fin 50000) (j : Fin 160) :
    Read.val_main_v88 (F := Ideal) x2 x3 (ix2 i j)
      = Cert.Spec.cnt1 (fun e => (x2 (ix2 1 e)).toInt) (fun e => Cert.Spec.maskOf 0#32 (x3 (ix1 e))) i := by
  have hi : Read.idx_main_v87 (Read.idx_main_v88 (ix2 i j)) = ix1 i :=
    funext fun a => Fin.ext (by match a with | ⟨0, _⟩ => rfl)
  rw [Read.val_main_v88_apply, Read.val_main_v87_apply, hi, Read.val_main_v86_apply, Read.val_main_v85_apply,
    Read.val_main_cst_15_apply, cnt0_apply, Ideal.maximumf_def, Ideal.ofBits_def]
  unfold Cert.Spec.cnt1 Cert.Spec.oneE
  rfl

/-- The relation-0 message term of the layer. -/
theorem msg0_apply (i : Fin 50000) (j : Fin 160) :
    Read.val_main_v89 (F := Ideal) x0 x2 x3 x4 x5 x6 x7 x8 x9 x10 x11 x12 x13 x14 x15 x16 x17 x18 x19 x20 (ix2 i j)
      = Cert.Spec.msgR (fun e => Cert.Spec.rowOf (x2 (ix2 0 e))) (fun e => (x2 (ix2 1 e)).toInt)
          (fun i k => Read.val_main_v54 (F := Ideal) x0 x4 x5 x6 x7 x8 x9 x10 x11 x12 x13 x14 x15 x16 x17 x18 x19 (ix2 i k)) (fun k q => x20 (ix3 0 k q))
          (fun e => Cert.Spec.maskOf 0#32 (x3 (ix1 e))) i j := by
  rw [Read.val_main_v89_apply, Ideal.hostDivf_def]
  unfold Cert.Spec.msgR
  exact congrArg₂ Ideal.div (sum0_apply x0 x2 x3 x4 x5 x6 x7 x8 x9 x10 x11 x12 x13 x14 x15 x16 x17 x18 x19 x20 i j) (clip0_apply x2 x3 i j)

/-! ### Relation 1 -/

/-- The relation-1 mask of edge `e`: the comparison's bit read as a number. -/
theorem mask1_apply (e : Fin 800000) :
    Read.val_main_v93 (F := Ideal) x3 (ix1 e) = Cert.Spec.maskOf 1#32 (x3 (ix1 e)) := by
  rw [Read.val_main_v93_apply, Read.val_main_v92_apply, Read.val_main_v91_apply, Read.val_main_c_16_apply]
  exact mask_eq 1#32 (x3 (ix1 e))

/-- The relation-1 matrix is slice 1 of the stacked matrices. -/
theorem W1_apply (k q : Fin 160) :
    Read.val_main_v95 (F := Ideal) x20 (ix2 k q) = x20 (ix3 1 k q) := by
  rw [Read.val_main_v95_apply, Read.val_main_v94_apply]
  refine congrArg x20 (funext fun a => Fin.ext ?_)
  have hk := k.isLt
  have hq := q.isLt
  match a with
  | ⟨0, _⟩ => rfl
  | ⟨1, _⟩ => show (k.val * 160 + q.val) / 160 % 160 = k.val; omega
  | ⟨2, _⟩ => show (k.val * 160 + q.val) % 160 = q.val; omega

/-- The transformed table: row `r` of the features times the relation-1 matrix. -/
theorem table1_apply (r : Fin 50000) (j : Fin 160) :
    Read.val_main_v96 (F := Ideal) x0 x4 x5 x6 x7 x8 x9 x10 x11 x12 x13 x14 x15 x16 x17 x18 x19 x20 (ix2 r j)
      = Cert.Spec.dot (fun k => Read.val_main_v54 (F := Ideal) x0 x4 x5 x6 x7 x8 x9 x10 x11 x12 x13 x14 x15 x16 x17 x18 x19 (ix2 r k)) (fun k q => x20 (ix3 1 k q)) j := by
  rw [Read.val_main_v96_apply]
  unfold Cert.Spec.dot
  refine Finset.sum_congr rfl fun k _ => ?_
  have el : Read.lidx_main_v96 (ix2 r j) k = ix2 r k :=
    funext fun a => Fin.ext (by match a with | ⟨0, _⟩ => rfl | ⟨1, _⟩ => rfl)
  have er : Read.ridx_main_v96 (ix2 r j) k = ix2 k j :=
    funext fun a => Fin.ext (by match a with | ⟨0, _⟩ => rfl | ⟨1, _⟩ => rfl)
  rw [el, er, W1_apply]

/-- The normalised source word of edge `e` selects the row `rowOf` of the raw word. -/
theorem row1_eq (e : Fin 800000)
    (h : min (Read.val_main_v102 (F := Ideal) x2 (ix2 e 0)).toInt.toNat (50000 - 1) < 50000) :
    (⟨min (Read.val_main_v102 (F := Ideal) x2 (ix2 e 0)).toInt.toNat (50000 - 1), h⟩ : Fin 50000)
      = Cert.Spec.rowOf (x2 (ix2 0 e)) := by
  have hi : Read.idx_main_v102 (ix2 e (0 : Fin 1)) = ix1 e :=
    funext fun a => Fin.ext (by match a with | ⟨0, _⟩ => rfl)
  have hv : Read.val_main_v102 (F := Ideal) x2 (ix2 e 0)
      = if (x2 (ix2 0 e)).toInt < 0 then x2 (ix2 0 e) + 50000#32 else x2 (ix2 0 e) := by
    rw [Read.val_main_v102_apply, hi, Read.val_main_v101_apply, Read.val_main_v98_apply, Read.val_main_v100_apply,
      Read.val_main_v97_apply, Read.val_main_c_17_apply, Read.val_main_v99_apply, Read.val_main_c_18_apply, src_apply]
    exact select_neg _ _ _
  refine Fin.ext ?_
  show min (Read.val_main_v102 (F := Ideal) x2 (ix2 e 0)).toInt.toNat (50000 - 1) = (Cert.Spec.rowOf (x2 (ix2 0 e))).val
  rw [hv]
  rfl

/-- The looked-up row of edge `e`. -/
theorem gather1_apply (e : Fin 800000) (j : Fin 160) :
    Read.val_main_v103 (F := Ideal) x0 x2 x4 x5 x6 x7 x8 x9 x10 x11 x12 x13 x14 x15 x16 x17 x18 x19 x20 (ix2 e j)
      = Read.val_main_v96 (F := Ideal) x0 x4 x5 x6 x7 x8 x9 x10 x11 x12 x13 x14 x15 x16 x17 x18 x19 x20 (ix2 (Cert.Spec.rowOf (x2 (ix2 0 e))) j) := by
  unfold Read.val_main_v103 gather_S50000x160_S800000x1_S800000x160_1_0_n_n_0_1_1160
  rw [Cert.LibGS.gather_rows_apply (by norm_num)]
  exact congrArg (fun r => Read.val_main_v96 (F := Ideal) x0 x4 x5 x6 x7 x8 x9 x10 x11 x12 x13 x14 x15 x16 x17 x18 x19 x20 (ix2 r j)) (row1_eq x2 e _)

/-- The masked message of edge `e`. -/
theorem edge1_apply (e : Fin 800000) (j : Fin 160) :
    Read.val_main_v106 (F := Ideal) x0 x2 x3 x4 x5 x6 x7 x8 x9 x10 x11 x12 x13 x14 x15 x16 x17 x18 x19 x20 (ix2 e j)
      = Cert.Spec.dot (fun k => Read.val_main_v54 (F := Ideal) x0 x4 x5 x6 x7 x8 x9 x10 x11 x12 x13 x14 x15 x16 x17 x18 x19 (ix2 (Cert.Spec.rowOf (x2 (ix2 0 e))) k))
          (fun k q => x20 (ix3 1 k q)) j * Cert.Spec.maskOf 1#32 (x3 (ix1 e)) := by
  have hi : Read.idx_main_v104 (Read.idx_main_v105 (ix2 e j)) = ix1 e :=
    funext fun a => Fin.ext (by match a with | ⟨0, _⟩ => rfl)
  rw [Read.val_main_v106_apply, gather1_apply, table1_apply, Read.val_main_v105_apply, Read.val_main_v104_apply, hi, mask1_apply, Ideal.mulf_def]

/-- The destination word the row sum is keyed by. -/
theorem dstA1_apply (e : Fin 800000) : Read.val_main_v108 (F := Ideal) x2 (ix2 e 0) = x2 (ix2 1 e) := by
  have hi : Read.idx_main_v108 (ix2 e (0 : Fin 1)) = ix1 e :=
    funext fun a => Fin.ext (by match a with | ⟨0, _⟩ => rfl)
  rw [Read.val_main_v108_apply, hi, dst_apply]

/-- The destination word the count is keyed by. -/
theorem dstB1_apply (e : Fin 800000) : Read.val_main_v111 (F := Ideal) x2 (ix2 e 0) = x2 (ix2 1 e) := by
  have hi : Read.idx_main_v111 (ix2 e (0 : Fin 1)) = ix1 e :=
    funext fun a => Fin.ext (by match a with | ⟨0, _⟩ => rfl)
  rw [Read.val_main_v111_apply, hi, dst_apply]

/-- The masked messages summed by destination. -/
theorem sum1_apply (i : Fin 50000) (j : Fin 160) :
    Read.val_main_v109 (F := Ideal) x0 x2 x3 x4 x5 x6 x7 x8 x9 x10 x11 x12 x13 x14 x15 x16 x17 x18 x19 x20 (ix2 i j)
      = Cert.Spec.zeroE + ∑ e ∈ Finset.univ.filter (fun e : Fin 800000 => (x2 (ix2 1 e)).toInt = (i.val : ℤ)),
          Cert.Spec.dot (fun k => Read.val_main_v54 (F := Ideal) x0 x4 x5 x6 x7 x8 x9 x10 x11 x12 x13 x14 x15 x16 x17 x18 x19 (ix2 (Cert.Spec.rowOf (x2 (ix2 0 e))) k))
            (fun k q => x20 (ix3 1 k q)) j * Cert.Spec.maskOf 1#32 (x3 (ix1 e)) := by
  unfold Read.val_main_v109
  rw [scatterAdd_ideal, show scatter_S50000x160_S800000x1_S800000x160_1_0_0_1
        = Cert.LibGS.rowScatterDims 50000 800000 160 scatter_S50000x160_S800000x1_S800000x160_1_0_0_1_wf from rfl,
    Cert.LibGS.scatterAdd_rows_apply, Read.val_main_v107_apply, Read.val_main_cst_19_apply]
  unfold Cert.Spec.zeroE
  exact congrArg₂ _ rfl
    (Finset.sum_congr (Finset.filter_congr fun e _ => by rw [dstA1_apply]) fun e _ =>
      edge1_apply x0 x2 x3 x4 x5 x6 x7 x8 x9 x10 x11 x12 x13 x14 x15 x16 x17 x18 x19 x20 e j)

/-- The count of relation-1 edges arriving at node `i`. -/
theorem cnt1_apply (i : Fin 50000) :
    Read.val_main_v112 (F := Ideal) x2 x3 (ix1 i)
      = Cert.Spec.cnt (fun e => (x2 (ix2 1 e)).toInt) (fun e => Cert.Spec.maskOf 1#32 (x3 (ix1 e))) i := by
  unfold Read.val_main_v112
  rw [scatterAdd_ideal, show scatter_S50000_S800000x1_S800000_n_0_0_1
        = Cert.LibGS.vecScatterDims 50000 800000 scatter_S50000_S800000x1_S800000_n_0_0_1_wf from rfl,
    Cert.LibGS.scatterAdd_vec_apply, Read.val_main_v110_apply, Read.val_main_cst_20_apply]
  unfold Cert.Spec.cnt Cert.Spec.zeroE
  exact congrArg₂ _ rfl
    (Finset.sum_congr (Finset.filter_congr fun e _ => by rw [dstB1_apply]) fun e _ => mask1_apply x3 e)

/-- The clipped count, broadcast along the row. -/
theorem clip1_apply (i : Fin 50000) (j : Fin 160) :
    Read.val_main_v116 (F := Ideal) x2 x3 (ix2 i j)
      = Cert.Spec.cnt1 (fun e => (x2 (ix2 1 e)).toInt) (fun e => Cert.Spec.maskOf 1#32 (x3 (ix1 e))) i := by
  have hi : Read.idx_main_v115 (Read.idx_main_v116 (ix2 i j)) = ix1 i :=
    funext fun a => Fin.ext (by match a with | ⟨0, _⟩ => rfl)
  rw [Read.val_main_v116_apply, Read.val_main_v115_apply, hi, Read.val_main_v114_apply, Read.val_main_v113_apply,
    Read.val_main_cst_21_apply, cnt1_apply, Ideal.maximumf_def, Ideal.ofBits_def]
  unfold Cert.Spec.cnt1 Cert.Spec.oneE
  rfl

/-- The relation-1 message term of the layer. -/
theorem msg1_apply (i : Fin 50000) (j : Fin 160) :
    Read.val_main_v117 (F := Ideal) x0 x2 x3 x4 x5 x6 x7 x8 x9 x10 x11 x12 x13 x14 x15 x16 x17 x18 x19 x20 (ix2 i j)
      = Cert.Spec.msgR (fun e => Cert.Spec.rowOf (x2 (ix2 0 e))) (fun e => (x2 (ix2 1 e)).toInt)
          (fun i k => Read.val_main_v54 (F := Ideal) x0 x4 x5 x6 x7 x8 x9 x10 x11 x12 x13 x14 x15 x16 x17 x18 x19 (ix2 i k)) (fun k q => x20 (ix3 1 k q))
          (fun e => Cert.Spec.maskOf 1#32 (x3 (ix1 e))) i j := by
  rw [Read.val_main_v117_apply, Ideal.hostDivf_def]
  unfold Cert.Spec.msgR
  exact congrArg₂ Ideal.div (sum1_apply x0 x2 x3 x4 x5 x6 x7 x8 x9 x10 x11 x12 x13 x14 x15 x16 x17 x18 x19 x20 i j) (clip1_apply x2 x3 i j)

/-! ### The layer -/

/-- THE FIRST GRAPH LAYER READ AT `(i, j)`: the root transform plus the two relations' mean messages, as a function
    of the encoder's output. -/
theorem layer1_apply (i : Fin 50000) (j : Fin 160) :
    Read.val_main_v118 (F := Ideal) x0 x2 x3 x4 x5 x6 x7 x8 x9 x10 x11 x12 x13 x14 x15 x16 x17 x18 x19 x20 x21 x22 (ix2 i j)
      = Cert.Spec.layerR (fun e => Cert.Spec.rowOf (x2 (ix2 0 e))) (fun e => (x2 (ix2 1 e)).toInt)
          (fun e => Cert.Spec.maskOf 0#32 (x3 (ix1 e))) (fun e => Cert.Spec.maskOf 1#32 (x3 (ix1 e)))
          (fun i k => Read.val_main_v54 (F := Ideal) x0 x4 x5 x6 x7 x8 x9 x10 x11 x12 x13 x14 x15 x16 x17 x18 x19 (ix2 i k))
          (fun k q => x21 (ix2 k q)) (fun q => x22 (ix1 q)) (fun k q => x20 (ix3 0 k q)) (fun k q => x20 (ix3 1 k q)) i j := by
  rw [Read.val_main_v118_apply, Read.val_main_v90_apply, root_apply, msg0_apply, msg1_apply, Ideal.addf_def, Ideal.addf_def]
  unfold Cert.Spec.layerR
  rfl

end Layer

end Cert.ReferenceIdeal.RefValue

end
-- ==== Proof.RefLayer2.lean ====
/-
  The reference program's second graph layer and head, read at an index against the index-level mathematics.

  The layer (operations %119 … %178) adds to the root transform `h W_root + b` one term per relation: the node
  table is multiplied by the relation's matrix, every edge looks up the transformed row of its source node (a
  negative source word shifted up by 50000, the result clipped to the table's rows), the rows are masked by the
  edge's relation, summed by destination, and divided by the clipped count of the relation's edges arriving at the
  node.  Each step is read at an index from its operands at an index; the lookups and the two segment sums by the
  three readings of `LibGS.lean`.  The result is `Spec.layerR` of the first layer's output.

  The head (operations %179 … %191) is a dense layer with the leaky rectifier, `Spec.headEm`, and one more dense
  layer, `Spec.headOut`.
-/
import proofs.«426156_j28432683499969_3_alg».proof.Proof.RefReadP
import proofs.«426156_j28432683499969_3_alg».proof.Proof.Whole
import proofs.«426156_j28432683499969_3_alg».proof.Proof.LibGS
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

namespace L2

/-! ## Scalar facts -/

/-- An equality test converted to a float is the 0 / 1 mask. -/
theorem mask_eq (r t : BitVec 32) :
    FloatOps.uitofp (F := Ideal) .f32 (IntOp.cmpi .eq t r) = Cert.Spec.maskOf r t := by
  unfold Cert.Spec.maskOf
  by_cases h : t = r
  · have hb : (t == r) = true := by simpa using h
    rw [if_pos h]
    show (((BitVec.ofBool (t == r)).toNat : ℝ) : EReal) = _
    rw [hb]
    simp
  · have hb : (t == r) = false := by simpa using h
    rw [if_neg h]
    show (((BitVec.ofBool (t == r)).toNat : ℝ) : EReal) = _
    rw [hb]
    simp

/-- A negative index word is shifted up by 50000, as a selection on the signed comparison with zero. -/
theorem srcNorm_eq (a : BitVec 32) :
    Scalar.select (IntOp.cmpi .slt a 0#32) (IntOp.addi a 50000#32) a
      = (if a.toInt < 0 then a + 50000#32 else a) := by
  unfold Scalar.select IntOp.cmpi IntOp.addi
  by_cases h : a.toInt < 0
  · have hb : a.slt 0#32 = true := by simp [BitVec.slt, h]
    simp [hb, h]
  · have hb : a.slt 0#32 = false := by simp [BitVec.slt, h]
    simp [hb, h]

/-- The program's zero word is the specification's. -/
theorem zero_eq : FloatOps.ofBits (F := Ideal) .f32 0x00000000#32 = Cert.Spec.zeroE := rfl
/-- The program's one word is the specification's. -/
theorem one_eq : FloatOps.ofBits (F := Ideal) .f32 0x3F800000#32 = Cert.Spec.oneE := rfl
/-- The program's slope word is the specification's. -/
theorem slope_eq : FloatOps.ofBits (F := Ideal) .f32 0x3C23D70A#32 = Cert.Spec.slope := rfl

/-- The host's accumulating scatter is the exact segment sum, as functions. -/
theorem scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- Two segment sums agree when their initial values, their selections and their summands do. -/
theorem seg_congr {p q : Fin 800000 → Prop} [DecidablePred p] [DecidablePred q] {f g : Fin 800000 → EReal}
    {a b : EReal} (ha : a = b) (hp : ∀ e, p e ↔ q e) (hf : ∀ e, f e = g e) :
    a + ∑ e ∈ Finset.univ.filter p, f e = b + ∑ e ∈ Finset.univ.filter q, g e := by
  subst ha
  rw [Finset.sum_congr (Finset.filter_congr fun e _ => hp e) fun e _ => hf e]

section
variable (x0 : (⟨S50000x768, .f32⟩ : BufTy).Contents (Elt Ideal)) (x2 : (⟨S2x800000, .i32⟩ : BufTy).Contents (Elt Ideal)) (x3 : (⟨S800000, .i32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (x20 : (⟨S2x160x160, .f32⟩ : BufTy).Contents (Elt Ideal)) (x21 : (⟨S160x160, .f32⟩ : BufTy).Contents (Elt Ideal)) (x22 : (⟨S160, .f32⟩ : BufTy).Contents (Elt Ideal)) (x23 : (⟨S2x160x160, .f32⟩ : BufTy).Contents (Elt Ideal)) (x24 : (⟨S160x160, .f32⟩ : BufTy).Contents (Elt Ideal)) (x25 : (⟨S160, .f32⟩ : BufTy).Contents (Elt Ideal)) (x26 : (⟨S160x80, .f32⟩ : BufTy).Contents (Elt Ideal)) (x27 : (⟨S80, .f32⟩ : BufTy).Contents (Elt Ideal)) (x28 : (⟨S80x2, .f32⟩ : BufTy).Contents (Elt Ideal)) (x29 : (⟨S2, .f32⟩ : BufTy).Contents (Elt Ideal))

/-! ## The edge list's two rows -/

/-- The source words: row 0 of the edge list. -/
theorem src_apply (e : Fin 800000) : val_main_v56 (F := Ideal) x2 (ix1 e) = x2 (ix2 (0 : Fin 2) e) := by
  have h : idx_main_v55 (idx_main_v56 (ix1 e)) = ix2 (0 : Fin 2) e :=
    funext fun a => Fin.ext (by
      match a with
      | ⟨0, _⟩ => rfl
      | ⟨1, _⟩ => exact Nat.mod_eq_of_lt e.isLt)
  rw [val_main_v56_apply, val_main_v55_apply, h]

/-- The destination words: row 1 of the edge list. -/
theorem dst_apply (e : Fin 800000) : val_main_v58 (F := Ideal) x2 (ix1 e) = x2 (ix2 (1 : Fin 2) e) := by
  have h : idx_main_v57 (idx_main_v58 (ix1 e)) = ix2 (1 : Fin 2) e :=
    funext fun a => Fin.ext (by
      match a with
      | ⟨0, _⟩ => rfl
      | ⟨1, _⟩ => exact Nat.mod_eq_of_lt e.isLt)
  rw [val_main_v58_apply, val_main_v57_apply, h]

/-! ## The root transform: operations %119 … %122 -/

theorem lidxRoot_eq (i : Fin 50000) (j k : Fin 160) : lidx_main_v119 (ix2 i j) k = ix2 i k :=
  funext fun a => Fin.ext (by match a with | ⟨0, _⟩ => rfl | ⟨1, _⟩ => rfl)
theorem ridxRoot_eq (i : Fin 50000) (j k : Fin 160) : ridx_main_v119 (ix2 i j) k = ix2 k j :=
  funext fun a => Fin.ext (by match a with | ⟨0, _⟩ => rfl | ⟨1, _⟩ => rfl)
theorem biasRoot_eq (i : Fin 50000) (j : Fin 160) : idx_main_v120 (idx_main_v121 (ix2 i j)) = ix1 j :=
  funext fun a => Fin.ext (by match a with | ⟨0, _⟩ => rfl)

/-- The root transform is the dense layer of the node's own row. -/
theorem root_apply (i : Fin 50000) (j : Fin 160) :
    val_main_v122 (F := Ideal) x0 x2 x3 x4 x5 x6 x7 x8 x9 x10 x11 x12 x13 x14 x15 x16 x17 x18 x19 x20 x21 x22 x24 x25 (ix2 i j)
      = Cert.Spec.lin (fun k => val_main_v118 (F := Ideal) x0 x2 x3 x4 x5 x6 x7 x8 x9 x10 x11 x12 x13 x14 x15 x16 x17 x18 x19 x20 x21 x22 (ix2 i k)) (fun k q => x24 (ix2 k q)) (fun q => x25 (ix1 q)) j := by
  unfold Cert.Spec.lin Cert.Spec.dot
  rw [val_main_v122_apply, val_main_v119_apply, val_main_v121_apply, val_main_v120_apply, biasRoot_eq, Ideal.addf_def]
  simp only [lidxRoot_eq, ridxRoot_eq]

/-! ### Relation 0: operations %123 … %149 -/

/-- The relation mask of an edge, as the program computes it: the comparison with 0 converted to a float. -/
theorem mask0_apply (e : Fin 800000) :
    val_main_v125 (F := Ideal) x3 (ix1 e) = Cert.Spec.maskOf 0#32 (x3 (ix1 e)) := by
  rw [val_main_v125_apply, val_main_v124_apply, val_main_v123_apply, val_main_c_22_apply]
  exact mask_eq _ _

/-- The relation's matrix: the slice of the stacked matrices at 0, reshaped. -/
theorem wrel0_apply (k q : Fin 160) :
    val_main_v127 (F := Ideal) x23 (ix2 k q) = x23 (ix3 (0 : Fin 2) k q) := by
  have hk := k.isLt
  have hq := q.isLt
  have h : idx_main_v126 (idx_main_v127 (ix2 k q)) = ix3 (0 : Fin 2) k q :=
    funext fun a => Fin.ext (by
      match a with
      | ⟨0, _⟩ => rfl
      | ⟨1, _⟩ => show (k.val * 160 + q.val) / 160 % 160 = k.val; omega
      | ⟨2, _⟩ => show (k.val * 160 + q.val) % 160 = q.val; omega)
  rw [val_main_v127_apply, val_main_v126_apply, h]

theorem lidx0_eq (i : Fin 50000) (j k : Fin 160) : lidx_main_v128 (ix2 i j) k = ix2 i k :=
  funext fun a => Fin.ext (by match a with | ⟨0, _⟩ => rfl | ⟨1, _⟩ => rfl)
theorem ridx0_eq (i : Fin 50000) (j k : Fin 160) : ridx_main_v128 (ix2 i j) k = ix2 k j :=
  funext fun a => Fin.ext (by match a with | ⟨0, _⟩ => rfl | ⟨1, _⟩ => rfl)

/-- The transformed table: every node's row times the relation's matrix. -/
theorem tab0_apply (n : Fin 50000) (j : Fin 160) :
    val_main_v128 (F := Ideal) x0 x2 x3 x4 x5 x6 x7 x8 x9 x10 x11 x12 x13 x14 x15 x16 x17 x18 x19 x20 x21 x22 x23 (ix2 n j)
      = Cert.Spec.dot (fun k => val_main_v118 (F := Ideal) x0 x2 x3 x4 x5 x6 x7 x8 x9 x10 x11 x12 x13 x14 x15 x16 x17 x18 x19 x20 x21 x22 (ix2 n k)) (fun k q => x23 (ix3 (0 : Fin 2) k q)) j := by
  unfold Cert.Spec.dot
  rw [val_main_v128_apply]
  simp only [lidx0_eq, ridx0_eq, wrel0_apply]

/-- The source word after the lookup's own index handling: shifted by 50000 where negative. -/
theorem srcn0_apply (e : Fin 800000) :
    val_main_v134 (F := Ideal) x2 (ix2 e (0 : Fin 1))
      = (if (x2 (ix2 (0 : Fin 2) e)).toInt < 0 then x2 (ix2 (0 : Fin 2) e) + 50000#32 else x2 (ix2 (0 : Fin 2) e)) := by
  have h : idx_main_v134 (ix2 e (0 : Fin 1)) = ix1 e :=
    funext fun a => Fin.ext (by match a with | ⟨0, _⟩ => rfl)
  rw [val_main_v134_apply, h, val_main_v133_apply, val_main_v130_apply, val_main_v132_apply, val_main_v129_apply, val_main_v131_apply,
    val_main_c_23_apply, val_main_c_24_apply, src_apply]
  exact srcNorm_eq _

/-- The lookup: edge `e` reads the transformed row of its source node. -/
theorem gath0_apply (e : Fin 800000) (j : Fin 160) :
    val_main_v135 (F := Ideal) x0 x2 x3 x4 x5 x6 x7 x8 x9 x10 x11 x12 x13 x14 x15 x16 x17 x18 x19 x20 x21 x22 x23 (ix2 e j)
      = val_main_v128 (F := Ideal) x0 x2 x3 x4 x5 x6 x7 x8 x9 x10 x11 x12 x13 x14 x15 x16 x17 x18 x19 x20 x21 x22 x23 (ix2 (Cert.Spec.rowOf (x2 (ix2 (0 : Fin 2) e))) j) := by
  unfold val_main_v135 gather_S50000x160_S800000x1_S800000x160_1_0_n_n_0_1_1160
  rw [Cert.LibGS.gather_rows_apply (by norm_num)]
  refine congrArg _ ?_
  refine congrArg (fun n : Fin 50000 => ix2 n j) ?_
  refine Fin.ext ?_
  show min (val_main_v134 (F := Ideal) x2 (ix2 e (0 : Fin 1))).toInt.toNat (50000 - 1) = _
  rw [srcn0_apply]
  rfl

/-- The mask laid along the rows. -/
theorem maskb0_apply (e : Fin 800000) (j : Fin 160) :
    val_main_v137 (F := Ideal) x3 (ix2 e j) = Cert.Spec.maskOf 0#32 (x3 (ix1 e)) := by
  have h : idx_main_v136 (idx_main_v137 (ix2 e j)) = ix1 e :=
    funext fun a => Fin.ext (by match a with | ⟨0, _⟩ => rfl)
  rw [val_main_v137_apply, val_main_v136_apply, h, mask0_apply]

/-- The masked message of edge `e`. -/
theorem msg0_apply (e : Fin 800000) (j : Fin 160) :
    val_main_v138 (F := Ideal) x0 x2 x3 x4 x5 x6 x7 x8 x9 x10 x11 x12 x13 x14 x15 x16 x17 x18 x19 x20 x21 x22 x23 (ix2 e j)
      = Cert.Spec.dot (fun k => val_main_v118 (F := Ideal) x0 x2 x3 x4 x5 x6 x7 x8 x9 x10 x11 x12 x13 x14 x15 x16 x17 x18 x19 x20 x21 x22 (ix2 (Cert.Spec.rowOf (x2 (ix2 (0 : Fin 2) e))) k)) (fun k q => x23 (ix3 (0 : Fin 2) k q)) j
        * Cert.Spec.maskOf 0#32 (x3 (ix1 e)) := by
  rw [val_main_v138_apply, gath0_apply, tab0_apply, maskb0_apply, Ideal.mulf_def]

/-- The destination word of edge `e`, as the row segment sum's index. -/
theorem dsta0_apply (e : Fin 800000) :
    val_main_v140 (F := Ideal) x2 (ix2 e (0 : Fin 1)) = x2 (ix2 (1 : Fin 2) e) := by
  have h : idx_main_v140 (ix2 e (0 : Fin 1)) = ix1 e :=
    funext fun a => Fin.ext (by match a with | ⟨0, _⟩ => rfl)
  rw [val_main_v140_apply, h, dst_apply]

/-- The same, as the count's index. -/
theorem dstb0_apply (e : Fin 800000) :
    val_main_v143 (F := Ideal) x2 (ix2 e (0 : Fin 1)) = x2 (ix2 (1 : Fin 2) e) := by
  have h : idx_main_v143 (ix2 e (0 : Fin 1)) = ix1 e :=
    funext fun a => Fin.ext (by match a with | ⟨0, _⟩ => rfl)
  rw [val_main_v143_apply, h, dst_apply]

/-- The segment sum of the masked messages by destination. -/
theorem seg0_apply (i : Fin 50000) (j : Fin 160) :
    val_main_v141 (F := Ideal) x0 x2 x3 x4 x5 x6 x7 x8 x9 x10 x11 x12 x13 x14 x15 x16 x17 x18 x19 x20 x21 x22 x23 (ix2 i j)
      = Cert.Spec.zeroE + ∑ e ∈ Finset.univ.filter (fun e : Fin 800000 => (x2 (ix2 (1 : Fin 2) e)).toInt = (i.val : ℤ)),
          Cert.Spec.dot (fun k => val_main_v118 (F := Ideal) x0 x2 x3 x4 x5 x6 x7 x8 x9 x10 x11 x12 x13 x14 x15 x16 x17 x18 x19 x20 x21 x22 (ix2 (Cert.Spec.rowOf (x2 (ix2 (0 : Fin 2) e))) k)) (fun k q => x23 (ix3 (0 : Fin 2) k q)) j
            * Cert.Spec.maskOf 0#32 (x3 (ix1 e)) := by
  unfold val_main_v141
  rw [scatterAdd_eq]
  unfold scatter_S50000x160_S800000x1_S800000x160_1_0_0_1
  rw [Cert.LibGS.scatterAdd_rows_apply]
  exact seg_congr (by rw [val_main_v139_apply, val_main_cst_25_apply]; exact zero_eq)
    (fun e => by rw [dsta0_apply]) (fun e => msg0_apply x0 x2 x3 x4 x5 x6 x7 x8 x9 x10 x11 x12 x13 x14 x15 x16 x17 x18 x19 x20 x21 x22 x23 e j)

/-- The count of the relation's edges arriving at a node. -/
theorem cnt0_apply (i : Fin 50000) :
    val_main_v144 (F := Ideal) x2 x3 (ix1 i) = Cert.Spec.cnt (fun e => (x2 (ix2 (1 : Fin 2) e)).toInt) (fun e => Cert.Spec.maskOf 0#32 (x3 (ix1 e))) i := by
  unfold val_main_v144 Cert.Spec.cnt
  rw [scatterAdd_eq]
  unfold scatter_S50000_S800000x1_S800000_n_0_0_1
  rw [Cert.LibGS.scatterAdd_vec_apply]
  exact seg_congr (by rw [val_main_v142_apply, val_main_cst_26_apply]; exact zero_eq)
    (fun e => by rw [dstb0_apply]) (fun e => mask0_apply x3 e)

/-- The count clipped below at one, laid along the rows. -/
theorem clip0_apply (i : Fin 50000) (j : Fin 160) :
    val_main_v148 (F := Ideal) x2 x3 (ix2 i j) = Cert.Spec.cnt1 (fun e => (x2 (ix2 (1 : Fin 2) e)).toInt) (fun e => Cert.Spec.maskOf 0#32 (x3 (ix1 e))) i := by
  have h : idx_main_v147 (idx_main_v148 (ix2 i j)) = ix1 i :=
    funext fun a => Fin.ext (by match a with | ⟨0, _⟩ => rfl)
  unfold Cert.Spec.cnt1
  rw [val_main_v148_apply, val_main_v147_apply, h, val_main_v146_apply, cnt0_apply, val_main_v145_apply, val_main_cst_27_apply,
    Ideal.maximumf_def]
  exact congrArg _ one_eq

/-- The relation's term: the segment sum over the clipped count. -/
theorem rel0_apply (i : Fin 50000) (j : Fin 160) :
    val_main_v149 (F := Ideal) x0 x2 x3 x4 x5 x6 x7 x8 x9 x10 x11 x12 x13 x14 x15 x16 x17 x18 x19 x20 x21 x22 x23 (ix2 i j)
      = Cert.Spec.msgR (fun e => Cert.Spec.rowOf (x2 (ix2 (0 : Fin 2) e))) (fun e => (x2 (ix2 (1 : Fin 2) e)).toInt) (fun i k => val_main_v118 (F := Ideal) x0 x2 x3 x4 x5 x6 x7 x8 x9 x10 x11 x12 x13 x14 x15 x16 x17 x18 x19 x20 x21 x22 (ix2 i k)) (fun k q => x23 (ix3 (0 : Fin 2) k q)) (fun e => Cert.Spec.maskOf 0#32 (x3 (ix1 e))) i j := by
  unfold Cert.Spec.msgR
  rw [val_main_v149_apply, seg0_apply, clip0_apply, Ideal.hostDivf_def]

/-! ### Relation 1: operations %151 … %177 -/

/-- The relation mask of an edge, as the program computes it: the comparison with 1 converted to a float. -/
theorem mask1_apply (e : Fin 800000) :
    val_main_v153 (F := Ideal) x3 (ix1 e) = Cert.Spec.maskOf 1#32 (x3 (ix1 e)) := by
  rw [val_main_v153_apply, val_main_v152_apply, val_main_v151_apply, val_main_c_28_apply]
  exact mask_eq _ _

/-- The relation's matrix: the slice of the stacked matrices at 1, reshaped. -/
theorem wrel1_apply (k q : Fin 160) :
    val_main_v155 (F := Ideal) x23 (ix2 k q) = x23 (ix3 (1 : Fin 2) k q) := by
  have hk := k.isLt
  have hq := q.isLt
  have h : idx_main_v154 (idx_main_v155 (ix2 k q)) = ix3 (1 : Fin 2) k q :=
    funext fun a => Fin.ext (by
      match a with
      | ⟨0, _⟩ => rfl
      | ⟨1, _⟩ => show (k.val * 160 + q.val) / 160 % 160 = k.val; omega
      | ⟨2, _⟩ => show (k.val * 160 + q.val) % 160 = q.val; omega)
  rw [val_main_v155_apply, val_main_v154_apply, h]

theorem lidx1_eq (i : Fin 50000) (j k : Fin 160) : lidx_main_v156 (ix2 i j) k = ix2 i k :=
  funext fun a => Fin.ext (by match a with | ⟨0, _⟩ => rfl | ⟨1, _⟩ => rfl)
theorem ridx1_eq (i : Fin 50000) (j k : Fin 160) : ridx_main_v156 (ix2 i j) k = ix2 k j :=
  funext fun a => Fin.ext (by match a with | ⟨0, _⟩ => rfl | ⟨1, _⟩ => rfl)

/-- The transformed table: every node's row times the relation's matrix. -/
theorem tab1_apply (n : Fin 50000) (j : Fin 160) :
    val_main_v156 (F := Ideal) x0 x2 x3 x4 x5 x6 x7 x8 x9 x10 x11 x12 x13 x14 x15 x16 x17 x18 x19 x20 x21 x22 x23 (ix2 n j)
      = Cert.Spec.dot (fun k => val_main_v118 (F := Ideal) x0 x2 x3 x4 x5 x6 x7 x8 x9 x10 x11 x12 x13 x14 x15 x16 x17 x18 x19 x20 x21 x22 (ix2 n k)) (fun k q => x23 (ix3 (1 : Fin 2) k q)) j := by
  unfold Cert.Spec.dot
  rw [val_main_v156_apply]
  simp only [lidx1_eq, ridx1_eq, wrel1_apply]

/-- The source word after the lookup's own index handling: shifted by 50000 where negative. -/
theorem srcn1_apply (e : Fin 800000) :
    val_main_v162 (F := Ideal) x2 (ix2 e (0 : Fin 1))
      = (if (x2 (ix2 (0 : Fin 2) e)).toInt < 0 then x2 (ix2 (0 : Fin 2) e) + 50000#32 else x2 (ix2 (0 : Fin 2) e)) := by
  have h : idx_main_v162 (ix2 e (0 : Fin 1)) = ix1 e :=
    funext fun a => Fin.ext (by match a with | ⟨0, _⟩ => rfl)
  rw [val_main_v162_apply, h, val_main_v161_apply, val_main_v158_apply, val_main_v160_apply, val_main_v157_apply, val_main_v159_apply,
    val_main_c_29_apply, val_main_c_30_apply, src_apply]
  exact srcNorm_eq _

/-- The lookup: edge `e` reads the transformed row of its source node. -/
theorem gath1_apply (e : Fin 800000) (j : Fin 160) :
    val_main_v163 (F := Ideal) x0 x2 x3 x4 x5 x6 x7 x8 x9 x10 x11 x12 x13 x14 x15 x16 x17 x18 x19 x20 x21 x22 x23 (ix2 e j)
      = val_main_v156 (F := Ideal) x0 x2 x3 x4 x5 x6 x7 x8 x9 x10 x11 x12 x13 x14 x15 x16 x17 x18 x19 x20 x21 x22 x23 (ix2 (Cert.Spec.rowOf (x2 (ix2 (0 : Fin 2) e))) j) := by
  unfold val_main_v163 gather_S50000x160_S800000x1_S800000x160_1_0_n_n_0_1_1160
  rw [Cert.LibGS.gather_rows_apply (by norm_num)]
  refine congrArg _ ?_
  refine congrArg (fun n : Fin 50000 => ix2 n j) ?_
  refine Fin.ext ?_
  show min (val_main_v162 (F := Ideal) x2 (ix2 e (0 : Fin 1))).toInt.toNat (50000 - 1) = _
  rw [srcn1_apply]
  rfl

/-- The mask laid along the rows. -/
theorem maskb1_apply (e : Fin 800000) (j : Fin 160) :
    val_main_v165 (F := Ideal) x3 (ix2 e j) = Cert.Spec.maskOf 1#32 (x3 (ix1 e)) := by
  have h : idx_main_v164 (idx_main_v165 (ix2 e j)) = ix1 e :=
    funext fun a => Fin.ext (by match a with | ⟨0, _⟩ => rfl)
  rw [val_main_v165_apply, val_main_v164_apply, h, mask1_apply]

/-- The masked message of edge `e`. -/
theorem msg1_apply (e : Fin 800000) (j : Fin 160) :
    val_main_v166 (F := Ideal) x0 x2 x3 x4 x5 x6 x7 x8 x9 x10 x11 x12 x13 x14 x15 x16 x17 x18 x19 x20 x21 x22 x23 (ix2 e j)
      = Cert.Spec.dot (fun k => val_main_v118 (F := Ideal) x0 x2 x3 x4 x5 x6 x7 x8 x9 x10 x11 x12 x13 x14 x15 x16 x17 x18 x19 x20 x21 x22 (ix2 (Cert.Spec.rowOf (x2 (ix2 (0 : Fin 2) e))) k)) (fun k q => x23 (ix3 (1 : Fin 2) k q)) j
        * Cert.Spec.maskOf 1#32 (x3 (ix1 e)) := by
  rw [val_main_v166_apply, gath1_apply, tab1_apply, maskb1_apply, Ideal.mulf_def]

/-- The destination word of edge `e`, as the row segment sum's index. -/
theorem dsta1_apply (e : Fin 800000) :
    val_main_v168 (F := Ideal) x2 (ix2 e (0 : Fin 1)) = x2 (ix2 (1 : Fin 2) e) := by
  have h : idx_main_v168 (ix2 e (0 : Fin 1)) = ix1 e :=
    funext fun a => Fin.ext (by match a with | ⟨0, _⟩ => rfl)
  rw [val_main_v168_apply, h, dst_apply]

/-- The same, as the count's index. -/
theorem dstb1_apply (e : Fin 800000) :
    val_main_v171 (F := Ideal) x2 (ix2 e (0 : Fin 1)) = x2 (ix2 (1 : Fin 2) e) := by
  have h : idx_main_v171 (ix2 e (0 : Fin 1)) = ix1 e :=
    funext fun a => Fin.ext (by match a with | ⟨0, _⟩ => rfl)
  rw [val_main_v171_apply, h, dst_apply]

/-- The segment sum of the masked messages by destination. -/
theorem seg1_apply (i : Fin 50000) (j : Fin 160) :
    val_main_v169 (F := Ideal) x0 x2 x3 x4 x5 x6 x7 x8 x9 x10 x11 x12 x13 x14 x15 x16 x17 x18 x19 x20 x21 x22 x23 (ix2 i j)
      = Cert.Spec.zeroE + ∑ e ∈ Finset.univ.filter (fun e : Fin 800000 => (x2 (ix2 (1 : Fin 2) e)).toInt = (i.val : ℤ)),
          Cert.Spec.dot (fun k => val_main_v118 (F := Ideal) x0 x2 x3 x4 x5 x6 x7 x8 x9 x10 x11 x12 x13 x14 x15 x16 x17 x18 x19 x20 x21 x22 (ix2 (Cert.Spec.rowOf (x2 (ix2 (0 : Fin 2) e))) k)) (fun k q => x23 (ix3 (1 : Fin 2) k q)) j
            * Cert.Spec.maskOf 1#32 (x3 (ix1 e)) := by
  unfold val_main_v169
  rw [scatterAdd_eq]
  unfold scatter_S50000x160_S800000x1_S800000x160_1_0_0_1
  rw [Cert.LibGS.scatterAdd_rows_apply]
  exact seg_congr (by rw [val_main_v167_apply, val_main_cst_31_apply]; exact zero_eq)
    (fun e => by rw [dsta1_apply]) (fun e => msg1_apply x0 x2 x3 x4 x5 x6 x7 x8 x9 x10 x11 x12 x13 x14 x15 x16 x17 x18 x19 x20 x21 x22 x23 e j)

/-- The count of the relation's edges arriving at a node. -/
theorem cnt1_apply (i : Fin 50000) :
    val_main_v172 (F := Ideal) x2 x3 (ix1 i) = Cert.Spec.cnt (fun e => (x2 (ix2 (1 : Fin 2) e)).toInt) (fun e => Cert.Spec.maskOf 1#32 (x3 (ix1 e))) i := by
  unfold val_main_v172 Cert.Spec.cnt
  rw [scatterAdd_eq]
  unfold scatter_S50000_S800000x1_S800000_n_0_0_1
  rw [Cert.LibGS.scatterAdd_vec_apply]
  exact seg_congr (by rw [val_main_v170_apply, val_main_cst_32_apply]; exact zero_eq)
    (fun e => by rw [dstb1_apply]) (fun e => mask1_apply x3 e)

/-- The count clipped below at one, laid along the rows. -/
theorem clip1_apply (i : Fin 50000) (j : Fin 160) :
    val_main_v176 (F := Ideal) x2 x3 (ix2 i j) = Cert.Spec.cnt1 (fun e => (x2 (ix2 (1 : Fin 2) e)).toInt) (fun e => Cert.Spec.maskOf 1#32 (x3 (ix1 e))) i := by
  have h : idx_main_v175 (idx_main_v176 (ix2 i j)) = ix1 i :=
    funext fun a => Fin.ext (by match a with | ⟨0, _⟩ => rfl)
  unfold Cert.Spec.cnt1
  rw [val_main_v176_apply, val_main_v175_apply, h, val_main_v174_apply, cnt1_apply, val_main_v173_apply, val_main_cst_33_apply,
    Ideal.maximumf_def]
  exact congrArg _ one_eq

/-- The relation's term: the segment sum over the clipped count. -/
theorem rel1_apply (i : Fin 50000) (j : Fin 160) :
    val_main_v177 (F := Ideal) x0 x2 x3 x4 x5 x6 x7 x8 x9 x10 x11 x12 x13 x14 x15 x16 x17 x18 x19 x20 x21 x22 x23 (ix2 i j)
      = Cert.Spec.msgR (fun e => Cert.Spec.rowOf (x2 (ix2 (0 : Fin 2) e))) (fun e => (x2 (ix2 (1 : Fin 2) e)).toInt) (fun i k => val_main_v118 (F := Ideal) x0 x2 x3 x4 x5 x6 x7 x8 x9 x10 x11 x12 x13 x14 x15 x16 x17 x18 x19 x20 x21 x22 (ix2 i k)) (fun k q => x23 (ix3 (1 : Fin 2) k q)) (fun e => Cert.Spec.maskOf 1#32 (x3 (ix1 e))) i j := by
  unfold Cert.Spec.msgR
  rw [val_main_v177_apply, seg1_apply, clip1_apply, Ideal.hostDivf_def]

end

end L2

section
variable (x0 : (⟨S50000x768, .f32⟩ : BufTy).Contents (Elt Ideal)) (x2 : (⟨S2x800000, .i32⟩ : BufTy).Contents (Elt Ideal)) (x3 : (⟨S800000, .i32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (x20 : (⟨S2x160x160, .f32⟩ : BufTy).Contents (Elt Ideal)) (x21 : (⟨S160x160, .f32⟩ : BufTy).Contents (Elt Ideal)) (x22 : (⟨S160, .f32⟩ : BufTy).Contents (Elt Ideal)) (x23 : (⟨S2x160x160, .f32⟩ : BufTy).Contents (Elt Ideal)) (x24 : (⟨S160x160, .f32⟩ : BufTy).Contents (Elt Ideal)) (x25 : (⟨S160, .f32⟩ : BufTy).Contents (Elt Ideal)) (x26 : (⟨S160x80, .f32⟩ : BufTy).Contents (Elt Ideal)) (x27 : (⟨S80, .f32⟩ : BufTy).Contents (Elt Ideal)) (x28 : (⟨S80x2, .f32⟩ : BufTy).Contents (Elt Ideal)) (x29 : (⟨S2, .f32⟩ : BufTy).Contents (Elt Ideal))

/-- THE SECOND GRAPH LAYER (operations %119 … %178) is the transform-first layer of the first layer's output. -/
theorem layer2_apply (i : Fin 50000) (j : Fin 160) :
    val_main_v178 (F := Ideal) x0 x2 x3 x4 x5 x6 x7 x8 x9 x10 x11 x12 x13 x14 x15 x16 x17 x18 x19 x20 x21 x22 x23 x24 x25 (ix2 i j)
      = Cert.Spec.layerR (fun e => Cert.Spec.rowOf (x2 (ix2 (0 : Fin 2) e))) (fun e => (x2 (ix2 (1 : Fin 2) e)).toInt)
          (fun e => Cert.Spec.maskOf 0#32 (x3 (ix1 e))) (fun e => Cert.Spec.maskOf 1#32 (x3 (ix1 e)))
          (fun i k => val_main_v118 (F := Ideal) x0 x2 x3 x4 x5 x6 x7 x8 x9 x10 x11 x12 x13 x14 x15 x16 x17 x18 x19 x20 x21 x22 (ix2 i k))
          (fun k q => x24 (ix2 k q)) (fun q => x25 (ix1 q)) (fun k q => x23 (ix3 (0 : Fin 2) k q)) (fun k q => x23 (ix3 (1 : Fin 2) k q)) i j := by
  unfold Cert.Spec.layerR
  rw [val_main_v178_apply, val_main_v150_apply, L2.root_apply, L2.rel0_apply, L2.rel1_apply, Ideal.addf_def, Ideal.addf_def]

end

namespace Head

section
variable (x0 : (⟨S50000x768, .f32⟩ : BufTy).Contents (Elt Ideal)) (x2 : (⟨S2x800000, .i32⟩ : BufTy).Contents (Elt Ideal)) (x3 : (⟨S800000, .i32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (x20 : (⟨S2x160x160, .f32⟩ : BufTy).Contents (Elt Ideal)) (x21 : (⟨S160x160, .f32⟩ : BufTy).Contents (Elt Ideal)) (x22 : (⟨S160, .f32⟩ : BufTy).Contents (Elt Ideal)) (x23 : (⟨S2x160x160, .f32⟩ : BufTy).Contents (Elt Ideal)) (x24 : (⟨S160x160, .f32⟩ : BufTy).Contents (Elt Ideal)) (x25 : (⟨S160, .f32⟩ : BufTy).Contents (Elt Ideal)) (x26 : (⟨S160x80, .f32⟩ : BufTy).Contents (Elt Ideal)) (x27 : (⟨S80, .f32⟩ : BufTy).Contents (Elt Ideal)) (x28 : (⟨S80x2, .f32⟩ : BufTy).Contents (Elt Ideal)) (x29 : (⟨S2, .f32⟩ : BufTy).Contents (Elt Ideal))

/-! ## The head: operations %179 … %191 -/

theorem lidx1_eq (i : Fin 50000) (q : Fin 80) (k : Fin 160) : lidx_main_v179 (ix2 i q) k = ix2 i k :=
  funext fun a => Fin.ext (by match a with | ⟨0, _⟩ => rfl | ⟨1, _⟩ => rfl)
theorem ridx1_eq (i : Fin 50000) (q : Fin 80) (k : Fin 160) : ridx_main_v179 (ix2 i q) k = ix2 k q :=
  funext fun a => Fin.ext (by match a with | ⟨0, _⟩ => rfl | ⟨1, _⟩ => rfl)
theorem bias1_eq (i : Fin 50000) (q : Fin 80) : idx_main_v180 (idx_main_v181 (ix2 i q)) = ix1 q :=
  funext fun a => Fin.ext (by match a with | ⟨0, _⟩ => rfl)
theorem lidx2_eq (i : Fin 50000) (q : Fin 2) (k : Fin 80) : lidx_main_v188 (ix2 i q) k = ix2 i k :=
  funext fun a => Fin.ext (by match a with | ⟨0, _⟩ => rfl | ⟨1, _⟩ => rfl)
theorem ridx2_eq (i : Fin 50000) (q : Fin 2) (k : Fin 80) : ridx_main_v188 (ix2 i q) k = ix2 k q :=
  funext fun a => Fin.ext (by match a with | ⟨0, _⟩ => rfl | ⟨1, _⟩ => rfl)
theorem bias2_eq (i : Fin 50000) (q : Fin 2) : idx_main_v189 (idx_main_v190 (ix2 i q)) = ix1 q :=
  funext fun a => Fin.ext (by match a with | ⟨0, _⟩ => rfl)

/-- The head's first dense layer, before the rectifier. -/
theorem pre_apply (i : Fin 50000) (q : Fin 80) :
    val_main_v182 (F := Ideal) x0 x2 x3 x4 x5 x6 x7 x8 x9 x10 x11 x12 x13 x14 x15 x16 x17 x18 x19 x20 x21 x22 x23 x24 x25 x26 x27 (ix2 i q)
      = Cert.Spec.lin (fun k => val_main_v178 (F := Ideal) x0 x2 x3 x4 x5 x6 x7 x8 x9 x10 x11 x12 x13 x14 x15 x16 x17 x18 x19 x20 x21 x22 x23 x24 x25 (ix2 i k)) (fun k q => x26 (ix2 k q)) (fun q => x27 (ix1 q)) q := by
  unfold Cert.Spec.lin Cert.Spec.dot
  rw [val_main_v182_apply, val_main_v179_apply, val_main_v181_apply, val_main_v180_apply, bias1_eq, Ideal.addf_def]
  simp only [lidx1_eq, ridx1_eq]

end

end Head

section
variable (x0 : (⟨S50000x768, .f32⟩ : BufTy).Contents (Elt Ideal)) (x2 : (⟨S2x800000, .i32⟩ : BufTy).Contents (Elt Ideal)) (x3 : (⟨S800000, .i32⟩ : BufTy).Contents (Elt Ideal)) (x4 : (⟨S50000x6, .f32⟩ : BufTy).Contents (Elt Ideal)) (x5 : (⟨S50000x11, .f32⟩ : BufTy).Contents (Elt Ideal)) (x6 x7 : (⟨S50000x768, .f32⟩ : BufTy).Contents (Elt Ideal)) (x8 : (⟨S6x32, .f32⟩ : BufTy).Contents (Elt Ideal)) (x9 : (⟨S32, .f32⟩ : BufTy).Contents (Elt Ideal)) (x10 : (⟨S11x32, .f32⟩ : BufTy).Contents (Elt Ideal)) (x11 : (⟨S32, .f32⟩ : BufTy).Contents (Elt Ideal)) (x12 : (⟨S768x32, .f32⟩ : BufTy).Contents (Elt Ideal)) (x13 : (⟨S32, .f32⟩ : BufTy).Contents (Elt Ideal)) (x14 : (⟨S768x32, .f32⟩ : BufTy).Contents (Elt Ideal)) (x15 : (⟨S32, .f32⟩ : BufTy).Contents (Elt Ideal)) (x16 : (⟨S768x32, .f32⟩ : BufTy).Contents (Elt Ideal)) (x17 : (⟨S32, .f32⟩ : BufTy).Contents (Elt Ideal)) (x18 : (⟨S160x160, .f32⟩ : BufTy).Contents (Elt Ideal)) (x19 : (⟨S160, .f32⟩ : BufTy).Contents (Elt Ideal)) (x20 : (⟨S2x160x160, .f32⟩ : BufTy).Contents (Elt Ideal)) (x21 : (⟨S160x160, .f32⟩ : BufTy).Contents (Elt Ideal)) (x22 : (⟨S160, .f32⟩ : BufTy).Contents (Elt Ideal)) (x23 : (⟨S2x160x160, .f32⟩ : BufTy).Contents (Elt Ideal)) (x24 : (⟨S160x160, .f32⟩ : BufTy).Contents (Elt Ideal)) (x25 : (⟨S160, .f32⟩ : BufTy).Contents (Elt Ideal)) (x26 : (⟨S160x80, .f32⟩ : BufTy).Contents (Elt Ideal)) (x27 : (⟨S80, .f32⟩ : BufTy).Contents (Elt Ideal)) (x28 : (⟨S80x2, .f32⟩ : BufTy).Contents (Elt Ideal)) (x29 : (⟨S2, .f32⟩ : BufTy).Contents (Elt Ideal))

/-- THE HEAD'S HIDDEN ROW (operations %179 … %187): a dense layer and the rectifier on the second layer's output. -/
theorem head_em_apply (i : Fin 50000) (q : Fin 80) :
    val_main_v187 (F := Ideal) x0 x2 x3 x4 x5 x6 x7 x8 x9 x10 x11 x12 x13 x14 x15 x16 x17 x18 x19 x20 x21 x22 x23 x24 x25 x26 x27 (ix2 i q)
      = Cert.Spec.headEm (fun k => val_main_v178 (F := Ideal) x0 x2 x3 x4 x5 x6 x7 x8 x9 x10 x11 x12 x13 x14 x15 x16 x17 x18 x19 x20 x21 x22 x23 x24 x25 (ix2 i k)) (fun k q => x26 (ix2 k q)) (fun q => x27 (ix1 q)) q := by
  unfold Cert.Spec.headEm Cert.Spec.lrelu
  rw [val_main_v187_apply, val_main_v184_apply, val_main_v186_apply, val_main_v183_apply, val_main_v185_apply,
    val_main_cst_34_apply, val_main_cst_35_apply, Head.pre_apply, Ideal.mulf_def, L2.zero_eq, L2.slope_eq]

/-- THE HEAD'S OUTPUT ROW (operations %188 … %191): a dense layer on the hidden row. -/
theorem head_out_apply (i : Fin 50000) (q : Fin 2) :
    val_main_v191 (F := Ideal) x0 x2 x3 x4 x5 x6 x7 x8 x9 x10 x11 x12 x13 x14 x15 x16 x17 x18 x19 x20 x21 x22 x23 x24 x25 x26 x27 x28 x29 (ix2 i q)
      = Cert.Spec.headOut (fun k => val_main_v178 (F := Ideal) x0 x2 x3 x4 x5 x6 x7 x8 x9 x10 x11 x12 x13 x14 x15 x16 x17 x18 x19 x20 x21 x22 x23 x24 x25 (ix2 i k)) (fun k q => x26 (ix2 k q)) (fun q => x27 (ix1 q))
          (fun k q => x28 (ix2 k q)) (fun q => x29 (ix1 q)) q := by
  unfold Cert.Spec.headOut Cert.Spec.lin Cert.Spec.dot
  rw [val_main_v191_apply, val_main_v188_apply, val_main_v190_apply, val_main_v189_apply, Head.bias2_eq, Ideal.addf_def]
  simp only [Head.lidx2_eq, Head.ridx2_eq, head_em_apply]

end

end Cert.ReferenceIdeal.RefValue

end
-- ==== Proof.ArgsR.lean ====
/-
  The arguments of `ReferenceIdeal`'s @main on one core, read off a launch memory as the index functions of `Spec.Args`:
  matrices by row and column, biases by entry, the edge list's two rows and the relation words by edge.
-/
import proofs.«426156_j28432683499969_3_alg».proof.ReferenceIdeal
import proofs.«426156_j28432683499969_3_alg».proof.Proof.Whole

noncomputable section

namespace Cert.ReferenceIdeal

open Idealize.ShloMosaic Idealize.ShloMosaic.ValueIdx Idealize.SL.Sem

/-- The argument arrays of core `c` in the memory `m`, as `Spec.Args`. -/
def argsOf (m : (ℓ : Loc nD τ sig) → Buf (Elt Ideal) ℓ) (c : Dev nD) : Cert.Spec.Args where
  preX := fun i k => m ((c.tc : Thread nD τ).loc main_arg0) (ix2 i k)
  des := fun i k => m ((c.tc : Thread nD τ).loc main_arg6) (ix2 i k)
  tw := fun i k => m ((c.tc : Thread nD τ).loc main_arg7) (ix2 i k)
  np := fun i k => m ((c.tc : Thread nD τ).loc main_arg4) (ix2 i k)
  nc := fun i k => m ((c.tc : Thread nD τ).loc main_arg5) (ix2 i k)
  src := fun e => m ((c.tc : Thread nD τ).loc main_arg2) (ix2 (0 : Fin 2) e)
  dst := fun e => m ((c.tc : Thread nD τ).loc main_arg2) (ix2 (1 : Fin 2) e)
  ty := fun e => m ((c.tc : Thread nD τ).loc main_arg3) (ix1 e)
  Wnp := fun k q => m ((c.tc : Thread nD τ).loc main_arg8) (ix2 k q)
  bnp := fun q => m ((c.tc : Thread nD τ).loc main_arg9) (ix1 q)
  Wnc := fun k q => m ((c.tc : Thread nD τ).loc main_arg10) (ix2 k q)
  bnc := fun q => m ((c.tc : Thread nD τ).loc main_arg11) (ix1 q)
  Wdes := fun k q => m ((c.tc : Thread nD τ).loc main_arg12) (ix2 k q)
  bdes := fun q => m ((c.tc : Thread nD τ).loc main_arg13) (ix1 q)
  Wtext := fun k q => m ((c.tc : Thread nD τ).loc main_arg14) (ix2 k q)
  btext := fun q => m ((c.tc : Thread nD τ).loc main_arg15) (ix1 q)
  Wtweet := fun k q => m ((c.tc : Thread nD τ).loc main_arg16) (ix2 k q)
  btweet := fun q => m ((c.tc : Thread nD τ).loc main_arg17) (ix1 q)
  Win := fun k q => m ((c.tc : Thread nD τ).loc main_arg18) (ix2 k q)
  bin := fun q => m ((c.tc : Thread nD τ).loc main_arg19) (ix1 q)
  Wrel1 := fun r k q => m ((c.tc : Thread nD τ).loc main_arg20) (ix3 r k q)
  Wroot1 := fun k q => m ((c.tc : Thread nD τ).loc main_arg21) (ix2 k q)
  bconv1 := fun q => m ((c.tc : Thread nD τ).loc main_arg22) (ix1 q)
  Wrel2 := fun r k q => m ((c.tc : Thread nD τ).loc main_arg23) (ix3 r k q)
  Wroot2 := fun k q => m ((c.tc : Thread nD τ).loc main_arg24) (ix2 k q)
  bconv2 := fun q => m ((c.tc : Thread nD τ).loc main_arg25) (ix1 q)
  Wo1 := fun k q => m ((c.tc : Thread nD τ).loc main_arg26) (ix2 k q)
  bo1 := fun q => m ((c.tc : Thread nD τ).loc main_arg27) (ix1 q)
  Wo2 := fun k q => m ((c.tc : Thread nD τ).loc main_arg28) (ix2 k q)
  bo2 := fun q => m ((c.tc : Thread nD τ).loc main_arg29) (ix1 q)

end Cert.ReferenceIdeal

end
-- ==== Proof.RValue.lean ====
/-
  The reference program's value: every weakly fair run ends with the two result arrays at the transform-first
  arrangement of `Spec.Args` (`outR`, `emR`) of the launch arguments, the arguments unchanged.  The run leaves
  each result at its stage function of the argument arrays; the stage functions are read back layer by layer — the
  encoder, the two graph layers, the head — into the index-level mathematics of the arguments.
-/
import proofs.«426156_j28432683499969_3_alg».proof.Proof.RefEnc
import proofs.«426156_j28432683499969_3_alg».proof.Proof.RefLayer1
import proofs.«426156_j28432683499969_3_alg».proof.Proof.RefLayer2
import proofs.«426156_j28432683499969_3_alg».proof.Proof.ArgsR
import proofs.«426156_j28432683499969_3_alg».proof.Proof.RefRunP

noncomputable section

namespace Cert.ReferenceIdeal.RefValue

open Idealize.ShloMosaic Idealize.ShloMosaic.ValueIdx Idealize.SL.Sem Cert.ReferenceIdeal

section
variable (m : (ℓ : Loc nD τ sig) → Buf (Elt Ideal) ℓ) (c : Dev nD)

/-- The encoder's output is the encoded node features of the arguments. -/
theorem h0_eq :
    (fun (i : Fin 50000) (k : Fin 160) => Read.val_main_v54 (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (ix2 i k))
      = (argsOf m c).h0 := by
  funext i k
  rw [enc_apply]
  rfl

/-- The first graph layer's output. -/
theorem h1_eq :
    (fun (i : Fin 50000) (k : Fin 160) => Read.val_main_v118 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (ix2 i k))
      = (argsOf m c).h1R := by
  funext i k
  rw [layer1_apply, h0_eq m c]
  rfl

/-- The second graph layer's output. -/
theorem h2_eq :
    (fun (i : Fin 50000) (k : Fin 160) => Read.val_main_v178 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (ix2 i k))
      = (argsOf m c).h2R := by
  funext i k
  rw [layer2_apply, h1_eq m c]
  rfl

/-- The head's hidden rows. -/
theorem em_eq :
    Read.val_main_v187 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      = (fun j => (argsOf m c).emR (j 0) (j 1)) := by
  funext j
  obtain ⟨i, q, rfl⟩ : ∃ i q, j = ix2 i q := ⟨j 0, j 1, eq_ix2 j⟩
  have h2 : (fun k => Read.val_main_v178 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (ix2 i k)) = (argsOf m c).h2R i :=
    congrFun (h2_eq m c) i
  rw [head_em_apply, h2]
  rfl

/-- The head's output rows. -/
theorem out_eq :
    Read.val_main_v191 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      = (fun j => (argsOf m c).outR (j 0) (j 1)) := by
  funext j
  obtain ⟨i, q, rfl⟩ : ∃ i q, j = ix2 i q := ⟨j 0, j 1, eq_ix2 j⟩
  have h2 : (fun k => Read.val_main_v178 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (ix2 i k)) = (argsOf m c).h2R i :=
    congrFun (h2_eq m c) i
  rw [head_out_apply, h2]
  rfl

end

/-- THE REFERENCE'S VALUE: every weakly fair run of @main ends with the output array at `outR` and the hidden array
    at `emR` of the launch arguments, every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v191) = (fun j => (argsOf m c).outR (j 0) (j 1))
      ∧ r.2.mem ((c.tc : Thread nD τ).loc main_v187) = (fun j => (argsOf m c).emR (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono
    (fun _ h c => ⟨(h c).1.trans (out_eq m c), (h c).2.1.trans (em_eq m c), (h c).2.2⟩)
    (Cert.ReferenceIdeal.RunP.run m ρ)

end Cert.ReferenceIdeal.RefValue

end
-- ==== Proof.Bridge.lean ====
/-
  The two arrangements of the relational graph layer agree on real-valued data.

  Every float argument is an extended real that is a real number.  The dense layers, the leaky rectifier, the
  side-by-side concatenation and hence the encoder keep such inputs real; the neighbour count is a real number
  that is at least one after clipping, so dividing by it is multiplying by a real reciprocal.  For real features
  `h`, a real matrix `W`, a relation `r` and a node `i`, with `c` the clipped count,

      ∑ₖ ((∑_{e : key e = r · 50000 + i} h (row e) k) · (1 / c)) · W k j
        = (∑_{e : dst e = i} (∑ₖ h (row e) k · W k j) · mask_r e) / c,

  because the combined key `relation · 50000 + destination` (no 32-bit wrap-around, the destination being below
  50000 and the relation 0 or 1) equals `r · 50000 + i` exactly on the edges into `i` of relation `r`, where the
  0 / 1 mask is one, and the rest is exchanging two finite sums and distributing a product over them in ℝ.
  Hence the two layers agree on the encoded features, the first layer's output is real, the two layers agree on
  it again, and the heads, being the same function of the second layer's output, agree.
-/
import proofs.«426156_j28432683499969_3_alg».proof.Proof.Whole
import Idealize.ShloMosaic.Lib.IdealHost
import Mathlib.Data.EReal.Basic
import Mathlib.Data.EReal.Operations
import Mathlib.Algebra.BigOperators.Group.Finset.Basic
import Mathlib.Algebra.BigOperators.Group.Finset.Sigma
import Mathlib.Algebra.BigOperators.Ring.Finset
import Mathlib.Tactic.Ring
import Mathlib.Tactic.Linarith

noncomputable section

namespace Cert.Spec

open Idealize.ShloMosaic

/-! ### Real-valuedness is closed under the operations the layers use -/

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.select (c : BitVec 1) {x y : EReal} (hx : IsReal x) (hy : IsReal y) :
    IsReal (Scalar.select c x y) := by
  unfold Scalar.select
  split_ifs <;> assumption

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- Division of a real by a nonzero real is real. -/
theorem IsReal.div {x y : EReal} (hx : IsReal x) (hy : IsReal y) (h0 : y ≠ 0) : IsReal (Ideal.div x y) := by
  obtain ⟨b, rfl⟩ := hy
  have hb : b ≠ 0 := fun hb => h0 (by rw [hb]; rfl)
  rw [Ideal.div_coe hb]
  exact hx.mul (IsReal.coe _)

/-! ### The constants -/

theorem zeroE_eq : zeroE = 0 := Ideal.ofBits_zero_f32

theorem oneE_eq : oneE = 1 := Ideal.ofBits_one_f32

/-- A pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

theorem isReal_slope : IsReal slope := by
  unfold slope Ideal.ofBits
  exact isReal_ieee 8 23 _ (by decide)

theorem isReal_zeroE : IsReal zeroE := zeroE_eq ▸ IsReal.zero

theorem isReal_oneE : IsReal oneE := oneE_eq ▸ IsReal.one

/-! ### The dense layers and the encoder keep real inputs real -/

theorem isReal_lrelu {v : EReal} (hv : IsReal v) : IsReal (lrelu v) :=
  IsReal.select _ hv (isReal_slope.mul hv)

theorem isReal_dot {K M : ℕ} {x : Fin K → EReal} {W : Fin K → Fin M → EReal}
    (hx : ∀ k, IsReal (x k)) (hW : ∀ k q, IsReal (W k q)) (q : Fin M) : IsReal (dot x W q) :=
  IsReal.sum _ _ fun k _ => (hx k).mul (hW k q)

theorem isReal_lin {K M : ℕ} {x : Fin K → EReal} {W : Fin K → Fin M → EReal} {b : Fin M → EReal}
    (hx : ∀ k, IsReal (x k)) (hW : ∀ k q, IsReal (W k q)) (hb : ∀ q, IsReal (b q)) (q : Fin M) :
    IsReal (lin x W b q) :=
  (isReal_dot hx hW q).add (hb q)

theorem isReal_hcat {p : Fin 5 → Fin 32 → EReal} (hp : ∀ t q, IsReal (p t q)) (k : Fin 160) :
    IsReal (hcat p k) := hp _ _

theorem isReal_encParts {np : Fin 6 → EReal} {nc : Fin 11 → EReal} {des tw pre : Fin 768 → EReal}
    {Wnp : Fin 6 → Fin 32 → EReal} {bnp : Fin 32 → EReal} {Wnc : Fin 11 → Fin 32 → EReal} {bnc : Fin 32 → EReal}
    {Wdes : Fin 768 → Fin 32 → EReal} {bdes : Fin 32 → EReal} {Wtext : Fin 768 → Fin 32 → EReal}
    {btext : Fin 32 → EReal} {Wtweet : Fin 768 → Fin 32 → EReal} {btweet : Fin 32 → EReal}
    (hnp : ∀ k, IsReal (np k)) (hnc : ∀ k, IsReal (nc k)) (hdes : ∀ k, IsReal (des k))
    (htw : ∀ k, IsReal (tw k)) (hpre : ∀ k, IsReal (pre k))
    (hWnp : ∀ k q, IsReal (Wnp k q)) (hbnp : ∀ q, IsReal (bnp q))
    (hWnc : ∀ k q, IsReal (Wnc k q)) (hbnc : ∀ q, IsReal (bnc q))
    (hWdes : ∀ k q, IsReal (Wdes k q)) (hbdes : ∀ q, IsReal (bdes q))
    (hWtext : ∀ k q, IsReal (Wtext k q)) (hbtext : ∀ q, IsReal (btext q))
    (hWtweet : ∀ k q, IsReal (Wtweet k q)) (hbtweet : ∀ q, IsReal (btweet q))
    (t : Fin 5) (q : Fin 32) :
    IsReal (encParts np nc des tw pre Wnp bnp Wnc bnc Wdes bdes Wtext btext Wtweet btweet t q) := by
  match t with
  | ⟨0, _⟩ => exact isReal_lrelu (isReal_lin hnp hWnp hbnp q)
  | ⟨1, _⟩ => exact isReal_lrelu (isReal_lin hnc hWnc hbnc q)
  | ⟨2, _⟩ => exact isReal_lrelu (isReal_lin hdes hWdes hbdes q)
  | ⟨3, _⟩ => exact isReal_lrelu (isReal_lin htw hWtext hbtext q)
  | ⟨_ + 4, _⟩ => exact isReal_lrelu (isReal_lin hpre hWtweet hbtweet q)

theorem isReal_enc {np : Fin 6 → EReal} {nc : Fin 11 → EReal} {des tw pre : Fin 768 → EReal}
    {Wnp : Fin 6 → Fin 32 → EReal} {bnp : Fin 32 → EReal} {Wnc : Fin 11 → Fin 32 → EReal} {bnc : Fin 32 → EReal}
    {Wdes : Fin 768 → Fin 32 → EReal} {bdes : Fin 32 → EReal} {Wtext : Fin 768 → Fin 32 → EReal}
    {btext : Fin 32 → EReal} {Wtweet : Fin 768 → Fin 32 → EReal} {btweet : Fin 32 → EReal}
    {Win : Fin 160 → Fin 160 → EReal} {bin : Fin 160 → EReal}
    (hnp : ∀ k, IsReal (np k)) (hnc : ∀ k, IsReal (nc k)) (hdes : ∀ k, IsReal (des k))
    (htw : ∀ k, IsReal (tw k)) (hpre : ∀ k, IsReal (pre k))
    (hWnp : ∀ k q, IsReal (Wnp k q)) (hbnp : ∀ q, IsReal (bnp q))
    (hWnc : ∀ k q, IsReal (Wnc k q)) (hbnc : ∀ q, IsReal (bnc q))
    (hWdes : ∀ k q, IsReal (Wdes k q)) (hbdes : ∀ q, IsReal (bdes q))
    (hWtext : ∀ k q, IsReal (Wtext k q)) (hbtext : ∀ q, IsReal (btext q))
    (hWtweet : ∀ k q, IsReal (Wtweet k q)) (hbtweet : ∀ q, IsReal (btweet q))
    (hWin : ∀ k q, IsReal (Win k q)) (hbin : ∀ q, IsReal (bin q)) (q : Fin 160) :
    IsReal (enc np nc des tw pre Wnp bnp Wnc bnc Wdes bdes Wtext btext Wtweet btweet Win bin q) :=
  isReal_lrelu (isReal_lin
    (isReal_hcat (isReal_encParts hnp hnc hdes htw hpre hWnp hbnp hWnc hbnc hWdes hbdes hWtext hbtext hWtweet hbtweet))
    hWin hbin q)

/-! ### The clipped neighbour count is a real number, at least one -/

section Count

variable (dstZ : Fin 800000 → ℤ)

/-- A 0 / 1 mask: each entry is the real one or the real zero. -/
def IsMask (m : Fin 800000 → EReal) : Prop := ∀ e, m e = ((1 : ℝ) : EReal) ∨ m e = ((0 : ℝ) : EReal)

theorem IsMask.isReal {m : Fin 800000 → EReal} (hm : IsMask m) (e : Fin 800000) : IsReal (m e) := by
  rcases hm e with h | h <;> rw [h] <;> exact IsReal.coe _

theorem isReal_cnt {m : Fin 800000 → EReal} (hm : IsMask m) (i : Fin 50000) : IsReal (cnt dstZ m i) :=
  isReal_zeroE.add (IsReal.sum _ _ fun e _ => hm.isReal e)

/-- The clipped count is the coercion of a real that is at least one. -/
theorem cnt1_real {m : Fin 800000 → EReal} (hm : IsMask m) (i : Fin 50000) :
    ∃ c : ℝ, 1 ≤ c ∧ cnt1 dstZ m i = (c : EReal) := by
  obtain ⟨c, hc⟩ := isReal_cnt dstZ hm i
  refine ⟨max c 1, le_max_right _ _, ?_⟩
  rw [cnt1, hc, oneE_eq, ← EReal.coe_one]
  exact (EReal.coe_strictMono.monotone.map_max).symm

end Count

/-! ### The key identity: summing neighbour rows first and transforming after equals transforming first -/

/-- A sum weighted by the 0 / 1 indicator of `P` is the sum over the part where `P` holds. -/
theorem sum_mul_indicator {ι : Type*} (S : Finset ι) (P : ι → Prop) [DecidablePred P] (m : ι → EReal)
    (hm : ∀ e, m e = if P e then ((1 : ℝ) : EReal) else ((0 : ℝ) : EReal)) (X : ι → EReal) :
    ∑ e ∈ S, X e * m e = ∑ e ∈ S.filter P, X e := by
  rw [Finset.sum_filter]
  refine Finset.sum_congr rfl fun e _ => ?_
  rw [hm e]
  split_ifs
  · rw [EReal.coe_one, mul_one]
  · rw [EReal.coe_zero, mul_zero]

/-- Over the reals: scale the summed rows, then contract with a column, or contract each row and scale the sum. -/
theorem real_sum_scale_dot {ι : Type*} (S : Finset ι) (H : ι → Fin 160 → ℝ) (W : Fin 160 → ℝ) (d : ℝ) :
    ∑ k, ((∑ e ∈ S, H e k) * d) * W k = (∑ e ∈ S, ∑ k, H e k * W k) * d := by
  rw [Finset.sum_comm, Finset.sum_mul]
  refine Finset.sum_congr rfl fun k _ => ?_
  rw [← Finset.sum_mul]
  ring

section Key

variable (row : Fin 800000 → Fin 50000) (dstZ segZ : Fin 800000 → ℤ)

theorem isMask_of_indicator (P : Fin 800000 → Prop) [DecidablePred P] {m : Fin 800000 → EReal}
    (hm : ∀ e, m e = if P e then ((1 : ℝ) : EReal) else ((0 : ℝ) : EReal)) : IsMask m := by
  intro e
  rw [hm e]
  split_ifs
  · exact Or.inl rfl
  · exact Or.inr rfl

/-- One relation's message term: the two arrangements agree on real features and a real matrix, when the mask is
    the indicator of `P` and the combined key `r · 50000 + i` selects exactly the edges into `i` satisfying `P`. -/
theorem dot_aggK_eq_msgR (r : ℕ) (P : Fin 800000 → Prop) [DecidablePred P] {m : Fin 800000 → EReal}
    (hm : ∀ e, m e = if P e then ((1 : ℝ) : EReal) else ((0 : ℝ) : EReal))
    (hseg : ∀ (e : Fin 800000) (i : Fin 50000),
      segZ e = ((r * 50000 + i.val : ℕ) : ℤ) ↔ (dstZ e = (i.val : ℤ) ∧ P e))
    {h : Fin 50000 → Fin 160 → EReal} {W : Fin 160 → Fin 160 → EReal}
    (hh : ∀ i k, IsReal (h i k)) (hW : ∀ k j, IsReal (W k j)) (i : Fin 50000) (j : Fin 160) :
    dot (aggK row dstZ segZ h r m i) W j = msgR row dstZ h W m i j := by
  obtain ⟨c, hc1, hc⟩ := cnt1_real dstZ (isMask_of_indicator P hm) i
  have hc0 : c ≠ 0 := by linarith
  choose h' hh' using hh
  choose W' hW' using hW
  have hS : Finset.univ.filter (fun e => segZ e = ((r * 50000 + i.val : ℕ) : ℤ))
      = (Finset.univ.filter (fun e => dstZ e = (i.val : ℤ))).filter P := by
    rw [Finset.filter_filter]
    exact Finset.filter_congr fun e _ => hseg e i
  have hX := sum_mul_indicator (Finset.univ.filter (fun e => dstZ e = (i.val : ℤ))) P m hm
    (fun e => dot (h (row e)) W j)
  unfold aggK msgR
  rw [hc, Ideal.div_coe hc0, Ideal.div_coe hc0, hS, hX, zeroE_eq, oneE_eq]
  unfold dot
  simp only [hh', hW', zero_add, one_mul]
  simp only [← EReal.coe_mul, ← coe_finset_sum]
  exact congrArg _ (real_sum_scale_dot _ (fun e k => h' (row e) k) (fun k => W' k j) (1 / c))

/-- The two layers agree on real features and real relation matrices. -/
theorem layerK_eq_layerR (P0 P1 : Fin 800000 → Prop) [DecidablePred P0] [DecidablePred P1]
    {m0 m1 : Fin 800000 → EReal}
    (hm0 : ∀ e, m0 e = if P0 e then ((1 : ℝ) : EReal) else ((0 : ℝ) : EReal))
    (hm1 : ∀ e, m1 e = if P1 e then ((1 : ℝ) : EReal) else ((0 : ℝ) : EReal))
    (hseg0 : ∀ (e : Fin 800000) (i : Fin 50000),
      segZ e = ((0 * 50000 + i.val : ℕ) : ℤ) ↔ (dstZ e = (i.val : ℤ) ∧ P0 e))
    (hseg1 : ∀ (e : Fin 800000) (i : Fin 50000),
      segZ e = ((1 * 50000 + i.val : ℕ) : ℤ) ↔ (dstZ e = (i.val : ℤ) ∧ P1 e))
    {h : Fin 50000 → Fin 160 → EReal} (Wroot : Fin 160 → Fin 160 → EReal) (b : Fin 160 → EReal)
    {W0 W1 : Fin 160 → Fin 160 → EReal}
    (hh : ∀ i k, IsReal (h i k)) (hW0 : ∀ k j, IsReal (W0 k j)) (hW1 : ∀ k j, IsReal (W1 k j)) :
    layerK row dstZ segZ m0 m1 h Wroot b W0 W1 = layerR row dstZ m0 m1 h Wroot b W0 W1 := by
  funext i j
  unfold layerK layerR
  rw [dot_aggK_eq_msgR row dstZ segZ 0 P0 hm0 hseg0 hh hW0 i j,
    dot_aggK_eq_msgR row dstZ segZ 1 P1 hm1 hseg1 hh hW1 i j]

/-- One relation's message term of the transform-first layer is real. -/
theorem isReal_msgR {m : Fin 800000 → EReal} (hm : IsMask m)
    {h : Fin 50000 → Fin 160 → EReal} {W : Fin 160 → Fin 160 → EReal}
    (hh : ∀ i k, IsReal (h i k)) (hW : ∀ k j, IsReal (W k j)) (i : Fin 50000) (j : Fin 160) :
    IsReal (msgR row dstZ h W m i j) := by
  obtain ⟨c, hc1, hc⟩ := cnt1_real dstZ hm i
  have hc0 : c ≠ 0 := by linarith
  unfold msgR
  rw [hc, Ideal.div_coe hc0]
  exact (isReal_zeroE.add (IsReal.sum _ _ fun e _ => (isReal_dot (hh _) hW j).mul (hm.isReal e))).mul
    (IsReal.coe _)

/-- The transform-first layer keeps real features real. -/
theorem isReal_layerR {m0 m1 : Fin 800000 → EReal} (hm0 : IsMask m0) (hm1 : IsMask m1)
    {h : Fin 50000 → Fin 160 → EReal} {Wroot : Fin 160 → Fin 160 → EReal} {b : Fin 160 → EReal}
    {W0 W1 : Fin 160 → Fin 160 → EReal}
    (hh : ∀ i k, IsReal (h i k)) (hWroot : ∀ k j, IsReal (Wroot k j)) (hb : ∀ j, IsReal (b j))
    (hW0 : ∀ k j, IsReal (W0 k j)) (hW1 : ∀ k j, IsReal (W1 k j)) (i : Fin 50000) (j : Fin 160) :
    IsReal (layerR row dstZ m0 m1 h Wroot b W0 W1 i j) :=
  ((isReal_lin (hh i) hWroot hb j).add (isReal_msgR row dstZ hm0 hh hW0 i j)).add
    (isReal_msgR row dstZ hm1 hh hW1 i j)

end Key

/-! ### The combined key, read from the relation and destination words -/

theorem ty_cases {t : BitVec 32} (h0 : 0 ≤ t.toInt) (h1 : t.toInt < 2) : t = 0#32 ∨ t = 1#32 := by
  have h : t.toInt = 0 ∨ t.toInt = 1 := by omega
  rcases h with h | h
  · left; exact BitVec.eq_of_toInt_eq (by rw [h]; decide)
  · right; exact BitVec.eq_of_toInt_eq (by rw [h]; decide)

theorem key_ty0 (d : BitVec 32) : (0#32 * 50000#32 + d).toInt = d.toInt := by
  rw [BitVec.zero_mul, BitVec.zero_add]

/-- No wrap-around: `50000 + d` stays far below `2 ^ 31`. -/
theorem key_ty1 {d : BitVec 32} (h0 : 0 ≤ d.toInt) (h1 : d.toInt < 50000) :
    (1#32 * 50000#32 + d).toInt = 50000 + d.toInt := by
  have h5 : (50000#32 : BitVec 32).toInt = 50000 := by decide
  rw [BitVec.one_mul, BitVec.toInt_add, h5, Int.bmod_def]
  split_ifs <;> omega

/-- The combined key equals `r · 50000 + i` exactly for the edges into `i` of relation `r`. -/
theorem key_iff {t d : BitVec 32} (ht0 : 0 ≤ t.toInt) (ht1 : t.toInt < 2) (hd0 : 0 ≤ d.toInt)
    (hd1 : d.toInt < 50000) (i : Fin 50000) :
    ((t * 50000#32 + d).toInt = ((0 * 50000 + i.val : ℕ) : ℤ) ↔ (d.toInt = (i.val : ℤ) ∧ t = 0#32)) ∧
    ((t * 50000#32 + d).toInt = ((1 * 50000 + i.val : ℕ) : ℤ) ↔ (d.toInt = (i.val : ℤ) ∧ t = 1#32)) := by
  have hi := i.isLt
  rcases ty_cases ht0 ht1 with ht | ht
  · subst ht
    rw [key_ty0]
    refine ⟨⟨fun hh => ⟨by omega, rfl⟩, fun hh => by omega⟩,
      ⟨fun hh => by exfalso; omega, fun hh => absurd hh.2 (by decide)⟩⟩
  · subst ht
    rw [key_ty1 hd0 hd1]
    refine ⟨⟨fun hh => by exfalso; omega, fun hh => absurd hh.2 (by decide)⟩,
      ⟨fun hh => ⟨by omega, rfl⟩, fun hh => by omega⟩⟩

/-! ### Assembly at the arguments -/

namespace Args

variable (a : Args)

theorem isMask_m0 : IsMask a.m0 := isMask_of_indicator (fun e => a.ty e = 0#32) fun _ => rfl

theorem isMask_m1 : IsMask a.m1 := isMask_of_indicator (fun e => a.ty e = 1#32) fun _ => rfl

theorem isReal_h0 (h : a.Good) (i : Fin 50000) (k : Fin 160) : IsReal (a.h0 i k) :=
  isReal_enc (h.np i) (h.nc i) (h.des i) (h.tw i) (h.preX i) h.Wnp h.bnp h.Wnc h.bnc h.Wdes h.bdes
    h.Wtext h.btext h.Wtweet h.btweet h.Win h.bin k

/-- Under the precondition the two arrangements of a layer agree on any real features and real matrices. -/
theorem layer_eq (h : a.Good) {x : Fin 50000 → Fin 160 → EReal} (Wroot : Fin 160 → Fin 160 → EReal)
    (b : Fin 160 → EReal) {W0 W1 : Fin 160 → Fin 160 → EReal}
    (hx : ∀ i k, IsReal (x i k)) (hW0 : ∀ k j, IsReal (W0 k j)) (hW1 : ∀ k j, IsReal (W1 k j)) :
    layerK a.row a.dstZ a.segZ a.m0 a.m1 x Wroot b W0 W1 = layerR a.row a.dstZ a.m0 a.m1 x Wroot b W0 W1 :=
  layerK_eq_layerR a.row a.dstZ a.segZ (fun e => a.ty e = 0#32) (fun e => a.ty e = 1#32)
    (fun _ => rfl) (fun _ => rfl)
    (fun e i => (key_iff (h.ty_lo e) (h.ty_hi e) (h.dst_lo e) (h.dst_hi e) i).1)
    (fun e i => (key_iff (h.ty_lo e) (h.ty_hi e) (h.dst_lo e) (h.dst_hi e) i).2)
    Wroot b hx hW0 hW1

theorem h1K_eq_h1R (h : a.Good) : a.h1K = a.h1R :=
  a.layer_eq h a.Wroot1 a.bconv1 (a.isReal_h0 h) (h.Wrel1 0) (h.Wrel1 1)

theorem isReal_h1R (h : a.Good) (i : Fin 50000) (k : Fin 160) : IsReal (a.h1R i k) :=
  isReal_layerR a.row a.dstZ a.isMask_m0 a.isMask_m1 (a.isReal_h0 h) h.Wroot1 h.bconv1 (h.Wrel1 0) (h.Wrel1 1)
    i k

theorem h2K_eq_h2R (h : a.Good) : a.h2K = a.h2R := by
  unfold h2K h2R
  rw [a.h1K_eq_h1R h]
  exact a.layer_eq h a.Wroot2 a.bconv2 (a.isReal_h1R h) (h.Wrel2 0) (h.Wrel2 1)

end Args

/-- Under the precondition the two arrangements give the same output and the same hidden head row. -/
theorem Args.bridge (a : Cert.Spec.Args) (h : a.Good) : a.outK = a.outR ∧ a.emK = a.emR := by
  constructor
  · funext i q
    unfold Args.outK Args.outR
    rw [a.h2K_eq_h2R h]
  · funext i q
    unfold Args.emK Args.emR
    rw [a.h2K_eq_h2R h]

end Cert.Spec

end
-- ==== Proof.PreDecode.lean ====
/-
  What the precondition says, decoded.  The precondition is a conjunction of thirty scalars: for each float argument
  "every entry has absolute value below +∞", and for the edge data "every destination word lies in [0, 50000)" and
  "every relation word lies in [0, 2)", each a reduction by `and` over all axes.  A conjunction that is 1 has every
  conjunct 1; a reduction by `and` that is 1 met only 1s; an entry whose absolute value is below +∞ is neither
  infinity, hence a real number; a signed compare against a small constant that is 1 bounds the word read signed.
  Together these give `Spec.Args.Good` of the argument arrays.
-/
import proofs.«426156_j28432683499969_3_alg».proof.Defs
import proofs.«426156_j28432683499969_3_alg».proof.Proof.ArgsK
import proofs.«426156_j28432683499969_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Proof.Pre

open Idealize.ShloMosaic Idealize.ShloMosaic.ValueIdx Idealize.SL.Sem Cert.Pre_finite_inputs Cert.Spec

/-- The rank-0 shape has one index. -/
instance : Subsingleton S_.Idx := ⟨fun a b => funext fun d => d.elim0⟩

/-! ## One float entry -/

/-- The f32 word 0x7F800000 denotes +∞. -/
theorem inf_word : Ideal.ofBits .f32 0x7F800000#32 = (⊤ : EReal) := by
  simp [Ideal.ofBits, Ideal.ieee]

/-- An extended real whose absolute value `max x (-x)` is below +∞ is a real number. -/
theorem real_of_abs_lt_top (x : EReal) (h : max x (-x) < ⊤) : IsReal x := by
  induction x using EReal.rec with
  | bot => simp at h
  | top => simp at h
  | coe r => exact ⟨r, rfl⟩

/-- The printed element test `|x| < 0x7F800000` that came out 1 says `x` is a real number. -/
theorem real_of_cmp (x : EReal)
    (h : FloatOps.cmpf (F := Ideal) (φ := .f32) .olt (FloatOps.hostAbsf (F := Ideal) (φ := .f32) x) (Ideal.ofBits .f32 0x7F800000#32) = 1#1) :
    IsReal x := by
  have h' : Ideal.cmp .olt (max x (-x)) (Ideal.ofBits .f32 0x7F800000#32) = 1#1 := h
  rw [inf_word] at h'
  unfold Ideal.cmp at h'
  exact real_of_abs_lt_top x (of_decide_eq_true ((StableHlo.Predicate.ofBool_eq_one_iff _).1 h'))

/-! ## One float argument, of any shape -/

/-- `all (|x| < +∞)` over an array of any shape: if the reduction by `and` over all axes is 1, every entry is real. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
          (constantI S_ 1 1#1) hr h0 ix0 = 1#1) (i : s.Idx) : IsReal (x i) :=
  real_of_cmp (x i) (Host.reduce_andi_all _ _ hr h0 ix0 e i)

/-- A conjunction of two scalars is 1 exactly when both are. -/
theorem andi_ix0 (a b : IVec S_ 1) : andi a b ix0 = 1#1 ↔ a ix0 = 1#1 ∧ b ix0 = 1#1 := IntOp.andi_eq_one

/-! ## The integer conjuncts -/
/-- A signed compare `w ≥ 0` that came out 1 says the word, read signed, is not negative. -/
theorem sge_zero (w : BitVec 32) (h : IntOp.cmpi .sge w 0#32 = 1#1) : 0 ≤ w.toInt := by
  unfold IntOp.cmpi at h
  have h' := (StableHlo.Predicate.ofBool_eq_one_iff _).1 h
  simpa [BitVec.sle] using h'

/-- A signed compare `w < n` against a small constant that came out 1 bounds the word read signed. -/
theorem slt_const (w : BitVec 32) (n : ℕ) (hn : n < 2 ^ 31) (h : IntOp.cmpi .slt w (BitVec.ofNat 32 n) = 1#1) : w.toInt < n := by
  unfold IntOp.cmpi at h
  have h' := (StableHlo.Predicate.ofBool_eq_one_iff _).1 h
  rw [BitVec.slt, decide_eq_true_eq, StableHlo.Predicate.toInt_ofNat_small n hn] at h'
  exact h'

theorem dst_range (a2 : IVec S2x800000 32) (hs : S2x800000.Slices ![1, 0] S1x800000) (hc : S1x800000.ShapeCasts S800000)
    (hb : S_.BroadcastsInDim S800000 (![] : Fin 0 → Fin S800000.rank)) (hr : S800000.ReducesTo [0] S_) (h0 : 0 < S_.numel)
    (e : Host.reduce IntOp.andi
          (andi (cmpi .sge (shapeCast S800000 (extractStridedSlice S1x800000 ![1, 0] a2 hs) hc) (broadcastInDim S800000 ![] hb (constantI S_ 32 0#32)))
                (cmpi .slt (shapeCast S800000 (extractStridedSlice S1x800000 ![1, 0] a2 hs) hc) (broadcastInDim S800000 ![] hb (constantI S_ 32 50000#32))))
          (constantI S_ 1 1#1) hr h0 ix0 = 1#1) (k : Fin 800000) :
    0 ≤ (a2 (ix2 (1 : Fin 2) k)).toInt ∧ (a2 (ix2 (1 : Fin 2) k)).toInt < 50000 := by
  have h1 := Host.reduce_andi_all _ _ hr h0 ix0 e (ix1 k)
  obtain ⟨hge, hlt⟩ := IntOp.andi_eq_one.1 h1
  have hread : shapeCast S800000 (extractStridedSlice S1x800000 ![1, 0] a2 hs) hc (ix1 k) = a2 (ix2 (1 : Fin 2) k) := by
    refine (shapeCast_apply _ hc (ix1 k) (ix2 (0 : Fin 1) k) ?_).trans ?_
    · rw [Shape.rowMajor_val_two, Shape.rowMajor_val_one]
      show (0 : ℕ) * _ + k.val = k.val
      omega
    · refine extractStridedSlice_apply _ a2 hs _ (ix2 (1 : Fin 2) k) ?_
      intro a
      match a with
      | ⟨0, _⟩ => rfl
      | ⟨1, _⟩ => show k.val = 0 + k.val; omega
  have hge' : IntOp.cmpi .sge (shapeCast S800000 (extractStridedSlice S1x800000 ![1, 0] a2 hs) hc (ix1 k)) 0#32 = 1#1 := hge
  have hlt' : IntOp.cmpi .slt (shapeCast S800000 (extractStridedSlice S1x800000 ![1, 0] a2 hs) hc (ix1 k)) (BitVec.ofNat 32 50000) = 1#1 := hlt
  rw [hread] at hge' hlt'
  exact ⟨sge_zero _ hge', slt_const _ 50000 (by norm_num) hlt'⟩

theorem ty_range (a3 : IVec S800000 32)
    (hb : S_.BroadcastsInDim S800000 (![] : Fin 0 → Fin S800000.rank)) (hr : S800000.ReducesTo [0] S_) (h0 : 0 < S_.numel)
    (e : Host.reduce IntOp.andi
          (andi (cmpi .sge a3 (broadcastInDim S800000 ![] hb (constantI S_ 32 0#32)))
                (cmpi .slt a3 (broadcastInDim S800000 ![] hb (constantI S_ 32 2#32))))
          (constantI S_ 1 1#1) hr h0 ix0 = 1#1) (k : Fin 800000) :
    0 ≤ (a3 (ix1 k)).toInt ∧ (a3 (ix1 k)).toInt < 2 := by
  have h1 := Host.reduce_andi_all _ _ hr h0 ix0 e (ix1 k)
  obtain ⟨hge, hlt⟩ := IntOp.andi_eq_one.1 h1
  have hge' : IntOp.cmpi .sge (a3 (ix1 k)) 0#32 = 1#1 := hge
  have hlt' : IntOp.cmpi .slt (a3 (ix1 k)) (BitVec.ofNat 32 2) = 1#1 := hlt
  exact ⟨sge_zero _ hge', slt_const _ 2 (by norm_num) hlt'⟩

/-! ## The whole precondition -/

/-- Under the precondition every float argument the layers read is real-valued, every destination word is a node and
    every relation word is 0 or 1. -/
theorem good_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsOf m c).Good := by
  have H := congrFun (h c) ix0
  dsimp only [Cert.Pre_finite_inputs.fn, fn_part1, fn_part2, fn_part3, fn_part4, fn_part5, fn_part6, fn_part7, fn_part8,
    fn_part9] at H
  simp only [andi_ix0] at H
  obtain ⟨⟨⟨⟨⟨⟨⟨⟨⟨⟨⟨⟨⟨⟨⟨⟨⟨⟨⟨⟨⟨⟨⟨⟨⟨⟨⟨⟨⟨h0, _⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, _⟩, _⟩, _⟩, _⟩, hdst⟩, hty⟩ := H
  have r0 := all_real _ _ _ _ h0
  have r4 := all_real _ _ _ _ h4
  have r5 := all_real _ _ _ _ h5
  have r6 := all_real _ _ _ _ h6
  have r7 := all_real _ _ _ _ h7
  have r8 := all_real _ _ _ _ h8
  have r9 := all_real _ _ _ _ h9
  have r10 := all_real _ _ _ _ h10
  have r11 := all_real _ _ _ _ h11
  have r12 := all_real _ _ _ _ h12
  have r13 := all_real _ _ _ _ h13
  have r14 := all_real _ _ _ _ h14
  have r15 := all_real _ _ _ _ h15
  have r16 := all_real _ _ _ _ h16
  have r17 := all_real _ _ _ _ h17
  have r18 := all_real _ _ _ _ h18
  have r19 := all_real _ _ _ _ h19
  have r20 := all_real _ _ _ _ h20
  have r21 := all_real _ _ _ _ h21
  have r22 := all_real _ _ _ _ h22
  have r23 := all_real _ _ _ _ h23
  have r24 := all_real _ _ _ _ h24
  have r25 := all_real _ _ _ _ h25
  have rd := dst_range _ _ _ _ _ _ hdst
  have rt := ty_range _ _ _ _ hty
  exact
    {
      preX := fun i k => r0 (ix2 i k)
      des := fun i k => r6 (ix2 i k)
      tw := fun i k => r7 (ix2 i k)
      np := fun i k => r4 (ix2 i k)
      nc := fun i k => r5 (ix2 i k)
      Wnp := fun i k => r8 (ix2 i k)
      bnp := fun q => r9 (ix1 q)
      Wnc := fun i k => r10 (ix2 i k)
      bnc := fun q => r11 (ix1 q)
      Wdes := fun i k => r12 (ix2 i k)
      bdes := fun q => r13 (ix1 q)
      Wtext := fun i k => r14 (ix2 i k)
      btext := fun q => r15 (ix1 q)
      Wtweet := fun i k => r16 (ix2 i k)
      btweet := fun q => r17 (ix1 q)
      Win := fun i k => r18 (ix2 i k)
      bin := fun q => r19 (ix1 q)
      Wrel1 := fun r k q => r20 (ix3 r k q)
      Wroot1 := fun i k => r21 (ix2 i k)
      bconv1 := fun q => r22 (ix1 q)
      Wrel2 := fun r k q => r23 (ix3 r k q)
      Wroot2 := fun i k => r24 (ix2 i k)
      bconv2 := fun q => r25 (ix1 q)
      dst_lo := fun e => (rd e).1
      dst_hi := fun e => (rd e).2
      ty_lo := fun e => (rt e).1
      ty_hi := fun e => (rt e).2 }

end Cert.Proof.Pre

end
-- ==== Proof.lean ====
/-
  The certificate's claim for this kernel: a graph network's forward pass.

  Both programs encode every node (five small dense layers with a leaky rectifier, side by side, then a dense
  layer of 160), apply two relational graph layers and a two-stage dense head.  In a graph layer every node
  adds to its own transformed row, for each of the two relations, the MEAN over its incoming edges of that
  relation of the neighbours' rows times the relation's matrix.  The reference transforms every neighbour row
  first, masks by relation, sums by destination and divides by the clipped count.  The kernel sums the raw rows
  first, keyed by `relation · 50000 + destination`, scales by the reciprocal of the clipped count and applies the
  relation's matrix afterwards, inside its tiled matrix kernels.  On real-valued inputs, destinations that are
  nodes and relation words 0 or 1 the two are the same function: the matrix product is linear in the summed rows
  and a product with `1 / c` is the quotient by `c`.

  `Spec.lean` / `Whole.lean` state the mathematics once; the kernel's run is read against it region by region
  (`KReg*.lean`, `KFold*.lean`, `KAgg.lean`, `KValue.lean`), the reference's operation by operation
  (`Ref*.lean`, `RValue.lean`); `Bridge.lean` is the algebra and `PreDecode.lean` reads the precondition.
-/
import proofs.«426156_j28432683499969_3_alg».proof.Defs
import proofs.«426156_j28432683499969_3_alg».proof.Proof.Gen.Kernel
import proofs.«426156_j28432683499969_3_alg».proof.Proof.Gen.Kernel.Skeleton
import proofs.«426156_j28432683499969_3_alg».proof.Proof.Gen.Kernel.Launch
import proofs.«426156_j28432683499969_3_alg».proof.Proof.Gen.Kernel.Points
import proofs.«426156_j28432683499969_3_alg».proof.Proof.Gen.Kernel.Frame
import proofs.«426156_j28432683499969_3_alg».proof.Proof.Gen.KernelIdeal
import proofs.«426156_j28432683499969_3_alg».proof.Proof.Gen.KernelIdeal.Skeleton
import proofs.«426156_j28432683499969_3_alg».proof.Proof.Gen.KernelIdeal.Launch
import proofs.«426156_j28432683499969_3_alg».proof.Proof.Gen.KernelIdeal.Points
import proofs.«426156_j28432683499969_3_alg».proof.Proof.Gen.KernelIdeal.Frame
import proofs.«426156_j28432683499969_3_alg».proof.Proof.Gen.ReferenceIdeal
import proofs.«426156_j28432683499969_3_alg».proof.Proof.Gen.Pre_finite_inputs
import proofs.«426156_j28432683499969_3_alg».proof.Proof.KValue
import proofs.«426156_j28432683499969_3_alg».proof.Proof.RValue
import proofs.«426156_j28432683499969_3_alg».proof.Proof.Bridge
import proofs.«426156_j28432683499969_3_alg».proof.Proof.PreDecode
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its two results dropped, is its frame. -/
theorem frame_ri : Cert.frame_ReferenceIdeal := fun m ρ _ =>
  (θ_run Cert.ReferenceIdeal.defs _ _).mono (fun _ h c => (h c).2.2) (Cert.ReferenceIdeal.RefValue.run m ρ)

/-- The two arrangements agree where the arguments agree: both runs end at one function of the arguments. -/
theorem algebraic : Cert.algebraic_KernelIdeal_ReferenceIdeal := by
  intro m ρ m' ρ' hpre hagree
  refine ⟨fun c => fun j => (Cert.KernelIdeal.argsOf m c).outK (j 0) (j 1),
    fun c => fun j => (Cert.KernelIdeal.argsOf m c).emK (j 0) (j 1),
    Cert.KernelIdeal.Value.run m ρ, ?_⟩
  refine (θ_run Cert.ReferenceIdeal.defs _ _).mono (fun r h c => ?_) (Cert.ReferenceIdeal.RefValue.run m' ρ')
  have hargs : Cert.ReferenceIdeal.argsOf m' c = Cert.KernelIdeal.argsOf m c := by
    obtain ⟨h0, h1, h2, h3, h4, h5, h6, h7, h8, h9, h10, h11, h12, h13, h14, h15, h16, h17, h18, h19, h20, h21, h22,
      h23, h24, h25, h26, h27, h28, h29⟩ := hagree c
    simp only [Cert.ReferenceIdeal.argsOf, Cert.KernelIdeal.argsOf, h0, h2, h3, h4, h5, h6, h7, h8, h9, h10, h11, h12,
      h13, h14, h15, h16, h17, h18, h19, h20, h21, h22, h23, h24, h25, h26, h27, h28, h29]
  have hb := Cert.Spec.Args.bridge (Cert.KernelIdeal.argsOf m c) (Cert.Proof.Pre.good_of_pre m hpre c)
  refine ⟨?_, ?_, (h c).2.2⟩
  · (rw [(h c).1, hargs, ← hb.1]) <;> rfl
  · (rw [(h c).2.1, hargs, ← hb.2]) <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
